-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x32 : Shape := ⟨4, ![32, 512, 512, 32]⟩
abbrev S_ : Shape := ⟨0, ![]⟩

class Facts : Prop where
  bcast_S_S32x512x512x32 : S_.BroadcastsInDim S32x512x512x32 (![] : Fin 0 → Fin S32x512x512x32.rank)
  reducesTo_S32x512x512x32_S_d0_1_2_3 : S32x512x512x32.ReducesTo [0, 1, 2, 3] S_
  h_S_ : 0 < S_.numel

variable [Facts]

def fn {F : FTy → Type} [FloatOps F] (main_arg0 : FVec F S32x512x512x32 .f32) : IVec S_ 1 :=
  let main_v0 : FVec F S32x512x512x32 .f32 := Host.absf main_arg0
  let main_cst : FVec F S_ .f32 := constant S_ .f32 0x7F800000#32
  let main_v1 : FVec F S32x512x512x32 .f32 := broadcastInDim S32x512x512x32 ![] bcast_S_S32x512x512x32 main_cst
  let main_v2 : IVec S32x512x512x32 1 := cmpf .olt main_v0 main_v1
  let main_c : IVec S_ 1 := constantI S_ 1 1#1
  let main_v3 : IVec S_ 1 := (fun x v => Host.reduce IntOp.andi x v reducesTo_S32x512x512x32_S_d0_1_2_3 h_S_) main_v2 main_c
  main_v3
-- ==== Kernel.lean ====
abbrev S32x512x512x32 : Shape := ⟨4, ![32, 512, 512, 32]⟩
abbrev S32x284x512x32 : Shape := ⟨4, ![32, 284, 512, 32]⟩
abbrev S1x512x128x32 : Shape := ⟨4, ![1, 512, 128, 32]⟩
abbrev S1x284x128x32 : Shape := ⟨4, ![1, 284, 128, 32]⟩
abbrev S1x1x128x32 : Shape := ⟨4, ![1, 1, 128, 32]⟩
abbrev S128x32 : Shape := ⟨2, ![128, 32]⟩
abbrev S32x284x205x32 : Shape := ⟨4, ![32, 284, 205, 32]⟩
abbrev S1x64x512x32 : Shape := ⟨4, ![1, 64, 512, 32]⟩
abbrev S1x64x205x32 : Shape := ⟨4, ![1, 64, 205, 32]⟩
abbrev S1x64x1x32 : Shape := ⟨4, ![1, 64, 1, 32]⟩
abbrev S64x32 : Shape := ⟨2, ![64, 32]⟩

abbrev nBuf : Space → Nat
  | .hbm => 3
  | .vmem => 8
  | .smem => 0
  | _ => 0

abbrev bufTy : (tb : Table) → Fin (tcTables nBuf tb) → BufTy
  | .hbm, ⟨0, _⟩ => ⟨S32x512x512x32, .f32⟩
  | .hbm, ⟨1, _⟩ => ⟨S32x284x512x32, .f32⟩
  | .hbm, ⟨2, _⟩ => ⟨S32x284x205x32, .f32⟩
  | .local _ .vmem, ⟨0, _⟩ => ⟨S1x512x128x32, .f32⟩
  | .local _ .vmem, ⟨1, _⟩ => ⟨S1x512x128x32, .f32⟩
  | .local _ .vmem, ⟨2, _⟩ => ⟨S1x284x128x32, .f32⟩
  | .local _ .vmem, ⟨3, _⟩ => ⟨S1x284x128x32, .f32⟩
  | .local _ .vmem, ⟨4, _⟩ => ⟨S1x64x512x32, .f32⟩
  | .local _ .vmem, ⟨5, _⟩ => ⟨S1x64x512x32, .f32⟩
  | .local _ .vmem, ⟨6, _⟩ => ⟨S1x64x205x32, .f32⟩
  | .local _ .vmem, ⟨7, _⟩ => ⟨S1x64x205x32, .f32⟩
  | _, _ => ⟨S32x512x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x284x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![32, 5], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x64x512x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x205x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128x32.size a ≤ S32x512x512x32.size a
  hwx0_0 : ∀ i : grid0.Coords, EltTy.bits .f32 = 32 ∨ (Rect.block (s := S32x512x512x32) S1x512x128x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x284x128x32.size a ≤ S32x284x512x32.size a
  hwx0_1 : ∀ i : grid0.Coords, EltTy.bits .f32 = 32 ∨ (Rect.block (s := S32x284x512x32) S1x284x128x32.size (cc0_transform_1 i) (hinb0_1 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1x64x512x32.size a < S32x284x512x32.size a
  hwx1_0 : ∀ i : grid1.Coords, EltTy.bits .f32 = 32 ∨ (Rect.unit (s := S32x284x512x32) (fun a => cc1_transform_0 i a * S1x64x512x32.size a) (fun a => (Pipeline.Clip.of (cc1_transform_0 i a) (S1x64x512x32.size a) (S32x284x512x32.size a)).extent (S1x64x512x32.size a)) fun a => Pipeline.Clip.inb (Pipeline.Clip.ok_of (hstart1_0 i a))).WholeWords (EltTy.packing .f32)
  hwxs1_0 : ∀ i : grid1.Coords, EltTy.bits .f32 = 32 ∨ (Rect.unit (s := S1x64x512x32) (fun _ => 0) (fun a => (Pipeline.Clip.of (cc1_transform_0 i a) (S1x64x512x32.size a) (S32x284x512x32.size a)).extent (S1x64x512x32.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1x64x205x32.size a < S32x284x205x32.size a
  hwx1_1 : ∀ i : grid1.Coords, EltTy.bits .f32 = 32 ∨ (Rect.unit (s := S32x284x205x32) (fun a => cc1_transform_1 i a * S1x64x205x32.size a) (fun a => (Pipeline.Clip.of (cc1_transform_1 i a) (S1x64x205x32.size a) (S32x284x205x32.size a)).extent (S1x64x205x32.size a)) fun a => Pipeline.Clip.inb (Pipeline.Clip.ok_of (hstart1_1 i a))).WholeWords (EltTy.packing .f32)
  hwxs1_1 : ∀ i : grid1.Coords, EltTy.bits .f32 = 32 ∨ (Rect.unit (s := S1x64x205x32) (fun _ => 0) (fun a => (Pipeline.Clip.of (cc1_transform_1 i a) (S1x64x205x32.size a) (S32x284x205x32.size a)).extent (S1x64x205x32.size a)) fun a => (Nat.zero_add _).trans_le (Pipeline.Clip.extent_le (Pipeline.Clip.ok_of (hstart1_1 i a)))).WholeWords (EltTy.packing .f32)

class Shapes1.Facts₀ : Prop where
  inb_S1x512x128x32_S1x1x128x32_0_0_0_0 : ∀ a, (![0, 0, 0, 0] : Fin 4 → Nat) a + S1x1x128x32.size a ≤ S1x512x128x32.size a
  h_S1x1x128x32 : 0 < S1x1x128x32.numel
  shapeCasts_S1x1x128x32_S128x32 : S1x1x128x32.ShapeCasts S128x32
  inb_S1x512x128x32_S1x1x128x32_0_1_0_0 : ∀ a, (![0, 1, 0, 0] : Fin 4 → Nat) a + S1x1x128x32.size a ≤ S1x512x128x32.size a
  inb_S1x512x128x32_S1x1x128x32_0_2_0_0 : ∀ a, (![0, 2, 0, 0] : Fin 4 → Nat) a + S1x1x128x32.size a ≤ S1x512x128x32.size a
  inb_S1x284x128x32_S1x1x128x32_0_0_0_0 : ∀ a, (![0, 0, 0, 0] : Fin 4 → Nat) a + S1x1x128x32.size a ≤ S1x284x128x32.size a
  shapeCasts_S128x32_S1x1x128x32 : S128x32.ShapeCasts S1x1x128x32
  inb_S1x512x128x32_S1x1x128x32_0_3_0_0 : ∀ a, (![0, 3, 0, 0] : Fin 4 → Nat) a + S1x1x128x32.size a ≤ S1x512x128x32.size a
  inb_S1x512x128x32_S1x1x128x32_0_4_0_0 : ∀ a, (![0, 4, 0, 0] : Fin 4 → Nat) a + S1x1x128x32.size a ≤ S1x512x128x32.size a
  inb_S1x512x128x32_S1x1x128x32_0_5_0_0 : ∀ a, (![0, 5, 0, 0] : Fin 4 → Nat) a + S1x1x128x32.size a ≤ S1x512x128x32.size a
  inb_S1x284x128x32_S1x1x128x32_0_1_0_0 : ∀ a, (![0, 1, 0, 0] : Fin 4 → Nat) a + S1x1x128x32.size a ≤ S1x284x128x32.size a
  inb_S1x512x128x32_S1x1x128x32_0_6_0_0 : ∀ a, (![0, 6, 0, 0] : Fin 4 → Nat) a + S1x1x128x32.size a ≤ S1x512x128x32.size a
  inb_S1x512x128x32_S1x1x128x32_0_7_0_0 : ∀ a, (![0, 7, 0, 0] : Fin 4 → Nat) a + S1x1x128x32.size a ≤ S1x512x128x32.size a
  inb_S1x512x128x32_S1x1x128x32_0_8_0_0 : ∀ a, (![0, 8, 0, 0] : Fin 4 → Nat) a + S1x1x128x32.size a ≤ S1x512x128x32.size a
  inb_S1x284x128x32_S1x1x128x32_0_2_0_0 : ∀ a, (![0, 2, 0, 0] : Fin 4 → Nat) a + S1x1x128x32.size a ≤ S1x284x128x32.size a
  inb_S1x512x128x32_S1x1x128x32_0_9_0_0 : ∀ a, (![0, 9, 0, 0] : Fin 4 → Nat) a + S1x1x128x32.size a ≤ S1x512x128x32.size a
  inb_S1x512x128x32_S1x1x128x32_0_10_0_0 : ∀ a, (![0, 10, 0, 0] : Fin 4 → Nat) a + S1x1x128x32.size a ≤ S1x512x128x32.size a
  inb_S1x512x128x32_S1x1x128x32_0_11_0_0 : ∀ a, (![0, 11, 0, 0] : Fin 4 → Nat) a + S1x1x128x32.size a ≤ S1x512x128x32.size a
  inb_S1x284x128x32_S1x1x128x32_0_3_0_0 : ∀ a, (![0, 3, 0, 0] : Fin 4 → Nat) a + S1x1x128x32.size a ≤ S1x284x128x32.size a
  inb_S1x512x128x32_S1x1x128x32_0_12_0_0 : ∀ a, (![0, 12, 0, 0] : Fin 4 → Nat) a + S1x1x128x32.size a ≤ S1x512x128x32.size a
  inb_S1x512x128x32_S1x1x128x32_0_13_0_0 : ∀ a, (![0, 13, 0, 0] : Fin 4 → Nat) a + S1x1x128x32.size a ≤ S1x512x128x32.size a
  inb_S1x512x128x32_S1x1x128x32_0_14_0_0 : ∀ a, (![0, 14, 0, 0] : Fin 4 → Nat) a + S1x1x128x32.size a ≤ S1x512x128x32.size a
  inb_S1x284x128x32_S1x1x128x32_0_4_0_0 : ∀ a, (![0, 4, 0, 0] : Fin 4 → Nat) a + S1x1x128x32.size a ≤ S1x284x128x32.size a
  inb_S1x512x128x32_S1x1x128x32_0_15_0_0 : ∀ a, (![0, 15, 0, 0] : Fin 4 → Nat) a + S1x1x128x32.size a ≤ S1x512x128x32.size a
  inb_S1x512x128x32_S1x1x128x32_0_16_0_0 : ∀ a, (![0, 16, 0, 0] : Fin 4 → Nat) a + S1x1x128x32.size a ≤ S1x512x128x32.size a
  inb_S1x512x128x32_S1x1x128x32_0_17_0_0 : ∀ a, (![0, 17, 0, 0] : Fin 4 → Nat) a + S1x1x128x32.size a ≤ S1x512x128x32.size a
  inb_S1x284x128x32_S1x1x128x32_0_5_0_0 : ∀ a, (![0, 5, 0, 0] : Fin 4 → Nat) a + S1x1x128x32.size a ≤ S1x284x128x32.size a
  inb_S1x512x128x32_S1x1x128x32_0_18_0_0 : ∀ a, (![0, 18, 0, 0] : Fin 4 → Nat) a + S1x1x128x32.size a ≤ S1x512x128x32.size a
  inb_S1x512x128x32_S1x1x128x32_0_19_0_0 : ∀ a, (![0, 19, 0, 0] : Fin 4 → Nat) a + S1x1x128x32.size a ≤ S1x512x128x32.size a
  inb_S1x512x128x32_S1x1x128x32_0_20_0_0 : ∀ a, (![0, 20, 0, 0] : Fin 4 → Nat) a + S1x1x128x32.size a ≤ S1x512x128x32.size a
  inb_S1x284x128x32_S1x1x128x32_0_6_0_0 : ∀ a, (![0, 6, 0, 0] : Fin 4 → Nat) a + S1x1x128x32.size a ≤ S1x284x128x32.size a
  inb_S1x512x128x32_S1x1x128x32_0_21_0_0 : ∀ a, (![0, 21, 0, 0] : Fin 4 → Nat) a + S1x1x128x32.size a ≤ S1x512x128x32.size a
  inb_S1x512x128x32_S1x1x128x32_0_22_0_0 : ∀ a, (![0, 22, 0, 0] : Fin 4 → Nat) a + S1x1x128x32.size a ≤ S1x512x128x32.size a
  inb_S1x512x128x32_S1x1x128x32_0_23_0_0 : ∀ a, (![0, 23, 0, 0] : Fin 4 → Nat) a + S1x1x128x32.size a ≤ S1x512x128x32.size a
  inb_S1x284x128x32_S1x1x128x32_0_7_0_0 : ∀ a, (![0, 7, 0, 0] : Fin 4 → Nat) a + S1x1x128x32.size a ≤ S1x284x128x32.size a
  inb_S1x512x128x32_S1x1x128x32_0_24_0_0 : ∀ a, (![0, 24, 0, 0] : Fin 4 → Nat) a + S1x1x128x32.size a ≤ S1x512x128x32.size a
  inb_S1x512x128x32_S1x1x128x32_0_25_0_0 : ∀ a, (![0, 25, 0, 0] : Fin 4 → Nat) a + S1x1x128x32.size a ≤ S1x512x128x32.size a
  inb_S1x512x128x32_S1x1x128x32_0_26_0_0 : ∀ a, (![0, 26, 0, 0] : Fin 4 → Nat) a + S1x1x128x32.size a ≤ S1x512x128x32.size a
  inb_S1x284x128x32_S1x1x128x32_0_8_0_0 : ∀ a, (![0, 8, 0, 0] : Fin 4 → Nat) a + S1x1x128x32.size a ≤ S1x284x128x32.size a
  inb_S1x512x128x32_S1x1x128x32_0_27_0_0 : ∀ a, (![0, 27, 0, 0] : Fin 4 → Nat) a + S1x1x128x32.size a ≤ S1x512x128x32.size a
  inb_S1x512x128x32_S1x1x128x32_0_28_0_0 : ∀ a, (![0, 28, 0, 0] : Fin 4 → Nat) a + S1x1x128x32.size a ≤ S1x512x128x32.size a
  inb_S1x512x128x32_S1x1x128x32_0_29_0_0 : ∀ a, (![0, 29, 0, 0] : Fin 4 → Nat) a + S1x1x128x32.size a ≤ S1x512x128x32.size a
  inb_S1x284x128x32_S1x1x128x32_0_9_0_0 : ∀ a, (![0, 9, 0, 0] : Fin 4 → Nat) a + S1x1x128x32.size a ≤ S1x284x128x32.size a
  inb_S1x512x128x32_S1x1x128x32_0_30_0_0 : ∀ a, (![0, 30, 0, 0] : Fin 4 → Nat) a + S1x1x128x32.size a ≤ S1x512x128x32.size a
  inb_S1x512x128x32_S1x1x128x32_0_31_0_0 : ∀ a, (![0, 31, 0, 0] : Fin 4 → Nat) a + S1x1x128x32.size a ≤ S1x512x128x32.size a
  inb_S1x512x128x32_S1x1x128x32_0_32_0_0 : ∀ a, (![0, 32, 0, 0] : Fin 4 → Nat) a + S1x1x128x32.size a ≤ S1x512x128x32.size a
  inb_S1x284x128x32_S1x1x128x32_0_10_0_0 : ∀ a, (![0, 10, 0, 0] : Fin 4 → Nat) a + S1x1x128x32.size a ≤ S1x284x128x32.size a
  inb_S1x512x128x32_S1x1x128x32_0_33_0_0 : ∀ a, (![0, 33, 0, 0] : Fin 4 → Nat) a + S1x1x128x32.size a ≤ S1x512x128x32.size a
  inb_S1x512x128x32_S1x1x128x32_0_34_0_0 : ∀ a, (![0, 34, 0, 0] : Fin 4 → Nat) a + S1x1x128x32.size a ≤ S1x512x128x32.size a
  inb_S1x512x128x32_S1x1x128x32_0_35_0_0 : ∀ a, (![0, 35, 0, 0] : Fin 4 → Nat) a + S1x1x128x32.size a ≤ S1x512x128x32.size a
  inb_S1x284x128x32_S1x1x128x32_0_11_0_0 : ∀ a, (![0, 11, 0, 0] : Fin 4 → Nat) a + S1x1x128x32.size a ≤ S1x284x128x32.size a
  inb_S1x512x128x32_S1x1x128x32_0_36_0_0 : ∀ a, (![0, 36, 0, 0] : Fin 4 → Nat) a + S1x1x128x32.size a ≤ S1x512x128x32.size a
  inb_S1x512x128x32_S1x1x128x32_0_37_0_0 : ∀ a, (![0, 37, 0, 0] : Fin 4 → Nat) a + S1x1x128x32.size a ≤ S1x512x128x32.size a
  inb_S1x512x128x32_S1x1x128x32_0_38_0_0 : ∀ a, (![0, 38, 0, 0] : Fin 4 → Nat) a + S1x1x128x32.size a ≤ S1x512x128x32.size a
  inb_S1x284x128x32_S1x1x128x32_0_12_0_0 : ∀ a, (![0, 12, 0, 0] : Fin 4 → Nat) a + S1x1x128x32.size a ≤ S1x284x128x32.size a
  inb_S1x512x128x32_S1x1x128x32_0_39_0_0 : ∀ a, (![0, 39, 0, 0] : Fin 4 → Nat) a + S1x1x128x32.size a ≤ S1x512x128x32.size a
  inb_S1x512x128x32_S1x1x128x32_0_40_0_0 : ∀ a, (![0, 40, 0, 0] : Fin 4 → Nat) a + S1x1x128x32.size a ≤ S1x512x128x32.size a
  inb_S1x512x128x32_S1x1x128x32_0_41_0_0 : ∀ a, (![0, 41, 0, 0] : Fin 4 → Nat) a + S1x1x128x32.size a ≤ S1x512x128x32.size a
  inb_S1x284x128x32_S1x1x128x32_0_13_0_0 : ∀ a, (![0, 13, 0, 0] : Fin 4 → Nat) a + S1x1x128x32.size a ≤ S1x284x128x32.size a
  inb_S1x512x128x32_S1x1x128x32_0_42_0_0 : ∀ a, (![0, 42, 0, 0] : Fin 4 → Nat) a + S1x1x128x32.size a ≤ S1x512x128x32.size a
  inb_S1x512x128x32_S1x1x128x32_0_43_0_0 : ∀ a, (![0, 43, 0, 0] : Fin 4 → Nat) a + S1x1x128x32.size a ≤ S1x512x128x32.size a
  inb_S1x512x128x32_S1x1x128x32_0_44_0_0 : ∀ a, (![0, 44, 0, 0] : Fin 4 → Nat) a + S1x1x128x32.size a ≤ S1x512x128x32.size a
  inb_S1x284x128x32_S1x1x128x32_0_14_0_0 : ∀ a, (![0, 14, 0, 0] : Fin 4 → Nat) a + S1x1x128x32.size a ≤ S1x284x128x32.size a
  inb_S1x512x128x32_S1x1x128x32_0_45_0_0 : ∀ a, (![0, 45, 0, 0] : Fin 4 → Nat) a + S1x1x128x32.size a ≤ S1x512x128x32.size a
  inb_S1x512x128x32_S1x1x128x32_0_46_0_0 : ∀ a, (![0, 46, 0, 0] : Fin 4 → Nat) a + S1x1x128x32.size a ≤ S1x512x128x32.size a
  inb_S1x512x128x32_S1x1x128x32_0_47_0_0 : ∀ a, (![0, 47, 0, 0] : Fin 4 → Nat) a + S1x1x128x32.size a ≤ S1x512x128x32.size a
  inb_S1x284x128x32_S1x1x128x32_0_15_0_0 : ∀ a, (![0, 15, 0, 0] : Fin 4 → Nat) a + S1x1x128x32.size a ≤ S1x284x128x32.size a
  inb_S1x512x128x32_S1x1x128x32_0_48_0_0 : ∀ a, (![0, 48, 0, 0] : Fin 4 → Nat) a + S1x1x128x32.size a ≤ S1x512x128x32.size a
  inb_S1x512x128x32_S1x1x128x32_0_49_0_0 : ∀ a, (![0, 49, 0, 0] : Fin 4 → Nat) a + S1x1x128x32.size a ≤ S1x512x128x32.size a
  inb_S1x512x128x32_S1x1x128x32_0_50_0_0 : ∀ a, (![0, 50, 0, 0] : Fin 4 → Nat) a + S1x1x128x32.size a ≤ S1x512x128x32.size a
  inb_S1x284x128x32_S1x1x128x32_0_16_0_0 : ∀ a, (![0, 16, 0, 0] : Fin 4 → Nat) a + S1x1x128x32.size a ≤ S1x284x128x32.size a
  inb_S1x512x128x32_S1x1x128x32_0_51_0_0 : ∀ a, (![0, 51, 0, 0] : Fin 4 → Nat) a + S1x1x128x32.size a ≤ S1x512x128x32.size a
  inb_S1x512x128x32_S1x1x128x32_0_52_0_0 : ∀ a, (![0, 52, 0, 0] : Fin 4 → Nat) a + S1x1x128x32.size a ≤ S1x512x128x32.size a
  inb_S1x512x128x32_S1x1x128x32_0_53_0_0 : ∀ a, (![0, 53, 0, 0] : Fin 4 → Nat) a + S1x1x128x32.size a ≤ S1x512x128x32.size a
  inb_S1x284x128x32_S1x1x128x32_0_17_0_0 : ∀ a, (![0, 17, 0, 0] : Fin 4 → Nat) a + S1x1x128x32.size a ≤ S1x284x128x32.size a
  inb_S1x512x128x32_S1x1x128x32_0_54_0_0 : ∀ a, (![0, 54, 0, 0] : Fin 4 → Nat) a + S1x1x128x32.size a ≤ S1x512x128x32.size a
  inb_S1x512x128x32_S1x1x128x32_0_55_0_0 : ∀ a, (![0, 55, 0, 0] : Fin 4 → Nat) a + S1x1x128x32.size a ≤ S1x512x128x32.size a
  inb_S1x512x128x32_S1x1x128x32_0_56_0_0 : ∀ a, (![0, 56, 0, 0] : Fin 4 → Nat) a + S1x1x128x32.size a ≤ S1x512x128x32.size a
  inb_S1x284x128x32_S1x1x128x32_0_18_0_0 : ∀ a, (![0, 18, 0, 0] : Fin 4 → Nat) a + S1x1x128x32.size a ≤ S1x284x128x32.size a
  inb_S1x512x128x32_S1x1x128x32_0_57_0_0 : ∀ a, (![0, 57, 0, 0] : Fin 4 → Nat) a + S1x1x128x32.size a ≤ S1x512x128x32.size a
  inb_S1x512x128x32_S1x1x128x32_0_58_0_0 : ∀ a, (![0, 58, 0, 0] : Fin 4 → Nat) a + S1x1x128x32.size a ≤ S1x512x128x32.size a
  inb_S1x512x128x32_S1x1x128x32_0_59_0_0 : ∀ a, (![0, 59, 0, 0] : Fin 4 → Nat) a + S1x1x128x32.size a ≤ S1x512x128x32.size a
  inb_S1x284x128x32_S1x1x128x32_0_19_0_0 : ∀ a, (![0, 19, 0, 0] : Fin 4 → Nat) a + S1x1x128x32.size a ≤ S1x284x128x32.size a
  inb_S1x512x128x32_S1x1x128x32_0_60_0_0 : ∀ a, (![0, 60, 0, 0] : Fin 4 → Nat) a + S1x1x128x32.size a ≤ S1x512x128x32.size a
  inb_S1x512x128x32_S1x1x128x32_0_61_0_0 : ∀ a, (![0, 61, 0, 0] : Fin 4 → Nat) a + S1x1x128x32.size a ≤ S1x512x128x32.size a
  inb_S1x512x128x32_S1x1x128x32_0_62_0_0 : ∀ a, (![0, 62, 0, 0] : Fin 4 → Nat) a + S1x1x128x32.size a ≤ S1x512x128x32.size a
  inb_S1x284x128x32_S1x1x128x32_0_20_0_0 : ∀ a, (![0, 20, 0, 0] : Fin 4 → Nat) a + S1x1x128x32.size a ≤ S1x284x128x32.size a
  inb_S1x512x128x32_S1x1x128x32_0_63_0_0 : ∀ a, (![0, 63, 0, 0] : Fin 4 → Nat) a + S1x1x128x32.size a ≤ S1x512x128x32.size a
  inb_S1x512x128x32_S1x1x128x32_0_64_0_0 : ∀ a, (![0, 64, 0, 0] : Fin 4 → Nat) a + S1x1x128x32.size a ≤ S1x512x128x32.size a
  inb_S1x512x128x32_S1x1x128x32_0_65_0_0 : ∀ a, (![0, 65, 0, 0] : Fin 4 → Nat) a + S1x1x128x32.size a ≤ S1x512x128x32.size a
  inb_S1x284x128x32_S1x1x128x32_0_21_0_0 : ∀ a, (![0, 21, 0, 0] : Fin 4 → Nat) a + S1x1x128x32.size a ≤ S1x284x128x32.size a
  inb_S1x512x128x32_S1x1x128x32_0_66_0_0 : ∀ a, (![0, 66, 0, 0] : Fin 4 → Nat) a + S1x1x128x32.size a ≤ S1x512x128x32.size a
  inb_S1x512x128x32_S1x1x128x32_0_67_0_0 : ∀ a, (![0, 67, 0, 0] : Fin 4 → Nat) a + S1x1x128x32.size a ≤ S1x512x128x32.size a
  inb_S1x512x128x32_S1x1x128x32_0_68_0_0 : ∀ a, (![0, 68, 0, 0] : Fin 4 → Nat) a + S1x1x128x32.size a ≤ S1x512x128x32.size a
  inb_S1x284x128x32_S1x1x128x32_0_22_0_0 : ∀ a, (![0, 22, 0, 0] : Fin 4 → Nat) a + S1x1x128x32.size a ≤ S1x284x128x32.size a
  inb_S1x512x128x32_S1x1x128x32_0_69_0_0 : ∀ a, (![0, 69, 0, 0] : Fin 4 → Nat) a + S1x1x128x32.size a ≤ S1x512x128x32.size a
  inb_S1x512x128x32_S1x1x128x32_0_70_0_0 : ∀ a, (![0, 70, 0, 0] : Fin 4 → Nat) a + S1x1x128x32.size a ≤ S1x512x128x32.size a
  inb_S1x512x128x32_S1x1x128x32_0_71_0_0 : ∀ a, (![0, 71, 0, 0] : Fin 4 → Nat) a + S1x1x128x32.size a ≤ S1x512x128x32.size a
  inb_S1x284x128x32_S1x1x128x32_0_23_0_0 : ∀ a, (![0, 23, 0, 0] : Fin 4 → Nat) a + S1x1x128x32.size a ≤ S1x284x128x32.size a
  inb_S1x512x128x32_S1x1x128x32_0_72_0_0 : ∀ a, (![0, 72, 0, 0] : Fin 4 → Nat) a + S1x1x128x32.size a ≤ S1x512x128x32.size a
  inb_S1x512x128x32_S1x1x128x32_0_73_0_0 : ∀ a, (![0, 73, 0, 0] : Fin 4 → Nat) a + S1x1x128x32.size a ≤ S1x512x128x32.size a
  inb_S1x512x128x32_S1x1x128x32_0_74_0_0 : ∀ a, (![0, 74, 0, 0] : Fin 4 → Nat) a + S1x1x128x32.size a ≤ S1x512x128x32.size a
  inb_S1x284x128x32_S1x1x128x32_0_24_0_0 : ∀ a, (![0, 24, 0, 0] : Fin 4 → Nat) a + S1x1x128x32.size a ≤ S1x284x128x32.size a
  inb_S1x512x128x32_S1x1x128x32_0_75_0_0 : ∀ a, (![0, 75, 0, 0] : Fin 4 → Nat) a + S1x1x128x32.size a ≤ S1x512x128x32.size a
  inb_S1x512x128x32_S1x1x128x32_0_76_0_0 : ∀ a, (![0, 76, 0, 0] : Fin 4 → Nat) a + S1x1x128x32.size a ≤ S1x512x128x32.size a
  inb_S1x512x128x32_S1x1x128x32_0_77_0_0 : ∀ a, (![0, 77, 0, 0] : Fin 4 → Nat) a + S1x1x128x32.size a ≤ S1x512x128x32.size a
  inb_S1x284x128x32_S1x1x128x32_0_25_0_0 : ∀ a, (![0, 25, 0, 0] : Fin 4 → Nat) a + S1x1x128x32.size a ≤ S1x284x128x32.size a
  inb_S1x512x128x32_S1x1x128x32_0_78_0_0 : ∀ a, (![0, 78, 0, 0] : Fin 4 → Nat) a + S1x1x128x32.size a ≤ S1x512x128x32.size a
  inb_S1x512x128x32_S1x1x128x32_0_79_0_0 : ∀ a, (![0, 79, 0, 0] : Fin 4 → Nat) a + S1x1x128x32.size a ≤ S1x512x128x32.size a
  inb_S1x512x128x32_S1x1x128x32_0_80_0_0 : ∀ a, (![0, 80, 0, 0] : Fin 4 → Nat) a + S1x1x128x32.size a ≤ S1x512x128x32.size a
  inb_S1x284x128x32_S1x1x128x32_0_26_0_0 : ∀ a, (![0, 26, 0, 0] : Fin 4 → Nat) a + S1x1x128x32.size a ≤ S1x284x128x32.size a
  inb_S1x512x128x32_S1x1x128x32_0_81_0_0 : ∀ a, (![0, 81, 0, 0] : Fin 4 → Nat) a + S1x1x128x32.size a ≤ S1x512x128x32.size a
  inb_S1x512x128x32_S1x1x128x32_0_82_0_0 : ∀ a, (![0, 82, 0, 0] : Fin 4 → Nat) a + S1x1x128x32.size a ≤ S1x512x128x32.size a
  inb_S1x512x128x32_S1x1x128x32_0_83_0_0 : ∀ a, (![0, 83, 0, 0] : Fin 4 → Nat) a + S1x1x128x32.size a ≤ S1x512x128x32.size a
  inb_S1x284x128x32_S1x1x128x32_0_27_0_0 : ∀ a, (![0, 27, 0, 0] : Fin 4 → Nat) a + S1x1x128x32.size a ≤ S1x284x128x32.size a
  inb_S1x512x128x32_S1x1x128x32_0_84_0_0 : ∀ a, (![0, 84, 0, 0] : Fin 4 → Nat) a + S1x1x128x32.size a ≤ S1x512x128x32.size a
  inb_S1x512x128x32_S1x1x128x32_0_85_0_0 : ∀ a, (![0, 85, 0, 0] : Fin 4 → Nat) a + S1x1x128x32.size a ≤ S1x512x128x32.size a
  inb_S1x512x128x32_S1x1x128x32_0_86_0_0 : ∀ a, (![0, 86, 0, 0] : Fin 4 → Nat) a + S1x1x128x32.size a ≤ S1x512x128x32.size a
  inb_S1x284x128x32_S1x1x128x32_0_28_0_0 : ∀ a, (![0, 28, 0, 0] : Fin 4 → Nat) a + S1x1x128x32.size a ≤ S1x284x128x32.size a
  inb_S1x512x128x32_S1x1x128x32_0_87_0_0 : ∀ a, (![0, 87, 0, 0] : Fin 4 → Nat) a + S1x1x128x32.size a ≤ S1x512x128x32.size a
  inb_S1x512x128x32_S1x1x128x32_0_88_0_0 : ∀ a, (![0, 88, 0, 0] : Fin 4 → Nat) a + S1x1x128x32.size a ≤ S1x512x128x32.size a
  inb_S1x512x128x32_S1x1x128x32_0_89_0_0 : ∀ a, (![0, 89, 0, 0] : Fin 4 → Nat) a + S1x1x128x32.size a ≤ S1x512x128x32.size a
  inb_S1x284x128x32_S1x1x128x32_0_29_0_0 : ∀ a, (![0, 29, 0, 0] : Fin 4 → Nat) a + S1x1x128x32.size a ≤ S1x284x128x32.size a
  inb_S1x512x128x32_S1x1x128x32_0_90_0_0 : ∀ a, (![0, 90, 0, 0] : Fin 4 → Nat) a + S1x1x128x32.size a ≤ S1x512x128x32.size a
  inb_S1x512x128x32_S1x1x128x32_0_91_0_0 : ∀ a, (![0, 91, 0, 0] : Fin 4 → Nat) a + S1x1x128x32.size a ≤ S1x512x128x32.size a
  inb_S1x512x128x32_S1x1x128x32_0_92_0_0 : ∀ a, (![0, 92, 0, 0] : Fin 4 → Nat) a + S1x1x128x32.size a ≤ S1x512x128x32.size a
  inb_S1x284x128x32_S1x1x128x32_0_30_0_0 : ∀ a, (![0, 30, 0, 0] : Fin 4 → Nat) a + S1x1x128x32.size a ≤ S1x284x128x32.size a
  inb_S1x512x128x32_S1x1x128x32_0_93_0_0 : ∀ a, (![0, 93, 0, 0] : Fin 4 → Nat) a + S1x1x128x32.size a ≤ S1x512x128x32.size a
  inb_S1x512x128x32_S1x1x128x32_0_94_0_0 : ∀ a, (![0, 94, 0, 0] : Fin 4 → Nat) a + S1x1x128x32.size a ≤ S1x512x128x32.size a
  inb_S1x512x128x32_S1x1x128x32_0_95_0_0 : ∀ a, (![0, 95, 0, 0] : Fin 4 → Nat) a + S1x1x128x32.size a ≤ S1x512x128x32.size a
  inb_S1x284x128x32_S1x1x128x32_0_31_0_0 : ∀ a, (![0, 31, 0, 0] : Fin 4 → Nat) a + S1x1x128x32.size a ≤ S1x284x128x32.size a
  inb_S1x512x128x32_S1x1x128x32_0_96_0_0 : ∀ a, (![0, 96, 0, 0] : Fin 4 → Nat) a + S1x1x128x32.size a ≤ S1x512x128x32.size a
  inb_S1x512x128x32_S1x1x128x32_0_97_0_0 : ∀ a, (![0, 97, 0, 0] : Fin 4 → Nat) a + S1x1x128x32.size a ≤ S1x512x128x32.size a
  inb_S1x512x128x32_S1x1x128x32_0_98_0_0 : ∀ a, (![0, 98, 0, 0] : Fin 4 → Nat) a + S1x1x128x32.size a ≤ S1x512x128x32.size a
  inb_S1x284x128x32_S1x1x128x32_0_32_0_0 : ∀ a, (![0, 32, 0, 0] : Fin 4 → Nat) a + S1x1x128x32.size a ≤ S1x284x128x32.size a
  inb_S1x512x128x32_S1x1x128x32_0_99_0_0 : ∀ a, (![0, 99, 0, 0] : Fin 4 → Nat) a + S1x1x128x32.size a ≤ S1x512x128x32.size a
  inb_S1x512x128x32_S1x1x128x32_0_100_0_0 : ∀ a, (![0, 100, 0, 0] : Fin 4 → Nat) a + S1x1x128x32.size a ≤ S1x512x128x32.size a
  inb_S1x512x128x32_S1x1x128x32_0_101_0_0 : ∀ a, (![0, 101, 0, 0] : Fin 4 → Nat) a + S1x1x128x32.size a ≤ S1x512x128x32.size a
  inb_S1x284x128x32_S1x1x128x32_0_33_0_0 : ∀ a, (![0, 33, 0, 0] : Fin 4 → Nat) a + S1x1x128x32.size a ≤ S1x284x128x32.size a
  inb_S1x512x128x32_S1x1x128x32_0_102_0_0 : ∀ a, (![0, 102, 0, 0] : Fin 4 → Nat) a + S1x1x128x32.size a ≤ S1x512x128x32.size a
  inb_S1x512x128x32_S1x1x128x32_0_103_0_0 : ∀ a, (![0, 103, 0, 0] : Fin 4 → Nat) a + S1x1x128x32.size a ≤ S1x512x128x32.size a
  inb_S1x512x128x32_S1x1x128x32_0_104_0_0 : ∀ a, (![0, 104, 0, 0] : Fin 4 → Nat) a + S1x1x128x32.size a ≤ S1x512x128x32.size a
  inb_S1x284x128x32_S1x1x128x32_0_34_0_0 : ∀ a, (![0, 34, 0, 0] : Fin 4 → Nat) a + S1x1x128x32.size a ≤ S1x284x128x32.size a
  inb_S1x512x128x32_S1x1x128x32_0_105_0_0 : ∀ a, (![0, 105, 0, 0] : Fin 4 → Nat) a + S1x1x128x32.size a ≤ S1x512x128x32.size a
  inb_S1x512x128x32_S1x1x128x32_0_106_0_0 : ∀ a, (![0, 106, 0, 0] : Fin 4 → Nat) a + S1x1x128x32.size a ≤ S1x512x128x32.size a
  inb_S1x512x128x32_S1x1x128x32_0_107_0_0 : ∀ a, (![0, 107, 0, 0] : Fin 4 → Nat) a + S1x1x128x32.size a ≤ S1x512x128x32.size a
  inb_S1x284x128x32_S1x1x128x32_0_35_0_0 : ∀ a, (![0, 35, 0, 0] : Fin 4 → Nat) a + S1x1x128x32.size a ≤ S1x284x128x32.size a
  inb_S1x512x128x32_S1x1x128x32_0_108_0_0 : ∀ a, (![0, 108, 0, 0] : Fin 4 → Nat) a + S1x1x128x32.size a ≤ S1x512x128x32.size a
  inb_S1x512x128x32_S1x1x128x32_0_109_0_0 : ∀ a, (![0, 109, 0, 0] : Fin 4 → Nat) a + S1x1x128x32.size a ≤ S1x512x128x32.size a
  inb_S1x512x128x32_S1x1x128x32_0_110_0_0 : ∀ a, (![0, 110, 0, 0] : Fin 4 → Nat) a + S1x1x128x32.size a ≤ S1x512x128x32.size a
  inb_S1x284x128x32_S1x1x128x32_0_36_0_0 : ∀ a, (![0, 36, 0, 0] : Fin 4 → Nat) a + S1x1x128x32.size a ≤ S1x284x128x32.size a
  inb_S1x512x128x32_S1x1x128x32_0_111_0_0 : ∀ a, (![0, 111, 0, 0] : Fin 4 → Nat) a + S1x1x128x32.size a ≤ S1x512x128x32.size a
  inb_S1x512x128x32_S1x1x128x32_0_112_0_0 : ∀ a, (![0, 112, 0, 0] : Fin 4 → Nat) a + S1x1x128x32.size a ≤ S1x512x128x32.size a
  inb_S1x512x128x32_S1x1x128x32_0_113_0_0 : ∀ a, (![0, 113, 0, 0] : Fin 4 → Nat) a + S1x1x128x32.size a ≤ S1x512x128x32.size a
  inb_S1x284x128x32_S1x1x128x32_0_37_0_0 : ∀ a, (![0, 37, 0, 0] : Fin 4 → Nat) a + S1x1x128x32.size a ≤ S1x284x128x32.size a
  inb_S1x512x128x32_S1x1x128x32_0_114_0_0 : ∀ a, (![0, 114, 0, 0] : Fin 4 → Nat) a + S1x1x128x32.size a ≤ S1x512x128x32.size a
  inb_S1x512x128x32_S1x1x128x32_0_115_0_0 : ∀ a, (![0, 115, 0, 0] : Fin 4 → Nat) a + S1x1x128x32.size a ≤ S1x512x128x32.size a
  inb_S1x512x128x32_S1x1x128x32_0_116_0_0 : ∀ a, (![0, 116, 0, 0] : Fin 4 → Nat) a + S1x1x128x32.size a ≤ S1x512x128x32.size a
  inb_S1x284x128x32_S1x1x128x32_0_38_0_0 : ∀ a, (![0, 38, 0, 0] : Fin 4 → Nat) a + S1x1x128x32.size a ≤ S1x284x128x32.size a
  inb_S1x512x128x32_S1x1x128x32_0_117_0_0 : ∀ a, (![0, 117, 0, 0] : Fin 4 → Nat) a + S1x1x128x32.size a ≤ S1x512x128x32.size a
  inb_S1x512x128x32_S1x1x128x32_0_118_0_0 : ∀ a, (![0, 118, 0, 0] : Fin 4 → Nat) a + S1x1x128x32.size a ≤ S1x512x128x32.size a
  inb_S1x512x128x32_S1x1x128x32_0_119_0_0 : ∀ a, (![0, 119, 0, 0] : Fin 4 → Nat) a + S1x1x128x32.size a ≤ S1x512x128x32.size a
  inb_S1x284x128x32_S1x1x128x32_0_39_0_0 : ∀ a, (![0, 39, 0, 0] : Fin 4 → Nat) a + S1x1x128x32.size a ≤ S1x284x128x32.size a
  inb_S1x512x128x32_S1x1x128x32_0_120_0_0 : ∀ a, (![0, 120, 0, 0] : Fin 4 → Nat) a + S1x1x128x32.size a ≤ S1x512x128x32.size a
  inb_S1x512x128x32_S1x1x128x32_0_121_0_0 : ∀ a, (![0, 121, 0, 0] : Fin 4 → Nat) a + S1x1x128x32.size a ≤ S1x512x128x32.size a
  inb_S1x512x128x32_S1x1x128x32_0_122_0_0 : ∀ a, (![0, 122, 0, 0] : Fin 4 → Nat) a + S1x1x128x32.size a ≤ S1x512x128x32.size a
  inb_S1x284x128x32_S1x1x128x32_0_40_0_0 : ∀ a, (![0, 40, 0, 0] : Fin 4 → Nat) a + S1x1x128x32.size a ≤ S1x284x128x32.size a
  inb_S1x512x128x32_S1x1x128x32_0_123_0_0 : ∀ a, (![0, 123, 0, 0] : Fin 4 → Nat) a + S1x1x128x32.size a ≤ S1x512x128x32.size a
  inb_S1x512x128x32_S1x1x128x32_0_124_0_0 : ∀ a, (![0, 124, 0, 0] : Fin 4 → Nat) a + S1x1x128x32.size a ≤ S1x512x128x32.size a
  inb_S1x512x128x32_S1x1x128x32_0_125_0_0 : ∀ a, (![0, 125, 0, 0] : Fin 4 → Nat) a + S1x1x128x32.size a ≤ S1x512x128x32.size a
  inb_S1x284x128x32_S1x1x128x32_0_41_0_0 : ∀ a, (![0, 41, 0, 0] : Fin 4 → Nat) a + S1x1x128x32.size a ≤ S1x284x128x32.size a
  inb_S1x512x128x32_S1x1x128x32_0_126_0_0 : ∀ a, (![0, 126, 0, 0] : Fin 4 → Nat) a + S1x1x128x32.size a ≤ S1x512x128x32.size a
  inb_S1x512x128x32_S1x1x128x32_0_127_0_0 : ∀ a, (![0, 127, 0, 0] : Fin 4 → Nat) a + S1x1x128x32.size a ≤ S1x512x128x32.size a
  inb_S1x512x128x32_S1x1x128x32_0_128_0_0 : ∀ a, (![0, 128, 0, 0] : Fin 4 → Nat) a + S1x1x128x32.size a ≤ S1x512x128x32.size a
  inb_S1x284x128x32_S1x1x128x32_0_42_0_0 : ∀ a, (![0, 42, 0, 0] : Fin 4 → Nat) a + S1x1x128x32.size a ≤ S1x284x128x32.size a
  inb_S1x512x128x32_S1x1x128x32_0_129_0_0 : ∀ a, (![0, 129, 0, 0] : Fin 4 → Nat) a + S1x1x128x32.size a ≤ S1x512x128x32.size a
  inb_S1x512x128x32_S1x1x128x32_0_130_0_0 : ∀ a, (![0, 130, 0, 0] : Fin 4 → Nat) a + S1x1x128x32.size a ≤ S1x512x128x32.size a
  inb_S1x512x128x32_S1x1x128x32_0_131_0_0 : ∀ a, (![0, 131, 0, 0] : Fin 4 → Nat) a + S1x1x128x32.size a ≤ S1x512x128x32.size a
  inb_S1x284x128x32_S1x1x128x32_0_43_0_0 : ∀ a, (![0, 43, 0, 0] : Fin 4 → Nat) a + S1x1x128x32.size a ≤ S1x284x128x32.size a
  inb_S1x512x128x32_S1x1x128x32_0_132_0_0 : ∀ a, (![0, 132, 0, 0] : Fin 4 → Nat) a + S1x1x128x32.size a ≤ S1x512x128x32.size a
  inb_S1x512x128x32_S1x1x128x32_0_133_0_0 : ∀ a, (![0, 133, 0, 0] : Fin 4 → Nat) a + S1x1x128x32.size a ≤ S1x512x128x32.size a
  inb_S1x512x128x32_S1x1x128x32_0_134_0_0 : ∀ a, (![0, 134, 0, 0] : Fin 4 → Nat) a + S1x1x128x32.size a ≤ S1x512x128x32.size a
  inb_S1x284x128x32_S1x1x128x32_0_44_0_0 : ∀ a, (![0, 44, 0, 0] : Fin 4 → Nat) a + S1x1x128x32.size a ≤ S1x284x128x32.size a
  inb_S1x512x128x32_S1x1x128x32_0_135_0_0 : ∀ a, (![0, 135, 0, 0] : Fin 4 → Nat) a + S1x1x128x32.size a ≤ S1x512x128x32.size a
  inb_S1x512x128x32_S1x1x128x32_0_136_0_0 : ∀ a, (![0, 136, 0, 0] : Fin 4 → Nat) a + S1x1x128x32.size a ≤ S1x512x128x32.size a
  inb_S1x512x128x32_S1x1x128x32_0_137_0_0 : ∀ a, (![0, 137, 0, 0] : Fin 4 → Nat) a + S1x1x128x32.size a ≤ S1x512x128x32.size a
  inb_S1x284x128x32_S1x1x128x32_0_45_0_0 : ∀ a, (![0, 45, 0, 0] : Fin 4 → Nat) a + S1x1x128x32.size a ≤ S1x284x128x32.size a
  inb_S1x512x128x32_S1x1x128x32_0_138_0_0 : ∀ a, (![0, 138, 0, 0] : Fin 4 → Nat) a + S1x1x128x32.size a ≤ S1x512x128x32.size a
  inb_S1x512x128x32_S1x1x128x32_0_139_0_0 : ∀ a, (![0, 139, 0, 0] : Fin 4 → Nat) a + S1x1x128x32.size a ≤ S1x512x128x32.size a
  inb_S1x512x128x32_S1x1x128x32_0_140_0_0 : ∀ a, (![0, 140, 0, 0] : Fin 4 → Nat) a + S1x1x128x32.size a ≤ S1x512x128x32.size a
  inb_S1x284x128x32_S1x1x128x32_0_46_0_0 : ∀ a, (![0, 46, 0, 0] : Fin 4 → Nat) a + S1x1x128x32.size a ≤ S1x284x128x32.size a
  inb_S1x512x128x32_S1x1x128x32_0_141_0_0 : ∀ a, (![0, 141, 0, 0] : Fin 4 → Nat) a + S1x1x128x32.size a ≤ S1x512x128x32.size a
  inb_S1x512x128x32_S1x1x128x32_0_142_0_0 : ∀ a, (![0, 142, 0, 0] : Fin 4 → Nat) a + S1x1x128x32.size a ≤ S1x512x128x32.size a
  inb_S1x512x128x32_S1x1x128x32_0_143_0_0 : ∀ a, (![0, 143, 0, 0] : Fin 4 → Nat) a + S1x1x128x32.size a ≤ S1x512x128x32.size a
  inb_S1x284x128x32_S1x1x128x32_0_47_0_0 : ∀ a, (![0, 47, 0, 0] : Fin 4 → Nat) a + S1x1x128x32.size a ≤ S1x284x128x32.size a
  inb_S1x512x128x32_S1x1x128x32_0_144_0_0 : ∀ a, (![0, 144, 0, 0] : Fin 4 → Nat) a + S1x1x128x32.size a ≤ S1x512x128x32.size a
  inb_S1x512x128x32_S1x1x128x32_0_145_0_0 : ∀ a, (![0, 145, 0, 0] : Fin 4 → Nat) a + S1x1x128x32.size a ≤ S1x512x128x32.size a
  inb_S1x512x128x32_S1x1x128x32_0_146_0_0 : ∀ a, (![0, 146, 0, 0] : Fin 4 → Nat) a + S1x1x128x32.size a ≤ S1x512x128x32.size a
  inb_S1x284x128x32_S1x1x128x32_0_48_0_0 : ∀ a, (![0, 48, 0, 0] : Fin 4 → Nat) a + S1x1x128x32.size a ≤ S1x284x128x32.size a
  inb_S1x512x128x32_S1x1x128x32_0_147_0_0 : ∀ a, (![0, 147, 0, 0] : Fin 4 → Nat) a + S1x1x128x32.size a ≤ S1x512x128x32.size a
  inb_S1x512x128x32_S1x1x128x32_0_148_0_0 : ∀ a, (![0, 148, 0, 0] : Fin 4 → Nat) a + S1x1x128x32.size a ≤ S1x512x128x32.size a
  inb_S1x512x128x32_S1x1x128x32_0_149_0_0 : ∀ a, (![0, 149, 0, 0] : Fin 4 → Nat) a + S1x1x128x32.size a ≤ S1x512x128x32.size a
  inb_S1x284x128x32_S1x1x128x32_0_49_0_0 : ∀ a, (![0, 49, 0, 0] : Fin 4 → Nat) a + S1x1x128x32.size a ≤ S1x284x128x32.size a
  inb_S1x512x128x32_S1x1x128x32_0_150_0_0 : ∀ a, (![0, 150, 0, 0] : Fin 4 → Nat) a + S1x1x128x32.size a ≤ S1x512x128x32.size a
  inb_S1x512x128x32_S1x1x128x32_0_151_0_0 : ∀ a, (![0, 151, 0, 0] : Fin 4 → Nat) a + S1x1x128x32.size a ≤ S1x512x128x32.size a
  inb_S1x512x128x32_S1x1x128x32_0_152_0_0 : ∀ a, (![0, 152, 0, 0] : Fin 4 → Nat) a + S1x1x128x32.size a ≤ S1x512x128x32.size a
  inb_S1x284x128x32_S1x1x128x32_0_50_0_0 : ∀ a, (![0, 50, 0, 0] : Fin 4 → Nat) a + S1x1x128x32.size a ≤ S1x284x128x32.size a
  inb_S1x512x128x32_S1x1x128x32_0_153_0_0 : ∀ a, (![0, 153, 0, 0] : Fin 4 → Nat) a + S1x1x128x32.size a ≤ S1x512x128x32.size a
  inb_S1x512x128x32_S1x1x128x32_0_154_0_0 : ∀ a, (![0, 154, 0, 0] : Fin 4 → Nat) a + S1x1x128x32.size a ≤ S1x512x128x32.size a
  inb_S1x512x128x32_S1x1x128x32_0_155_0_0 : ∀ a, (![0, 155, 0, 0] : Fin 4 → Nat) a + S1x1x128x32.size a ≤ S1x512x128x32.size a
  inb_S1x284x128x32_S1x1x128x32_0_51_0_0 : ∀ a, (![0, 51, 0, 0] : Fin 4 → Nat) a + S1x1x128x32.size a ≤ S1x284x128x32.size a
  inb_S1x512x128x32_S1x1x128x32_0_156_0_0 : ∀ a, (![0, 156, 0, 0] : Fin 4 → Nat) a + S1x1x128x32.size a ≤ S1x512x128x32.size a
  inb_S1x512x128x32_S1x1x128x32_0_157_0_0 : ∀ a, (![0, 157, 0, 0] : Fin 4 → Nat) a + S1x1x128x32.size a ≤ S1x512x128x32.size a
  inb_S1x512x128x32_S1x1x128x32_0_158_0_0 : ∀ a, (![0, 158, 0, 0] : Fin 4 → Nat) a + S1x1x128x32.size a ≤ S1x512x128x32.size a
  inb_S1x284x128x32_S1x1x128x32_0_52_0_0 : ∀ a, (![0, 52, 0, 0] : Fin 4 → Nat) a + S1x1x128x32.size a ≤ S1x284x128x32.size a
  inb_S1x512x128x32_S1x1x128x32_0_159_0_0 : ∀ a, (![0, 159, 0, 0] : Fin 4 → Nat) a + S1x1x128x32.size a ≤ S1x512x128x32.size a
  inb_S1x512x128x32_S1x1x128x32_0_160_0_0 : ∀ a, (![0, 160, 0, 0] : Fin 4 → Nat) a + S1x1x128x32.size a ≤ S1x512x128x32.size a
  inb_S1x512x128x32_S1x1x128x32_0_161_0_0 : ∀ a, (![0, 161, 0, 0] : Fin 4 → Nat) a + S1x1x128x32.size a ≤ S1x512x128x32.size a
  inb_S1x284x128x32_S1x1x128x32_0_53_0_0 : ∀ a, (![0, 53, 0, 0] : Fin 4 → Nat) a + S1x1x128x32.size a ≤ S1x284x128x32.size a
  inb_S1x512x128x32_S1x1x128x32_0_162_0_0 : ∀ a, (![0, 162, 0, 0] : Fin 4 → Nat) a + S1x1x128x32.size a ≤ S1x512x128x32.size a
  inb_S1x512x128x32_S1x1x128x32_0_163_0_0 : ∀ a, (![0, 163, 0, 0] : Fin 4 → Nat) a + S1x1x128x32.size a ≤ S1x512x128x32.size a
  inb_S1x512x128x32_S1x1x128x32_0_164_0_0 : ∀ a, (![0, 164, 0, 0] : Fin 4 → Nat) a + S1x1x128x32.size a ≤ S1x512x128x32.size a
  inb_S1x284x128x32_S1x1x128x32_0_54_0_0 : ∀ a, (![0, 54, 0, 0] : Fin 4 → Nat) a + S1x1x128x32.size a ≤ S1x284x128x32.size a
  inb_S1x512x128x32_S1x1x128x32_0_165_0_0 : ∀ a, (![0, 165, 0, 0] : Fin 4 → Nat) a + S1x1x128x32.size a ≤ S1x512x128x32.size a
  inb_S1x512x128x32_S1x1x128x32_0_166_0_0 : ∀ a, (![0, 166, 0, 0] : Fin 4 → Nat) a + S1x1x128x32.size a ≤ S1x512x128x32.size a
  inb_S1x512x128x32_S1x1x128x32_0_167_0_0 : ∀ a, (![0, 167, 0, 0] : Fin 4 → Nat) a + S1x1x128x32.size a ≤ S1x512x128x32.size a
  inb_S1x284x128x32_S1x1x128x32_0_55_0_0 : ∀ a, (![0, 55, 0, 0] : Fin 4 → Nat) a + S1x1x128x32.size a ≤ S1x284x128x32.size a
  inb_S1x512x128x32_S1x1x128x32_0_168_0_0 : ∀ a, (![0, 168, 0, 0] : Fin 4 → Nat) a + S1x1x128x32.size a ≤ S1x512x128x32.size a
  inb_S1x512x128x32_S1x1x128x32_0_169_0_0 : ∀ a, (![0, 169, 0, 0] : Fin 4 → Nat) a + S1x1x128x32.size a ≤ S1x512x128x32.size a
  inb_S1x512x128x32_S1x1x128x32_0_170_0_0 : ∀ a, (![0, 170, 0, 0] : Fin 4 → Nat) a + S1x1x128x32.size a ≤ S1x512x128x32.size a
  inb_S1x284x128x32_S1x1x128x32_0_56_0_0 : ∀ a, (![0, 56, 0, 0] : Fin 4 → Nat) a + S1x1x128x32.size a ≤ S1x284x128x32.size a
  inb_S1x512x128x32_S1x1x128x32_0_171_0_0 : ∀ a, (![0, 171, 0, 0] : Fin 4 → Nat) a + S1x1x128x32.size a ≤ S1x512x128x32.size a
  inb_S1x512x128x32_S1x1x128x32_0_172_0_0 : ∀ a, (![0, 172, 0, 0] : Fin 4 → Nat) a + S1x1x128x32.size a ≤ S1x512x128x32.size a
  inb_S1x512x128x32_S1x1x128x32_0_173_0_0 : ∀ a, (![0, 173, 0, 0] : Fin 4 → Nat) a + S1x1x128x32.size a ≤ S1x512x128x32.size a
  inb_S1x284x128x32_S1x1x128x32_0_57_0_0 : ∀ a, (![0, 57, 0, 0] : Fin 4 → Nat) a + S1x1x128x32.size a ≤ S1x284x128x32.size a
  inb_S1x512x128x32_S1x1x128x32_0_174_0_0 : ∀ a, (![0, 174, 0, 0] : Fin 4 → Nat) a + S1x1x128x32.size a ≤ S1x512x128x32.size a
  inb_S1x284x128x32_S1x1x128x32_0_58_0_0 : ∀ a, (![0, 58, 0, 0] : Fin 4 → Nat) a + S1x1x128x32.size a ≤ S1x284x128x32.size a
  inb_S1x512x128x32_S1x1x128x32_0_175_0_0 : ∀ a, (![0, 175, 0, 0] : Fin 4 → Nat) a + S1x1x128x32.size a ≤ S1x512x128x32.size a
  inb_S1x284x128x32_S1x1x128x32_0_59_0_0 : ∀ a, (![0, 59, 0, 0] : Fin 4 → Nat) a + S1x1x128x32.size a ≤ S1x284x128x32.size a
  inb_S1x512x128x32_S1x1x128x32_0_176_0_0 : ∀ a, (![0, 176, 0, 0] : Fin 4 → Nat) a + S1x1x128x32.size a ≤ S1x512x128x32.size a
  inb_S1x284x128x32_S1x1x128x32_0_60_0_0 : ∀ a, (![0, 60, 0, 0] : Fin 4 → Nat) a + S1x1x128x32.size a ≤ S1x284x128x32.size a
  inb_S1x512x128x32_S1x1x128x32_0_177_0_0 : ∀ a, (![0, 177, 0, 0] : Fin 4 → Nat) a + S1x1x128x32.size a ≤ S1x512x128x32.size a
  inb_S1x284x128x32_S1x1x128x32_0_61_0_0 : ∀ a, (![0, 61, 0, 0] : Fin 4 → Nat) a + S1x1x128x32.size a ≤ S1x284x128x32.size a
  inb_S1x512x128x32_S1x1x128x32_0_178_0_0 : ∀ a, (![0, 178, 0, 0] : Fin 4 → Nat) a + S1x1x128x32.size a ≤ S1x512x128x32.size a
  inb_S1x284x128x32_S1x1x128x32_0_62_0_0 : ∀ a, (![0, 62, 0, 0] : Fin 4 → Nat) a + S1x1x128x32.size a ≤ S1x284x128x32.size a
  inb_S1x512x128x32_S1x1x128x32_0_179_0_0 : ∀ a, (![0, 179, 0, 0] : Fin 4 → Nat) a + S1x1x128x32.size a ≤ S1x512x128x32.size a
  inb_S1x284x128x32_S1x1x128x32_0_63_0_0 : ∀ a, (![0, 63, 0, 0] : Fin 4 → Nat) a + S1x1x128x32.size a ≤ S1x284x128x32.size a
  inb_S1x512x128x32_S1x1x128x32_0_180_0_0 : ∀ a, (![0, 180, 0, 0] : Fin 4 → Nat) a + S1x1x128x32.size a ≤ S1x512x128x32.size a
  inb_S1x284x128x32_S1x1x128x32_0_64_0_0 : ∀ a, (![0, 64, 0, 0] : Fin 4 → Nat) a + S1x1x128x32.size a ≤ S1x284x128x32.size a
  inb_S1x512x128x32_S1x1x128x32_0_181_0_0 : ∀ a, (![0, 181, 0, 0] : Fin 4 → Nat) a + S1x1x128x32.size a ≤ S1x512x128x32.size a
  inb_S1x284x128x32_S1x1x128x32_0_65_0_0 : ∀ a, (![0, 65, 0, 0] : Fin 4 → Nat) a + S1x1x128x32.size a ≤ S1x284x128x32.size a
  inb_S1x512x128x32_S1x1x128x32_0_182_0_0 : ∀ a, (![0, 182, 0, 0] : Fin 4 → Nat) a + S1x1x128x32.size a ≤ S1x512x128x32.size a
  inb_S1x284x128x32_S1x1x128x32_0_66_0_0 : ∀ a, (![0, 66, 0, 0] : Fin 4 → Nat) a + S1x1x128x32.size a ≤ S1x284x128x32.size a
  inb_S1x512x128x32_S1x1x128x32_0_183_0_0 : ∀ a, (![0, 183, 0, 0] : Fin 4 → Nat) a + S1x1x128x32.size a ≤ S1x512x128x32.size a
  inb_S1x284x128x32_S1x1x128x32_0_67_0_0 : ∀ a, (![0, 67, 0, 0] : Fin 4 → Nat) a + S1x1x128x32.size a ≤ S1x284x128x32.size a
  inb_S1x512x128x32_S1x1x128x32_0_184_0_0 : ∀ a, (![0, 184, 0, 0] : Fin 4 → Nat) a + S1x1x128x32.size a ≤ S1x512x128x32.size a
  inb_S1x284x128x32_S1x1x128x32_0_68_0_0 : ∀ a, (![0, 68, 0, 0] : Fin 4 → Nat) a + S1x1x128x32.size a ≤ S1x284x128x32.size a
  inb_S1x512x128x32_S1x1x128x32_0_185_0_0 : ∀ a, (![0, 185, 0, 0] : Fin 4 → Nat) a + S1x1x128x32.size a ≤ S1x512x128x32.size a
  inb_S1x284x128x32_S1x1x128x32_0_69_0_0 : ∀ a, (![0, 69, 0, 0] : Fin 4 → Nat) a + S1x1x128x32.size a ≤ S1x284x128x32.size a
  inb_S1x512x128x32_S1x1x128x32_0_186_0_0 : ∀ a, (![0, 186, 0, 0] : Fin 4 → Nat) a + S1x1x128x32.size a ≤ S1x512x128x32.size a
  inb_S1x284x128x32_S1x1x128x32_0_70_0_0 : ∀ a, (![0, 70, 0, 0] : Fin 4 → Nat) a + S1x1x128x32.size a ≤ S1x284x128x32.size a
  inb_S1x512x128x32_S1x1x128x32_0_187_0_0 : ∀ a, (![0, 187, 0, 0] : Fin 4 → Nat) a + S1x1x128x32.size a ≤ S1x512x128x32.size a
  inb_S1x284x128x32_S1x1x128x32_0_71_0_0 : ∀ a, (![0, 71, 0, 0] : Fin 4 → Nat) a + S1x1x128x32.size a ≤ S1x284x128x32.size a
  inb_S1x512x128x32_S1x1x128x32_0_188_0_0 : ∀ a, (![0, 188, 0, 0] : Fin 4 → Nat) a + S1x1x128x32.size a ≤ S1x512x128x32.size a
  inb_S1x284x128x32_S1x1x128x32_0_72_0_0 : ∀ a, (![0, 72, 0, 0] : Fin 4 → Nat) a + S1x1x128x32.size a ≤ S1x284x128x32.size a
  inb_S1x512x128x32_S1x1x128x32_0_189_0_0 : ∀ a, (![0, 189, 0, 0] : Fin 4 → Nat) a + S1x1x128x32.size a ≤ S1x512x128x32.size a
  inb_S1x284x128x32_S1x1x128x32_0_73_0_0 : ∀ a, (![0, 73, 0, 0] : Fin 4 → Nat) a + S1x1x128x32.size a ≤ S1x284x128x32.size a
  inb_S1x512x128x32_S1x1x128x32_0_190_0_0 : ∀ a, (![0, 190, 0, 0] : Fin 4 → Nat) a + S1x1x128x32.size a ≤ S1x512x128x32.size a
  inb_S1x284x128x32_S1x1x128x32_0_74_0_0 : ∀ a, (![0, 74, 0, 0] : Fin 4 → Nat) a + S1x1x128x32.size a ≤ S1x284x128x32.size a
  inb_S1x512x128x32_S1x1x128x32_0_191_0_0 : ∀ a, (![0, 191, 0, 0] : Fin 4 → Nat) a + S1x1x128x32.size a ≤ S1x512x128x32.size a
  inb_S1x284x128x32_S1x1x128x32_0_75_0_0 : ∀ a, (![0, 75, 0, 0] : Fin 4 → Nat) a + S1x1x128x32.size a ≤ S1x284x128x32.size a
  inb_S1x512x128x32_S1x1x128x32_0_192_0_0 : ∀ a, (![0, 192, 0, 0] : Fin 4 → Nat) a + S1x1x128x32.size a ≤ S1x512x128x32.size a
  inb_S1x284x128x32_S1x1x128x32_0_76_0_0 : ∀ a, (![0, 76, 0, 0] : Fin 4 → Nat) a + S1x1x128x32.size a ≤ S1x284x128x32.size a
  inb_S1x512x128x32_S1x1x128x32_0_193_0_0 : ∀ a, (![0, 193, 0, 0] : Fin 4 → Nat) a + S1x1x128x32.size a ≤ S1x512x128x32.size a
  inb_S1x284x128x32_S1x1x128x32_0_77_0_0 : ∀ a, (![0, 77, 0, 0] : Fin 4 → Nat) a + S1x1x128x32.size a ≤ S1x284x128x32.size a
  inb_S1x512x128x32_S1x1x128x32_0_194_0_0 : ∀ a, (![0, 194, 0, 0] : Fin 4 → Nat) a + S1x1x128x32.size a ≤ S1x512x128x32.size a
  inb_S1x284x128x32_S1x1x128x32_0_78_0_0 : ∀ a, (![0, 78, 0, 0] : Fin 4 → Nat) a + S1x1x128x32.size a ≤ S1x284x128x32.size a
  inb_S1x512x128x32_S1x1x128x32_0_195_0_0 : ∀ a, (![0, 195, 0, 0] : Fin 4 → Nat) a + S1x1x128x32.size a ≤ S1x512x128x32.size a
  inb_S1x284x128x32_S1x1x128x32_0_79_0_0 : ∀ a, (![0, 79, 0, 0] : Fin 4 → Nat) a + S1x1x128x32.size a ≤ S1x284x128x32.size a
  inb_S1x512x128x32_S1x1x128x32_0_196_0_0 : ∀ a, (![0, 196, 0, 0] : Fin 4 → Nat) a + S1x1x128x32.size a ≤ S1x512x128x32.size a
  inb_S1x284x128x32_S1x1x128x32_0_80_0_0 : ∀ a, (![0, 80, 0, 0] : Fin 4 → Nat) a + S1x1x128x32.size a ≤ S1x284x128x32.size a
  inb_S1x512x128x32_S1x1x128x32_0_197_0_0 : ∀ a, (![0, 197, 0, 0] : Fin 4 → Nat) a + S1x1x128x32.size a ≤ S1x512x128x32.size a
  inb_S1x284x128x32_S1x1x128x32_0_81_0_0 : ∀ a, (![0, 81, 0, 0] : Fin 4 → Nat) a + S1x1x128x32.size a ≤ S1x284x128x32.size a
  inb_S1x512x128x32_S1x1x128x32_0_198_0_0 : ∀ a, (![0, 198, 0, 0] : Fin 4 → Nat) a + S1x1x128x32.size a ≤ S1x512x128x32.size a
  inb_S1x284x128x32_S1x1x128x32_0_82_0_0 : ∀ a, (![0, 82, 0, 0] : Fin 4 → Nat) a + S1x1x128x32.size a ≤ S1x284x128x32.size a
  inb_S1x512x128x32_S1x1x128x32_0_199_0_0 : ∀ a, (![0, 199, 0, 0] : Fin 4 → Nat) a + S1x1x128x32.size a ≤ S1x512x128x32.size a
  inb_S1x284x128x32_S1x1x128x32_0_83_0_0 : ∀ a, (![0, 83, 0, 0] : Fin 4 → Nat) a + S1x1x128x32.size a ≤ S1x284x128x32.size a
  inb_S1x512x128x32_S1x1x128x32_0_200_0_0 : ∀ a, (![0, 200, 0, 0] : Fin 4 → Nat) a + S1x1x128x32.size a ≤ S1x512x128x32.size a
  inb_S1x284x128x32_S1x1x128x32_0_84_0_0 : ∀ a, (![0, 84, 0, 0] : Fin 4 → Nat) a + S1x1x128x32.size a ≤ S1x284x128x32.size a
  inb_S1x512x128x32_S1x1x128x32_0_201_0_0 : ∀ a, (![0, 201, 0, 0] : Fin 4 → Nat) a + S1x1x128x32.size a ≤ S1x512x128x32.size a
  inb_S1x284x128x32_S1x1x128x32_0_85_0_0 : ∀ a, (![0, 85, 0, 0] : Fin 4 → Nat) a + S1x1x128x32.size a ≤ S1x284x128x32.size a
  inb_S1x512x128x32_S1x1x128x32_0_202_0_0 : ∀ a, (![0, 202, 0, 0] : Fin 4 → Nat) a + S1x1x128x32.size a ≤ S1x512x128x32.size a
  inb_S1x284x128x32_S1x1x128x32_0_86_0_0 : ∀ a, (![0, 86, 0, 0] : Fin 4 → Nat) a + S1x1x128x32.size a ≤ S1x284x128x32.size a
  inb_S1x512x128x32_S1x1x128x32_0_203_0_0 : ∀ a, (![0, 203, 0, 0] : Fin 4 → Nat) a + S1x1x128x32.size a ≤ S1x512x128x32.size a
  inb_S1x284x128x32_S1x1x128x32_0_87_0_0 : ∀ a, (![0, 87, 0, 0] : Fin 4 → Nat) a + S1x1x128x32.size a ≤ S1x284x128x32.size a
  inb_S1x512x128x32_S1x1x128x32_0_204_0_0 : ∀ a, (![0, 204, 0, 0] : Fin 4 → Nat) a + S1x1x128x32.size a ≤ S1x512x128x32.size a
  inb_S1x284x128x32_S1x1x128x32_0_88_0_0 : ∀ a, (![0, 88, 0, 0] : Fin 4 → Nat) a + S1x1x128x32.size a ≤ S1x284x128x32.size a
  inb_S1x512x128x32_S1x1x128x32_0_205_0_0 : ∀ a, (![0, 205, 0, 0] : Fin 4 → Nat) a + S1x1x128x32.size a ≤ S1x512x128x32.size a
  inb_S1x284x128x32_S1x1x128x32_0_89_0_0 : ∀ a, (![0, 89, 0, 0] : Fin 4 → Nat) a + S1x1x128x32.size a ≤ S1x284x128x32.size a
  inb_S1x512x128x32_S1x1x128x32_0_206_0_0 : ∀ a, (![0, 206, 0, 0] : Fin 4 → Nat) a + S1x1x128x32.size a ≤ S1x512x128x32.size a
  inb_S1x284x128x32_S1x1x128x32_0_90_0_0 : ∀ a, (![0, 90, 0, 0] : Fin 4 → Nat) a + S1x1x128x32.size a ≤ S1x284x128x32.size a
  inb_S1x512x128x32_S1x1x128x32_0_207_0_0 : ∀ a, (![0, 207, 0, 0] : Fin 4 → Nat) a + S1x1x128x32.size a ≤ S1x512x128x32.size a
  inb_S1x284x128x32_S1x1x128x32_0_91_0_0 : ∀ a, (![0, 91, 0, 0] : Fin 4 → Nat) a + S1x1x128x32.size a ≤ S1x284x128x32.size a
  inb_S1x512x128x32_S1x1x128x32_0_208_0_0 : ∀ a, (![0, 208, 0, 0] : Fin 4 → Nat) a + S1x1x128x32.size a ≤ S1x512x128x32.size a
  inb_S1x284x128x32_S1x1x128x32_0_92_0_0 : ∀ a, (![0, 92, 0, 0] : Fin 4 → Nat) a + S1x1x128x32.size a ≤ S1x284x128x32.size a
  inb_S1x512x128x32_S1x1x128x32_0_209_0_0 : ∀ a, (![0, 209, 0, 0] : Fin 4 → Nat) a + S1x1x128x32.size a ≤ S1x512x128x32.size a
  inb_S1x284x128x32_S1x1x128x32_0_93_0_0 : ∀ a, (![0, 93, 0, 0] : Fin 4 → Nat) a + S1x1x128x32.size a ≤ S1x284x128x32.size a
  inb_S1x512x128x32_S1x1x128x32_0_210_0_0 : ∀ a, (![0, 210, 0, 0] : Fin 4 → Nat) a + S1x1x128x32.size a ≤ S1x512x128x32.size a
  inb_S1x284x128x32_S1x1x128x32_0_94_0_0 : ∀ a, (![0, 94, 0, 0] : Fin 4 → Nat) a + S1x1x128x32.size a ≤ S1x284x128x32.size a
  inb_S1x512x128x32_S1x1x128x32_0_211_0_0 : ∀ a, (![0, 211, 0, 0] : Fin 4 → Nat) a + S1x1x128x32.size a ≤ S1x512x128x32.size a
  inb_S1x284x128x32_S1x1x128x32_0_95_0_0 : ∀ a, (![0, 95, 0, 0] : Fin 4 → Nat) a + S1x1x128x32.size a ≤ S1x284x128x32.size a
  inb_S1x512x128x32_S1x1x128x32_0_212_0_0 : ∀ a, (![0, 212, 0, 0] : Fin 4 → Nat) a + S1x1x128x32.size a ≤ S1x512x128x32.size a
  inb_S1x284x128x32_S1x1x128x32_0_96_0_0 : ∀ a, (![0, 96, 0, 0] : Fin 4 → Nat) a + S1x1x128x32.size a ≤ S1x284x128x32.size a
  inb_S1x512x128x32_S1x1x128x32_0_213_0_0 : ∀ a, (![0, 213, 0, 0] : Fin 4 → Nat) a + S1x1x128x32.size a ≤ S1x512x128x32.size a
  inb_S1x284x128x32_S1x1x128x32_0_97_0_0 : ∀ a, (![0, 97, 0, 0] : Fin 4 → Nat) a + S1x1x128x32.size a ≤ S1x284x128x32.size a
  inb_S1x512x128x32_S1x1x128x32_0_214_0_0 : ∀ a, (![0, 214, 0, 0] : Fin 4 → Nat) a + S1x1x128x32.size a ≤ S1x512x128x32.size a
  inb_S1x284x128x32_S1x1x128x32_0_98_0_0 : ∀ a, (![0, 98, 0, 0] : Fin 4 → Nat) a + S1x1x128x32.size a ≤ S1x284x128x32.size a
  inb_S1x512x128x32_S1x1x128x32_0_215_0_0 : ∀ a, (![0, 215, 0, 0] : Fin 4 → Nat) a + S1x1x128x32.size a ≤ S1x512x128x32.size a
  inb_S1x284x128x32_S1x1x128x32_0_99_0_0 : ∀ a, (![0, 99, 0, 0] : Fin 4 → Nat) a + S1x1x128x32.size a ≤ S1x284x128x32.size a
  inb_S1x512x128x32_S1x1x128x32_0_216_0_0 : ∀ a, (![0, 216, 0, 0] : Fin 4 → Nat) a + S1x1x128x32.size a ≤ S1x512x128x32.size a
  inb_S1x284x128x32_S1x1x128x32_0_100_0_0 : ∀ a, (![0, 100, 0, 0] : Fin 4 → Nat) a + S1x1x128x32.size a ≤ S1x284x128x32.size a
  inb_S1x512x128x32_S1x1x128x32_0_217_0_0 : ∀ a, (![0, 217, 0, 0] : Fin 4 → Nat) a + S1x1x128x32.size a ≤ S1x512x128x32.size a
  inb_S1x284x128x32_S1x1x128x32_0_101_0_0 : ∀ a, (![0, 101, 0, 0] : Fin 4 → Nat) a + S1x1x128x32.size a ≤ S1x284x128x32.size a
  inb_S1x512x128x32_S1x1x128x32_0_218_0_0 : ∀ a, (![0, 218, 0, 0] : Fin 4 → Nat) a + S1x1x128x32.size a ≤ S1x512x128x32.size a
  inb_S1x284x128x32_S1x1x128x32_0_102_0_0 : ∀ a, (![0, 102, 0, 0] : Fin 4 → Nat) a + S1x1x128x32.size a ≤ S1x284x128x32.size a
  inb_S1x512x128x32_S1x1x128x32_0_219_0_0 : ∀ a, (![0, 219, 0, 0] : Fin 4 → Nat) a + S1x1x128x32.size a ≤ S1x512x128x32.size a
  inb_S1x284x128x32_S1x1x128x32_0_103_0_0 : ∀ a, (![0, 103, 0, 0] : Fin 4 → Nat) a + S1x1x128x32.size a ≤ S1x284x128x32.size a
  inb_S1x512x128x32_S1x1x128x32_0_220_0_0 : ∀ a, (![0, 220, 0, 0] : Fin 4 → Nat) a + S1x1x128x32.size a ≤ S1x512x128x32.size a
  inb_S1x284x128x32_S1x1x128x32_0_104_0_0 : ∀ a, (![0, 104, 0, 0] : Fin 4 → Nat) a + S1x1x128x32.size a ≤ S1x284x128x32.size a
  inb_S1x512x128x32_S1x1x128x32_0_221_0_0 : ∀ a, (![0, 221, 0, 0] : Fin 4 → Nat) a + S1x1x128x32.size a ≤ S1x512x128x32.size a
  inb_S1x284x128x32_S1x1x128x32_0_105_0_0 : ∀ a, (![0, 105, 0, 0] : Fin 4 → Nat) a + S1x1x128x32.size a ≤ S1x284x128x32.size a
  inb_S1x512x128x32_S1x1x128x32_0_222_0_0 : ∀ a, (![0, 222, 0, 0] : Fin 4 → Nat) a + S1x1x128x32.size a ≤ S1x512x128x32.size a
  inb_S1x284x128x32_S1x1x128x32_0_106_0_0 : ∀ a, (![0, 106, 0, 0] : Fin 4 → Nat) a + S1x1x128x32.size a ≤ S1x284x128x32.size a
  inb_S1x512x128x32_S1x1x128x32_0_223_0_0 : ∀ a, (![0, 223, 0, 0] : Fin 4 → Nat) a + S1x1x128x32.size a ≤ S1x512x128x32.size a
  inb_S1x284x128x32_S1x1x128x32_0_107_0_0 : ∀ a, (![0, 107, 0, 0] : Fin 4 → Nat) a + S1x1x128x32.size a ≤ S1x284x128x32.size a
  inb_S1x512x128x32_S1x1x128x32_0_224_0_0 : ∀ a, (![0, 224, 0, 0] : Fin 4 → Nat) a + S1x1x128x32.size a ≤ S1x512x128x32.size a
  inb_S1x284x128x32_S1x1x128x32_0_108_0_0 : ∀ a, (![0, 108, 0, 0] : Fin 4 → Nat) a + S1x1x128x32.size a ≤ S1x284x128x32.size a
  inb_S1x512x128x32_S1x1x128x32_0_225_0_0 : ∀ a, (![0, 225, 0, 0] : Fin 4 → Nat) a + S1x1x128x32.size a ≤ S1x512x128x32.size a
  inb_S1x284x128x32_S1x1x128x32_0_109_0_0 : ∀ a, (![0, 109, 0, 0] : Fin 4 → Nat) a + S1x1x128x32.size a ≤ S1x284x128x32.size a
  inb_S1x512x128x32_S1x1x128x32_0_226_0_0 : ∀ a, (![0, 226, 0, 0] : Fin 4 → Nat) a + S1x1x128x32.size a ≤ S1x512x128x32.size a
  inb_S1x284x128x32_S1x1x128x32_0_110_0_0 : ∀ a, (![0, 110, 0, 0] : Fin 4 → Nat) a + S1x1x128x32.size a ≤ S1x284x128x32.size a
  inb_S1x512x128x32_S1x1x128x32_0_227_0_0 : ∀ a, (![0, 227, 0, 0] : Fin 4 → Nat) a + S1x1x128x32.size a ≤ S1x512x128x32.size a
  inb_S1x284x128x32_S1x1x128x32_0_111_0_0 : ∀ a, (![0, 111, 0, 0] : Fin 4 → Nat) a + S1x1x128x32.size a ≤ S1x284x128x32.size a
  inb_S1x512x128x32_S1x1x128x32_0_228_0_0 : ∀ a, (![0, 228, 0, 0] : Fin 4 → Nat) a + S1x1x128x32.size a ≤ S1x512x128x32.size a
  inb_S1x284x128x32_S1x1x128x32_0_112_0_0 : ∀ a, (![0, 112, 0, 0] : Fin 4 → Nat) a + S1x1x128x32.size a ≤ S1x284x128x32.size a
  inb_S1x512x128x32_S1x1x128x32_0_229_0_0 : ∀ a, (![0, 229, 0, 0] : Fin 4 → Nat) a + S1x1x128x32.size a ≤ S1x512x128x32.size a
  inb_S1x284x128x32_S1x1x128x32_0_113_0_0 : ∀ a, (![0, 113, 0, 0] : Fin 4 → Nat) a + S1x1x128x32.size a ≤ S1x284x128x32.size a
  inb_S1x512x128x32_S1x1x128x32_0_230_0_0 : ∀ a, (![0, 230, 0, 0] : Fin 4 → Nat) a + S1x1x128x32.size a ≤ S1x512x128x32.size a
  inb_S1x284x128x32_S1x1x128x32_0_114_0_0 : ∀ a, (![0, 114, 0, 0] : Fin 4 → Nat) a + S1x1x128x32.size a ≤ S1x284x128x32.size a
  inb_S1x512x128x32_S1x1x128x32_0_231_0_0 : ∀ a, (![0, 231, 0, 0] : Fin 4 → Nat) a + S1x1x128x32.size a ≤ S1x512x128x32.size a
  inb_S1x284x128x32_S1x1x128x32_0_115_0_0 : ∀ a, (![0, 115, 0, 0] : Fin 4 → Nat) a + S1x1x128x32.size a ≤ S1x284x128x32.size a
  inb_S1x512x128x32_S1x1x128x32_0_232_0_0 : ∀ a, (![0, 232, 0, 0] : Fin 4 → Nat) a + S1x1x128x32.size a ≤ S1x512x128x32.size a
  inb_S1x284x128x32_S1x1x128x32_0_116_0_0 : ∀ a, (![0, 116, 0, 0] : Fin 4 → Nat) a + S1x1x128x32.size a ≤ S1x284x128x32.size a
  inb_S1x512x128x32_S1x1x128x32_0_233_0_0 : ∀ a, (![0, 233, 0, 0] : Fin 4 → Nat) a + S1x1x128x32.size a ≤ S1x512x128x32.size a
  inb_S1x284x128x32_S1x1x128x32_0_117_0_0 : ∀ a, (![0, 117, 0, 0] : Fin 4 → Nat) a + S1x1x128x32.size a ≤ S1x284x128x32.size a
  inb_S1x512x128x32_S1x1x128x32_0_234_0_0 : ∀ a, (![0, 234, 0, 0] : Fin 4 → Nat) a + S1x1x128x32.size a ≤ S1x512x128x32.size a
  inb_S1x284x128x32_S1x1x128x32_0_118_0_0 : ∀ a, (![0, 118, 0, 0] : Fin 4 → Nat) a + S1x1x128x32.size a ≤ S1x284x128x32.size a
  inb_S1x512x128x32_S1x1x128x32_0_235_0_0 : ∀ a, (![0, 235, 0, 0] : Fin 4 → Nat) a + S1x1x128x32.size a ≤ S1x512x128x32.size a
  inb_S1x284x128x32_S1x1x128x32_0_119_0_0 : ∀ a, (![0, 119, 0, 0] : Fin 4 → Nat) a + S1x1x128x32.size a ≤ S1x284x128x32.size a
  inb_S1x512x128x32_S1x1x128x32_0_236_0_0 : ∀ a, (![0, 236, 0, 0] : Fin 4 → Nat) a + S1x1x128x32.size a ≤ S1x512x128x32.size a
  inb_S1x284x128x32_S1x1x128x32_0_120_0_0 : ∀ a, (![0, 120, 0, 0] : Fin 4 → Nat) a + S1x1x128x32.size a ≤ S1x284x128x32.size a
  inb_S1x512x128x32_S1x1x128x32_0_237_0_0 : ∀ a, (![0, 237, 0, 0] : Fin 4 → Nat) a + S1x1x128x32.size a ≤ S1x512x128x32.size a
  inb_S1x284x128x32_S1x1x128x32_0_121_0_0 : ∀ a, (![0, 121, 0, 0] : Fin 4 → Nat) a + S1x1x128x32.size a ≤ S1x284x128x32.size a
  inb_S1x512x128x32_S1x1x128x32_0_238_0_0 : ∀ a, (![0, 238, 0, 0] : Fin 4 → Nat) a + S1x1x128x32.size a ≤ S1x512x128x32.size a
  inb_S1x284x128x32_S1x1x128x32_0_122_0_0 : ∀ a, (![0, 122, 0, 0] : Fin 4 → Nat) a + S1x1x128x32.size a ≤ S1x284x128x32.size a
  inb_S1x512x128x32_S1x1x128x32_0_239_0_0 : ∀ a, (![0, 239, 0, 0] : Fin 4 → Nat) a + S1x1x128x32.size a ≤ S1x512x128x32.size a
  inb_S1x284x128x32_S1x1x128x32_0_123_0_0 : ∀ a, (![0, 123, 0, 0] : Fin 4 → Nat) a + S1x1x128x32.size a ≤ S1x284x128x32.size a
  inb_S1x512x128x32_S1x1x128x32_0_240_0_0 : ∀ a, (![0, 240, 0, 0] : Fin 4 → Nat) a + S1x1x128x32.size a ≤ S1x512x128x32.size a
  inb_S1x284x128x32_S1x1x128x32_0_124_0_0 : ∀ a, (![0, 124, 0, 0] : Fin 4 → Nat) a + S1x1x128x32.size a ≤ S1x284x128x32.size a
  inb_S1x512x128x32_S1x1x128x32_0_241_0_0 : ∀ a, (![0, 241, 0, 0] : Fin 4 → Nat) a + S1x1x128x32.size a ≤ S1x512x128x32.size a
  inb_S1x284x128x32_S1x1x128x32_0_125_0_0 : ∀ a, (![0, 125, 0, 0] : Fin 4 → Nat) a + S1x1x128x32.size a ≤ S1x284x128x32.size a
  inb_S1x512x128x32_S1x1x128x32_0_242_0_0 : ∀ a, (![0, 242, 0, 0] : Fin 4 → Nat) a + S1x1x128x32.size a ≤ S1x512x128x32.size a
  inb_S1x284x128x32_S1x1x128x32_0_126_0_0 : ∀ a, (![0, 126, 0, 0] : Fin 4 → Nat) a + S1x1x128x32.size a ≤ S1x284x128x32.size a
  inb_S1x512x128x32_S1x1x128x32_0_243_0_0 : ∀ a, (![0, 243, 0, 0] : Fin 4 → Nat) a + S1x1x128x32.size a ≤ S1x512x128x32.size a
  inb_S1x284x128x32_S1x1x128x32_0_127_0_0 : ∀ a, (![0, 127, 0, 0] : Fin 4 → Nat) a + S1x1x128x32.size a ≤ S1x284x128x32.size a
  inb_S1x512x128x32_S1x1x128x32_0_244_0_0 : ∀ a, (![0, 244, 0, 0] : Fin 4 → Nat) a + S1x1x128x32.size a ≤ S1x512x128x32.size a
  inb_S1x284x128x32_S1x1x128x32_0_128_0_0 : ∀ a, (![0, 128, 0, 0] : Fin 4 → Nat) a + S1x1x128x32.size a ≤ S1x284x128x32.size a
  inb_S1x512x128x32_S1x1x128x32_0_245_0_0 : ∀ a, (![0, 245, 0, 0] : Fin 4 → Nat) a + S1x1x128x32.size a ≤ S1x512x128x32.size a
  inb_S1x284x128x32_S1x1x128x32_0_129_0_0 : ∀ a, (![0, 129, 0, 0] : Fin 4 → Nat) a + S1x1x128x32.size a ≤ S1x284x128x32.size a
  inb_S1x512x128x32_S1x1x128x32_0_246_0_0 : ∀ a, (![0, 246, 0, 0] : Fin 4 → Nat) a + S1x1x128x32.size a ≤ S1x512x128x32.size a
  inb_S1x284x128x32_S1x1x128x32_0_130_0_0 : ∀ a, (![0, 130, 0, 0] : Fin 4 → Nat) a + S1x1x128x32.size a ≤ S1x284x128x32.size a
  inb_S1x512x128x32_S1x1x128x32_0_247_0_0 : ∀ a, (![0, 247, 0, 0] : Fin 4 → Nat) a + S1x1x128x32.size a ≤ S1x512x128x32.size a
  inb_S1x284x128x32_S1x1x128x32_0_131_0_0 : ∀ a, (![0, 131, 0, 0] : Fin 4 → Nat) a + S1x1x128x32.size a ≤ S1x284x128x32.size a
  inb_S1x512x128x32_S1x1x128x32_0_248_0_0 : ∀ a, (![0, 248, 0, 0] : Fin 4 → Nat) a + S1x1x128x32.size a ≤ S1x512x128x32.size a
  inb_S1x284x128x32_S1x1x128x32_0_132_0_0 : ∀ a, (![0, 132, 0, 0] : Fin 4 → Nat) a + S1x1x128x32.size a ≤ S1x284x128x32.size a
  inb_S1x512x128x32_S1x1x128x32_0_249_0_0 : ∀ a, (![0, 249, 0, 0] : Fin 4 → Nat) a + S1x1x128x32.size a ≤ S1x512x128x32.size a
  inb_S1x284x128x32_S1x1x128x32_0_133_0_0 : ∀ a, (![0, 133, 0, 0] : Fin 4 → Nat) a + S1x1x128x32.size a ≤ S1x284x128x32.size a
  inb_S1x512x128x32_S1x1x128x32_0_250_0_0 : ∀ a, (![0, 250, 0, 0] : Fin 4 → Nat) a + S1x1x128x32.size a ≤ S1x512x128x32.size a
  inb_S1x284x128x32_S1x1x128x32_0_134_0_0 : ∀ a, (![0, 134, 0, 0] : Fin 4 → Nat) a + S1x1x128x32.size a ≤ S1x284x128x32.size a
  inb_S1x512x128x32_S1x1x128x32_0_251_0_0 : ∀ a, (![0, 251, 0, 0] : Fin 4 → Nat) a + S1x1x128x32.size a ≤ S1x512x128x32.size a
  inb_S1x284x128x32_S1x1x128x32_0_135_0_0 : ∀ a, (![0, 135, 0, 0] : Fin 4 → Nat) a + S1x1x128x32.size a ≤ S1x284x128x32.size a
  inb_S1x512x128x32_S1x1x128x32_0_252_0_0 : ∀ a, (![0, 252, 0, 0] : Fin 4 → Nat) a + S1x1x128x32.size a ≤ S1x512x128x32.size a
  inb_S1x284x128x32_S1x1x128x32_0_136_0_0 : ∀ a, (![0, 136, 0, 0] : Fin 4 → Nat) a + S1x1x128x32.size a ≤ S1x284x128x32.size a
  inb_S1x512x128x32_S1x1x128x32_0_253_0_0 : ∀ a, (![0, 253, 0, 0] : Fin 4 → Nat) a + S1x1x128x32.size a ≤ S1x512x128x32.size a
  inb_S1x284x128x32_S1x1x128x32_0_137_0_0 : ∀ a, (![0, 137, 0, 0] : Fin 4 → Nat) a + S1x1x128x32.size a ≤ S1x284x128x32.size a
  inb_S1x512x128x32_S1x1x128x32_0_254_0_0 : ∀ a, (![0, 254, 0, 0] : Fin 4 → Nat) a + S1x1x128x32.size a ≤ S1x512x128x32.size a
  inb_S1x284x128x32_S1x1x128x32_0_138_0_0 : ∀ a, (![0, 138, 0, 0] : Fin 4 → Nat) a + S1x1x128x32.size a ≤ S1x284x128x32.size a
  inb_S1x512x128x32_S1x1x128x32_0_255_0_0 : ∀ a, (![0, 255, 0, 0] : Fin 4 → Nat) a + S1x1x128x32.size a ≤ S1x512x128x32.size a
  inb_S1x284x128x32_S1x1x128x32_0_139_0_0 : ∀ a, (![0, 139, 0, 0] : Fin 4 → Nat) a + S1x1x128x32.size a ≤ S1x284x128x32.size a
  inb_S1x512x128x32_S1x1x128x32_0_256_0_0 : ∀ a, (![0, 256, 0, 0] : Fin 4 → Nat) a + S1x1x128x32.size a ≤ S1x512x128x32.size a
  inb_S1x284x128x32_S1x1x128x32_0_140_0_0 : ∀ a, (![0, 140, 0, 0] : Fin 4 → Nat) a + S1x1x128x32.size a ≤ S1x284x128x32.size a
  inb_S1x512x128x32_S1x1x128x32_0_257_0_0 : ∀ a, (![0, 257, 0, 0] : Fin 4 → Nat) a + S1x1x128x32.size a ≤ S1x512x128x32.size a
  inb_S1x284x128x32_S1x1x128x32_0_141_0_0 : ∀ a, (![0, 141, 0, 0] : Fin 4 → Nat) a + S1x1x128x32.size a ≤ S1x284x128x32.size a
  inb_S1x512x128x32_S1x1x128x32_0_258_0_0 : ∀ a, (![0, 258, 0, 0] : Fin 4 → Nat) a + S1x1x128x32.size a ≤ S1x512x128x32.size a
  inb_S1x284x128x32_S1x1x128x32_0_142_0_0 : ∀ a, (![0, 142, 0, 0] : Fin 4 → Nat) a + S1x1x128x32.size a ≤ S1x284x128x32.size a
  inb_S1x512x128x32_S1x1x128x32_0_259_0_0 : ∀ a, (![0, 259, 0, 0] : Fin 4 → Nat) a + S1x1x128x32.size a ≤ S1x512x128x32.size a
  inb_S1x284x128x32_S1x1x128x32_0_143_0_0 : ∀ a, (![0, 143, 0, 0] : Fin 4 → Nat) a + S1x1x128x32.size a ≤ S1x284x128x32.size a
  inb_S1x512x128x32_S1x1x128x32_0_260_0_0 : ∀ a, (![0, 260, 0, 0] : Fin 4 → Nat) a + S1x1x128x32.size a ≤ S1x512x128x32.size a
  inb_S1x284x128x32_S1x1x128x32_0_144_0_0 : ∀ a, (![0, 144, 0, 0] : Fin 4 → Nat) a + S1x1x128x32.size a ≤ S1x284x128x32.size a
  inb_S1x512x128x32_S1x1x128x32_0_261_0_0 : ∀ a, (![0, 261, 0, 0] : Fin 4 → Nat) a + S1x1x128x32.size a ≤ S1x512x128x32.size a
  inb_S1x284x128x32_S1x1x128x32_0_145_0_0 : ∀ a, (![0, 145, 0, 0] : Fin 4 → Nat) a + S1x1x128x32.size a ≤ S1x284x128x32.size a
  inb_S1x512x128x32_S1x1x128x32_0_262_0_0 : ∀ a, (![0, 262, 0, 0] : Fin 4 → Nat) a + S1x1x128x32.size a ≤ S1x512x128x32.size a
  inb_S1x284x128x32_S1x1x128x32_0_146_0_0 : ∀ a, (![0, 146, 0, 0] : Fin 4 → Nat) a + S1x1x128x32.size a ≤ S1x284x128x32.size a
  inb_S1x512x128x32_S1x1x128x32_0_263_0_0 : ∀ a, (![0, 263, 0, 0] : Fin 4 → Nat) a + S1x1x128x32.size a ≤ S1x512x128x32.size a
  inb_S1x284x128x32_S1x1x128x32_0_147_0_0 : ∀ a, (![0, 147, 0, 0] : Fin 4 → Nat) a + S1x1x128x32.size a ≤ S1x284x128x32.size a
  inb_S1x512x128x32_S1x1x128x32_0_264_0_0 : ∀ a, (![0, 264, 0, 0] : Fin 4 → Nat) a + S1x1x128x32.size a ≤ S1x512x128x32.size a
  inb_S1x284x128x32_S1x1x128x32_0_148_0_0 : ∀ a, (![0, 148, 0, 0] : Fin 4 → Nat) a + S1x1x128x32.size a ≤ S1x284x128x32.size a
  inb_S1x512x128x32_S1x1x128x32_0_265_0_0 : ∀ a, (![0, 265, 0, 0] : Fin 4 → Nat) a + S1x1x128x32.size a ≤ S1x512x128x32.size a
  inb_S1x284x128x32_S1x1x128x32_0_149_0_0 : ∀ a, (![0, 149, 0, 0] : Fin 4 → Nat) a + S1x1x128x32.size a ≤ S1x284x128x32.size a
  inb_S1x512x128x32_S1x1x128x32_0_266_0_0 : ∀ a, (![0, 266, 0, 0] : Fin 4 → Nat) a + S1x1x128x32.size a ≤ S1x512x128x32.size a
  inb_S1x284x128x32_S1x1x128x32_0_150_0_0 : ∀ a, (![0, 150, 0, 0] : Fin 4 → Nat) a + S1x1x128x32.size a ≤ S1x284x128x32.size a
  inb_S1x512x128x32_S1x1x128x32_0_267_0_0 : ∀ a, (![0, 267, 0, 0] : Fin 4 → Nat) a + S1x1x128x32.size a ≤ S1x512x128x32.size a
  inb_S1x284x128x32_S1x1x128x32_0_151_0_0 : ∀ a, (![0, 151, 0, 0] : Fin 4 → Nat) a + S1x1x128x32.size a ≤ S1x284x128x32.size a
  inb_S1x512x128x32_S1x1x128x32_0_268_0_0 : ∀ a, (![0, 268, 0, 0] : Fin 4 → Nat) a + S1x1x128x32.size a ≤ S1x512x128x32.size a
  inb_S1x284x128x32_S1x1x128x32_0_152_0_0 : ∀ a, (![0, 152, 0, 0] : Fin 4 → Nat) a + S1x1x128x32.size a ≤ S1x284x128x32.size a
  inb_S1x512x128x32_S1x1x128x32_0_269_0_0 : ∀ a, (![0, 269, 0, 0] : Fin 4 → Nat) a + S1x1x128x32.size a ≤ S1x512x128x32.size a
  inb_S1x284x128x32_S1x1x128x32_0_153_0_0 : ∀ a, (![0, 153, 0, 0] : Fin 4 → Nat) a + S1x1x128x32.size a ≤ S1x284x128x32.size a
  inb_S1x512x128x32_S1x1x128x32_0_270_0_0 : ∀ a, (![0, 270, 0, 0] : Fin 4 → Nat) a + S1x1x128x32.size a ≤ S1x512x128x32.size a
  inb_S1x284x128x32_S1x1x128x32_0_154_0_0 : ∀ a, (![0, 154, 0, 0] : Fin 4 → Nat) a + S1x1x128x32.size a ≤ S1x284x128x32.size a
  inb_S1x512x128x32_S1x1x128x32_0_271_0_0 : ∀ a, (![0, 271, 0, 0] : Fin 4 → Nat) a + S1x1x128x32.size a ≤ S1x512x128x32.size a
  inb_S1x284x128x32_S1x1x128x32_0_155_0_0 : ∀ a, (![0, 155, 0, 0] : Fin 4 → Nat) a + S1x1x128x32.size a ≤ S1x284x128x32.size a
  inb_S1x512x128x32_S1x1x128x32_0_272_0_0 : ∀ a, (![0, 272, 0, 0] : Fin 4 → Nat) a + S1x1x128x32.size a ≤ S1x512x128x32.size a
  inb_S1x284x128x32_S1x1x128x32_0_156_0_0 : ∀ a, (![0, 156, 0, 0] : Fin 4 → Nat) a + S1x1x128x32.size a ≤ S1x284x128x32.size a
  inb_S1x512x128x32_S1x1x128x32_0_273_0_0 : ∀ a, (![0, 273, 0, 0] : Fin 4 → Nat) a + S1x1x128x32.size a ≤ S1x512x128x32.size a
  inb_S1x284x128x32_S1x1x128x32_0_157_0_0 : ∀ a, (![0, 157, 0, 0] : Fin 4 → Nat) a + S1x1x128x32.size a ≤ S1x284x128x32.size a
  inb_S1x512x128x32_S1x1x128x32_0_274_0_0 : ∀ a, (![0, 274, 0, 0] : Fin 4 → Nat) a + S1x1x128x32.size a ≤ S1x512x128x32.size a
  inb_S1x284x128x32_S1x1x128x32_0_158_0_0 : ∀ a, (![0, 158, 0, 0] : Fin 4 → Nat) a + S1x1x128x32.size a ≤ S1x284x128x32.size a
  inb_S1x512x128x32_S1x1x128x32_0_275_0_0 : ∀ a, (![0, 275, 0, 0] : Fin 4 → Nat) a + S1x1x128x32.size a ≤ S1x512x128x32.size a
  inb_S1x284x128x32_S1x1x128x32_0_159_0_0 : ∀ a, (![0, 159, 0, 0] : Fin 4 → Nat) a + S1x1x128x32.size a ≤ S1x284x128x32.size a
  inb_S1x512x128x32_S1x1x128x32_0_276_0_0 : ∀ a, (![0, 276, 0, 0] : Fin 4 → Nat) a + S1x1x128x32.size a ≤ S1x512x128x32.size a
  inb_S1x284x128x32_S1x1x128x32_0_160_0_0 : ∀ a, (![0, 160, 0, 0] : Fin 4 → Nat) a + S1x1x128x32.size a ≤ S1x284x128x32.size a
  inb_S1x512x128x32_S1x1x128x32_0_277_0_0 : ∀ a, (![0, 277, 0, 0] : Fin 4 → Nat) a + S1x1x128x32.size a ≤ S1x512x128x32.size a
  inb_S1x284x128x32_S1x1x128x32_0_161_0_0 : ∀ a, (![0, 161, 0, 0] : Fin 4 → Nat) a + S1x1x128x32.size a ≤ S1x284x128x32.size a
  inb_S1x512x128x32_S1x1x128x32_0_278_0_0 : ∀ a, (![0, 278, 0, 0] : Fin 4 → Nat) a + S1x1x128x32.size a ≤ S1x512x128x32.size a
  inb_S1x284x128x32_S1x1x128x32_0_162_0_0 : ∀ a, (![0, 162, 0, 0] : Fin 4 → Nat) a + S1x1x128x32.size a ≤ S1x284x128x32.size a
  inb_S1x512x128x32_S1x1x128x32_0_279_0_0 : ∀ a, (![0, 279, 0, 0] : Fin 4 → Nat) a + S1x1x128x32.size a ≤ S1x512x128x32.size a
  inb_S1x284x128x32_S1x1x128x32_0_163_0_0 : ∀ a, (![0, 163, 0, 0] : Fin 4 → Nat) a + S1x1x128x32.size a ≤ S1x284x128x32.size a
  inb_S1x512x128x32_S1x1x128x32_0_280_0_0 : ∀ a, (![0, 280, 0, 0] : Fin 4 → Nat) a + S1x1x128x32.size a ≤ S1x512x128x32.size a
  inb_S1x284x128x32_S1x1x128x32_0_164_0_0 : ∀ a, (![0, 164, 0, 0] : Fin 4 → Nat) a + S1x1x128x32.size a ≤ S1x284x128x32.size a
  inb_S1x512x128x32_S1x1x128x32_0_281_0_0 : ∀ a, (![0, 281, 0, 0] : Fin 4 → Nat) a + S1x1x128x32.size a ≤ S1x512x128x32.size a
  inb_S1x284x128x32_S1x1x128x32_0_165_0_0 : ∀ a, (![0, 165, 0, 0] : Fin 4 → Nat) a + S1x1x128x32.size a ≤ S1x284x128x32.size a
  inb_S1x512x128x32_S1x1x128x32_0_282_0_0 : ∀ a, (![0, 282, 0, 0] : Fin 4 → Nat) a + S1x1x128x32.size a ≤ S1x512x128x32.size a
  inb_S1x284x128x32_S1x1x128x32_0_166_0_0 : ∀ a, (![0, 166, 0, 0] : Fin 4 → Nat) a + S1x1x128x32.size a ≤ S1x284x128x32.size a
  inb_S1x512x128x32_S1x1x128x32_0_283_0_0 : ∀ a, (![0, 283, 0, 0] : Fin 4 → Nat) a + S1x1x128x32.size a ≤ S1x512x128x32.size a
  inb_S1x284x128x32_S1x1x128x32_0_167_0_0 : ∀ a, (![0, 167, 0, 0] : Fin 4 → Nat) a + S1x1x128x32.size a ≤ S1x284x128x32.size a
  inb_S1x512x128x32_S1x1x128x32_0_284_0_0 : ∀ a, (![0, 284, 0, 0] : Fin 4 → Nat) a + S1x1x128x32.size a ≤ S1x512x128x32.size a
  inb_S1x284x128x32_S1x1x128x32_0_168_0_0 : ∀ a, (![0, 168, 0, 0] : Fin 4 → Nat) a + S1x1x128x32.size a ≤ S1x284x128x32.size a
  inb_S1x512x128x32_S1x1x128x32_0_285_0_0 : ∀ a, (![0, 285, 0, 0] : Fin 4 → Nat) a + S1x1x128x32.size a ≤ S1x512x128x32.size a
  inb_S1x284x128x32_S1x1x128x32_0_169_0_0 : ∀ a, (![0, 169, 0, 0] : Fin 4 → Nat) a + S1x1x128x32.size a ≤ S1x284x128x32.size a
  inb_S1x512x128x32_S1x1x128x32_0_286_0_0 : ∀ a, (![0, 286, 0, 0] : Fin 4 → Nat) a + S1x1x128x32.size a ≤ S1x512x128x32.size a
  inb_S1x284x128x32_S1x1x128x32_0_170_0_0 : ∀ a, (![0, 170, 0, 0] : Fin 4 → Nat) a + S1x1x128x32.size a ≤ S1x284x128x32.size a
  inb_S1x512x128x32_S1x1x128x32_0_287_0_0 : ∀ a, (![0, 287, 0, 0] : Fin 4 → Nat) a + S1x1x128x32.size a ≤ S1x512x128x32.size a
  inb_S1x284x128x32_S1x1x128x32_0_171_0_0 : ∀ a, (![0, 171, 0, 0] : Fin 4 → Nat) a + S1x1x128x32.size a ≤ S1x284x128x32.size a
  inb_S1x512x128x32_S1x1x128x32_0_288_0_0 : ∀ a, (![0, 288, 0, 0] : Fin 4 → Nat) a + S1x1x128x32.size a ≤ S1x512x128x32.size a
  inb_S1x284x128x32_S1x1x128x32_0_172_0_0 : ∀ a, (![0, 172, 0, 0] : Fin 4 → Nat) a + S1x1x128x32.size a ≤ S1x284x128x32.size a
  inb_S1x512x128x32_S1x1x128x32_0_289_0_0 : ∀ a, (![0, 289, 0, 0] : Fin 4 → Nat) a + S1x1x128x32.size a ≤ S1x512x128x32.size a
  inb_S1x284x128x32_S1x1x128x32_0_173_0_0 : ∀ a, (![0, 173, 0, 0] : Fin 4 → Nat) a + S1x1x128x32.size a ≤ S1x284x128x32.size a
  inb_S1x512x128x32_S1x1x128x32_0_290_0_0 : ∀ a, (![0, 290, 0, 0] : Fin 4 → Nat) a + S1x1x128x32.size a ≤ S1x512x128x32.size a
  inb_S1x284x128x32_S1x1x128x32_0_174_0_0 : ∀ a, (![0, 174, 0, 0] : Fin 4 → Nat) a + S1x1x128x32.size a ≤ S1x284x128x32.size a
  inb_S1x512x128x32_S1x1x128x32_0_291_0_0 : ∀ a, (![0, 291, 0, 0] : Fin 4 → Nat) a + S1x1x128x32.size a ≤ S1x512x128x32.size a
  inb_S1x284x128x32_S1x1x128x32_0_175_0_0 : ∀ a, (![0, 175, 0, 0] : Fin 4 → Nat) a + S1x1x128x32.size a ≤ S1x284x128x32.size a
  inb_S1x512x128x32_S1x1x128x32_0_292_0_0 : ∀ a, (![0, 292, 0, 0] : Fin 4 → Nat) a + S1x1x128x32.size a ≤ S1x512x128x32.size a
  inb_S1x284x128x32_S1x1x128x32_0_176_0_0 : ∀ a, (![0, 176, 0, 0] : Fin 4 → Nat) a + S1x1x128x32.size a ≤ S1x284x128x32.size a
  inb_S1x512x128x32_S1x1x128x32_0_293_0_0 : ∀ a, (![0, 293, 0, 0] : Fin 4 → Nat) a + S1x1x128x32.size a ≤ S1x512x128x32.size a
  inb_S1x284x128x32_S1x1x128x32_0_177_0_0 : ∀ a, (![0, 177, 0, 0] : Fin 4 → Nat) a + S1x1x128x32.size a ≤ S1x284x128x32.size a
  inb_S1x512x128x32_S1x1x128x32_0_294_0_0 : ∀ a, (![0, 294, 0, 0] : Fin 4 → Nat) a + S1x1x128x32.size a ≤ S1x512x128x32.size a
  inb_S1x284x128x32_S1x1x128x32_0_178_0_0 : ∀ a, (![0, 178, 0, 0] : Fin 4 → Nat) a + S1x1x128x32.size a ≤ S1x284x128x32.size a
  inb_S1x512x128x32_S1x1x128x32_0_295_0_0 : ∀ a, (![0, 295, 0, 0] : Fin 4 → Nat) a + S1x1x128x32.size a ≤ S1x512x128x32.size a
  inb_S1x284x128x32_S1x1x128x32_0_179_0_0 : ∀ a, (![0, 179, 0, 0] : Fin 4 → Nat) a + S1x1x128x32.size a ≤ S1x284x128x32.size a
  inb_S1x512x128x32_S1x1x128x32_0_296_0_0 : ∀ a, (![0, 296, 0, 0] : Fin 4 → Nat) a + S1x1x128x32.size a ≤ S1x512x128x32.size a
  inb_S1x284x128x32_S1x1x128x32_0_180_0_0 : ∀ a, (![0, 180, 0, 0] : Fin 4 → Nat) a + S1x1x128x32.size a ≤ S1x284x128x32.size a
  inb_S1x512x128x32_S1x1x128x32_0_297_0_0 : ∀ a, (![0, 297, 0, 0] : Fin 4 → Nat) a + S1x1x128x32.size a ≤ S1x512x128x32.size a
  inb_S1x284x128x32_S1x1x128x32_0_181_0_0 : ∀ a, (![0, 181, 0, 0] : Fin 4 → Nat) a + S1x1x128x32.size a ≤ S1x284x128x32.size a
  inb_S1x512x128x32_S1x1x128x32_0_298_0_0 : ∀ a, (![0, 298, 0, 0] : Fin 4 → Nat) a + S1x1x128x32.size a ≤ S1x512x128x32.size a
  inb_S1x284x128x32_S1x1x128x32_0_182_0_0 : ∀ a, (![0, 182, 0, 0] : Fin 4 → Nat) a + S1x1x128x32.size a ≤ S1x284x128x32.size a
  inb_S1x512x128x32_S1x1x128x32_0_299_0_0 : ∀ a, (![0, 299, 0, 0] : Fin 4 → Nat) a + S1x1x128x32.size a ≤ S1x512x128x32.size a
  inb_S1x284x128x32_S1x1x128x32_0_183_0_0 : ∀ a, (![0, 183, 0, 0] : Fin 4 → Nat) a + S1x1x128x32.size a ≤ S1x284x128x32.size a
  inb_S1x512x128x32_S1x1x128x32_0_300_0_0 : ∀ a, (![0, 300, 0, 0] : Fin 4 → Nat) a + S1x1x128x32.size a ≤ S1x512x128x32.size a
  inb_S1x284x128x32_S1x1x128x32_0_184_0_0 : ∀ a, (![0, 184, 0, 0] : Fin 4 → Nat) a + S1x1x128x32.size a ≤ S1x284x128x32.size a
  inb_S1x512x128x32_S1x1x128x32_0_301_0_0 : ∀ a, (![0, 301, 0, 0] : Fin 4 → Nat) a + S1x1x128x32.size a ≤ S1x512x128x32.size a
  inb_S1x284x128x32_S1x1x128x32_0_185_0_0 : ∀ a, (![0, 185, 0, 0] : Fin 4 → Nat) a + S1x1x128x32.size a ≤ S1x284x128x32.size a
  inb_S1x512x128x32_S1x1x128x32_0_302_0_0 : ∀ a, (![0, 302, 0, 0] : Fin 4 → Nat) a + S1x1x128x32.size a ≤ S1x512x128x32.size a
  inb_S1x284x128x32_S1x1x128x32_0_186_0_0 : ∀ a, (![0, 186, 0, 0] : Fin 4 → Nat) a + S1x1x128x32.size a ≤ S1x284x128x32.size a
  inb_S1x512x128x32_S1x1x128x32_0_303_0_0 : ∀ a, (![0, 303, 0, 0] : Fin 4 → Nat) a + S1x1x128x32.size a ≤ S1x512x128x32.size a
  inb_S1x284x128x32_S1x1x128x32_0_187_0_0 : ∀ a, (![0, 187, 0, 0] : Fin 4 → Nat) a + S1x1x128x32.size a ≤ S1x284x128x32.size a
  inb_S1x512x128x32_S1x1x128x32_0_304_0_0 : ∀ a, (![0, 304, 0, 0] : Fin 4 → Nat) a + S1x1x128x32.size a ≤ S1x512x128x32.size a
  inb_S1x284x128x32_S1x1x128x32_0_188_0_0 : ∀ a, (![0, 188, 0, 0] : Fin 4 → Nat) a + S1x1x128x32.size a ≤ S1x284x128x32.size a
  inb_S1x512x128x32_S1x1x128x32_0_305_0_0 : ∀ a, (![0, 305, 0, 0] : Fin 4 → Nat) a + S1x1x128x32.size a ≤ S1x512x128x32.size a
  inb_S1x284x128x32_S1x1x128x32_0_189_0_0 : ∀ a, (![0, 189, 0, 0] : Fin 4 → Nat) a + S1x1x128x32.size a ≤ S1x284x128x32.size a
  inb_S1x512x128x32_S1x1x128x32_0_306_0_0 : ∀ a, (![0, 306, 0, 0] : Fin 4 → Nat) a + S1x1x128x32.size a ≤ S1x512x128x32.size a
  inb_S1x284x128x32_S1x1x128x32_0_190_0_0 : ∀ a, (![0, 190, 0, 0] : Fin 4 → Nat) a + S1x1x128x32.size a ≤ S1x284x128x32.size a
  inb_S1x512x128x32_S1x1x128x32_0_307_0_0 : ∀ a, (![0, 307, 0, 0] : Fin 4 → Nat) a + S1x1x128x32.size a ≤ S1x512x128x32.size a
  inb_S1x284x128x32_S1x1x128x32_0_191_0_0 : ∀ a, (![0, 191, 0, 0] : Fin 4 → Nat) a + S1x1x128x32.size a ≤ S1x284x128x32.size a
  inb_S1x512x128x32_S1x1x128x32_0_308_0_0 : ∀ a, (![0, 308, 0, 0] : Fin 4 → Nat) a + S1x1x128x32.size a ≤ S1x512x128x32.size a
  inb_S1x284x128x32_S1x1x128x32_0_192_0_0 : ∀ a, (![0, 192, 0, 0] : Fin 4 → Nat) a + S1x1x128x32.size a ≤ S1x284x128x32.size a
  inb_S1x512x128x32_S1x1x128x32_0_309_0_0 : ∀ a, (![0, 309, 0, 0] : Fin 4 → Nat) a + S1x1x128x32.size a ≤ S1x512x128x32.size a
  inb_S1x284x128x32_S1x1x128x32_0_193_0_0 : ∀ a, (![0, 193, 0, 0] : Fin 4 → Nat) a + S1x1x128x32.size a ≤ S1x284x128x32.size a
  inb_S1x512x128x32_S1x1x128x32_0_310_0_0 : ∀ a, (![0, 310, 0, 0] : Fin 4 → Nat) a + S1x1x128x32.size a ≤ S1x512x128x32.size a
  inb_S1x284x128x32_S1x1x128x32_0_194_0_0 : ∀ a, (![0, 194, 0, 0] : Fin 4 → Nat) a + S1x1x128x32.size a ≤ S1x284x128x32.size a
  inb_S1x512x128x32_S1x1x128x32_0_311_0_0 : ∀ a, (![0, 311, 0, 0] : Fin 4 → Nat) a + S1x1x128x32.size a ≤ S1x512x128x32.size a
  inb_S1x284x128x32_S1x1x128x32_0_195_0_0 : ∀ a, (![0, 195, 0, 0] : Fin 4 → Nat) a + S1x1x128x32.size a ≤ S1x284x128x32.size a
  inb_S1x512x128x32_S1x1x128x32_0_312_0_0 : ∀ a, (![0, 312, 0, 0] : Fin 4 → Nat) a + S1x1x128x32.size a ≤ S1x512x128x32.size a
  inb_S1x284x128x32_S1x1x128x32_0_196_0_0 : ∀ a, (![0, 196, 0, 0] : Fin 4 → Nat) a + S1x1x128x32.size a ≤ S1x284x128x32.size a
  inb_S1x512x128x32_S1x1x128x32_0_313_0_0 : ∀ a, (![0, 313, 0, 0] : Fin 4 → Nat) a + S1x1x128x32.size a ≤ S1x512x128x32.size a
  inb_S1x284x128x32_S1x1x128x32_0_197_0_0 : ∀ a, (![0, 197, 0, 0] : Fin 4 → Nat) a + S1x1x128x32.size a ≤ S1x284x128x32.size a
  inb_S1x512x128x32_S1x1x128x32_0_314_0_0 : ∀ a, (![0, 314, 0, 0] : Fin 4 → Nat) a + S1x1x128x32.size a ≤ S1x512x128x32.size a
  inb_S1x284x128x32_S1x1x128x32_0_198_0_0 : ∀ a, (![0, 198, 0, 0] : Fin 4 → Nat) a + S1x1x128x32.size a ≤ S1x284x128x32.size a
  inb_S1x512x128x32_S1x1x128x32_0_315_0_0 : ∀ a, (![0, 315, 0, 0] : Fin 4 → Nat) a + S1x1x128x32.size a ≤ S1x512x128x32.size a
  inb_S1x284x128x32_S1x1x128x32_0_199_0_0 : ∀ a, (![0, 199, 0, 0] : Fin 4 → Nat) a + S1x1x128x32.size a ≤ S1x284x128x32.size a
  inb_S1x512x128x32_S1x1x128x32_0_316_0_0 : ∀ a, (![0, 316, 0, 0] : Fin 4 → Nat) a + S1x1x128x32.size a ≤ S1x512x128x32.size a
  inb_S1x284x128x32_S1x1x128x32_0_200_0_0 : ∀ a, (![0, 200, 0, 0] : Fin 4 → Nat) a + S1x1x128x32.size a ≤ S1x284x128x32.size a
  inb_S1x512x128x32_S1x1x128x32_0_317_0_0 : ∀ a, (![0, 317, 0, 0] : Fin 4 → Nat) a + S1x1x128x32.size a ≤ S1x512x128x32.size a
  inb_S1x284x128x32_S1x1x128x32_0_201_0_0 : ∀ a, (![0, 201, 0, 0] : Fin 4 → Nat) a + S1x1x128x32.size a ≤ S1x284x128x32.size a
  inb_S1x512x128x32_S1x1x128x32_0_318_0_0 : ∀ a, (![0, 318, 0, 0] : Fin 4 → Nat) a + S1x1x128x32.size a ≤ S1x512x128x32.size a
  inb_S1x284x128x32_S1x1x128x32_0_202_0_0 : ∀ a, (![0, 202, 0, 0] : Fin 4 → Nat) a + S1x1x128x32.size a ≤ S1x284x128x32.size a
  inb_S1x512x128x32_S1x1x128x32_0_319_0_0 : ∀ a, (![0, 319, 0, 0] : Fin 4 → Nat) a + S1x1x128x32.size a ≤ S1x512x128x32.size a
  inb_S1x284x128x32_S1x1x128x32_0_203_0_0 : ∀ a, (![0, 203, 0, 0] : Fin 4 → Nat) a + S1x1x128x32.size a ≤ S1x284x128x32.size a
  inb_S1x512x128x32_S1x1x128x32_0_320_0_0 : ∀ a, (![0, 320, 0, 0] : Fin 4 → Nat) a + S1x1x128x32.size a ≤ S1x512x128x32.size a
  inb_S1x284x128x32_S1x1x128x32_0_204_0_0 : ∀ a, (![0, 204, 0, 0] : Fin 4 → Nat) a + S1x1x128x32.size a ≤ S1x284x128x32.size a
  inb_S1x512x128x32_S1x1x128x32_0_321_0_0 : ∀ a, (![0, 321, 0, 0] : Fin 4 → Nat) a + S1x1x128x32.size a ≤ S1x512x128x32.size a
  inb_S1x284x128x32_S1x1x128x32_0_205_0_0 : ∀ a, (![0, 205, 0, 0] : Fin 4 → Nat) a + S1x1x128x32.size a ≤ S1x284x128x32.size a
  inb_S1x512x128x32_S1x1x128x32_0_322_0_0 : ∀ a, (![0, 322, 0, 0] : Fin 4 → Nat) a + S1x1x128x32.size a ≤ S1x512x128x32.size a
  inb_S1x284x128x32_S1x1x128x32_0_206_0_0 : ∀ a, (![0, 206, 0, 0] : Fin 4 → Nat) a + S1x1x128x32.size a ≤ S1x284x128x32.size a
  inb_S1x512x128x32_S1x1x128x32_0_323_0_0 : ∀ a, (![0, 323, 0, 0] : Fin 4 → Nat) a + S1x1x128x32.size a ≤ S1x512x128x32.size a
  inb_S1x284x128x32_S1x1x128x32_0_207_0_0 : ∀ a, (![0, 207, 0, 0] : Fin 4 → Nat) a + S1x1x128x32.size a ≤ S1x284x128x32.size a
  inb_S1x512x128x32_S1x1x128x32_0_324_0_0 : ∀ a, (![0, 324, 0, 0] : Fin 4 → Nat) a + S1x1x128x32.size a ≤ S1x512x128x32.size a
  inb_S1x284x128x32_S1x1x128x32_0_208_0_0 : ∀ a, (![0, 208, 0, 0] : Fin 4 → Nat) a + S1x1x128x32.size a ≤ S1x284x128x32.size a
  inb_S1x512x128x32_S1x1x128x32_0_325_0_0 : ∀ a, (![0, 325, 0, 0] : Fin 4 → Nat) a + S1x1x128x32.size a ≤ S1x512x128x32.size a
  inb_S1x284x128x32_S1x1x128x32_0_209_0_0 : ∀ a, (![0, 209, 0, 0] : Fin 4 → Nat) a + S1x1x128x32.size a ≤ S1x284x128x32.size a
  inb_S1x512x128x32_S1x1x128x32_0_326_0_0 : ∀ a, (![0, 326, 0, 0] : Fin 4 → Nat) a + S1x1x128x32.size a ≤ S1x512x128x32.size a
  inb_S1x284x128x32_S1x1x128x32_0_210_0_0 : ∀ a, (![0, 210, 0, 0] : Fin 4 → Nat) a + S1x1x128x32.size a ≤ S1x284x128x32.size a
  inb_S1x512x128x32_S1x1x128x32_0_327_0_0 : ∀ a, (![0, 327, 0, 0] : Fin 4 → Nat) a + S1x1x128x32.size a ≤ S1x512x128x32.size a
  inb_S1x284x128x32_S1x1x128x32_0_211_0_0 : ∀ a, (![0, 211, 0, 0] : Fin 4 → Nat) a + S1x1x128x32.size a ≤ S1x284x128x32.size a
  inb_S1x512x128x32_S1x1x128x32_0_328_0_0 : ∀ a, (![0, 328, 0, 0] : Fin 4 → Nat) a + S1x1x128x32.size a ≤ S1x512x128x32.size a
  inb_S1x284x128x32_S1x1x128x32_0_212_0_0 : ∀ a, (![0, 212, 0, 0] : Fin 4 → Nat) a + S1x1x128x32.size a ≤ S1x284x128x32.size a
  inb_S1x512x128x32_S1x1x128x32_0_329_0_0 : ∀ a, (![0, 329, 0, 0] : Fin 4 → Nat) a + S1x1x128x32.size a ≤ S1x512x128x32.size a
  inb_S1x284x128x32_S1x1x128x32_0_213_0_0 : ∀ a, (![0, 213, 0, 0] : Fin 4 → Nat) a + S1x1x128x32.size a ≤ S1x284x128x32.size a
  inb_S1x512x128x32_S1x1x128x32_0_330_0_0 : ∀ a, (![0, 330, 0, 0] : Fin 4 → Nat) a + S1x1x128x32.size a ≤ S1x512x128x32.size a
  inb_S1x284x128x32_S1x1x128x32_0_214_0_0 : ∀ a, (![0, 214, 0, 0] : Fin 4 → Nat) a + S1x1x128x32.size a ≤ S1x284x128x32.size a
  inb_S1x512x128x32_S1x1x128x32_0_331_0_0 : ∀ a, (![0, 331, 0, 0] : Fin 4 → Nat) a + S1x1x128x32.size a ≤ S1x512x128x32.size a
  inb_S1x284x128x32_S1x1x128x32_0_215_0_0 : ∀ a, (![0, 215, 0, 0] : Fin 4 → Nat) a + S1x1x128x32.size a ≤ S1x284x128x32.size a
  inb_S1x512x128x32_S1x1x128x32_0_332_0_0 : ∀ a, (![0, 332, 0, 0] : Fin 4 → Nat) a + S1x1x128x32.size a ≤ S1x512x128x32.size a
  inb_S1x284x128x32_S1x1x128x32_0_216_0_0 : ∀ a, (![0, 216, 0, 0] : Fin 4 → Nat) a + S1x1x128x32.size a ≤ S1x284x128x32.size a
  inb_S1x512x128x32_S1x1x128x32_0_333_0_0 : ∀ a, (![0, 333, 0, 0] : Fin 4 → Nat) a + S1x1x128x32.size a ≤ S1x512x128x32.size a
  inb_S1x284x128x32_S1x1x128x32_0_217_0_0 : ∀ a, (![0, 217, 0, 0] : Fin 4 → Nat) a + S1x1x128x32.size a ≤ S1x284x128x32.size a
  inb_S1x512x128x32_S1x1x128x32_0_334_0_0 : ∀ a, (![0, 334, 0, 0] : Fin 4 → Nat) a + S1x1x128x32.size a ≤ S1x512x128x32.size a
  inb_S1x284x128x32_S1x1x128x32_0_218_0_0 : ∀ a, (![0, 218, 0, 0] : Fin 4 → Nat) a + S1x1x128x32.size a ≤ S1x284x128x32.size a
  inb_S1x512x128x32_S1x1x128x32_0_335_0_0 : ∀ a, (![0, 335, 0, 0] : Fin 4 → Nat) a + S1x1x128x32.size a ≤ S1x512x128x32.size a
  inb_S1x284x128x32_S1x1x128x32_0_219_0_0 : ∀ a, (![0, 219, 0, 0] : Fin 4 → Nat) a + S1x1x128x32.size a ≤ S1x284x128x32.size a
  inb_S1x512x128x32_S1x1x128x32_0_336_0_0 : ∀ a, (![0, 336, 0, 0] : Fin 4 → Nat) a + S1x1x128x32.size a ≤ S1x512x128x32.size a
  inb_S1x284x128x32_S1x1x128x32_0_220_0_0 : ∀ a, (![0, 220, 0, 0] : Fin 4 → Nat) a + S1x1x128x32.size a ≤ S1x284x128x32.size a
  inb_S1x512x128x32_S1x1x128x32_0_337_0_0 : ∀ a, (![0, 337, 0, 0] : Fin 4 → Nat) a + S1x1x128x32.size a ≤ S1x512x128x32.size a
  inb_S1x284x128x32_S1x1x128x32_0_221_0_0 : ∀ a, (![0, 221, 0, 0] : Fin 4 → Nat) a + S1x1x128x32.size a ≤ S1x284x128x32.size a
  inb_S1x512x128x32_S1x1x128x32_0_338_0_0 : ∀ a, (![0, 338, 0, 0] : Fin 4 → Nat) a + S1x1x128x32.size a ≤ S1x512x128x32.size a
  inb_S1x284x128x32_S1x1x128x32_0_222_0_0 : ∀ a, (![0, 222, 0, 0] : Fin 4 → Nat) a + S1x1x128x32.size a ≤ S1x284x128x32.size a
  inb_S1x512x128x32_S1x1x128x32_0_339_0_0 : ∀ a, (![0, 339, 0, 0] : Fin 4 → Nat) a + S1x1x128x32.size a ≤ S1x512x128x32.size a
  inb_S1x284x128x32_S1x1x128x32_0_223_0_0 : ∀ a, (![0, 223, 0, 0] : Fin 4 → Nat) a + S1x1x128x32.size a ≤ S1x284x128x32.size a
  inb_S1x512x128x32_S1x1x128x32_0_340_0_0 : ∀ a, (![0, 340, 0, 0] : Fin 4 → Nat) a + S1x1x128x32.size a ≤ S1x512x128x32.size a
  inb_S1x284x128x32_S1x1x128x32_0_224_0_0 : ∀ a, (![0, 224, 0, 0] : Fin 4 → Nat) a + S1x1x128x32.size a ≤ S1x284x128x32.size a
  inb_S1x512x128x32_S1x1x128x32_0_341_0_0 : ∀ a, (![0, 341, 0, 0] : Fin 4 → Nat) a + S1x1x128x32.size a ≤ S1x512x128x32.size a
  inb_S1x284x128x32_S1x1x128x32_0_225_0_0 : ∀ a, (![0, 225, 0, 0] : Fin 4 → Nat) a + S1x1x128x32.size a ≤ S1x284x128x32.size a
  inb_S1x512x128x32_S1x1x128x32_0_342_0_0 : ∀ a, (![0, 342, 0, 0] : Fin 4 → Nat) a + S1x1x128x32.size a ≤ S1x512x128x32.size a
  inb_S1x284x128x32_S1x1x128x32_0_226_0_0 : ∀ a, (![0, 226, 0, 0] : Fin 4 → Nat) a + S1x1x128x32.size a ≤ S1x284x128x32.size a
  inb_S1x512x128x32_S1x1x128x32_0_343_0_0 : ∀ a, (![0, 343, 0, 0] : Fin 4 → Nat) a + S1x1x128x32.size a ≤ S1x512x128x32.size a
  inb_S1x284x128x32_S1x1x128x32_0_227_0_0 : ∀ a, (![0, 227, 0, 0] : Fin 4 → Nat) a + S1x1x128x32.size a ≤ S1x284x128x32.size a
  inb_S1x512x128x32_S1x1x128x32_0_344_0_0 : ∀ a, (![0, 344, 0, 0] : Fin 4 → Nat) a + S1x1x128x32.size a ≤ S1x512x128x32.size a
  inb_S1x512x128x32_S1x1x128x32_0_345_0_0 : ∀ a, (![0, 345, 0, 0] : Fin 4 → Nat) a + S1x1x128x32.size a ≤ S1x512x128x32.size a
  inb_S1x512x128x32_S1x1x128x32_0_346_0_0 : ∀ a, (![0, 346, 0, 0] : Fin 4 → Nat) a + S1x1x128x32.size a ≤ S1x512x128x32.size a
  inb_S1x284x128x32_S1x1x128x32_0_228_0_0 : ∀ a, (![0, 228, 0, 0] : Fin 4 → Nat) a + S1x1x128x32.size a ≤ S1x284x128x32.size a
  inb_S1x512x128x32_S1x1x128x32_0_347_0_0 : ∀ a, (![0, 347, 0, 0] : Fin 4 → Nat) a + S1x1x128x32.size a ≤ S1x512x128x32.size a
  inb_S1x512x128x32_S1x1x128x32_0_348_0_0 : ∀ a, (![0, 348, 0, 0] : Fin 4 → Nat) a + S1x1x128x32.size a ≤ S1x512x128x32.size a
  inb_S1x512x128x32_S1x1x128x32_0_349_0_0 : ∀ a, (![0, 349, 0, 0] : Fin 4 → Nat) a + S1x1x128x32.size a ≤ S1x512x128x32.size a
  inb_S1x284x128x32_S1x1x128x32_0_229_0_0 : ∀ a, (![0, 229, 0, 0] : Fin 4 → Nat) a + S1x1x128x32.size a ≤ S1x284x128x32.size a
  inb_S1x512x128x32_S1x1x128x32_0_350_0_0 : ∀ a, (![0, 350, 0, 0] : Fin 4 → Nat) a + S1x1x128x32.size a ≤ S1x512x128x32.size a
  inb_S1x512x128x32_S1x1x128x32_0_351_0_0 : ∀ a, (![0, 351, 0, 0] : Fin 4 → Nat) a + S1x1x128x32.size a ≤ S1x512x128x32.size a
  inb_S1x512x128x32_S1x1x128x32_0_352_0_0 : ∀ a, (![0, 352, 0, 0] : Fin 4 → Nat) a + S1x1x128x32.size a ≤ S1x512x128x32.size a
  inb_S1x284x128x32_S1x1x128x32_0_230_0_0 : ∀ a, (![0, 230, 0, 0] : Fin 4 → Nat) a + S1x1x128x32.size a ≤ S1x284x128x32.size a
  inb_S1x512x128x32_S1x1x128x32_0_353_0_0 : ∀ a, (![0, 353, 0, 0] : Fin 4 → Nat) a + S1x1x128x32.size a ≤ S1x512x128x32.size a
  inb_S1x512x128x32_S1x1x128x32_0_354_0_0 : ∀ a, (![0, 354, 0, 0] : Fin 4 → Nat) a + S1x1x128x32.size a ≤ S1x512x128x32.size a
  inb_S1x512x128x32_S1x1x128x32_0_355_0_0 : ∀ a, (![0, 355, 0, 0] : Fin 4 → Nat) a + S1x1x128x32.size a ≤ S1x512x128x32.size a
  inb_S1x284x128x32_S1x1x128x32_0_231_0_0 : ∀ a, (![0, 231, 0, 0] : Fin 4 → Nat) a + S1x1x128x32.size a ≤ S1x284x128x32.size a
  inb_S1x512x128x32_S1x1x128x32_0_356_0_0 : ∀ a, (![0, 356, 0, 0] : Fin 4 → Nat) a + S1x1x128x32.size a ≤ S1x512x128x32.size a
  inb_S1x512x128x32_S1x1x128x32_0_357_0_0 : ∀ a, (![0, 357, 0, 0] : Fin 4 → Nat) a + S1x1x128x32.size a ≤ S1x512x128x32.size a
  inb_S1x512x128x32_S1x1x128x32_0_358_0_0 : ∀ a, (![0, 358, 0, 0] : Fin 4 → Nat) a + S1x1x128x32.size a ≤ S1x512x128x32.size a
  inb_S1x284x128x32_S1x1x128x32_0_232_0_0 : ∀ a, (![0, 232, 0, 0] : Fin 4 → Nat) a + S1x1x128x32.size a ≤ S1x284x128x32.size a
  inb_S1x512x128x32_S1x1x128x32_0_359_0_0 : ∀ a, (![0, 359, 0, 0] : Fin 4 → Nat) a + S1x1x128x32.size a ≤ S1x512x128x32.size a
  inb_S1x512x128x32_S1x1x128x32_0_360_0_0 : ∀ a, (![0, 360, 0, 0] : Fin 4 → Nat) a + S1x1x128x32.size a ≤ S1x512x128x32.size a
  inb_S1x512x128x32_S1x1x128x32_0_361_0_0 : ∀ a, (![0, 361, 0, 0] : Fin 4 → Nat) a + S1x1x128x32.size a ≤ S1x512x128x32.size a
  inb_S1x284x128x32_S1x1x128x32_0_233_0_0 : ∀ a, (![0, 233, 0, 0] : Fin 4 → Nat) a + S1x1x128x32.size a ≤ S1x284x128x32.size a
  inb_S1x512x128x32_S1x1x128x32_0_362_0_0 : ∀ a, (![0, 362, 0, 0] : Fin 4 → Nat) a + S1x1x128x32.size a ≤ S1x512x128x32.size a
  inb_S1x512x128x32_S1x1x128x32_0_363_0_0 : ∀ a, (![0, 363, 0, 0] : Fin 4 → Nat) a + S1x1x128x32.size a ≤ S1x512x128x32.size a
  inb_S1x512x128x32_S1x1x128x32_0_364_0_0 : ∀ a, (![0, 364, 0, 0] : Fin 4 → Nat) a + S1x1x128x32.size a ≤ S1x512x128x32.size a
  inb_S1x284x128x32_S1x1x128x32_0_234_0_0 : ∀ a, (![0, 234, 0, 0] : Fin 4 → Nat) a + S1x1x128x32.size a ≤ S1x284x128x32.size a
  inb_S1x512x128x32_S1x1x128x32_0_365_0_0 : ∀ a, (![0, 365, 0, 0] : Fin 4 → Nat) a + S1x1x128x32.size a ≤ S1x512x128x32.size a
  inb_S1x512x128x32_S1x1x128x32_0_366_0_0 : ∀ a, (![0, 366, 0, 0] : Fin 4 → Nat) a + S1x1x128x32.size a ≤ S1x512x128x32.size a
  inb_S1x512x128x32_S1x1x128x32_0_367_0_0 : ∀ a, (![0, 367, 0, 0] : Fin 4 → Nat) a + S1x1x128x32.size a ≤ S1x512x128x32.size a
  inb_S1x284x128x32_S1x1x128x32_0_235_0_0 : ∀ a, (![0, 235, 0, 0] : Fin 4 → Nat) a + S1x1x128x32.size a ≤ S1x284x128x32.size a
  inb_S1x512x128x32_S1x1x128x32_0_368_0_0 : ∀ a, (![0, 368, 0, 0] : Fin 4 → Nat) a + S1x1x128x32.size a ≤ S1x512x128x32.size a
  inb_S1x512x128x32_S1x1x128x32_0_369_0_0 : ∀ a, (![0, 369, 0, 0] : Fin 4 → Nat) a + S1x1x128x32.size a ≤ S1x512x128x32.size a
  inb_S1x512x128x32_S1x1x128x32_0_370_0_0 : ∀ a, (![0, 370, 0, 0] : Fin 4 → Nat) a + S1x1x128x32.size a ≤ S1x512x128x32.size a
  inb_S1x284x128x32_S1x1x128x32_0_236_0_0 : ∀ a, (![0, 236, 0, 0] : Fin 4 → Nat) a + S1x1x128x32.size a ≤ S1x284x128x32.size a
  inb_S1x512x128x32_S1x1x128x32_0_371_0_0 : ∀ a, (![0, 371, 0, 0] : Fin 4 → Nat) a + S1x1x128x32.size a ≤ S1x512x128x32.size a
  inb_S1x512x128x32_S1x1x128x32_0_372_0_0 : ∀ a, (![0, 372, 0, 0] : Fin 4 → Nat) a + S1x1x128x32.size a ≤ S1x512x128x32.size a
  inb_S1x512x128x32_S1x1x128x32_0_373_0_0 : ∀ a, (![0, 373, 0, 0] : Fin 4 → Nat) a + S1x1x128x32.size a ≤ S1x512x128x32.size a
  inb_S1x284x128x32_S1x1x128x32_0_237_0_0 : ∀ a, (![0, 237, 0, 0] : Fin 4 → Nat) a + S1x1x128x32.size a ≤ S1x284x128x32.size a
  inb_S1x512x128x32_S1x1x128x32_0_374_0_0 : ∀ a, (![0, 374, 0, 0] : Fin 4 → Nat) a + S1x1x128x32.size a ≤ S1x512x128x32.size a
  inb_S1x512x128x32_S1x1x128x32_0_375_0_0 : ∀ a, (![0, 375, 0, 0] : Fin 4 → Nat) a + S1x1x128x32.size a ≤ S1x512x128x32.size a
  inb_S1x512x128x32_S1x1x128x32_0_376_0_0 : ∀ a, (![0, 376, 0, 0] : Fin 4 → Nat) a + S1x1x128x32.size a ≤ S1x512x128x32.size a
  inb_S1x284x128x32_S1x1x128x32_0_238_0_0 : ∀ a, (![0, 238, 0, 0] : Fin 4 → Nat) a + S1x1x128x32.size a ≤ S1x284x128x32.size a
  inb_S1x512x128x32_S1x1x128x32_0_377_0_0 : ∀ a, (![0, 377, 0, 0] : Fin 4 → Nat) a + S1x1x128x32.size a ≤ S1x512x128x32.size a
  inb_S1x512x128x32_S1x1x128x32_0_378_0_0 : ∀ a, (![0, 378, 0, 0] : Fin 4 → Nat) a + S1x1x128x32.size a ≤ S1x512x128x32.size a
  inb_S1x512x128x32_S1x1x128x32_0_379_0_0 : ∀ a, (![0, 379, 0, 0] : Fin 4 → Nat) a + S1x1x128x32.size a ≤ S1x512x128x32.size a
  inb_S1x284x128x32_S1x1x128x32_0_239_0_0 : ∀ a, (![0, 239, 0, 0] : Fin 4 → Nat) a + S1x1x128x32.size a ≤ S1x284x128x32.size a
  inb_S1x512x128x32_S1x1x128x32_0_380_0_0 : ∀ a, (![0, 380, 0, 0] : Fin 4 → Nat) a + S1x1x128x32.size a ≤ S1x512x128x32.size a
  inb_S1x512x128x32_S1x1x128x32_0_381_0_0 : ∀ a, (![0, 381, 0, 0] : Fin 4 → Nat) a + S1x1x128x32.size a ≤ S1x512x128x32.size a
  inb_S1x512x128x32_S1x1x128x32_0_382_0_0 : ∀ a, (![0, 382, 0, 0] : Fin 4 → Nat) a + S1x1x128x32.size a ≤ S1x512x128x32.size a
  inb_S1x284x128x32_S1x1x128x32_0_240_0_0 : ∀ a, (![0, 240, 0, 0] : Fin 4 → Nat) a + S1x1x128x32.size a ≤ S1x284x128x32.size a
  inb_S1x512x128x32_S1x1x128x32_0_383_0_0 : ∀ a, (![0, 383, 0, 0] : Fin 4 → Nat) a + S1x1x128x32.size a ≤ S1x512x128x32.size a
  inb_S1x512x128x32_S1x1x128x32_0_384_0_0 : ∀ a, (![0, 384, 0, 0] : Fin 4 → Nat) a + S1x1x128x32.size a ≤ S1x512x128x32.size a
  inb_S1x512x128x32_S1x1x128x32_0_385_0_0 : ∀ a, (![0, 385, 0, 0] : Fin 4 → Nat) a + S1x1x128x32.size a ≤ S1x512x128x32.size a
  inb_S1x284x128x32_S1x1x128x32_0_241_0_0 : ∀ a, (![0, 241, 0, 0] : Fin 4 → Nat) a + S1x1x128x32.size a ≤ S1x284x128x32.size a
  inb_S1x512x128x32_S1x1x128x32_0_386_0_0 : ∀ a, (![0, 386, 0, 0] : Fin 4 → Nat) a + S1x1x128x32.size a ≤ S1x512x128x32.size a
  inb_S1x512x128x32_S1x1x128x32_0_387_0_0 : ∀ a, (![0, 387, 0, 0] : Fin 4 → Nat) a + S1x1x128x32.size a ≤ S1x512x128x32.size a
  inb_S1x512x128x32_S1x1x128x32_0_388_0_0 : ∀ a, (![0, 388, 0, 0] : Fin 4 → Nat) a + S1x1x128x32.size a ≤ S1x512x128x32.size a
  inb_S1x284x128x32_S1x1x128x32_0_242_0_0 : ∀ a, (![0, 242, 0, 0] : Fin 4 → Nat) a + S1x1x128x32.size a ≤ S1x284x128x32.size a
  inb_S1x512x128x32_S1x1x128x32_0_389_0_0 : ∀ a, (![0, 389, 0, 0] : Fin 4 → Nat) a + S1x1x128x32.size a ≤ S1x512x128x32.size a
  inb_S1x512x128x32_S1x1x128x32_0_390_0_0 : ∀ a, (![0, 390, 0, 0] : Fin 4 → Nat) a + S1x1x128x32.size a ≤ S1x512x128x32.size a
  inb_S1x512x128x32_S1x1x128x32_0_391_0_0 : ∀ a, (![0, 391, 0, 0] : Fin 4 → Nat) a + S1x1x128x32.size a ≤ S1x512x128x32.size a
  inb_S1x284x128x32_S1x1x128x32_0_243_0_0 : ∀ a, (![0, 243, 0, 0] : Fin 4 → Nat) a + S1x1x128x32.size a ≤ S1x284x128x32.size a
  inb_S1x512x128x32_S1x1x128x32_0_392_0_0 : ∀ a, (![0, 392, 0, 0] : Fin 4 → Nat) a + S1x1x128x32.size a ≤ S1x512x128x32.size a
  inb_S1x512x128x32_S1x1x128x32_0_393_0_0 : ∀ a, (![0, 393, 0, 0] : Fin 4 → Nat) a + S1x1x128x32.size a ≤ S1x512x128x32.size a
  inb_S1x512x128x32_S1x1x128x32_0_394_0_0 : ∀ a, (![0, 394, 0, 0] : Fin 4 → Nat) a + S1x1x128x32.size a ≤ S1x512x128x32.size a
  inb_S1x284x128x32_S1x1x128x32_0_244_0_0 : ∀ a, (![0, 244, 0, 0] : Fin 4 → Nat) a + S1x1x128x32.size a ≤ S1x284x128x32.size a
  inb_S1x512x128x32_S1x1x128x32_0_395_0_0 : ∀ a, (![0, 395, 0, 0] : Fin 4 → Nat) a + S1x1x128x32.size a ≤ S1x512x128x32.size a
  inb_S1x512x128x32_S1x1x128x32_0_396_0_0 : ∀ a, (![0, 396, 0, 0] : Fin 4 → Nat) a + S1x1x128x32.size a ≤ S1x512x128x32.size a
  inb_S1x512x128x32_S1x1x128x32_0_397_0_0 : ∀ a, (![0, 397, 0, 0] : Fin 4 → Nat) a + S1x1x128x32.size a ≤ S1x512x128x32.size a
  inb_S1x284x128x32_S1x1x128x32_0_245_0_0 : ∀ a, (![0, 245, 0, 0] : Fin 4 → Nat) a + S1x1x128x32.size a ≤ S1x284x128x32.size a
  inb_S1x512x128x32_S1x1x128x32_0_398_0_0 : ∀ a, (![0, 398, 0, 0] : Fin 4 → Nat) a + S1x1x128x32.size a ≤ S1x512x128x32.size a
  inb_S1x512x128x32_S1x1x128x32_0_399_0_0 : ∀ a, (![0, 399, 0, 0] : Fin 4 → Nat) a + S1x1x128x32.size a ≤ S1x512x128x32.size a
  inb_S1x512x128x32_S1x1x128x32_0_400_0_0 : ∀ a, (![0, 400, 0, 0] : Fin 4 → Nat) a + S1x1x128x32.size a ≤ S1x512x128x32.size a
  inb_S1x284x128x32_S1x1x128x32_0_246_0_0 : ∀ a, (![0, 246, 0, 0] : Fin 4 → Nat) a + S1x1x128x32.size a ≤ S1x284x128x32.size a
  inb_S1x512x128x32_S1x1x128x32_0_401_0_0 : ∀ a, (![0, 401, 0, 0] : Fin 4 → Nat) a + S1x1x128x32.size a ≤ S1x512x128x32.size a
  inb_S1x512x128x32_S1x1x128x32_0_402_0_0 : ∀ a, (![0, 402, 0, 0] : Fin 4 → Nat) a + S1x1x128x32.size a ≤ S1x512x128x32.size a
  inb_S1x512x128x32_S1x1x128x32_0_403_0_0 : ∀ a, (![0, 403, 0, 0] : Fin 4 → Nat) a + S1x1x128x32.size a ≤ S1x512x128x32.size a
  inb_S1x284x128x32_S1x1x128x32_0_247_0_0 : ∀ a, (![0, 247, 0, 0] : Fin 4 → Nat) a + S1x1x128x32.size a ≤ S1x284x128x32.size a
  inb_S1x512x128x32_S1x1x128x32_0_404_0_0 : ∀ a, (![0, 404, 0, 0] : Fin 4 → Nat) a + S1x1x128x32.size a ≤ S1x512x128x32.size a
  inb_S1x512x128x32_S1x1x128x32_0_405_0_0 : ∀ a, (![0, 405, 0, 0] : Fin 4 → Nat) a + S1x1x128x32.size a ≤ S1x512x128x32.size a
  inb_S1x512x128x32_S1x1x128x32_0_406_0_0 : ∀ a, (![0, 406, 0, 0] : Fin 4 → Nat) a + S1x1x128x32.size a ≤ S1x512x128x32.size a
  inb_S1x284x128x32_S1x1x128x32_0_248_0_0 : ∀ a, (![0, 248, 0, 0] : Fin 4 → Nat) a + S1x1x128x32.size a ≤ S1x284x128x32.size a
  inb_S1x512x128x32_S1x1x128x32_0_407_0_0 : ∀ a, (![0, 407, 0, 0] : Fin 4 → Nat) a + S1x1x128x32.size a ≤ S1x512x128x32.size a
  inb_S1x512x128x32_S1x1x128x32_0_408_0_0 : ∀ a, (![0, 408, 0, 0] : Fin 4 → Nat) a + S1x1x128x32.size a ≤ S1x512x128x32.size a
  inb_S1x512x128x32_S1x1x128x32_0_409_0_0 : ∀ a, (![0, 409, 0, 0] : Fin 4 → Nat) a + S1x1x128x32.size a ≤ S1x512x128x32.size a
  inb_S1x284x128x32_S1x1x128x32_0_249_0_0 : ∀ a, (![0, 249, 0, 0] : Fin 4 → Nat) a + S1x1x128x32.size a ≤ S1x284x128x32.size a
  inb_S1x512x128x32_S1x1x128x32_0_410_0_0 : ∀ a, (![0, 410, 0, 0] : Fin 4 → Nat) a + S1x1x128x32.size a ≤ S1x512x128x32.size a
  inb_S1x512x128x32_S1x1x128x32_0_411_0_0 : ∀ a, (![0, 411, 0, 0] : Fin 4 → Nat) a + S1x1x128x32.size a ≤ S1x512x128x32.size a
  inb_S1x512x128x32_S1x1x128x32_0_412_0_0 : ∀ a, (![0, 412, 0, 0] : Fin 4 → Nat) a + S1x1x128x32.size a ≤ S1x512x128x32.size a
  inb_S1x284x128x32_S1x1x128x32_0_250_0_0 : ∀ a, (![0, 250, 0, 0] : Fin 4 → Nat) a + S1x1x128x32.size a ≤ S1x284x128x32.size a
  inb_S1x512x128x32_S1x1x128x32_0_413_0_0 : ∀ a, (![0, 413, 0, 0] : Fin 4 → Nat) a + S1x1x128x32.size a ≤ S1x512x128x32.size a
  inb_S1x512x128x32_S1x1x128x32_0_414_0_0 : ∀ a, (![0, 414, 0, 0] : Fin 4 → Nat) a + S1x1x128x32.size a ≤ S1x512x128x32.size a
  inb_S1x512x128x32_S1x1x128x32_0_415_0_0 : ∀ a, (![0, 415, 0, 0] : Fin 4 → Nat) a + S1x1x128x32.size a ≤ S1x512x128x32.size a
  inb_S1x284x128x32_S1x1x128x32_0_251_0_0 : ∀ a, (![0, 251, 0, 0] : Fin 4 → Nat) a + S1x1x128x32.size a ≤ S1x284x128x32.size a
  inb_S1x512x128x32_S1x1x128x32_0_416_0_0 : ∀ a, (![0, 416, 0, 0] : Fin 4 → Nat) a + S1x1x128x32.size a ≤ S1x512x128x32.size a
  inb_S1x512x128x32_S1x1x128x32_0_417_0_0 : ∀ a, (![0, 417, 0, 0] : Fin 4 → Nat) a + S1x1x128x32.size a ≤ S1x512x128x32.size a
  inb_S1x512x128x32_S1x1x128x32_0_418_0_0 : ∀ a, (![0, 418, 0, 0] : Fin 4 → Nat) a + S1x1x128x32.size a ≤ S1x512x128x32.size a
  inb_S1x284x128x32_S1x1x128x32_0_252_0_0 : ∀ a, (![0, 252, 0, 0] : Fin 4 → Nat) a + S1x1x128x32.size a ≤ S1x284x128x32.size a
  inb_S1x512x128x32_S1x1x128x32_0_419_0_0 : ∀ a, (![0, 419, 0, 0] : Fin 4 → Nat) a + S1x1x128x32.size a ≤ S1x512x128x32.size a
  inb_S1x512x128x32_S1x1x128x32_0_420_0_0 : ∀ a, (![0, 420, 0, 0] : Fin 4 → Nat) a + S1x1x128x32.size a ≤ S1x512x128x32.size a
  inb_S1x512x128x32_S1x1x128x32_0_421_0_0 : ∀ a, (![0, 421, 0, 0] : Fin 4 → Nat) a + S1x1x128x32.size a ≤ S1x512x128x32.size a
  inb_S1x284x128x32_S1x1x128x32_0_253_0_0 : ∀ a, (![0, 253, 0, 0] : Fin 4 → Nat) a + S1x1x128x32.size a ≤ S1x284x128x32.size a
  inb_S1x512x128x32_S1x1x128x32_0_422_0_0 : ∀ a, (![0, 422, 0, 0] : Fin 4 → Nat) a + S1x1x128x32.size a ≤ S1x512x128x32.size a
  inb_S1x512x128x32_S1x1x128x32_0_423_0_0 : ∀ a, (![0, 423, 0, 0] : Fin 4 → Nat) a + S1x1x128x32.size a ≤ S1x512x128x32.size a
  inb_S1x512x128x32_S1x1x128x32_0_424_0_0 : ∀ a, (![0, 424, 0, 0] : Fin 4 → Nat) a + S1x1x128x32.size a ≤ S1x512x128x32.size a
  inb_S1x284x128x32_S1x1x128x32_0_254_0_0 : ∀ a, (![0, 254, 0, 0] : Fin 4 → Nat) a + S1x1x128x32.size a ≤ S1x284x128x32.size a
  inb_S1x512x128x32_S1x1x128x32_0_425_0_0 : ∀ a, (![0, 425, 0, 0] : Fin 4 → Nat) a + S1x1x128x32.size a ≤ S1x512x128x32.size a
  inb_S1x512x128x32_S1x1x128x32_0_426_0_0 : ∀ a, (![0, 426, 0, 0] : Fin 4 → Nat) a + S1x1x128x32.size a ≤ S1x512x128x32.size a
  inb_S1x512x128x32_S1x1x128x32_0_427_0_0 : ∀ a, (![0, 427, 0, 0] : Fin 4 → Nat) a + S1x1x128x32.size a ≤ S1x512x128x32.size a
  inb_S1x284x128x32_S1x1x128x32_0_255_0_0 : ∀ a, (![0, 255, 0, 0] : Fin 4 → Nat) a + S1x1x128x32.size a ≤ S1x284x128x32.size a
  inb_S1x512x128x32_S1x1x128x32_0_428_0_0 : ∀ a, (![0, 428, 0, 0] : Fin 4 → Nat) a + S1x1x128x32.size a ≤ S1x512x128x32.size a
  inb_S1x512x128x32_S1x1x128x32_0_429_0_0 : ∀ a, (![0, 429, 0, 0] : Fin 4 → Nat) a + S1x1x128x32.size a ≤ S1x512x128x32.size a
  inb_S1x512x128x32_S1x1x128x32_0_430_0_0 : ∀ a, (![0, 430, 0, 0] : Fin 4 → Nat) a + S1x1x128x32.size a ≤ S1x512x128x32.size a
  inb_S1x284x128x32_S1x1x128x32_0_256_0_0 : ∀ a, (![0, 256, 0, 0] : Fin 4 → Nat) a + S1x1x128x32.size a ≤ S1x284x128x32.size a
  inb_S1x512x128x32_S1x1x128x32_0_431_0_0 : ∀ a, (![0, 431, 0, 0] : Fin 4 → Nat) a + S1x1x128x32.size a ≤ S1x512x128x32.size a
  inb_S1x512x128x32_S1x1x128x32_0_432_0_0 : ∀ a, (![0, 432, 0, 0] : Fin 4 → Nat) a + S1x1x128x32.size a ≤ S1x512x128x32.size a
  inb_S1x512x128x32_S1x1x128x32_0_433_0_0 : ∀ a, (![0, 433, 0, 0] : Fin 4 → Nat) a + S1x1x128x32.size a ≤ S1x512x128x32.size a
  inb_S1x284x128x32_S1x1x128x32_0_257_0_0 : ∀ a, (![0, 257, 0, 0] : Fin 4 → Nat) a + S1x1x128x32.size a ≤ S1x284x128x32.size a
  inb_S1x512x128x32_S1x1x128x32_0_434_0_0 : ∀ a, (![0, 434, 0, 0] : Fin 4 → Nat) a + S1x1x128x32.size a ≤ S1x512x128x32.size a
  inb_S1x512x128x32_S1x1x128x32_0_435_0_0 : ∀ a, (![0, 435, 0, 0] : Fin 4 → Nat) a + S1x1x128x32.size a ≤ S1x512x128x32.size a
  inb_S1x512x128x32_S1x1x128x32_0_436_0_0 : ∀ a, (![0, 436, 0, 0] : Fin 4 → Nat) a + S1x1x128x32.size a ≤ S1x512x128x32.size a
  inb_S1x284x128x32_S1x1x128x32_0_258_0_0 : ∀ a, (![0, 258, 0, 0] : Fin 4 → Nat) a + S1x1x128x32.size a ≤ S1x284x128x32.size a
  inb_S1x512x128x32_S1x1x128x32_0_437_0_0 : ∀ a, (![0, 437, 0, 0] : Fin 4 → Nat) a + S1x1x128x32.size a ≤ S1x512x128x32.size a
  inb_S1x512x128x32_S1x1x128x32_0_438_0_0 : ∀ a, (![0, 438, 0, 0] : Fin 4 → Nat) a + S1x1x128x32.size a ≤ S1x512x128x32.size a
  inb_S1x512x128x32_S1x1x128x32_0_439_0_0 : ∀ a, (![0, 439, 0, 0] : Fin 4 → Nat) a + S1x1x128x32.size a ≤ S1x512x128x32.size a
  inb_S1x284x128x32_S1x1x128x32_0_259_0_0 : ∀ a, (![0, 259, 0, 0] : Fin 4 → Nat) a + S1x1x128x32.size a ≤ S1x284x128x32.size a
  inb_S1x512x128x32_S1x1x128x32_0_440_0_0 : ∀ a, (![0, 440, 0, 0] : Fin 4 → Nat) a + S1x1x128x32.size a ≤ S1x512x128x32.size a
  inb_S1x512x128x32_S1x1x128x32_0_441_0_0 : ∀ a, (![0, 441, 0, 0] : Fin 4 → Nat) a + S1x1x128x32.size a ≤ S1x512x128x32.size a
  inb_S1x512x128x32_S1x1x128x32_0_442_0_0 : ∀ a, (![0, 442, 0, 0] : Fin 4 → Nat) a + S1x1x128x32.size a ≤ S1x512x128x32.size a
  inb_S1x284x128x32_S1x1x128x32_0_260_0_0 : ∀ a, (![0, 260, 0, 0] : Fin 4 → Nat) a + S1x1x128x32.size a ≤ S1x284x128x32.size a
  inb_S1x512x128x32_S1x1x128x32_0_443_0_0 : ∀ a, (![0, 443, 0, 0] : Fin 4 → Nat) a + S1x1x128x32.size a ≤ S1x512x128x32.size a
  inb_S1x512x128x32_S1x1x128x32_0_444_0_0 : ∀ a, (![0, 444, 0, 0] : Fin 4 → Nat) a + S1x1x128x32.size a ≤ S1x512x128x32.size a
  inb_S1x512x128x32_S1x1x128x32_0_445_0_0 : ∀ a, (![0, 445, 0, 0] : Fin 4 → Nat) a + S1x1x128x32.size a ≤ S1x512x128x32.size a
  inb_S1x284x128x32_S1x1x128x32_0_261_0_0 : ∀ a, (![0, 261, 0, 0] : Fin 4 → Nat) a + S1x1x128x32.size a ≤ S1x284x128x32.size a
  inb_S1x512x128x32_S1x1x128x32_0_446_0_0 : ∀ a, (![0, 446, 0, 0] : Fin 4 → Nat) a + S1x1x128x32.size a ≤ S1x512x128x32.size a
  inb_S1x512x128x32_S1x1x128x32_0_447_0_0 : ∀ a, (![0, 447, 0, 0] : Fin 4 → Nat) a + S1x1x128x32.size a ≤ S1x512x128x32.size a
  inb_S1x512x128x32_S1x1x128x32_0_448_0_0 : ∀ a, (![0, 448, 0, 0] : Fin 4 → Nat) a + S1x1x128x32.size a ≤ S1x512x128x32.size a
  inb_S1x284x128x32_S1x1x128x32_0_262_0_0 : ∀ a, (![0, 262, 0, 0] : Fin 4 → Nat) a + S1x1x128x32.size a ≤ S1x284x128x32.size a
  inb_S1x512x128x32_S1x1x128x32_0_449_0_0 : ∀ a, (![0, 449, 0, 0] : Fin 4 → Nat) a + S1x1x128x32.size a ≤ S1x512x128x32.size a
  inb_S1x512x128x32_S1x1x128x32_0_450_0_0 : ∀ a, (![0, 450, 0, 0] : Fin 4 → Nat) a + S1x1x128x32.size a ≤ S1x512x128x32.size a
  inb_S1x512x128x32_S1x1x128x32_0_451_0_0 : ∀ a, (![0, 451, 0, 0] : Fin 4 → Nat) a + S1x1x128x32.size a ≤ S1x512x128x32.size a
  inb_S1x284x128x32_S1x1x128x32_0_263_0_0 : ∀ a, (![0, 263, 0, 0] : Fin 4 → Nat) a + S1x1x128x32.size a ≤ S1x284x128x32.size a
  inb_S1x512x128x32_S1x1x128x32_0_452_0_0 : ∀ a, (![0, 452, 0, 0] : Fin 4 → Nat) a + S1x1x128x32.size a ≤ S1x512x128x32.size a
  inb_S1x512x128x32_S1x1x128x32_0_453_0_0 : ∀ a, (![0, 453, 0, 0] : Fin 4 → Nat) a + S1x1x128x32.size a ≤ S1x512x128x32.size a
  inb_S1x512x128x32_S1x1x128x32_0_454_0_0 : ∀ a, (![0, 454, 0, 0] : Fin 4 → Nat) a + S1x1x128x32.size a ≤ S1x512x128x32.size a
  inb_S1x284x128x32_S1x1x128x32_0_264_0_0 : ∀ a, (![0, 264, 0, 0] : Fin 4 → Nat) a + S1x1x128x32.size a ≤ S1x284x128x32.size a
  inb_S1x512x128x32_S1x1x128x32_0_455_0_0 : ∀ a, (![0, 455, 0, 0] : Fin 4 → Nat) a + S1x1x128x32.size a ≤ S1x512x128x32.size a
  inb_S1x512x128x32_S1x1x128x32_0_456_0_0 : ∀ a, (![0, 456, 0, 0] : Fin 4 → Nat) a + S1x1x128x32.size a ≤ S1x512x128x32.size a
  inb_S1x512x128x32_S1x1x128x32_0_457_0_0 : ∀ a, (![0, 457, 0, 0] : Fin 4 → Nat) a + S1x1x128x32.size a ≤ S1x512x128x32.size a
  inb_S1x284x128x32_S1x1x128x32_0_265_0_0 : ∀ a, (![0, 265, 0, 0] : Fin 4 → Nat) a + S1x1x128x32.size a ≤ S1x284x128x32.size a
  inb_S1x512x128x32_S1x1x128x32_0_458_0_0 : ∀ a, (![0, 458, 0, 0] : Fin 4 → Nat) a + S1x1x128x32.size a ≤ S1x512x128x32.size a
  inb_S1x512x128x32_S1x1x128x32_0_459_0_0 : ∀ a, (![0, 459, 0, 0] : Fin 4 → Nat) a + S1x1x128x32.size a ≤ S1x512x128x32.size a
  inb_S1x512x128x32_S1x1x128x32_0_460_0_0 : ∀ a, (![0, 460, 0, 0] : Fin 4 → Nat) a + S1x1x128x32.size a ≤ S1x512x128x32.size a
  inb_S1x284x128x32_S1x1x128x32_0_266_0_0 : ∀ a, (![0, 266, 0, 0] : Fin 4 → Nat) a + S1x1x128x32.size a ≤ S1x284x128x32.size a
  inb_S1x512x128x32_S1x1x128x32_0_461_0_0 : ∀ a, (![0, 461, 0, 0] : Fin 4 → Nat) a + S1x1x128x32.size a ≤ S1x512x128x32.size a
  inb_S1x512x128x32_S1x1x128x32_0_462_0_0 : ∀ a, (![0, 462, 0, 0] : Fin 4 → Nat) a + S1x1x128x32.size a ≤ S1x512x128x32.size a
  inb_S1x512x128x32_S1x1x128x32_0_463_0_0 : ∀ a, (![0, 463, 0, 0] : Fin 4 → Nat) a + S1x1x128x32.size a ≤ S1x512x128x32.size a
  inb_S1x284x128x32_S1x1x128x32_0_267_0_0 : ∀ a, (![0, 267, 0, 0] : Fin 4 → Nat) a + S1x1x128x32.size a ≤ S1x284x128x32.size a
  inb_S1x512x128x32_S1x1x128x32_0_464_0_0 : ∀ a, (![0, 464, 0, 0] : Fin 4 → Nat) a + S1x1x128x32.size a ≤ S1x512x128x32.size a
  inb_S1x512x128x32_S1x1x128x32_0_465_0_0 : ∀ a, (![0, 465, 0, 0] : Fin 4 → Nat) a + S1x1x128x32.size a ≤ S1x512x128x32.size a
  inb_S1x512x128x32_S1x1x128x32_0_466_0_0 : ∀ a, (![0, 466, 0, 0] : Fin 4 → Nat) a + S1x1x128x32.size a ≤ S1x512x128x32.size a
  inb_S1x284x128x32_S1x1x128x32_0_268_0_0 : ∀ a, (![0, 268, 0, 0] : Fin 4 → Nat) a + S1x1x128x32.size a ≤ S1x284x128x32.size a
  inb_S1x512x128x32_S1x1x128x32_0_467_0_0 : ∀ a, (![0, 467, 0, 0] : Fin 4 → Nat) a + S1x1x128x32.size a ≤ S1x512x128x32.size a
  inb_S1x512x128x32_S1x1x128x32_0_468_0_0 : ∀ a, (![0, 468, 0, 0] : Fin 4 → Nat) a + S1x1x128x32.size a ≤ S1x512x128x32.size a
  inb_S1x512x128x32_S1x1x128x32_0_469_0_0 : ∀ a, (![0, 469, 0, 0] : Fin 4 → Nat) a + S1x1x128x32.size a ≤ S1x512x128x32.size a
  inb_S1x284x128x32_S1x1x128x32_0_269_0_0 : ∀ a, (![0, 269, 0, 0] : Fin 4 → Nat) a + S1x1x128x32.size a ≤ S1x284x128x32.size a
  inb_S1x512x128x32_S1x1x128x32_0_470_0_0 : ∀ a, (![0, 470, 0, 0] : Fin 4 → Nat) a + S1x1x128x32.size a ≤ S1x512x128x32.size a
  inb_S1x512x128x32_S1x1x128x32_0_471_0_0 : ∀ a, (![0, 471, 0, 0] : Fin 4 → Nat) a + S1x1x128x32.size a ≤ S1x512x128x32.size a
  inb_S1x512x128x32_S1x1x128x32_0_472_0_0 : ∀ a, (![0, 472, 0, 0] : Fin 4 → Nat) a + S1x1x128x32.size a ≤ S1x512x128x32.size a
  inb_S1x284x128x32_S1x1x128x32_0_270_0_0 : ∀ a, (![0, 270, 0, 0] : Fin 4 → Nat) a + S1x1x128x32.size a ≤ S1x284x128x32.size a
  inb_S1x512x128x32_S1x1x128x32_0_473_0_0 : ∀ a, (![0, 473, 0, 0] : Fin 4 → Nat) a + S1x1x128x32.size a ≤ S1x512x128x32.size a
  inb_S1x512x128x32_S1x1x128x32_0_474_0_0 : ∀ a, (![0, 474, 0, 0] : Fin 4 → Nat) a + S1x1x128x32.size a ≤ S1x512x128x32.size a
  inb_S1x512x128x32_S1x1x128x32_0_475_0_0 : ∀ a, (![0, 475, 0, 0] : Fin 4 → Nat) a + S1x1x128x32.size a ≤ S1x512x128x32.size a
  inb_S1x284x128x32_S1x1x128x32_0_271_0_0 : ∀ a, (![0, 271, 0, 0] : Fin 4 → Nat) a + S1x1x128x32.size a ≤ S1x284x128x32.size a
  inb_S1x512x128x32_S1x1x128x32_0_476_0_0 : ∀ a, (![0, 476, 0, 0] : Fin 4 → Nat) a + S1x1x128x32.size a ≤ S1x512x128x32.size a
  inb_S1x512x128x32_S1x1x128x32_0_477_0_0 : ∀ a, (![0, 477, 0, 0] : Fin 4 → Nat) a + S1x1x128x32.size a ≤ S1x512x128x32.size a
  inb_S1x512x128x32_S1x1x128x32_0_478_0_0 : ∀ a, (![0, 478, 0, 0] : Fin 4 → Nat) a + S1x1x128x32.size a ≤ S1x512x128x32.size a
  inb_S1x284x128x32_S1x1x128x32_0_272_0_0 : ∀ a, (![0, 272, 0, 0] : Fin 4 → Nat) a + S1x1x128x32.size a ≤ S1x284x128x32.size a
  inb_S1x512x128x32_S1x1x128x32_0_479_0_0 : ∀ a, (![0, 479, 0, 0] : Fin 4 → Nat) a + S1x1x128x32.size a ≤ S1x512x128x32.size a
  inb_S1x512x128x32_S1x1x128x32_0_480_0_0 : ∀ a, (![0, 480, 0, 0] : Fin 4 → Nat) a + S1x1x128x32.size a ≤ S1x512x128x32.size a
  inb_S1x512x128x32_S1x1x128x32_0_481_0_0 : ∀ a, (![0, 481, 0, 0] : Fin 4 → Nat) a + S1x1x128x32.size a ≤ S1x512x128x32.size a
  inb_S1x284x128x32_S1x1x128x32_0_273_0_0 : ∀ a, (![0, 273, 0, 0] : Fin 4 → Nat) a + S1x1x128x32.size a ≤ S1x284x128x32.size a
  inb_S1x512x128x32_S1x1x128x32_0_482_0_0 : ∀ a, (![0, 482, 0, 0] : Fin 4 → Nat) a + S1x1x128x32.size a ≤ S1x512x128x32.size a
  inb_S1x512x128x32_S1x1x128x32_0_483_0_0 : ∀ a, (![0, 483, 0, 0] : Fin 4 → Nat) a + S1x1x128x32.size a ≤ S1x512x128x32.size a
  inb_S1x512x128x32_S1x1x128x32_0_484_0_0 : ∀ a, (![0, 484, 0, 0] : Fin 4 → Nat) a + S1x1x128x32.size a ≤ S1x512x128x32.size a
  inb_S1x284x128x32_S1x1x128x32_0_274_0_0 : ∀ a, (![0, 274, 0, 0] : Fin 4 → Nat) a + S1x1x128x32.size a ≤ S1x284x128x32.size a
  inb_S1x512x128x32_S1x1x128x32_0_485_0_0 : ∀ a, (![0, 485, 0, 0] : Fin 4 → Nat) a + S1x1x128x32.size a ≤ S1x512x128x32.size a
  inb_S1x512x128x32_S1x1x128x32_0_486_0_0 : ∀ a, (![0, 486, 0, 0] : Fin 4 → Nat) a + S1x1x128x32.size a ≤ S1x512x128x32.size a
  inb_S1x512x128x32_S1x1x128x32_0_487_0_0 : ∀ a, (![0, 487, 0, 0] : Fin 4 → Nat) a + S1x1x128x32.size a ≤ S1x512x128x32.size a
  inb_S1x284x128x32_S1x1x128x32_0_275_0_0 : ∀ a, (![0, 275, 0, 0] : Fin 4 → Nat) a + S1x1x128x32.size a ≤ S1x284x128x32.size a
  inb_S1x512x128x32_S1x1x128x32_0_488_0_0 : ∀ a, (![0, 488, 0, 0] : Fin 4 → Nat) a + S1x1x128x32.size a ≤ S1x512x128x32.size a
  inb_S1x512x128x32_S1x1x128x32_0_489_0_0 : ∀ a, (![0, 489, 0, 0] : Fin 4 → Nat) a + S1x1x128x32.size a ≤ S1x512x128x32.size a
  inb_S1x512x128x32_S1x1x128x32_0_490_0_0 : ∀ a, (![0, 490, 0, 0] : Fin 4 → Nat) a + S1x1x128x32.size a ≤ S1x512x128x32.size a
  inb_S1x284x128x32_S1x1x128x32_0_276_0_0 : ∀ a, (![0, 276, 0, 0] : Fin 4 → Nat) a + S1x1x128x32.size a ≤ S1x284x128x32.size a
  inb_S1x512x128x32_S1x1x128x32_0_491_0_0 : ∀ a, (![0, 491, 0, 0] : Fin 4 → Nat) a + S1x1x128x32.size a ≤ S1x512x128x32.size a
  inb_S1x512x128x32_S1x1x128x32_0_492_0_0 : ∀ a, (![0, 492, 0, 0] : Fin 4 → Nat) a + S1x1x128x32.size a ≤ S1x512x128x32.size a
  inb_S1x512x128x32_S1x1x128x32_0_493_0_0 : ∀ a, (![0, 493, 0, 0] : Fin 4 → Nat) a + S1x1x128x32.size a ≤ S1x512x128x32.size a
  inb_S1x284x128x32_S1x1x128x32_0_277_0_0 : ∀ a, (![0, 277, 0, 0] : Fin 4 → Nat) a + S1x1x128x32.size a ≤ S1x284x128x32.size a
  inb_S1x512x128x32_S1x1x128x32_0_494_0_0 : ∀ a, (![0, 494, 0, 0] : Fin 4 → Nat) a + S1x1x128x32.size a ≤ S1x512x128x32.size a
  inb_S1x512x128x32_S1x1x128x32_0_495_0_0 : ∀ a, (![0, 495, 0, 0] : Fin 4 → Nat) a + S1x1x128x32.size a ≤ S1x512x128x32.size a
  inb_S1x512x128x32_S1x1x128x32_0_496_0_0 : ∀ a, (![0, 496, 0, 0] : Fin 4 → Nat) a + S1x1x128x32.size a ≤ S1x512x128x32.size a
  inb_S1x284x128x32_S1x1x128x32_0_278_0_0 : ∀ a, (![0, 278, 0, 0] : Fin 4 → Nat) a + S1x1x128x32.size a ≤ S1x284x128x32.size a
  inb_S1x512x128x32_S1x1x128x32_0_497_0_0 : ∀ a, (![0, 497, 0, 0] : Fin 4 → Nat) a + S1x1x128x32.size a ≤ S1x512x128x32.size a
  inb_S1x512x128x32_S1x1x128x32_0_498_0_0 : ∀ a, (![0, 498, 0, 0] : Fin 4 → Nat) a + S1x1x128x32.size a ≤ S1x512x128x32.size a
  inb_S1x512x128x32_S1x1x128x32_0_499_0_0 : ∀ a, (![0, 499, 0, 0] : Fin 4 → Nat) a + S1x1x128x32.size a ≤ S1x512x128x32.size a
  inb_S1x284x128x32_S1x1x128x32_0_279_0_0 : ∀ a, (![0, 279, 0, 0] : Fin 4 → Nat) a + S1x1x128x32.size a ≤ S1x284x128x32.size a
  inb_S1x512x128x32_S1x1x128x32_0_500_0_0 : ∀ a, (![0, 500, 0, 0] : Fin 4 → Nat) a + S1x1x128x32.size a ≤ S1x512x128x32.size a
  inb_S1x512x128x32_S1x1x128x32_0_501_0_0 : ∀ a, (![0, 501, 0, 0] : Fin 4 → Nat) a + S1x1x128x32.size a ≤ S1x512x128x32.size a
  inb_S1x512x128x32_S1x1x128x32_0_502_0_0 : ∀ a, (![0, 502, 0, 0] : Fin 4 → Nat) a + S1x1x128x32.size a ≤ S1x512x128x32.size a
  inb_S1x284x128x32_S1x1x128x32_0_280_0_0 : ∀ a, (![0, 280, 0, 0] : Fin 4 → Nat) a + S1x1x128x32.size a ≤ S1x284x128x32.size a
  inb_S1x512x128x32_S1x1x128x32_0_503_0_0 : ∀ a, (![0, 503, 0, 0] : Fin 4 → Nat) a + S1x1x128x32.size a ≤ S1x512x128x32.size a
  inb_S1x512x128x32_S1x1x128x32_0_504_0_0 : ∀ a, (![0, 504, 0, 0] : Fin 4 → Nat) a + S1x1x128x32.size a ≤ S1x512x128x32.size a
  inb_S1x512x128x32_S1x1x128x32_0_505_0_0 : ∀ a, (![0, 505, 0, 0] : Fin 4 → Nat) a + S1x1x128x32.size a ≤ S1x512x128x32.size a
  inb_S1x284x128x32_S1x1x128x32_0_281_0_0 : ∀ a, (![0, 281, 0, 0] : Fin 4 → Nat) a + S1x1x128x32.size a ≤ S1x284x128x32.size a
  inb_S1x512x128x32_S1x1x128x32_0_506_0_0 : ∀ a, (![0, 506, 0, 0] : Fin 4 → Nat) a + S1x1x128x32.size a ≤ S1x512x128x32.size a
  inb_S1x512x128x32_S1x1x128x32_0_507_0_0 : ∀ a, (![0, 507, 0, 0] : Fin 4 → Nat) a + S1x1x128x32.size a ≤ S1x512x128x32.size a
  inb_S1x512x128x32_S1x1x128x32_0_508_0_0 : ∀ a, (![0, 508, 0, 0] : Fin 4 → Nat) a + S1x1x128x32.size a ≤ S1x512x128x32.size a
  inb_S1x284x128x32_S1x1x128x32_0_282_0_0 : ∀ a, (![0, 282, 0, 0] : Fin 4 → Nat) a + S1x1x128x32.size a ≤ S1x284x128x32.size a
  inb_S1x512x128x32_S1x1x128x32_0_509_0_0 : ∀ a, (![0, 509, 0, 0] : Fin 4 → Nat) a + S1x1x128x32.size a ≤ S1x512x128x32.size a
  inb_S1x512x128x32_S1x1x128x32_0_510_0_0 : ∀ a, (![0, 510, 0, 0] : Fin 4 → Nat) a + S1x1x128x32.size a ≤ S1x512x128x32.size a
  inb_S1x512x128x32_S1x1x128x32_0_511_0_0 : ∀ a, (![0, 511, 0, 0] : Fin 4 → Nat) a + S1x1x128x32.size a ≤ S1x512x128x32.size a
  inb_S1x284x128x32_S1x1x128x32_0_283_0_0 : ∀ a, (![0, 283, 0, 0] : Fin 4 → Nat) a + S1x1x128x32.size a ≤ S1x284x128x32.size a
  inb_S1x64x512x32_S1x64x1x32_0_0_0_0 : ∀ a, (![0, 0, 0, 0] : Fin 4 → Nat) a + S1x64x1x32.size a ≤ S1x64x512x32.size a
  h_S1x64x1x32 : 0 < S1x64x1x32.numel
  shapeCasts_S1x64x1x32_S64x32 : S1x64x1x32.ShapeCasts S64x32
  inb_S1x64x512x32_S1x64x1x32_0_0_1_0 : ∀ a, (![0, 0, 1, 0] : Fin 4 → Nat) a + S1x64x1x32.size a ≤ S1x64x512x32.size a
  inb_S1x64x512x32_S1x64x1x32_0_0_2_0 : ∀ a, (![0, 0, 2, 0] : Fin 4 → Nat) a + S1x64x1x32.size a ≤ S1x64x512x32.size a
  inb_S1x64x205x32_S1x64x1x32_0_0_0_0 : ∀ a, (![0, 0, 0, 0] : Fin 4 → Nat) a + S1x64x1x32.size a ≤ S1x64x205x32.size a
  shapeCasts_S64x32_S1x64x1x32 : S64x32.ShapeCasts S1x64x1x32
  inb_S1x64x512x32_S1x64x1x32_0_0_3_0 : ∀ a, (![0, 0, 3, 0] : Fin 4 → Nat) a + S1x64x1x32.size a ≤ S1x64x512x32.size a
  inb_S1x64x205x32_S1x64x1x32_0_0_1_0 : ∀ a, (![0, 0, 1, 0] : Fin 4 → Nat) a + S1x64x1x32.size a ≤ S1x64x205x32.size a
  inb_S1x64x512x32_S1x64x1x32_0_0_4_0 : ∀ a, (![0, 0, 4, 0] : Fin 4 → Nat) a + S1x64x1x32.size a ≤ S1x64x512x32.size a
  inb_S1x64x205x32_S1x64x1x32_0_0_2_0 : ∀ a, (![0, 0, 2, 0] : Fin 4 → Nat) a + S1x64x1x32.size a ≤ S1x64x205x32.size a
  inb_S1x64x512x32_S1x64x1x32_0_0_5_0 : ∀ a, (![0, 0, 5, 0] : Fin 4 → Nat) a + S1x64x1x32.size a ≤ S1x64x512x32.size a
  inb_S1x64x205x32_S1x64x1x32_0_0_3_0 : ∀ a, (![0, 0, 3, 0] : Fin 4 → Nat) a + S1x64x1x32.size a ≤ S1x64x205x32.size a
  inb_S1x64x512x32_S1x64x1x32_0_0_6_0 : ∀ a, (![0, 0, 6, 0] : Fin 4 → Nat) a + S1x64x1x32.size a ≤ S1x64x512x32.size a
  inb_S1x64x205x32_S1x64x1x32_0_0_4_0 : ∀ a, (![0, 0, 4, 0] : Fin 4 → Nat) a + S1x64x1x32.size a ≤ S1x64x205x32.size a
  inb_S1x64x512x32_S1x64x1x32_0_0_7_0 : ∀ a, (![0, 0, 7, 0] : Fin 4 → Nat) a + S1x64x1x32.size a ≤ S1x64x512x32.size a
  inb_S1x64x205x32_S1x64x1x32_0_0_5_0 : ∀ a, (![0, 0, 5, 0] : Fin 4 → Nat) a + S1x64x1x32.size a ≤ S1x64x205x32.size a
  inb_S1x64x512x32_S1x64x1x32_0_0_8_0 : ∀ a, (![0, 0, 8, 0] : Fin 4 → Nat) a + S1x64x1x32.size a ≤ S1x64x512x32.size a
  inb_S1x64x205x32_S1x64x1x32_0_0_6_0 : ∀ a, (![0, 0, 6, 0] : Fin 4 → Nat) a + S1x64x1x32.size a ≤ S1x64x205x32.size a
  inb_S1x64x512x32_S1x64x1x32_0_0_9_0 : ∀ a, (![0, 0, 9, 0] : Fin 4 → Nat) a + S1x64x1x32.size a ≤ S1x64x512x32.size a
  inb_S1x64x205x32_S1x64x1x32_0_0_7_0 : ∀ a, (![0, 0, 7, 0] : Fin 4 → Nat) a + S1x64x1x32.size a ≤ S1x64x205x32.size a
  inb_S1x64x512x32_S1x64x1x32_0_0_10_0 : ∀ a, (![0, 0, 10, 0] : Fin 4 → Nat) a + S1x64x1x32.size a ≤ S1x64x512x32.size a
  inb_S1x64x205x32_S1x64x1x32_0_0_8_0 : ∀ a, (![0, 0, 8, 0] : Fin 4 → Nat) a + S1x64x1x32.size a ≤ S1x64x205x32.size a
  inb_S1x64x512x32_S1x64x1x32_0_0_11_0 : ∀ a, (![0, 0, 11, 0] : Fin 4 → Nat) a + S1x64x1x32.size a ≤ S1x64x512x32.size a
  inb_S1x64x205x32_S1x64x1x32_0_0_9_0 : ∀ a, (![0, 0, 9, 0] : Fin 4 → Nat) a + S1x64x1x32.size a ≤ S1x64x205x32.size a
  inb_S1x64x512x32_S1x64x1x32_0_0_12_0 : ∀ a, (![0, 0, 12, 0] : Fin 4 → Nat) a + S1x64x1x32.size a ≤ S1x64x512x32.size a
  inb_S1x64x205x32_S1x64x1x32_0_0_10_0 : ∀ a, (![0, 0, 10, 0] : Fin 4 → Nat) a + S1x64x1x32.size a ≤ S1x64x205x32.size a
  inb_S1x64x512x32_S1x64x1x32_0_0_13_0 : ∀ a, (![0, 0, 13, 0] : Fin 4 → Nat) a + S1x64x1x32.size a ≤ S1x64x512x32.size a
  inb_S1x64x205x32_S1x64x1x32_0_0_11_0 : ∀ a, (![0, 0, 11, 0] : Fin 4 → Nat) a + S1x64x1x32.size a ≤ S1x64x205x32.size a
  inb_S1x64x512x32_S1x64x1x32_0_0_14_0 : ∀ a, (![0, 0, 14, 0] : Fin 4 → Nat) a + S1x64x1x32.size a ≤ S1x64x512x32.size a
  inb_S1x64x205x32_S1x64x1x32_0_0_12_0 : ∀ a, (![0, 0, 12, 0] : Fin 4 → Nat) a + S1x64x1x32.size a ≤ S1x64x205x32.size a
  inb_S1x64x512x32_S1x64x1x32_0_0_15_0 : ∀ a, (![0, 0, 15, 0] : Fin 4 → Nat) a + S1x64x1x32.size a ≤ S1x64x512x32.size a
  inb_S1x64x205x32_S1x64x1x32_0_0_13_0 : ∀ a, (![0, 0, 13, 0] : Fin 4 → Nat) a + S1x64x1x32.size a ≤ S1x64x205x32.size a
  inb_S1x64x512x32_S1x64x1x32_0_0_16_0 : ∀ a, (![0, 0, 16, 0] : Fin 4 → Nat) a + S1x64x1x32.size a ≤ S1x64x512x32.size a
  inb_S1x64x205x32_S1x64x1x32_0_0_14_0 : ∀ a, (![0, 0, 14, 0] : Fin 4 → Nat) a + S1x64x1x32.size a ≤ S1x64x205x32.size a
  inb_S1x64x512x32_S1x64x1x32_0_0_17_0 : ∀ a, (![0, 0, 17, 0] : Fin 4 → Nat) a + S1x64x1x32.size a ≤ S1x64x512x32.size a
  inb_S1x64x205x32_S1x64x1x32_0_0_15_0 : ∀ a, (![0, 0, 15, 0] : Fin 4 → Nat) a + S1x64x1x32.size a ≤ S1x64x205x32.size a
  inb_S1x64x512x32_S1x64x1x32_0_0_18_0 : ∀ a, (![0, 0, 18, 0] : Fin 4 → Nat) a + S1x64x1x32.size a ≤ S1x64x512x32.size a
  inb_S1x64x205x32_S1x64x1x32_0_0_16_0 : ∀ a, (![0, 0, 16, 0] : Fin 4 → Nat) a + S1x64x1x32.size a ≤ S1x64x205x32.size a
  inb_S1x64x512x32_S1x64x1x32_0_0_19_0 : ∀ a, (![0, 0, 19, 0] : Fin 4 → Nat) a + S1x64x1x32.size a ≤ S1x64x512x32.size a
  inb_S1x64x205x32_S1x64x1x32_0_0_17_0 : ∀ a, (![0, 0, 17, 0] : Fin 4 → Nat) a + S1x64x1x32.size a ≤ S1x64x205x32.size a
  inb_S1x64x512x32_S1x64x1x32_0_0_20_0 : ∀ a, (![0, 0, 20, 0] : Fin 4 → Nat) a + S1x64x1x32.size a ≤ S1x64x512x32.size a
  inb_S1x64x205x32_S1x64x1x32_0_0_18_0 : ∀ a, (![0, 0, 18, 0] : Fin 4 → Nat) a + S1x64x1x32.size a ≤ S1x64x205x32.size a
  inb_S1x64x512x32_S1x64x1x32_0_0_21_0 : ∀ a, (![0, 0, 21, 0] : Fin 4 → Nat) a + S1x64x1x32.size a ≤ S1x64x512x32.size a
  inb_S1x64x205x32_S1x64x1x32_0_0_19_0 : ∀ a, (![0, 0, 19, 0] : Fin 4 → Nat) a + S1x64x1x32.size a ≤ S1x64x205x32.size a
  inb_S1x64x512x32_S1x64x1x32_0_0_22_0 : ∀ a, (![0, 0, 22, 0] : Fin 4 → Nat) a + S1x64x1x32.size a ≤ S1x64x512x32.size a
  inb_S1x64x205x32_S1x64x1x32_0_0_20_0 : ∀ a, (![0, 0, 20, 0] : Fin 4 → Nat) a + S1x64x1x32.size a ≤ S1x64x205x32.size a
  inb_S1x64x512x32_S1x64x1x32_0_0_23_0 : ∀ a, (![0, 0, 23, 0] : Fin 4 → Nat) a + S1x64x1x32.size a ≤ S1x64x512x32.size a
  inb_S1x64x205x32_S1x64x1x32_0_0_21_0 : ∀ a, (![0, 0, 21, 0] : Fin 4 → Nat) a + S1x64x1x32.size a ≤ S1x64x205x32.size a
  inb_S1x64x512x32_S1x64x1x32_0_0_24_0 : ∀ a, (![0, 0, 24, 0] : Fin 4 → Nat) a + S1x64x1x32.size a ≤ S1x64x512x32.size a
  inb_S1x64x205x32_S1x64x1x32_0_0_22_0 : ∀ a, (![0, 0, 22, 0] : Fin 4 → Nat) a + S1x64x1x32.size a ≤ S1x64x205x32.size a
  inb_S1x64x512x32_S1x64x1x32_0_0_25_0 : ∀ a, (![0, 0, 25, 0] : Fin 4 → Nat) a + S1x64x1x32.size a ≤ S1x64x512x32.size a
  inb_S1x64x205x32_S1x64x1x32_0_0_23_0 : ∀ a, (![0, 0, 23, 0] : Fin 4 → Nat) a + S1x64x1x32.size a ≤ S1x64x205x32.size a
  inb_S1x64x512x32_S1x64x1x32_0_0_26_0 : ∀ a, (![0, 0, 26, 0] : Fin 4 → Nat) a + S1x64x1x32.size a ≤ S1x64x512x32.size a
  inb_S1x64x205x32_S1x64x1x32_0_0_24_0 : ∀ a, (![0, 0, 24, 0] : Fin 4 → Nat) a + S1x64x1x32.size a ≤ S1x64x205x32.size a
  inb_S1x64x512x32_S1x64x1x32_0_0_27_0 : ∀ a, (![0, 0, 27, 0] : Fin 4 → Nat) a + S1x64x1x32.size a ≤ S1x64x512x32.size a
  inb_S1x64x205x32_S1x64x1x32_0_0_25_0 : ∀ a, (![0, 0, 25, 0] : Fin 4 → Nat) a + S1x64x1x32.size a ≤ S1x64x205x32.size a
  inb_S1x64x512x32_S1x64x1x32_0_0_28_0 : ∀ a, (![0, 0, 28, 0] : Fin 4 → Nat) a + S1x64x1x32.size a ≤ S1x64x512x32.size a
  inb_S1x64x205x32_S1x64x1x32_0_0_26_0 : ∀ a, (![0, 0, 26, 0] : Fin 4 → Nat) a + S1x64x1x32.size a ≤ S1x64x205x32.size a
  inb_S1x64x512x32_S1x64x1x32_0_0_29_0 : ∀ a, (![0, 0, 29, 0] : Fin 4 → Nat) a + S1x64x1x32.size a ≤ S1x64x512x32.size a
  inb_S1x64x205x32_S1x64x1x32_0_0_27_0 : ∀ a, (![0, 0, 27, 0] : Fin 4 → Nat) a + S1x64x1x32.size a ≤ S1x64x205x32.size a
  inb_S1x64x512x32_S1x64x1x32_0_0_30_0 : ∀ a, (![0, 0, 30, 0] : Fin 4 → Nat) a + S1x64x1x32.size a ≤ S1x64x512x32.size a
  inb_S1x64x205x32_S1x64x1x32_0_0_28_0 : ∀ a, (![0, 0, 28, 0] : Fin 4 → Nat) a + S1x64x1x32.size a ≤ S1x64x205x32.size a
  inb_S1x64x512x32_S1x64x1x32_0_0_31_0 : ∀ a, (![0, 0, 31, 0] : Fin 4 → Nat) a + S1x64x1x32.size a ≤ S1x64x512x32.size a
  inb_S1x64x205x32_S1x64x1x32_0_0_29_0 : ∀ a, (![0, 0, 29, 0] : Fin 4 → Nat) a + S1x64x1x32.size a ≤ S1x64x205x32.size a
  inb_S1x64x512x32_S1x64x1x32_0_0_32_0 : ∀ a, (![0, 0, 32, 0] : Fin 4 → Nat) a + S1x64x1x32.size a ≤ S1x64x512x32.size a
  inb_S1x64x205x32_S1x64x1x32_0_0_30_0 : ∀ a, (![0, 0, 30, 0] : Fin 4 → Nat) a + S1x64x1x32.size a ≤ S1x64x205x32.size a
  inb_S1x64x512x32_S1x64x1x32_0_0_33_0 : ∀ a, (![0, 0, 33, 0] : Fin 4 → Nat) a + S1x64x1x32.size a ≤ S1x64x512x32.size a
  inb_S1x64x205x32_S1x64x1x32_0_0_31_0 : ∀ a, (![0, 0, 31, 0] : Fin 4 → Nat) a + S1x64x1x32.size a ≤ S1x64x205x32.size a
  inb_S1x64x512x32_S1x64x1x32_0_0_34_0 : ∀ a, (![0, 0, 34, 0] : Fin 4 → Nat) a + S1x64x1x32.size a ≤ S1x64x512x32.size a
  inb_S1x64x205x32_S1x64x1x32_0_0_32_0 : ∀ a, (![0, 0, 32, 0] : Fin 4 → Nat) a + S1x64x1x32.size a ≤ S1x64x205x32.size a
  inb_S1x64x512x32_S1x64x1x32_0_0_35_0 : ∀ a, (![0, 0, 35, 0] : Fin 4 → Nat) a + S1x64x1x32.size a ≤ S1x64x512x32.size a
  inb_S1x64x205x32_S1x64x1x32_0_0_33_0 : ∀ a, (![0, 0, 33, 0] : Fin 4 → Nat) a + S1x64x1x32.size a ≤ S1x64x205x32.size a
  inb_S1x64x512x32_S1x64x1x32_0_0_36_0 : ∀ a, (![0, 0, 36, 0] : Fin 4 → Nat) a + S1x64x1x32.size a ≤ S1x64x512x32.size a
  inb_S1x64x205x32_S1x64x1x32_0_0_34_0 : ∀ a, (![0, 0, 34, 0] : Fin 4 → Nat) a + S1x64x1x32.size a ≤ S1x64x205x32.size a
  inb_S1x64x512x32_S1x64x1x32_0_0_37_0 : ∀ a, (![0, 0, 37, 0] : Fin 4 → Nat) a + S1x64x1x32.size a ≤ S1x64x512x32.size a
  inb_S1x64x205x32_S1x64x1x32_0_0_35_0 : ∀ a, (![0, 0, 35, 0] : Fin 4 → Nat) a + S1x64x1x32.size a ≤ S1x64x205x32.size a
  inb_S1x64x512x32_S1x64x1x32_0_0_38_0 : ∀ a, (![0, 0, 38, 0] : Fin 4 → Nat) a + S1x64x1x32.size a ≤ S1x64x512x32.size a
  inb_S1x64x205x32_S1x64x1x32_0_0_36_0 : ∀ a, (![0, 0, 36, 0] : Fin 4 → Nat) a + S1x64x1x32.size a ≤ S1x64x205x32.size a
  inb_S1x64x512x32_S1x64x1x32_0_0_39_0 : ∀ a, (![0, 0, 39, 0] : Fin 4 → Nat) a + S1x64x1x32.size a ≤ S1x64x512x32.size a
  inb_S1x64x205x32_S1x64x1x32_0_0_37_0 : ∀ a, (![0, 0, 37, 0] : Fin 4 → Nat) a + S1x64x1x32.size a ≤ S1x64x205x32.size a
  inb_S1x64x512x32_S1x64x1x32_0_0_40_0 : ∀ a, (![0, 0, 40, 0] : Fin 4 → Nat) a + S1x64x1x32.size a ≤ S1x64x512x32.size a
  inb_S1x64x205x32_S1x64x1x32_0_0_38_0 : ∀ a, (![0, 0, 38, 0] : Fin 4 → Nat) a + S1x64x1x32.size a ≤ S1x64x205x32.size a
  inb_S1x64x512x32_S1x64x1x32_0_0_41_0 : ∀ a, (![0, 0, 41, 0] : Fin 4 → Nat) a + S1x64x1x32.size a ≤ S1x64x512x32.size a
  inb_S1x64x205x32_S1x64x1x32_0_0_39_0 : ∀ a, (![0, 0, 39, 0] : Fin 4 → Nat) a + S1x64x1x32.size a ≤ S1x64x205x32.size a
  inb_S1x64x512x32_S1x64x1x32_0_0_42_0 : ∀ a, (![0, 0, 42, 0] : Fin 4 → Nat) a + S1x64x1x32.size a ≤ S1x64x512x32.size a
  inb_S1x64x205x32_S1x64x1x32_0_0_40_0 : ∀ a, (![0, 0, 40, 0] : Fin 4 → Nat) a + S1x64x1x32.size a ≤ S1x64x205x32.size a
  inb_S1x64x512x32_S1x64x1x32_0_0_43_0 : ∀ a, (![0, 0, 43, 0] : Fin 4 → Nat) a + S1x64x1x32.size a ≤ S1x64x512x32.size a
  inb_S1x64x205x32_S1x64x1x32_0_0_41_0 : ∀ a, (![0, 0, 41, 0] : Fin 4 → Nat) a + S1x64x1x32.size a ≤ S1x64x205x32.size a
  inb_S1x64x512x32_S1x64x1x32_0_0_44_0 : ∀ a, (![0, 0, 44, 0] : Fin 4 → Nat) a + S1x64x1x32.size a ≤ S1x64x512x32.size a
  inb_S1x64x205x32_S1x64x1x32_0_0_42_0 : ∀ a, (![0, 0, 42, 0] : Fin 4 → Nat) a + S1x64x1x32.size a ≤ S1x64x205x32.size a
  inb_S1x64x512x32_S1x64x1x32_0_0_45_0 : ∀ a, (![0, 0, 45, 0] : Fin 4 → Nat) a + S1x64x1x32.size a ≤ S1x64x512x32.size a
  inb_S1x64x205x32_S1x64x1x32_0_0_43_0 : ∀ a, (![0, 0, 43, 0] : Fin 4 → Nat) a + S1x64x1x32.size a ≤ S1x64x205x32.size a
  inb_S1x64x512x32_S1x64x1x32_0_0_46_0 : ∀ a, (![0, 0, 46, 0] : Fin 4 → Nat) a + S1x64x1x32.size a ≤ S1x64x512x32.size a
  inb_S1x64x205x32_S1x64x1x32_0_0_44_0 : ∀ a, (![0, 0, 44, 0] : Fin 4 → Nat) a + S1x64x1x32.size a ≤ S1x64x205x32.size a
  inb_S1x64x512x32_S1x64x1x32_0_0_47_0 : ∀ a, (![0, 0, 47, 0] : Fin 4 → Nat) a + S1x64x1x32.size a ≤ S1x64x512x32.size a
  inb_S1x64x205x32_S1x64x1x32_0_0_45_0 : ∀ a, (![0, 0, 45, 0] : Fin 4 → Nat) a + S1x64x1x32.size a ≤ S1x64x205x32.size a
  inb_S1x64x512x32_S1x64x1x32_0_0_48_0 : ∀ a, (![0, 0, 48, 0] : Fin 4 → Nat) a + S1x64x1x32.size a ≤ S1x64x512x32.size a
  inb_S1x64x205x32_S1x64x1x32_0_0_46_0 : ∀ a, (![0, 0, 46, 0] : Fin 4 → Nat) a + S1x64x1x32.size a ≤ S1x64x205x32.size a
  inb_S1x64x512x32_S1x64x1x32_0_0_49_0 : ∀ a, (![0, 0, 49, 0] : Fin 4 → Nat) a + S1x64x1x32.size a ≤ S1x64x512x32.size a
  inb_S1x64x205x32_S1x64x1x32_0_0_47_0 : ∀ a, (![0, 0, 47, 0] : Fin 4 → Nat) a + S1x64x1x32.size a ≤ S1x64x205x32.size a
  inb_S1x64x512x32_S1x64x1x32_0_0_50_0 : ∀ a, (![0, 0, 50, 0] : Fin 4 → Nat) a + S1x64x1x32.size a ≤ S1x64x512x32.size a
  inb_S1x64x205x32_S1x64x1x32_0_0_48_0 : ∀ a, (![0, 0, 48, 0] : Fin 4 → Nat) a + S1x64x1x32.size a ≤ S1x64x205x32.size a
  inb_S1x64x512x32_S1x64x1x32_0_0_51_0 : ∀ a, (![0, 0, 51, 0] : Fin 4 → Nat) a + S1x64x1x32.size a ≤ S1x64x512x32.size a
  inb_S1x64x205x32_S1x64x1x32_0_0_49_0 : ∀ a, (![0, 0, 49, 0] : Fin 4 → Nat) a + S1x64x1x32.size a ≤ S1x64x205x32.size a
  inb_S1x64x512x32_S1x64x1x32_0_0_52_0 : ∀ a, (![0, 0, 52, 0] : Fin 4 → Nat) a + S1x64x1x32.size a ≤ S1x64x512x32.size a
  inb_S1x64x205x32_S1x64x1x32_0_0_50_0 : ∀ a, (![0, 0, 50, 0] : Fin 4 → Nat) a + S1x64x1x32.size a ≤ S1x64x205x32.size a
  inb_S1x64x512x32_S1x64x1x32_0_0_53_0 : ∀ a, (![0, 0, 53, 0] : Fin 4 → Nat) a + S1x64x1x32.size a ≤ S1x64x512x32.size a
  inb_S1x64x205x32_S1x64x1x32_0_0_51_0 : ∀ a, (![0, 0, 51, 0] : Fin 4 → Nat) a + S1x64x1x32.size a ≤ S1x64x205x32.size a
  inb_S1x64x512x32_S1x64x1x32_0_0_54_0 : ∀ a, (![0, 0, 54, 0] : Fin 4 → Nat) a + S1x64x1x32.size a ≤ S1x64x512x32.size a
  inb_S1x64x205x32_S1x64x1x32_0_0_52_0 : ∀ a, (![0, 0, 52, 0] : Fin 4 → Nat) a + S1x64x1x32.size a ≤ S1x64x205x32.size a
  inb_S1x64x512x32_S1x64x1x32_0_0_55_0 : ∀ a, (![0, 0, 55, 0] : Fin 4 → Nat) a + S1x64x1x32.size a ≤ S1x64x512x32.size a
  inb_S1x64x205x32_S1x64x1x32_0_0_53_0 : ∀ a, (![0, 0, 53, 0] : Fin 4 → Nat) a + S1x64x1x32.size a ≤ S1x64x205x32.size a
  inb_S1x64x512x32_S1x64x1x32_0_0_56_0 : ∀ a, (![0, 0, 56, 0] : Fin 4 → Nat) a + S1x64x1x32.size a ≤ S1x64x512x32.size a
  inb_S1x64x205x32_S1x64x1x32_0_0_54_0 : ∀ a, (![0, 0, 54, 0] : Fin 4 → Nat) a + S1x64x1x32.size a ≤ S1x64x205x32.size a
  inb_S1x64x512x32_S1x64x1x32_0_0_57_0 : ∀ a, (![0, 0, 57, 0] : Fin 4 → Nat) a + S1x64x1x32.size a ≤ S1x64x512x32.size a
  inb_S1x64x205x32_S1x64x1x32_0_0_55_0 : ∀ a, (![0, 0, 55, 0] : Fin 4 → Nat) a + S1x64x1x32.size a ≤ S1x64x205x32.size a
  inb_S1x64x512x32_S1x64x1x32_0_0_58_0 : ∀ a, (![0, 0, 58, 0] : Fin 4 → Nat) a + S1x64x1x32.size a ≤ S1x64x512x32.size a
  inb_S1x64x205x32_S1x64x1x32_0_0_56_0 : ∀ a, (![0, 0, 56, 0] : Fin 4 → Nat) a + S1x64x1x32.size a ≤ S1x64x205x32.size a
  inb_S1x64x512x32_S1x64x1x32_0_0_59_0 : ∀ a, (![0, 0, 59, 0] : Fin 4 → Nat) a + S1x64x1x32.size a ≤ S1x64x512x32.size a
  inb_S1x64x205x32_S1x64x1x32_0_0_57_0 : ∀ a, (![0, 0, 57, 0] : Fin 4 → Nat) a + S1x64x1x32.size a ≤ S1x64x205x32.size a
  inb_S1x64x512x32_S1x64x1x32_0_0_60_0 : ∀ a, (![0, 0, 60, 0] : Fin 4 → Nat) a + S1x64x1x32.size a ≤ S1x64x512x32.size a
  inb_S1x64x205x32_S1x64x1x32_0_0_58_0 : ∀ a, (![0, 0, 58, 0] : Fin 4 → Nat) a + S1x64x1x32.size a ≤ S1x64x205x32.size a
  inb_S1x64x512x32_S1x64x1x32_0_0_61_0 : ∀ a, (![0, 0, 61, 0] : Fin 4 → Nat) a + S1x64x1x32.size a ≤ S1x64x512x32.size a
  inb_S1x64x205x32_S1x64x1x32_0_0_59_0 : ∀ a, (![0, 0, 59, 0] : Fin 4 → Nat) a + S1x64x1x32.size a ≤ S1x64x205x32.size a
  inb_S1x64x512x32_S1x64x1x32_0_0_62_0 : ∀ a, (![0, 0, 62, 0] : Fin 4 → Nat) a + S1x64x1x32.size a ≤ S1x64x512x32.size a
  inb_S1x64x205x32_S1x64x1x32_0_0_60_0 : ∀ a, (![0, 0, 60, 0] : Fin 4 → Nat) a + S1x64x1x32.size a ≤ S1x64x205x32.size a
  inb_S1x64x512x32_S1x64x1x32_0_0_63_0 : ∀ a, (![0, 0, 63, 0] : Fin 4 → Nat) a + S1x64x1x32.size a ≤ S1x64x512x32.size a
  inb_S1x64x205x32_S1x64x1x32_0_0_61_0 : ∀ a, (![0, 0, 61, 0] : Fin 4 → Nat) a + S1x64x1x32.size a ≤ S1x64x205x32.size a
  inb_S1x64x512x32_S1x64x1x32_0_0_64_0 : ∀ a, (![0, 0, 64, 0] : Fin 4 → Nat) a + S1x64x1x32.size a ≤ S1x64x512x32.size a
  inb_S1x64x205x32_S1x64x1x32_0_0_62_0 : ∀ a, (![0, 0, 62, 0] : Fin 4 → Nat) a + S1x64x1x32.size a ≤ S1x64x205x32.size a
  inb_S1x64x512x32_S1x64x1x32_0_0_65_0 : ∀ a, (![0, 0, 65, 0] : Fin 4 → Nat) a + S1x64x1x32.size a ≤ S1x64x512x32.size a
  inb_S1x64x205x32_S1x64x1x32_0_0_63_0 : ∀ a, (![0, 0, 63, 0] : Fin 4 → Nat) a + S1x64x1x32.size a ≤ S1x64x205x32.size a
  inb_S1x64x512x32_S1x64x1x32_0_0_66_0 : ∀ a, (![0, 0, 66, 0] : Fin 4 → Nat) a + S1x64x1x32.size a ≤ S1x64x512x32.size a
  inb_S1x64x205x32_S1x64x1x32_0_0_64_0 : ∀ a, (![0, 0, 64, 0] : Fin 4 → Nat) a + S1x64x1x32.size a ≤ S1x64x205x32.size a
  inb_S1x64x512x32_S1x64x1x32_0_0_67_0 : ∀ a, (![0, 0, 67, 0] : Fin 4 → Nat) a + S1x64x1x32.size a ≤ S1x64x512x32.size a
  inb_S1x64x205x32_S1x64x1x32_0_0_65_0 : ∀ a, (![0, 0, 65, 0] : Fin 4 → Nat) a + S1x64x1x32.size a ≤ S1x64x205x32.size a
  inb_S1x64x512x32_S1x64x1x32_0_0_68_0 : ∀ a, (![0, 0, 68, 0] : Fin 4 → Nat) a + S1x64x1x32.size a ≤ S1x64x512x32.size a
  inb_S1x64x205x32_S1x64x1x32_0_0_66_0 : ∀ a, (![0, 0, 66, 0] : Fin 4 → Nat) a + S1x64x1x32.size a ≤ S1x64x205x32.size a
  inb_S1x64x512x32_S1x64x1x32_0_0_69_0 : ∀ a, (![0, 0, 69, 0] : Fin 4 → Nat) a + S1x64x1x32.size a ≤ S1x64x512x32.size a
  inb_S1x64x205x32_S1x64x1x32_0_0_67_0 : ∀ a, (![0, 0, 67, 0] : Fin 4 → Nat) a + S1x64x1x32.size a ≤ S1x64x205x32.size a
  inb_S1x64x512x32_S1x64x1x32_0_0_70_0 : ∀ a, (![0, 0, 70, 0] : Fin 4 → Nat) a + S1x64x1x32.size a ≤ S1x64x512x32.size a
  inb_S1x64x205x32_S1x64x1x32_0_0_68_0 : ∀ a, (![0, 0, 68, 0] : Fin 4 → Nat) a + S1x64x1x32.size a ≤ S1x64x205x32.size a
  inb_S1x64x512x32_S1x64x1x32_0_0_71_0 : ∀ a, (![0, 0, 71, 0] : Fin 4 → Nat) a + S1x64x1x32.size a ≤ S1x64x512x32.size a
  inb_S1x64x205x32_S1x64x1x32_0_0_69_0 : ∀ a, (![0, 0, 69, 0] : Fin 4 → Nat) a + S1x64x1x32.size a ≤ S1x64x205x32.size a
  inb_S1x64x512x32_S1x64x1x32_0_0_72_0 : ∀ a, (![0, 0, 72, 0] : Fin 4 → Nat) a + S1x64x1x32.size a ≤ S1x64x512x32.size a
  inb_S1x64x205x32_S1x64x1x32_0_0_70_0 : ∀ a, (![0, 0, 70, 0] : Fin 4 → Nat) a + S1x64x1x32.size a ≤ S1x64x205x32.size a
  inb_S1x64x512x32_S1x64x1x32_0_0_73_0 : ∀ a, (![0, 0, 73, 0] : Fin 4 → Nat) a + S1x64x1x32.size a ≤ S1x64x512x32.size a
  inb_S1x64x205x32_S1x64x1x32_0_0_71_0 : ∀ a, (![0, 0, 71, 0] : Fin 4 → Nat) a + S1x64x1x32.size a ≤ S1x64x205x32.size a
  inb_S1x64x512x32_S1x64x1x32_0_0_74_0 : ∀ a, (![0, 0, 74, 0] : Fin 4 → Nat) a + S1x64x1x32.size a ≤ S1x64x512x32.size a
  inb_S1x64x205x32_S1x64x1x32_0_0_72_0 : ∀ a, (![0, 0, 72, 0] : Fin 4 → Nat) a + S1x64x1x32.size a ≤ S1x64x205x32.size a
  inb_S1x64x512x32_S1x64x1x32_0_0_75_0 : ∀ a, (![0, 0, 75, 0] : Fin 4 → Nat) a + S1x64x1x32.size a ≤ S1x64x512x32.size a
  inb_S1x64x205x32_S1x64x1x32_0_0_73_0 : ∀ a, (![0, 0, 73, 0] : Fin 4 → Nat) a + S1x64x1x32.size a ≤ S1x64x205x32.size a
  inb_S1x64x512x32_S1x64x1x32_0_0_76_0 : ∀ a, (![0, 0, 76, 0] : Fin 4 → Nat) a + S1x64x1x32.size a ≤ S1x64x512x32.size a
  inb_S1x64x205x32_S1x64x1x32_0_0_74_0 : ∀ a, (![0, 0, 74, 0] : Fin 4 → Nat) a + S1x64x1x32.size a ≤ S1x64x205x32.size a
  inb_S1x64x512x32_S1x64x1x32_0_0_77_0 : ∀ a, (![0, 0, 77, 0] : Fin 4 → Nat) a + S1x64x1x32.size a ≤ S1x64x512x32.size a
  inb_S1x64x205x32_S1x64x1x32_0_0_75_0 : ∀ a, (![0, 0, 75, 0] : Fin 4 → Nat) a + S1x64x1x32.size a ≤ S1x64x205x32.size a
  inb_S1x64x512x32_S1x64x1x32_0_0_78_0 : ∀ a, (![0, 0, 78, 0] : Fin 4 → Nat) a + S1x64x1x32.size a ≤ S1x64x512x32.size a
  inb_S1x64x205x32_S1x64x1x32_0_0_76_0 : ∀ a, (![0, 0, 76, 0] : Fin 4 → Nat) a + S1x64x1x32.size a ≤ S1x64x205x32.size a
  inb_S1x64x512x32_S1x64x1x32_0_0_79_0 : ∀ a, (![0, 0, 79, 0] : Fin 4 → Nat) a + S1x64x1x32.size a ≤ S1x64x512x32.size a
  inb_S1x64x205x32_S1x64x1x32_0_0_77_0 : ∀ a, (![0, 0, 77, 0] : Fin 4 → Nat) a + S1x64x1x32.size a ≤ S1x64x205x32.size a
  inb_S1x64x512x32_S1x64x1x32_0_0_80_0 : ∀ a, (![0, 0, 80, 0] : Fin 4 → Nat) a + S1x64x1x32.size a ≤ S1x64x512x32.size a
  inb_S1x64x205x32_S1x64x1x32_0_0_78_0 : ∀ a, (![0, 0, 78, 0] : Fin 4 → Nat) a + S1x64x1x32.size a ≤ S1x64x205x32.size a
  inb_S1x64x512x32_S1x64x1x32_0_0_81_0 : ∀ a, (![0, 0, 81, 0] : Fin 4 → Nat) a + S1x64x1x32.size a ≤ S1x64x512x32.size a
  inb_S1x64x205x32_S1x64x1x32_0_0_79_0 : ∀ a, (![0, 0, 79, 0] : Fin 4 → Nat) a + S1x64x1x32.size a ≤ S1x64x205x32.size a
  inb_S1x64x512x32_S1x64x1x32_0_0_82_0 : ∀ a, (![0, 0, 82, 0] : Fin 4 → Nat) a + S1x64x1x32.size a ≤ S1x64x512x32.size a
  inb_S1x64x205x32_S1x64x1x32_0_0_80_0 : ∀ a, (![0, 0, 80, 0] : Fin 4 → Nat) a + S1x64x1x32.size a ≤ S1x64x205x32.size a
  inb_S1x64x512x32_S1x64x1x32_0_0_83_0 : ∀ a, (![0, 0, 83, 0] : Fin 4 → Nat) a + S1x64x1x32.size a ≤ S1x64x512x32.size a
  inb_S1x64x205x32_S1x64x1x32_0_0_81_0 : ∀ a, (![0, 0, 81, 0] : Fin 4 → Nat) a + S1x64x1x32.size a ≤ S1x64x205x32.size a
  inb_S1x64x512x32_S1x64x1x32_0_0_84_0 : ∀ a, (![0, 0, 84, 0] : Fin 4 → Nat) a + S1x64x1x32.size a ≤ S1x64x512x32.size a
  inb_S1x64x205x32_S1x64x1x32_0_0_82_0 : ∀ a, (![0, 0, 82, 0] : Fin 4 → Nat) a + S1x64x1x32.size a ≤ S1x64x205x32.size a
  inb_S1x64x512x32_S1x64x1x32_0_0_85_0 : ∀ a, (![0, 0, 85, 0] : Fin 4 → Nat) a + S1x64x1x32.size a ≤ S1x64x512x32.size a
  inb_S1x64x205x32_S1x64x1x32_0_0_83_0 : ∀ a, (![0, 0, 83, 0] : Fin 4 → Nat) a + S1x64x1x32.size a ≤ S1x64x205x32.size a
  inb_S1x64x512x32_S1x64x1x32_0_0_86_0 : ∀ a, (![0, 0, 86, 0] : Fin 4 → Nat) a + S1x64x1x32.size a ≤ S1x64x512x32.size a
  inb_S1x64x205x32_S1x64x1x32_0_0_84_0 : ∀ a, (![0, 0, 84, 0] : Fin 4 → Nat) a + S1x64x1x32.size a ≤ S1x64x205x32.size a
  inb_S1x64x512x32_S1x64x1x32_0_0_87_0 : ∀ a, (![0, 0, 87, 0] : Fin 4 → Nat) a + S1x64x1x32.size a ≤ S1x64x512x32.size a
  inb_S1x64x205x32_S1x64x1x32_0_0_85_0 : ∀ a, (![0, 0, 85, 0] : Fin 4 → Nat) a + S1x64x1x32.size a ≤ S1x64x205x32.size a
  inb_S1x64x512x32_S1x64x1x32_0_0_88_0 : ∀ a, (![0, 0, 88, 0] : Fin 4 → Nat) a + S1x64x1x32.size a ≤ S1x64x512x32.size a
  inb_S1x64x205x32_S1x64x1x32_0_0_86_0 : ∀ a, (![0, 0, 86, 0] : Fin 4 → Nat) a + S1x64x1x32.size a ≤ S1x64x205x32.size a
  inb_S1x64x512x32_S1x64x1x32_0_0_89_0 : ∀ a, (![0, 0, 89, 0] : Fin 4 → Nat) a + S1x64x1x32.size a ≤ S1x64x512x32.size a
  inb_S1x64x205x32_S1x64x1x32_0_0_87_0 : ∀ a, (![0, 0, 87, 0] : Fin 4 → Nat) a + S1x64x1x32.size a ≤ S1x64x205x32.size a
  inb_S1x64x512x32_S1x64x1x32_0_0_90_0 : ∀ a, (![0, 0, 90, 0] : Fin 4 → Nat) a + S1x64x1x32.size a ≤ S1x64x512x32.size a
  inb_S1x64x205x32_S1x64x1x32_0_0_88_0 : ∀ a, (![0, 0, 88, 0] : Fin 4 → Nat) a + S1x64x1x32.size a ≤ S1x64x205x32.size a
  inb_S1x64x512x32_S1x64x1x32_0_0_91_0 : ∀ a, (![0, 0, 91, 0] : Fin 4 → Nat) a + S1x64x1x32.size a ≤ S1x64x512x32.size a
  inb_S1x64x205x32_S1x64x1x32_0_0_89_0 : ∀ a, (![0, 0, 89, 0] : Fin 4 → Nat) a + S1x64x1x32.size a ≤ S1x64x205x32.size a
  inb_S1x64x512x32_S1x64x1x32_0_0_92_0 : ∀ a, (![0, 0, 92, 0] : Fin 4 → Nat) a + S1x64x1x32.size a ≤ S1x64x512x32.size a
  inb_S1x64x205x32_S1x64x1x32_0_0_90_0 : ∀ a, (![0, 0, 90, 0] : Fin 4 → Nat) a + S1x64x1x32.size a ≤ S1x64x205x32.size a
  inb_S1x64x512x32_S1x64x1x32_0_0_93_0 : ∀ a, (![0, 0, 93, 0] : Fin 4 → Nat) a + S1x64x1x32.size a ≤ S1x64x512x32.size a
  inb_S1x64x205x32_S1x64x1x32_0_0_91_0 : ∀ a, (![0, 0, 91, 0] : Fin 4 → Nat) a + S1x64x1x32.size a ≤ S1x64x205x32.size a
  inb_S1x64x512x32_S1x64x1x32_0_0_94_0 : ∀ a, (![0, 0, 94, 0] : Fin 4 → Nat) a + S1x64x1x32.size a ≤ S1x64x512x32.size a
  inb_S1x64x205x32_S1x64x1x32_0_0_92_0 : ∀ a, (![0, 0, 92, 0] : Fin 4 → Nat) a + S1x64x1x32.size a ≤ S1x64x205x32.size a
  inb_S1x64x512x32_S1x64x1x32_0_0_95_0 : ∀ a, (![0, 0, 95, 0] : Fin 4 → Nat) a + S1x64x1x32.size a ≤ S1x64x512x32.size a
  inb_S1x64x205x32_S1x64x1x32_0_0_93_0 : ∀ a, (![0, 0, 93, 0] : Fin 4 → Nat) a + S1x64x1x32.size a ≤ S1x64x205x32.size a
  inb_S1x64x512x32_S1x64x1x32_0_0_96_0 : ∀ a, (![0, 0, 96, 0] : Fin 4 → Nat) a + S1x64x1x32.size a ≤ S1x64x512x32.size a
  inb_S1x64x205x32_S1x64x1x32_0_0_94_0 : ∀ a, (![0, 0, 94, 0] : Fin 4 → Nat) a + S1x64x1x32.size a ≤ S1x64x205x32.size a
  inb_S1x64x512x32_S1x64x1x32_0_0_97_0 : ∀ a, (![0, 0, 97, 0] : Fin 4 → Nat) a + S1x64x1x32.size a ≤ S1x64x512x32.size a
  inb_S1x64x205x32_S1x64x1x32_0_0_95_0 : ∀ a, (![0, 0, 95, 0] : Fin 4 → Nat) a + S1x64x1x32.size a ≤ S1x64x205x32.size a
  inb_S1x64x512x32_S1x64x1x32_0_0_98_0 : ∀ a, (![0, 0, 98, 0] : Fin 4 → Nat) a + S1x64x1x32.size a ≤ S1x64x512x32.size a
  inb_S1x64x205x32_S1x64x1x32_0_0_96_0 : ∀ a, (![0, 0, 96, 0] : Fin 4 → Nat) a + S1x64x1x32.size a ≤ S1x64x205x32.size a
  inb_S1x64x512x32_S1x64x1x32_0_0_99_0 : ∀ a, (![0, 0, 99, 0] : Fin 4 → Nat) a + S1x64x1x32.size a ≤ S1x64x512x32.size a
  inb_S1x64x205x32_S1x64x1x32_0_0_97_0 : ∀ a, (![0, 0, 97, 0] : Fin 4 → Nat) a + S1x64x1x32.size a ≤ S1x64x205x32.size a

class Shapes2.Facts₀ : Prop where
  inb_S1x64x512x32_S1x64x1x32_0_0_100_0 : ∀ a, (![0, 0, 100, 0] : Fin 4 → Nat) a + S1x64x1x32.size a ≤ S1x64x512x32.size a
  inb_S1x64x205x32_S1x64x1x32_0_0_98_0 : ∀ a, (![0, 0, 98, 0] : Fin 4 → Nat) a + S1x64x1x32.size a ≤ S1x64x205x32.size a
  inb_S1x64x512x32_S1x64x1x32_0_0_101_0 : ∀ a, (![0, 0, 101, 0] : Fin 4 → Nat) a + S1x64x1x32.size a ≤ S1x64x512x32.size a
  inb_S1x64x205x32_S1x64x1x32_0_0_99_0 : ∀ a, (![0, 0, 99, 0] : Fin 4 → Nat) a + S1x64x1x32.size a ≤ S1x64x205x32.size a
  inb_S1x64x512x32_S1x64x1x32_0_0_102_0 : ∀ a, (![0, 0, 102, 0] : Fin 4 → Nat) a + S1x64x1x32.size a ≤ S1x64x512x32.size a
  inb_S1x64x205x32_S1x64x1x32_0_0_100_0 : ∀ a, (![0, 0, 100, 0] : Fin 4 → Nat) a + S1x64x1x32.size a ≤ S1x64x205x32.size a
  inb_S1x64x512x32_S1x64x1x32_0_0_103_0 : ∀ a, (![0, 0, 103, 0] : Fin 4 → Nat) a + S1x64x1x32.size a ≤ S1x64x512x32.size a
  inb_S1x64x205x32_S1x64x1x32_0_0_101_0 : ∀ a, (![0, 0, 101, 0] : Fin 4 → Nat) a + S1x64x1x32.size a ≤ S1x64x205x32.size a
  inb_S1x64x512x32_S1x64x1x32_0_0_104_0 : ∀ a, (![0, 0, 104, 0] : Fin 4 → Nat) a + S1x64x1x32.size a ≤ S1x64x512x32.size a
  inb_S1x64x205x32_S1x64x1x32_0_0_102_0 : ∀ a, (![0, 0, 102, 0] : Fin 4 → Nat) a + S1x64x1x32.size a ≤ S1x64x205x32.size a
  inb_S1x64x512x32_S1x64x1x32_0_0_105_0 : ∀ a, (![0, 0, 105, 0] : Fin 4 → Nat) a + S1x64x1x32.size a ≤ S1x64x512x32.size a
  inb_S1x64x205x32_S1x64x1x32_0_0_103_0 : ∀ a, (![0, 0, 103, 0] : Fin 4 → Nat) a + S1x64x1x32.size a ≤ S1x64x205x32.size a
  inb_S1x64x512x32_S1x64x1x32_0_0_106_0 : ∀ a, (![0, 0, 106, 0] : Fin 4 → Nat) a + S1x64x1x32.size a ≤ S1x64x512x32.size a
  inb_S1x64x205x32_S1x64x1x32_0_0_104_0 : ∀ a, (![0, 0, 104, 0] : Fin 4 → Nat) a + S1x64x1x32.size a ≤ S1x64x205x32.size a
  inb_S1x64x512x32_S1x64x1x32_0_0_107_0 : ∀ a, (![0, 0, 107, 0] : Fin 4 → Nat) a + S1x64x1x32.size a ≤ S1x64x512x32.size a
  inb_S1x64x205x32_S1x64x1x32_0_0_105_0 : ∀ a, (![0, 0, 105, 0] : Fin 4 → Nat) a + S1x64x1x32.size a ≤ S1x64x205x32.size a
  inb_S1x64x512x32_S1x64x1x32_0_0_108_0 : ∀ a, (![0, 0, 108, 0] : Fin 4 → Nat) a + S1x64x1x32.size a ≤ S1x64x512x32.size a
  inb_S1x64x205x32_S1x64x1x32_0_0_106_0 : ∀ a, (![0, 0, 106, 0] : Fin 4 → Nat) a + S1x64x1x32.size a ≤ S1x64x205x32.size a
  inb_S1x64x512x32_S1x64x1x32_0_0_109_0 : ∀ a, (![0, 0, 109, 0] : Fin 4 → Nat) a + S1x64x1x32.size a ≤ S1x64x512x32.size a
  inb_S1x64x205x32_S1x64x1x32_0_0_107_0 : ∀ a, (![0, 0, 107, 0] : Fin 4 → Nat) a + S1x64x1x32.size a ≤ S1x64x205x32.size a
  inb_S1x64x512x32_S1x64x1x32_0_0_110_0 : ∀ a, (![0, 0, 110, 0] : Fin 4 → Nat) a + S1x64x1x32.size a ≤ S1x64x512x32.size a
  inb_S1x64x205x32_S1x64x1x32_0_0_108_0 : ∀ a, (![0, 0, 108, 0] : Fin 4 → Nat) a + S1x64x1x32.size a ≤ S1x64x205x32.size a
  inb_S1x64x512x32_S1x64x1x32_0_0_111_0 : ∀ a, (![0, 0, 111, 0] : Fin 4 → Nat) a + S1x64x1x32.size a ≤ S1x64x512x32.size a
  inb_S1x64x205x32_S1x64x1x32_0_0_109_0 : ∀ a, (![0, 0, 109, 0] : Fin 4 → Nat) a + S1x64x1x32.size a ≤ S1x64x205x32.size a
  inb_S1x64x512x32_S1x64x1x32_0_0_112_0 : ∀ a, (![0, 0, 112, 0] : Fin 4 → Nat) a + S1x64x1x32.size a ≤ S1x64x512x32.size a
  inb_S1x64x205x32_S1x64x1x32_0_0_110_0 : ∀ a, (![0, 0, 110, 0] : Fin 4 → Nat) a + S1x64x1x32.size a ≤ S1x64x205x32.size a
  inb_S1x64x512x32_S1x64x1x32_0_0_113_0 : ∀ a, (![0, 0, 113, 0] : Fin 4 → Nat) a + S1x64x1x32.size a ≤ S1x64x512x32.size a
  inb_S1x64x205x32_S1x64x1x32_0_0_111_0 : ∀ a, (![0, 0, 111, 0] : Fin 4 → Nat) a + S1x64x1x32.size a ≤ S1x64x205x32.size a
  inb_S1x64x512x32_S1x64x1x32_0_0_114_0 : ∀ a, (![0, 0, 114, 0] : Fin 4 → Nat) a + S1x64x1x32.size a ≤ S1x64x512x32.size a
  inb_S1x64x205x32_S1x64x1x32_0_0_112_0 : ∀ a, (![0, 0, 112, 0] : Fin 4 → Nat) a + S1x64x1x32.size a ≤ S1x64x205x32.size a
  inb_S1x64x512x32_S1x64x1x32_0_0_115_0 : ∀ a, (![0, 0, 115, 0] : Fin 4 → Nat) a + S1x64x1x32.size a ≤ S1x64x512x32.size a
  inb_S1x64x205x32_S1x64x1x32_0_0_113_0 : ∀ a, (![0, 0, 113, 0] : Fin 4 → Nat) a + S1x64x1x32.size a ≤ S1x64x205x32.size a
  inb_S1x64x512x32_S1x64x1x32_0_0_116_0 : ∀ a, (![0, 0, 116, 0] : Fin 4 → Nat) a + S1x64x1x32.size a ≤ S1x64x512x32.size a
  inb_S1x64x205x32_S1x64x1x32_0_0_114_0 : ∀ a, (![0, 0, 114, 0] : Fin 4 → Nat) a + S1x64x1x32.size a ≤ S1x64x205x32.size a
  inb_S1x64x512x32_S1x64x1x32_0_0_117_0 : ∀ a, (![0, 0, 117, 0] : Fin 4 → Nat) a + S1x64x1x32.size a ≤ S1x64x512x32.size a
  inb_S1x64x205x32_S1x64x1x32_0_0_115_0 : ∀ a, (![0, 0, 115, 0] : Fin 4 → Nat) a + S1x64x1x32.size a ≤ S1x64x205x32.size a
  inb_S1x64x512x32_S1x64x1x32_0_0_118_0 : ∀ a, (![0, 0, 118, 0] : Fin 4 → Nat) a + S1x64x1x32.size a ≤ S1x64x512x32.size a
  inb_S1x64x205x32_S1x64x1x32_0_0_116_0 : ∀ a, (![0, 0, 116, 0] : Fin 4 → Nat) a + S1x64x1x32.size a ≤ S1x64x205x32.size a
  inb_S1x64x512x32_S1x64x1x32_0_0_119_0 : ∀ a, (![0, 0, 119, 0] : Fin 4 → Nat) a + S1x64x1x32.size a ≤ S1x64x512x32.size a
  inb_S1x64x205x32_S1x64x1x32_0_0_117_0 : ∀ a, (![0, 0, 117, 0] : Fin 4 → Nat) a + S1x64x1x32.size a ≤ S1x64x205x32.size a
  inb_S1x64x512x32_S1x64x1x32_0_0_120_0 : ∀ a, (![0, 0, 120, 0] : Fin 4 → Nat) a + S1x64x1x32.size a ≤ S1x64x512x32.size a
  inb_S1x64x205x32_S1x64x1x32_0_0_118_0 : ∀ a, (![0, 0, 118, 0] : Fin 4 → Nat) a + S1x64x1x32.size a ≤ S1x64x205x32.size a
  inb_S1x64x512x32_S1x64x1x32_0_0_121_0 : ∀ a, (![0, 0, 121, 0] : Fin 4 → Nat) a + S1x64x1x32.size a ≤ S1x64x512x32.size a
  inb_S1x64x205x32_S1x64x1x32_0_0_119_0 : ∀ a, (![0, 0, 119, 0] : Fin 4 → Nat) a + S1x64x1x32.size a ≤ S1x64x205x32.size a
  inb_S1x64x512x32_S1x64x1x32_0_0_122_0 : ∀ a, (![0, 0, 122, 0] : Fin 4 → Nat) a + S1x64x1x32.size a ≤ S1x64x512x32.size a
  inb_S1x64x205x32_S1x64x1x32_0_0_120_0 : ∀ a, (![0, 0, 120, 0] : Fin 4 → Nat) a + S1x64x1x32.size a ≤ S1x64x205x32.size a
  inb_S1x64x512x32_S1x64x1x32_0_0_123_0 : ∀ a, (![0, 0, 123, 0] : Fin 4 → Nat) a + S1x64x1x32.size a ≤ S1x64x512x32.size a
  inb_S1x64x205x32_S1x64x1x32_0_0_121_0 : ∀ a, (![0, 0, 121, 0] : Fin 4 → Nat) a + S1x64x1x32.size a ≤ S1x64x205x32.size a
  inb_S1x64x512x32_S1x64x1x32_0_0_124_0 : ∀ a, (![0, 0, 124, 0] : Fin 4 → Nat) a + S1x64x1x32.size a ≤ S1x64x512x32.size a
  inb_S1x64x205x32_S1x64x1x32_0_0_122_0 : ∀ a, (![0, 0, 122, 0] : Fin 4 → Nat) a + S1x64x1x32.size a ≤ S1x64x205x32.size a
  inb_S1x64x512x32_S1x64x1x32_0_0_125_0 : ∀ a, (![0, 0, 125, 0] : Fin 4 → Nat) a + S1x64x1x32.size a ≤ S1x64x512x32.size a
  inb_S1x64x205x32_S1x64x1x32_0_0_123_0 : ∀ a, (![0, 0, 123, 0] : Fin 4 → Nat) a + S1x64x1x32.size a ≤ S1x64x205x32.size a
  inb_S1x64x512x32_S1x64x1x32_0_0_126_0 : ∀ a, (![0, 0, 126, 0] : Fin 4 → Nat) a + S1x64x1x32.size a ≤ S1x64x512x32.size a
  inb_S1x64x205x32_S1x64x1x32_0_0_124_0 : ∀ a, (![0, 0, 124, 0] : Fin 4 → Nat) a + S1x64x1x32.size a ≤ S1x64x205x32.size a
  inb_S1x64x512x32_S1x64x1x32_0_0_127_0 : ∀ a, (![0, 0, 127, 0] : Fin 4 → Nat) a + S1x64x1x32.size a ≤ S1x64x512x32.size a
  inb_S1x64x205x32_S1x64x1x32_0_0_125_0 : ∀ a, (![0, 0, 125, 0] : Fin 4 → Nat) a + S1x64x1x32.size a ≤ S1x64x205x32.size a
  inb_S1x64x512x32_S1x64x1x32_0_0_128_0 : ∀ a, (![0, 0, 128, 0] : Fin 4 → Nat) a + S1x64x1x32.size a ≤ S1x64x512x32.size a
  inb_S1x64x205x32_S1x64x1x32_0_0_126_0 : ∀ a, (![0, 0, 126, 0] : Fin 4 → Nat) a + S1x64x1x32.size a ≤ S1x64x205x32.size a
  inb_S1x64x512x32_S1x64x1x32_0_0_129_0 : ∀ a, (![0, 0, 129, 0] : Fin 4 → Nat) a + S1x64x1x32.size a ≤ S1x64x512x32.size a
  inb_S1x64x205x32_S1x64x1x32_0_0_127_0 : ∀ a, (![0, 0, 127, 0] : Fin 4 → Nat) a + S1x64x1x32.size a ≤ S1x64x205x32.size a
  inb_S1x64x512x32_S1x64x1x32_0_0_130_0 : ∀ a, (![0, 0, 130, 0] : Fin 4 → Nat) a + S1x64x1x32.size a ≤ S1x64x512x32.size a
  inb_S1x64x205x32_S1x64x1x32_0_0_128_0 : ∀ a, (![0, 0, 128, 0] : Fin 4 → Nat) a + S1x64x1x32.size a ≤ S1x64x205x32.size a
  inb_S1x64x512x32_S1x64x1x32_0_0_133_0 : ∀ a, (![0, 0, 133, 0] : Fin 4 → Nat) a + S1x64x1x32.size a ≤ S1x64x512x32.size a
  inb_S1x64x512x32_S1x64x1x32_0_0_134_0 : ∀ a, (![0, 0, 134, 0] : Fin 4 → Nat) a + S1x64x1x32.size a ≤ S1x64x512x32.size a
  inb_S1x64x512x32_S1x64x1x32_0_0_135_0 : ∀ a, (![0, 0, 135, 0] : Fin 4 → Nat) a + S1x64x1x32.size a ≤ S1x64x512x32.size a
  inb_S1x64x205x32_S1x64x1x32_0_0_129_0 : ∀ a, (![0, 0, 129, 0] : Fin 4 → Nat) a + S1x64x1x32.size a ≤ S1x64x205x32.size a
  inb_S1x64x512x32_S1x64x1x32_0_0_138_0 : ∀ a, (![0, 0, 138, 0] : Fin 4 → Nat) a + S1x64x1x32.size a ≤ S1x64x512x32.size a
  inb_S1x64x512x32_S1x64x1x32_0_0_139_0 : ∀ a, (![0, 0, 139, 0] : Fin 4 → Nat) a + S1x64x1x32.size a ≤ S1x64x512x32.size a
  inb_S1x64x512x32_S1x64x1x32_0_0_140_0 : ∀ a, (![0, 0, 140, 0] : Fin 4 → Nat) a + S1x64x1x32.size a ≤ S1x64x512x32.size a
  inb_S1x64x205x32_S1x64x1x32_0_0_130_0 : ∀ a, (![0, 0, 130, 0] : Fin 4 → Nat) a + S1x64x1x32.size a ≤ S1x64x205x32.size a
  inb_S1x64x512x32_S1x64x1x32_0_0_143_0 : ∀ a, (![0, 0, 143, 0] : Fin 4 → Nat) a + S1x64x1x32.size a ≤ S1x64x512x32.size a
  inb_S1x64x512x32_S1x64x1x32_0_0_144_0 : ∀ a, (![0, 0, 144, 0] : Fin 4 → Nat) a + S1x64x1x32.size a ≤ S1x64x512x32.size a
  inb_S1x64x512x32_S1x64x1x32_0_0_145_0 : ∀ a, (![0, 0, 145, 0] : Fin 4 → Nat) a + S1x64x1x32.size a ≤ S1x64x512x32.size a
  inb_S1x64x205x32_S1x64x1x32_0_0_131_0 : ∀ a, (![0, 0, 131, 0] : Fin 4 → Nat) a + S1x64x1x32.size a ≤ S1x64x205x32.size a
  inb_S1x64x512x32_S1x64x1x32_0_0_148_0 : ∀ a, (![0, 0, 148, 0] : Fin 4 → Nat) a + S1x64x1x32.size a ≤ S1x64x512x32.size a
  inb_S1x64x512x32_S1x64x1x32_0_0_149_0 : ∀ a, (![0, 0, 149, 0] : Fin 4 → Nat) a + S1x64x1x32.size a ≤ S1x64x512x32.size a
  inb_S1x64x512x32_S1x64x1x32_0_0_150_0 : ∀ a, (![0, 0, 150, 0] : Fin 4 → Nat) a + S1x64x1x32.size a ≤ S1x64x512x32.size a
  inb_S1x64x205x32_S1x64x1x32_0_0_132_0 : ∀ a, (![0, 0, 132, 0] : Fin 4 → Nat) a + S1x64x1x32.size a ≤ S1x64x205x32.size a
  inb_S1x64x512x32_S1x64x1x32_0_0_153_0 : ∀ a, (![0, 0, 153, 0] : Fin 4 → Nat) a + S1x64x1x32.size a ≤ S1x64x512x32.size a
  inb_S1x64x512x32_S1x64x1x32_0_0_154_0 : ∀ a, (![0, 0, 154, 0] : Fin 4 → Nat) a + S1x64x1x32.size a ≤ S1x64x512x32.size a
  inb_S1x64x512x32_S1x64x1x32_0_0_155_0 : ∀ a, (![0, 0, 155, 0] : Fin 4 → Nat) a + S1x64x1x32.size a ≤ S1x64x512x32.size a
  inb_S1x64x205x32_S1x64x1x32_0_0_133_0 : ∀ a, (![0, 0, 133, 0] : Fin 4 → Nat) a + S1x64x1x32.size a ≤ S1x64x205x32.size a
  inb_S1x64x512x32_S1x64x1x32_0_0_158_0 : ∀ a, (![0, 0, 158, 0] : Fin 4 → Nat) a + S1x64x1x32.size a ≤ S1x64x512x32.size a
  inb_S1x64x512x32_S1x64x1x32_0_0_159_0 : ∀ a, (![0, 0, 159, 0] : Fin 4 → Nat) a + S1x64x1x32.size a ≤ S1x64x512x32.size a
  inb_S1x64x512x32_S1x64x1x32_0_0_160_0 : ∀ a, (![0, 0, 160, 0] : Fin 4 → Nat) a + S1x64x1x32.size a ≤ S1x64x512x32.size a
  inb_S1x64x205x32_S1x64x1x32_0_0_134_0 : ∀ a, (![0, 0, 134, 0] : Fin 4 → Nat) a + S1x64x1x32.size a ≤ S1x64x205x32.size a
  inb_S1x64x512x32_S1x64x1x32_0_0_163_0 : ∀ a, (![0, 0, 163, 0] : Fin 4 → Nat) a + S1x64x1x32.size a ≤ S1x64x512x32.size a
  inb_S1x64x512x32_S1x64x1x32_0_0_164_0 : ∀ a, (![0, 0, 164, 0] : Fin 4 → Nat) a + S1x64x1x32.size a ≤ S1x64x512x32.size a
  inb_S1x64x512x32_S1x64x1x32_0_0_165_0 : ∀ a, (![0, 0, 165, 0] : Fin 4 → Nat) a + S1x64x1x32.size a ≤ S1x64x512x32.size a
  inb_S1x64x205x32_S1x64x1x32_0_0_135_0 : ∀ a, (![0, 0, 135, 0] : Fin 4 → Nat) a + S1x64x1x32.size a ≤ S1x64x205x32.size a
  inb_S1x64x512x32_S1x64x1x32_0_0_168_0 : ∀ a, (![0, 0, 168, 0] : Fin 4 → Nat) a + S1x64x1x32.size a ≤ S1x64x512x32.size a
  inb_S1x64x512x32_S1x64x1x32_0_0_169_0 : ∀ a, (![0, 0, 169, 0] : Fin 4 → Nat) a + S1x64x1x32.size a ≤ S1x64x512x32.size a
  inb_S1x64x512x32_S1x64x1x32_0_0_170_0 : ∀ a, (![0, 0, 170, 0] : Fin 4 → Nat) a + S1x64x1x32.size a ≤ S1x64x512x32.size a
  inb_S1x64x205x32_S1x64x1x32_0_0_136_0 : ∀ a, (![0, 0, 136, 0] : Fin 4 → Nat) a + S1x64x1x32.size a ≤ S1x64x205x32.size a
  inb_S1x64x512x32_S1x64x1x32_0_0_173_0 : ∀ a, (![0, 0, 173, 0] : Fin 4 → Nat) a + S1x64x1x32.size a ≤ S1x64x512x32.size a
  inb_S1x64x512x32_S1x64x1x32_0_0_174_0 : ∀ a, (![0, 0, 174, 0] : Fin 4 → Nat) a + S1x64x1x32.size a ≤ S1x64x512x32.size a
  inb_S1x64x512x32_S1x64x1x32_0_0_175_0 : ∀ a, (![0, 0, 175, 0] : Fin 4 → Nat) a + S1x64x1x32.size a ≤ S1x64x512x32.size a
  inb_S1x64x205x32_S1x64x1x32_0_0_137_0 : ∀ a, (![0, 0, 137, 0] : Fin 4 → Nat) a + S1x64x1x32.size a ≤ S1x64x205x32.size a
  inb_S1x64x512x32_S1x64x1x32_0_0_178_0 : ∀ a, (![0, 0, 178, 0] : Fin 4 → Nat) a + S1x64x1x32.size a ≤ S1x64x512x32.size a
  inb_S1x64x512x32_S1x64x1x32_0_0_179_0 : ∀ a, (![0, 0, 179, 0] : Fin 4 → Nat) a + S1x64x1x32.size a ≤ S1x64x512x32.size a
  inb_S1x64x512x32_S1x64x1x32_0_0_180_0 : ∀ a, (![0, 0, 180, 0] : Fin 4 → Nat) a + S1x64x1x32.size a ≤ S1x64x512x32.size a
  inb_S1x64x205x32_S1x64x1x32_0_0_138_0 : ∀ a, (![0, 0, 138, 0] : Fin 4 → Nat) a + S1x64x1x32.size a ≤ S1x64x205x32.size a
  inb_S1x64x512x32_S1x64x1x32_0_0_183_0 : ∀ a, (![0, 0, 183, 0] : Fin 4 → Nat) a + S1x64x1x32.size a ≤ S1x64x512x32.size a
  inb_S1x64x512x32_S1x64x1x32_0_0_184_0 : ∀ a, (![0, 0, 184, 0] : Fin 4 → Nat) a + S1x64x1x32.size a ≤ S1x64x512x32.size a
  inb_S1x64x512x32_S1x64x1x32_0_0_185_0 : ∀ a, (![0, 0, 185, 0] : Fin 4 → Nat) a + S1x64x1x32.size a ≤ S1x64x512x32.size a
  inb_S1x64x205x32_S1x64x1x32_0_0_139_0 : ∀ a, (![0, 0, 139, 0] : Fin 4 → Nat) a + S1x64x1x32.size a ≤ S1x64x205x32.size a
  inb_S1x64x512x32_S1x64x1x32_0_0_188_0 : ∀ a, (![0, 0, 188, 0] : Fin 4 → Nat) a + S1x64x1x32.size a ≤ S1x64x512x32.size a
  inb_S1x64x512x32_S1x64x1x32_0_0_189_0 : ∀ a, (![0, 0, 189, 0] : Fin 4 → Nat) a + S1x64x1x32.size a ≤ S1x64x512x32.size a
  inb_S1x64x512x32_S1x64x1x32_0_0_190_0 : ∀ a, (![0, 0, 190, 0] : Fin 4 → Nat) a + S1x64x1x32.size a ≤ S1x64x512x32.size a
  inb_S1x64x205x32_S1x64x1x32_0_0_140_0 : ∀ a, (![0, 0, 140, 0] : Fin 4 → Nat) a + S1x64x1x32.size a ≤ S1x64x205x32.size a
  inb_S1x64x512x32_S1x64x1x32_0_0_193_0 : ∀ a, (![0, 0, 193, 0] : Fin 4 → Nat) a + S1x64x1x32.size a ≤ S1x64x512x32.size a
  inb_S1x64x512x32_S1x64x1x32_0_0_194_0 : ∀ a, (![0, 0, 194, 0] : Fin 4 → Nat) a + S1x64x1x32.size a ≤ S1x64x512x32.size a
  inb_S1x64x512x32_S1x64x1x32_0_0_195_0 : ∀ a, (![0, 0, 195, 0] : Fin 4 → Nat) a + S1x64x1x32.size a ≤ S1x64x512x32.size a
  inb_S1x64x205x32_S1x64x1x32_0_0_141_0 : ∀ a, (![0, 0, 141, 0] : Fin 4 → Nat) a + S1x64x1x32.size a ≤ S1x64x205x32.size a
  inb_S1x64x512x32_S1x64x1x32_0_0_198_0 : ∀ a, (![0, 0, 198, 0] : Fin 4 → Nat) a + S1x64x1x32.size a ≤ S1x64x512x32.size a
  inb_S1x64x512x32_S1x64x1x32_0_0_199_0 : ∀ a, (![0, 0, 199, 0] : Fin 4 → Nat) a + S1x64x1x32.size a ≤ S1x64x512x32.size a
  inb_S1x64x512x32_S1x64x1x32_0_0_200_0 : ∀ a, (![0, 0, 200, 0] : Fin 4 → Nat) a + S1x64x1x32.size a ≤ S1x64x512x32.size a
  inb_S1x64x205x32_S1x64x1x32_0_0_142_0 : ∀ a, (![0, 0, 142, 0] : Fin 4 → Nat) a + S1x64x1x32.size a ≤ S1x64x205x32.size a
  inb_S1x64x512x32_S1x64x1x32_0_0_203_0 : ∀ a, (![0, 0, 203, 0] : Fin 4 → Nat) a + S1x64x1x32.size a ≤ S1x64x512x32.size a
  inb_S1x64x512x32_S1x64x1x32_0_0_204_0 : ∀ a, (![0, 0, 204, 0] : Fin 4 → Nat) a + S1x64x1x32.size a ≤ S1x64x512x32.size a
  inb_S1x64x512x32_S1x64x1x32_0_0_205_0 : ∀ a, (![0, 0, 205, 0] : Fin 4 → Nat) a + S1x64x1x32.size a ≤ S1x64x512x32.size a
  inb_S1x64x205x32_S1x64x1x32_0_0_143_0 : ∀ a, (![0, 0, 143, 0] : Fin 4 → Nat) a + S1x64x1x32.size a ≤ S1x64x205x32.size a
  inb_S1x64x512x32_S1x64x1x32_0_0_208_0 : ∀ a, (![0, 0, 208, 0] : Fin 4 → Nat) a + S1x64x1x32.size a ≤ S1x64x512x32.size a
  inb_S1x64x512x32_S1x64x1x32_0_0_209_0 : ∀ a, (![0, 0, 209, 0] : Fin 4 → Nat) a + S1x64x1x32.size a ≤ S1x64x512x32.size a
  inb_S1x64x512x32_S1x64x1x32_0_0_210_0 : ∀ a, (![0, 0, 210, 0] : Fin 4 → Nat) a + S1x64x1x32.size a ≤ S1x64x512x32.size a
  inb_S1x64x205x32_S1x64x1x32_0_0_144_0 : ∀ a, (![0, 0, 144, 0] : Fin 4 → Nat) a + S1x64x1x32.size a ≤ S1x64x205x32.size a
  inb_S1x64x512x32_S1x64x1x32_0_0_213_0 : ∀ a, (![0, 0, 213, 0] : Fin 4 → Nat) a + S1x64x1x32.size a ≤ S1x64x512x32.size a
  inb_S1x64x512x32_S1x64x1x32_0_0_214_0 : ∀ a, (![0, 0, 214, 0] : Fin 4 → Nat) a + S1x64x1x32.size a ≤ S1x64x512x32.size a
  inb_S1x64x512x32_S1x64x1x32_0_0_215_0 : ∀ a, (![0, 0, 215, 0] : Fin 4 → Nat) a + S1x64x1x32.size a ≤ S1x64x512x32.size a
  inb_S1x64x205x32_S1x64x1x32_0_0_145_0 : ∀ a, (![0, 0, 145, 0] : Fin 4 → Nat) a + S1x64x1x32.size a ≤ S1x64x205x32.size a
  inb_S1x64x512x32_S1x64x1x32_0_0_218_0 : ∀ a, (![0, 0, 218, 0] : Fin 4 → Nat) a + S1x64x1x32.size a ≤ S1x64x512x32.size a
  inb_S1x64x512x32_S1x64x1x32_0_0_219_0 : ∀ a, (![0, 0, 219, 0] : Fin 4 → Nat) a + S1x64x1x32.size a ≤ S1x64x512x32.size a
  inb_S1x64x512x32_S1x64x1x32_0_0_220_0 : ∀ a, (![0, 0, 220, 0] : Fin 4 → Nat) a + S1x64x1x32.size a ≤ S1x64x512x32.size a
  inb_S1x64x205x32_S1x64x1x32_0_0_146_0 : ∀ a, (![0, 0, 146, 0] : Fin 4 → Nat) a + S1x64x1x32.size a ≤ S1x64x205x32.size a
  inb_S1x64x512x32_S1x64x1x32_0_0_223_0 : ∀ a, (![0, 0, 223, 0] : Fin 4 → Nat) a + S1x64x1x32.size a ≤ S1x64x512x32.size a
  inb_S1x64x512x32_S1x64x1x32_0_0_224_0 : ∀ a, (![0, 0, 224, 0] : Fin 4 → Nat) a + S1x64x1x32.size a ≤ S1x64x512x32.size a
  inb_S1x64x512x32_S1x64x1x32_0_0_225_0 : ∀ a, (![0, 0, 225, 0] : Fin 4 → Nat) a + S1x64x1x32.size a ≤ S1x64x512x32.size a
  inb_S1x64x205x32_S1x64x1x32_0_0_147_0 : ∀ a, (![0, 0, 147, 0] : Fin 4 → Nat) a + S1x64x1x32.size a ≤ S1x64x205x32.size a
  inb_S1x64x512x32_S1x64x1x32_0_0_228_0 : ∀ a, (![0, 0, 228, 0] : Fin 4 → Nat) a + S1x64x1x32.size a ≤ S1x64x512x32.size a
  inb_S1x64x512x32_S1x64x1x32_0_0_229_0 : ∀ a, (![0, 0, 229, 0] : Fin 4 → Nat) a + S1x64x1x32.size a ≤ S1x64x512x32.size a
  inb_S1x64x512x32_S1x64x1x32_0_0_230_0 : ∀ a, (![0, 0, 230, 0] : Fin 4 → Nat) a + S1x64x1x32.size a ≤ S1x64x512x32.size a
  inb_S1x64x205x32_S1x64x1x32_0_0_148_0 : ∀ a, (![0, 0, 148, 0] : Fin 4 → Nat) a + S1x64x1x32.size a ≤ S1x64x205x32.size a
  inb_S1x64x512x32_S1x64x1x32_0_0_233_0 : ∀ a, (![0, 0, 233, 0] : Fin 4 → Nat) a + S1x64x1x32.size a ≤ S1x64x512x32.size a
  inb_S1x64x512x32_S1x64x1x32_0_0_234_0 : ∀ a, (![0, 0, 234, 0] : Fin 4 → Nat) a + S1x64x1x32.size a ≤ S1x64x512x32.size a
  inb_S1x64x512x32_S1x64x1x32_0_0_235_0 : ∀ a, (![0, 0, 235, 0] : Fin 4 → Nat) a + S1x64x1x32.size a ≤ S1x64x512x32.size a
  inb_S1x64x205x32_S1x64x1x32_0_0_149_0 : ∀ a, (![0, 0, 149, 0] : Fin 4 → Nat) a + S1x64x1x32.size a ≤ S1x64x205x32.size a
  inb_S1x64x512x32_S1x64x1x32_0_0_238_0 : ∀ a, (![0, 0, 238, 0] : Fin 4 → Nat) a + S1x64x1x32.size a ≤ S1x64x512x32.size a
  inb_S1x64x512x32_S1x64x1x32_0_0_239_0 : ∀ a, (![0, 0, 239, 0] : Fin 4 → Nat) a + S1x64x1x32.size a ≤ S1x64x512x32.size a
  inb_S1x64x512x32_S1x64x1x32_0_0_240_0 : ∀ a, (![0, 0, 240, 0] : Fin 4 → Nat) a + S1x64x1x32.size a ≤ S1x64x512x32.size a
  inb_S1x64x205x32_S1x64x1x32_0_0_150_0 : ∀ a, (![0, 0, 150, 0] : Fin 4 → Nat) a + S1x64x1x32.size a ≤ S1x64x205x32.size a
  inb_S1x64x512x32_S1x64x1x32_0_0_243_0 : ∀ a, (![0, 0, 243, 0] : Fin 4 → Nat) a + S1x64x1x32.size a ≤ S1x64x512x32.size a
  inb_S1x64x512x32_S1x64x1x32_0_0_244_0 : ∀ a, (![0, 0, 244, 0] : Fin 4 → Nat) a + S1x64x1x32.size a ≤ S1x64x512x32.size a
  inb_S1x64x512x32_S1x64x1x32_0_0_245_0 : ∀ a, (![0, 0, 245, 0] : Fin 4 → Nat) a + S1x64x1x32.size a ≤ S1x64x512x32.size a
  inb_S1x64x205x32_S1x64x1x32_0_0_151_0 : ∀ a, (![0, 0, 151, 0] : Fin 4 → Nat) a + S1x64x1x32.size a ≤ S1x64x205x32.size a
  inb_S1x64x512x32_S1x64x1x32_0_0_248_0 : ∀ a, (![0, 0, 248, 0] : Fin 4 → Nat) a + S1x64x1x32.size a ≤ S1x64x512x32.size a
  inb_S1x64x512x32_S1x64x1x32_0_0_249_0 : ∀ a, (![0, 0, 249, 0] : Fin 4 → Nat) a + S1x64x1x32.size a ≤ S1x64x512x32.size a
  inb_S1x64x512x32_S1x64x1x32_0_0_250_0 : ∀ a, (![0, 0, 250, 0] : Fin 4 → Nat) a + S1x64x1x32.size a ≤ S1x64x512x32.size a
  inb_S1x64x205x32_S1x64x1x32_0_0_152_0 : ∀ a, (![0, 0, 152, 0] : Fin 4 → Nat) a + S1x64x1x32.size a ≤ S1x64x205x32.size a
  inb_S1x64x512x32_S1x64x1x32_0_0_253_0 : ∀ a, (![0, 0, 253, 0] : Fin 4 → Nat) a + S1x64x1x32.size a ≤ S1x64x512x32.size a
  inb_S1x64x512x32_S1x64x1x32_0_0_254_0 : ∀ a, (![0, 0, 254, 0] : Fin 4 → Nat) a + S1x64x1x32.size a ≤ S1x64x512x32.size a
  inb_S1x64x512x32_S1x64x1x32_0_0_255_0 : ∀ a, (![0, 0, 255, 0] : Fin 4 → Nat) a + S1x64x1x32.size a ≤ S1x64x512x32.size a
  inb_S1x64x205x32_S1x64x1x32_0_0_153_0 : ∀ a, (![0, 0, 153, 0] : Fin 4 → Nat) a + S1x64x1x32.size a ≤ S1x64x205x32.size a
  inb_S1x64x512x32_S1x64x1x32_0_0_258_0 : ∀ a, (![0, 0, 258, 0] : Fin 4 → Nat) a + S1x64x1x32.size a ≤ S1x64x512x32.size a
  inb_S1x64x512x32_S1x64x1x32_0_0_259_0 : ∀ a, (![0, 0, 259, 0] : Fin 4 → Nat) a + S1x64x1x32.size a ≤ S1x64x512x32.size a
  inb_S1x64x512x32_S1x64x1x32_0_0_260_0 : ∀ a, (![0, 0, 260, 0] : Fin 4 → Nat) a + S1x64x1x32.size a ≤ S1x64x512x32.size a
  inb_S1x64x205x32_S1x64x1x32_0_0_154_0 : ∀ a, (![0, 0, 154, 0] : Fin 4 → Nat) a + S1x64x1x32.size a ≤ S1x64x205x32.size a
  inb_S1x64x512x32_S1x64x1x32_0_0_263_0 : ∀ a, (![0, 0, 263, 0] : Fin 4 → Nat) a + S1x64x1x32.size a ≤ S1x64x512x32.size a
  inb_S1x64x512x32_S1x64x1x32_0_0_264_0 : ∀ a, (![0, 0, 264, 0] : Fin 4 → Nat) a + S1x64x1x32.size a ≤ S1x64x512x32.size a
  inb_S1x64x512x32_S1x64x1x32_0_0_265_0 : ∀ a, (![0, 0, 265, 0] : Fin 4 → Nat) a + S1x64x1x32.size a ≤ S1x64x512x32.size a
  inb_S1x64x205x32_S1x64x1x32_0_0_155_0 : ∀ a, (![0, 0, 155, 0] : Fin 4 → Nat) a + S1x64x1x32.size a ≤ S1x64x205x32.size a
  inb_S1x64x512x32_S1x64x1x32_0_0_268_0 : ∀ a, (![0, 0, 268, 0] : Fin 4 → Nat) a + S1x64x1x32.size a ≤ S1x64x512x32.size a
  inb_S1x64x512x32_S1x64x1x32_0_0_269_0 : ∀ a, (![0, 0, 269, 0] : Fin 4 → Nat) a + S1x64x1x32.size a ≤ S1x64x512x32.size a
  inb_S1x64x512x32_S1x64x1x32_0_0_270_0 : ∀ a, (![0, 0, 270, 0] : Fin 4 → Nat) a + S1x64x1x32.size a ≤ S1x64x512x32.size a
  inb_S1x64x205x32_S1x64x1x32_0_0_156_0 : ∀ a, (![0, 0, 156, 0] : Fin 4 → Nat) a + S1x64x1x32.size a ≤ S1x64x205x32.size a
  inb_S1x64x512x32_S1x64x1x32_0_0_273_0 : ∀ a, (![0, 0, 273, 0] : Fin 4 → Nat) a + S1x64x1x32.size a ≤ S1x64x512x32.size a
  inb_S1x64x512x32_S1x64x1x32_0_0_274_0 : ∀ a, (![0, 0, 274, 0] : Fin 4 → Nat) a + S1x64x1x32.size a ≤ S1x64x512x32.size a
  inb_S1x64x512x32_S1x64x1x32_0_0_275_0 : ∀ a, (![0, 0, 275, 0] : Fin 4 → Nat) a + S1x64x1x32.size a ≤ S1x64x512x32.size a
  inb_S1x64x205x32_S1x64x1x32_0_0_157_0 : ∀ a, (![0, 0, 157, 0] : Fin 4 → Nat) a + S1x64x1x32.size a ≤ S1x64x205x32.size a
  inb_S1x64x512x32_S1x64x1x32_0_0_278_0 : ∀ a, (![0, 0, 278, 0] : Fin 4 → Nat) a + S1x64x1x32.size a ≤ S1x64x512x32.size a
  inb_S1x64x512x32_S1x64x1x32_0_0_279_0 : ∀ a, (![0, 0, 279, 0] : Fin 4 → Nat) a + S1x64x1x32.size a ≤ S1x64x512x32.size a
  inb_S1x64x512x32_S1x64x1x32_0_0_280_0 : ∀ a, (![0, 0, 280, 0] : Fin 4 → Nat) a + S1x64x1x32.size a ≤ S1x64x512x32.size a
  inb_S1x64x205x32_S1x64x1x32_0_0_158_0 : ∀ a, (![0, 0, 158, 0] : Fin 4 → Nat) a + S1x64x1x32.size a ≤ S1x64x205x32.size a
  inb_S1x64x512x32_S1x64x1x32_0_0_283_0 : ∀ a, (![0, 0, 283, 0] : Fin 4 → Nat) a + S1x64x1x32.size a ≤ S1x64x512x32.size a
  inb_S1x64x512x32_S1x64x1x32_0_0_284_0 : ∀ a, (![0, 0, 284, 0] : Fin 4 → Nat) a + S1x64x1x32.size a ≤ S1x64x512x32.size a
  inb_S1x64x512x32_S1x64x1x32_0_0_285_0 : ∀ a, (![0, 0, 285, 0] : Fin 4 → Nat) a + S1x64x1x32.size a ≤ S1x64x512x32.size a
  inb_S1x64x205x32_S1x64x1x32_0_0_159_0 : ∀ a, (![0, 0, 159, 0] : Fin 4 → Nat) a + S1x64x1x32.size a ≤ S1x64x205x32.size a
  inb_S1x64x512x32_S1x64x1x32_0_0_288_0 : ∀ a, (![0, 0, 288, 0] : Fin 4 → Nat) a + S1x64x1x32.size a ≤ S1x64x512x32.size a
  inb_S1x64x512x32_S1x64x1x32_0_0_289_0 : ∀ a, (![0, 0, 289, 0] : Fin 4 → Nat) a + S1x64x1x32.size a ≤ S1x64x512x32.size a
  inb_S1x64x512x32_S1x64x1x32_0_0_290_0 : ∀ a, (![0, 0, 290, 0] : Fin 4 → Nat) a + S1x64x1x32.size a ≤ S1x64x512x32.size a
  inb_S1x64x205x32_S1x64x1x32_0_0_160_0 : ∀ a, (![0, 0, 160, 0] : Fin 4 → Nat) a + S1x64x1x32.size a ≤ S1x64x205x32.size a
  inb_S1x64x512x32_S1x64x1x32_0_0_293_0 : ∀ a, (![0, 0, 293, 0] : Fin 4 → Nat) a + S1x64x1x32.size a ≤ S1x64x512x32.size a
  inb_S1x64x512x32_S1x64x1x32_0_0_294_0 : ∀ a, (![0, 0, 294, 0] : Fin 4 → Nat) a + S1x64x1x32.size a ≤ S1x64x512x32.size a
  inb_S1x64x512x32_S1x64x1x32_0_0_295_0 : ∀ a, (![0, 0, 295, 0] : Fin 4 → Nat) a + S1x64x1x32.size a ≤ S1x64x512x32.size a
  inb_S1x64x205x32_S1x64x1x32_0_0_161_0 : ∀ a, (![0, 0, 161, 0] : Fin 4 → Nat) a + S1x64x1x32.size a ≤ S1x64x205x32.size a
  inb_S1x64x512x32_S1x64x1x32_0_0_298_0 : ∀ a, (![0, 0, 298, 0] : Fin 4 → Nat) a + S1x64x1x32.size a ≤ S1x64x512x32.size a
  inb_S1x64x512x32_S1x64x1x32_0_0_299_0 : ∀ a, (![0, 0, 299, 0] : Fin 4 → Nat) a + S1x64x1x32.size a ≤ S1x64x512x32.size a
  inb_S1x64x512x32_S1x64x1x32_0_0_300_0 : ∀ a, (![0, 0, 300, 0] : Fin 4 → Nat) a + S1x64x1x32.size a ≤ S1x64x512x32.size a
  inb_S1x64x205x32_S1x64x1x32_0_0_162_0 : ∀ a, (![0, 0, 162, 0] : Fin 4 → Nat) a + S1x64x1x32.size a ≤ S1x64x205x32.size a
  inb_S1x64x512x32_S1x64x1x32_0_0_303_0 : ∀ a, (![0, 0, 303, 0] : Fin 4 → Nat) a + S1x64x1x32.size a ≤ S1x64x512x32.size a
  inb_S1x64x512x32_S1x64x1x32_0_0_304_0 : ∀ a, (![0, 0, 304, 0] : Fin 4 → Nat) a + S1x64x1x32.size a ≤ S1x64x512x32.size a
  inb_S1x64x512x32_S1x64x1x32_0_0_305_0 : ∀ a, (![0, 0, 305, 0] : Fin 4 → Nat) a + S1x64x1x32.size a ≤ S1x64x512x32.size a
  inb_S1x64x205x32_S1x64x1x32_0_0_163_0 : ∀ a, (![0, 0, 163, 0] : Fin 4 → Nat) a + S1x64x1x32.size a ≤ S1x64x205x32.size a
  inb_S1x64x512x32_S1x64x1x32_0_0_308_0 : ∀ a, (![0, 0, 308, 0] : Fin 4 → Nat) a + S1x64x1x32.size a ≤ S1x64x512x32.size a
  inb_S1x64x512x32_S1x64x1x32_0_0_309_0 : ∀ a, (![0, 0, 309, 0] : Fin 4 → Nat) a + S1x64x1x32.size a ≤ S1x64x512x32.size a
  inb_S1x64x512x32_S1x64x1x32_0_0_310_0 : ∀ a, (![0, 0, 310, 0] : Fin 4 → Nat) a + S1x64x1x32.size a ≤ S1x64x512x32.size a
  inb_S1x64x205x32_S1x64x1x32_0_0_164_0 : ∀ a, (![0, 0, 164, 0] : Fin 4 → Nat) a + S1x64x1x32.size a ≤ S1x64x205x32.size a
  inb_S1x64x512x32_S1x64x1x32_0_0_313_0 : ∀ a, (![0, 0, 313, 0] : Fin 4 → Nat) a + S1x64x1x32.size a ≤ S1x64x512x32.size a
  inb_S1x64x512x32_S1x64x1x32_0_0_314_0 : ∀ a, (![0, 0, 314, 0] : Fin 4 → Nat) a + S1x64x1x32.size a ≤ S1x64x512x32.size a
  inb_S1x64x512x32_S1x64x1x32_0_0_315_0 : ∀ a, (![0, 0, 315, 0] : Fin 4 → Nat) a + S1x64x1x32.size a ≤ S1x64x512x32.size a
  inb_S1x64x205x32_S1x64x1x32_0_0_165_0 : ∀ a, (![0, 0, 165, 0] : Fin 4 → Nat) a + S1x64x1x32.size a ≤ S1x64x205x32.size a
  inb_S1x64x512x32_S1x64x1x32_0_0_318_0 : ∀ a, (![0, 0, 318, 0] : Fin 4 → Nat) a + S1x64x1x32.size a ≤ S1x64x512x32.size a
  inb_S1x64x512x32_S1x64x1x32_0_0_319_0 : ∀ a, (![0, 0, 319, 0] : Fin 4 → Nat) a + S1x64x1x32.size a ≤ S1x64x512x32.size a
  inb_S1x64x512x32_S1x64x1x32_0_0_320_0 : ∀ a, (![0, 0, 320, 0] : Fin 4 → Nat) a + S1x64x1x32.size a ≤ S1x64x512x32.size a
  inb_S1x64x205x32_S1x64x1x32_0_0_166_0 : ∀ a, (![0, 0, 166, 0] : Fin 4 → Nat) a + S1x64x1x32.size a ≤ S1x64x205x32.size a
  inb_S1x64x512x32_S1x64x1x32_0_0_323_0 : ∀ a, (![0, 0, 323, 0] : Fin 4 → Nat) a + S1x64x1x32.size a ≤ S1x64x512x32.size a
  inb_S1x64x512x32_S1x64x1x32_0_0_324_0 : ∀ a, (![0, 0, 324, 0] : Fin 4 → Nat) a + S1x64x1x32.size a ≤ S1x64x512x32.size a
  inb_S1x64x512x32_S1x64x1x32_0_0_325_0 : ∀ a, (![0, 0, 325, 0] : Fin 4 → Nat) a + S1x64x1x32.size a ≤ S1x64x512x32.size a
  inb_S1x64x205x32_S1x64x1x32_0_0_167_0 : ∀ a, (![0, 0, 167, 0] : Fin 4 → Nat) a + S1x64x1x32.size a ≤ S1x64x205x32.size a
  inb_S1x64x512x32_S1x64x1x32_0_0_328_0 : ∀ a, (![0, 0, 328, 0] : Fin 4 → Nat) a + S1x64x1x32.size a ≤ S1x64x512x32.size a
  inb_S1x64x512x32_S1x64x1x32_0_0_329_0 : ∀ a, (![0, 0, 329, 0] : Fin 4 → Nat) a + S1x64x1x32.size a ≤ S1x64x512x32.size a
  inb_S1x64x512x32_S1x64x1x32_0_0_330_0 : ∀ a, (![0, 0, 330, 0] : Fin 4 → Nat) a + S1x64x1x32.size a ≤ S1x64x512x32.size a
  inb_S1x64x205x32_S1x64x1x32_0_0_168_0 : ∀ a, (![0, 0, 168, 0] : Fin 4 → Nat) a + S1x64x1x32.size a ≤ S1x64x205x32.size a
  inb_S1x64x512x32_S1x64x1x32_0_0_333_0 : ∀ a, (![0, 0, 333, 0] : Fin 4 → Nat) a + S1x64x1x32.size a ≤ S1x64x512x32.size a
  inb_S1x64x512x32_S1x64x1x32_0_0_334_0 : ∀ a, (![0, 0, 334, 0] : Fin 4 → Nat) a + S1x64x1x32.size a ≤ S1x64x512x32.size a
  inb_S1x64x512x32_S1x64x1x32_0_0_335_0 : ∀ a, (![0, 0, 335, 0] : Fin 4 → Nat) a + S1x64x1x32.size a ≤ S1x64x512x32.size a
  inb_S1x64x205x32_S1x64x1x32_0_0_169_0 : ∀ a, (![0, 0, 169, 0] : Fin 4 → Nat) a + S1x64x1x32.size a ≤ S1x64x205x32.size a
  inb_S1x64x512x32_S1x64x1x32_0_0_338_0 : ∀ a, (![0, 0, 338, 0] : Fin 4 → Nat) a + S1x64x1x32.size a ≤ S1x64x512x32.size a
  inb_S1x64x512x32_S1x64x1x32_0_0_339_0 : ∀ a, (![0, 0, 339, 0] : Fin 4 → Nat) a + S1x64x1x32.size a ≤ S1x64x512x32.size a
  inb_S1x64x512x32_S1x64x1x32_0_0_340_0 : ∀ a, (![0, 0, 340, 0] : Fin 4 → Nat) a + S1x64x1x32.size a ≤ S1x64x512x32.size a
  inb_S1x64x205x32_S1x64x1x32_0_0_170_0 : ∀ a, (![0, 0, 170, 0] : Fin 4 → Nat) a + S1x64x1x32.size a ≤ S1x64x205x32.size a
  inb_S1x64x512x32_S1x64x1x32_0_0_343_0 : ∀ a, (![0, 0, 343, 0] : Fin 4 → Nat) a + S1x64x1x32.size a ≤ S1x64x512x32.size a
  inb_S1x64x512x32_S1x64x1x32_0_0_344_0 : ∀ a, (![0, 0, 344, 0] : Fin 4 → Nat) a + S1x64x1x32.size a ≤ S1x64x512x32.size a
  inb_S1x64x512x32_S1x64x1x32_0_0_345_0 : ∀ a, (![0, 0, 345, 0] : Fin 4 → Nat) a + S1x64x1x32.size a ≤ S1x64x512x32.size a
  inb_S1x64x205x32_S1x64x1x32_0_0_171_0 : ∀ a, (![0, 0, 171, 0] : Fin 4 → Nat) a + S1x64x1x32.size a ≤ S1x64x205x32.size a
  inb_S1x64x512x32_S1x64x1x32_0_0_348_0 : ∀ a, (![0, 0, 348, 0] : Fin 4 → Nat) a + S1x64x1x32.size a ≤ S1x64x512x32.size a
  inb_S1x64x512x32_S1x64x1x32_0_0_349_0 : ∀ a, (![0, 0, 349, 0] : Fin 4 → Nat) a + S1x64x1x32.size a ≤ S1x64x512x32.size a
  inb_S1x64x512x32_S1x64x1x32_0_0_350_0 : ∀ a, (![0, 0, 350, 0] : Fin 4 → Nat) a + S1x64x1x32.size a ≤ S1x64x512x32.size a
  inb_S1x64x205x32_S1x64x1x32_0_0_172_0 : ∀ a, (![0, 0, 172, 0] : Fin 4 → Nat) a + S1x64x1x32.size a ≤ S1x64x205x32.size a
  inb_S1x64x512x32_S1x64x1x32_0_0_353_0 : ∀ a, (![0, 0, 353, 0] : Fin 4 → Nat) a + S1x64x1x32.size a ≤ S1x64x512x32.size a
  inb_S1x64x512x32_S1x64x1x32_0_0_354_0 : ∀ a, (![0, 0, 354, 0] : Fin 4 → Nat) a + S1x64x1x32.size a ≤ S1x64x512x32.size a
  inb_S1x64x512x32_S1x64x1x32_0_0_355_0 : ∀ a, (![0, 0, 355, 0] : Fin 4 → Nat) a + S1x64x1x32.size a ≤ S1x64x512x32.size a
  inb_S1x64x205x32_S1x64x1x32_0_0_173_0 : ∀ a, (![0, 0, 173, 0] : Fin 4 → Nat) a + S1x64x1x32.size a ≤ S1x64x205x32.size a
  inb_S1x64x512x32_S1x64x1x32_0_0_358_0 : ∀ a, (![0, 0, 358, 0] : Fin 4 → Nat) a + S1x64x1x32.size a ≤ S1x64x512x32.size a
  inb_S1x64x512x32_S1x64x1x32_0_0_359_0 : ∀ a, (![0, 0, 359, 0] : Fin 4 → Nat) a + S1x64x1x32.size a ≤ S1x64x512x32.size a
  inb_S1x64x512x32_S1x64x1x32_0_0_360_0 : ∀ a, (![0, 0, 360, 0] : Fin 4 → Nat) a + S1x64x1x32.size a ≤ S1x64x512x32.size a
  inb_S1x64x205x32_S1x64x1x32_0_0_174_0 : ∀ a, (![0, 0, 174, 0] : Fin 4 → Nat) a + S1x64x1x32.size a ≤ S1x64x205x32.size a
  inb_S1x64x512x32_S1x64x1x32_0_0_363_0 : ∀ a, (![0, 0, 363, 0] : Fin 4 → Nat) a + S1x64x1x32.size a ≤ S1x64x512x32.size a
  inb_S1x64x512x32_S1x64x1x32_0_0_364_0 : ∀ a, (![0, 0, 364, 0] : Fin 4 → Nat) a + S1x64x1x32.size a ≤ S1x64x512x32.size a
  inb_S1x64x512x32_S1x64x1x32_0_0_365_0 : ∀ a, (![0, 0, 365, 0] : Fin 4 → Nat) a + S1x64x1x32.size a ≤ S1x64x512x32.size a
  inb_S1x64x205x32_S1x64x1x32_0_0_175_0 : ∀ a, (![0, 0, 175, 0] : Fin 4 → Nat) a + S1x64x1x32.size a ≤ S1x64x205x32.size a
  inb_S1x64x512x32_S1x64x1x32_0_0_368_0 : ∀ a, (![0, 0, 368, 0] : Fin 4 → Nat) a + S1x64x1x32.size a ≤ S1x64x512x32.size a
  inb_S1x64x512x32_S1x64x1x32_0_0_369_0 : ∀ a, (![0, 0, 369, 0] : Fin 4 → Nat) a + S1x64x1x32.size a ≤ S1x64x512x32.size a
  inb_S1x64x512x32_S1x64x1x32_0_0_370_0 : ∀ a, (![0, 0, 370, 0] : Fin 4 → Nat) a + S1x64x1x32.size a ≤ S1x64x512x32.size a
  inb_S1x64x205x32_S1x64x1x32_0_0_176_0 : ∀ a, (![0, 0, 176, 0] : Fin 4 → Nat) a + S1x64x1x32.size a ≤ S1x64x205x32.size a
  inb_S1x64x512x32_S1x64x1x32_0_0_373_0 : ∀ a, (![0, 0, 373, 0] : Fin 4 → Nat) a + S1x64x1x32.size a ≤ S1x64x512x32.size a
  inb_S1x64x512x32_S1x64x1x32_0_0_374_0 : ∀ a, (![0, 0, 374, 0] : Fin 4 → Nat) a + S1x64x1x32.size a ≤ S1x64x512x32.size a
  inb_S1x64x512x32_S1x64x1x32_0_0_375_0 : ∀ a, (![0, 0, 375, 0] : Fin 4 → Nat) a + S1x64x1x32.size a ≤ S1x64x512x32.size a
  inb_S1x64x205x32_S1x64x1x32_0_0_177_0 : ∀ a, (![0, 0, 177, 0] : Fin 4 → Nat) a + S1x64x1x32.size a ≤ S1x64x205x32.size a
  inb_S1x64x512x32_S1x64x1x32_0_0_378_0 : ∀ a, (![0, 0, 378, 0] : Fin 4 → Nat) a + S1x64x1x32.size a ≤ S1x64x512x32.size a
  inb_S1x64x512x32_S1x64x1x32_0_0_379_0 : ∀ a, (![0, 0, 379, 0] : Fin 4 → Nat) a + S1x64x1x32.size a ≤ S1x64x512x32.size a
  inb_S1x64x512x32_S1x64x1x32_0_0_380_0 : ∀ a, (![0, 0, 380, 0] : Fin 4 → Nat) a + S1x64x1x32.size a ≤ S1x64x512x32.size a
  inb_S1x64x205x32_S1x64x1x32_0_0_178_0 : ∀ a, (![0, 0, 178, 0] : Fin 4 → Nat) a + S1x64x1x32.size a ≤ S1x64x205x32.size a
  inb_S1x64x512x32_S1x64x1x32_0_0_383_0 : ∀ a, (![0, 0, 383, 0] : Fin 4 → Nat) a + S1x64x1x32.size a ≤ S1x64x512x32.size a
  inb_S1x64x512x32_S1x64x1x32_0_0_384_0 : ∀ a, (![0, 0, 384, 0] : Fin 4 → Nat) a + S1x64x1x32.size a ≤ S1x64x512x32.size a
  inb_S1x64x512x32_S1x64x1x32_0_0_385_0 : ∀ a, (![0, 0, 385, 0] : Fin 4 → Nat) a + S1x64x1x32.size a ≤ S1x64x512x32.size a
  inb_S1x64x205x32_S1x64x1x32_0_0_179_0 : ∀ a, (![0, 0, 179, 0] : Fin 4 → Nat) a + S1x64x1x32.size a ≤ S1x64x205x32.size a
  inb_S1x64x512x32_S1x64x1x32_0_0_388_0 : ∀ a, (![0, 0, 388, 0] : Fin 4 → Nat) a + S1x64x1x32.size a ≤ S1x64x512x32.size a
  inb_S1x64x512x32_S1x64x1x32_0_0_389_0 : ∀ a, (![0, 0, 389, 0] : Fin 4 → Nat) a + S1x64x1x32.size a ≤ S1x64x512x32.size a
  inb_S1x64x512x32_S1x64x1x32_0_0_390_0 : ∀ a, (![0, 0, 390, 0] : Fin 4 → Nat) a + S1x64x1x32.size a ≤ S1x64x512x32.size a
  inb_S1x64x205x32_S1x64x1x32_0_0_180_0 : ∀ a, (![0, 0, 180, 0] : Fin 4 → Nat) a + S1x64x1x32.size a ≤ S1x64x205x32.size a
  inb_S1x64x512x32_S1x64x1x32_0_0_393_0 : ∀ a, (![0, 0, 393, 0] : Fin 4 → Nat) a + S1x64x1x32.size a ≤ S1x64x512x32.size a
  inb_S1x64x512x32_S1x64x1x32_0_0_394_0 : ∀ a, (![0, 0, 394, 0] : Fin 4 → Nat) a + S1x64x1x32.size a ≤ S1x64x512x32.size a
  inb_S1x64x512x32_S1x64x1x32_0_0_395_0 : ∀ a, (![0, 0, 395, 0] : Fin 4 → Nat) a + S1x64x1x32.size a ≤ S1x64x512x32.size a
  inb_S1x64x205x32_S1x64x1x32_0_0_181_0 : ∀ a, (![0, 0, 181, 0] : Fin 4 → Nat) a + S1x64x1x32.size a ≤ S1x64x205x32.size a
  inb_S1x64x512x32_S1x64x1x32_0_0_398_0 : ∀ a, (![0, 0, 398, 0] : Fin 4 → Nat) a + S1x64x1x32.size a ≤ S1x64x512x32.size a
  inb_S1x64x512x32_S1x64x1x32_0_0_399_0 : ∀ a, (![0, 0, 399, 0] : Fin 4 → Nat) a + S1x64x1x32.size a ≤ S1x64x512x32.size a
  inb_S1x64x512x32_S1x64x1x32_0_0_400_0 : ∀ a, (![0, 0, 400, 0] : Fin 4 → Nat) a + S1x64x1x32.size a ≤ S1x64x512x32.size a
  inb_S1x64x205x32_S1x64x1x32_0_0_182_0 : ∀ a, (![0, 0, 182, 0] : Fin 4 → Nat) a + S1x64x1x32.size a ≤ S1x64x205x32.size a
  inb_S1x64x512x32_S1x64x1x32_0_0_403_0 : ∀ a, (![0, 0, 403, 0] : Fin 4 → Nat) a + S1x64x1x32.size a ≤ S1x64x512x32.size a
  inb_S1x64x512x32_S1x64x1x32_0_0_404_0 : ∀ a, (![0, 0, 404, 0] : Fin 4 → Nat) a + S1x64x1x32.size a ≤ S1x64x512x32.size a
  inb_S1x64x512x32_S1x64x1x32_0_0_405_0 : ∀ a, (![0, 0, 405, 0] : Fin 4 → Nat) a + S1x64x1x32.size a ≤ S1x64x512x32.size a
  inb_S1x64x205x32_S1x64x1x32_0_0_183_0 : ∀ a, (![0, 0, 183, 0] : Fin 4 → Nat) a + S1x64x1x32.size a ≤ S1x64x205x32.size a
  inb_S1x64x512x32_S1x64x1x32_0_0_408_0 : ∀ a, (![0, 0, 408, 0] : Fin 4 → Nat) a + S1x64x1x32.size a ≤ S1x64x512x32.size a
  inb_S1x64x512x32_S1x64x1x32_0_0_409_0 : ∀ a, (![0, 0, 409, 0] : Fin 4 → Nat) a + S1x64x1x32.size a ≤ S1x64x512x32.size a
  inb_S1x64x512x32_S1x64x1x32_0_0_410_0 : ∀ a, (![0, 0, 410, 0] : Fin 4 → Nat) a + S1x64x1x32.size a ≤ S1x64x512x32.size a
  inb_S1x64x205x32_S1x64x1x32_0_0_184_0 : ∀ a, (![0, 0, 184, 0] : Fin 4 → Nat) a + S1x64x1x32.size a ≤ S1x64x205x32.size a
  inb_S1x64x512x32_S1x64x1x32_0_0_413_0 : ∀ a, (![0, 0, 413, 0] : Fin 4 → Nat) a + S1x64x1x32.size a ≤ S1x64x512x32.size a
  inb_S1x64x512x32_S1x64x1x32_0_0_414_0 : ∀ a, (![0, 0, 414, 0] : Fin 4 → Nat) a + S1x64x1x32.size a ≤ S1x64x512x32.size a
  inb_S1x64x512x32_S1x64x1x32_0_0_415_0 : ∀ a, (![0, 0, 415, 0] : Fin 4 → Nat) a + S1x64x1x32.size a ≤ S1x64x512x32.size a
  inb_S1x64x205x32_S1x64x1x32_0_0_185_0 : ∀ a, (![0, 0, 185, 0] : Fin 4 → Nat) a + S1x64x1x32.size a ≤ S1x64x205x32.size a
  inb_S1x64x512x32_S1x64x1x32_0_0_418_0 : ∀ a, (![0, 0, 418, 0] : Fin 4 → Nat) a + S1x64x1x32.size a ≤ S1x64x512x32.size a
  inb_S1x64x512x32_S1x64x1x32_0_0_419_0 : ∀ a, (![0, 0, 419, 0] : Fin 4 → Nat) a + S1x64x1x32.size a ≤ S1x64x512x32.size a
  inb_S1x64x512x32_S1x64x1x32_0_0_420_0 : ∀ a, (![0, 0, 420, 0] : Fin 4 → Nat) a + S1x64x1x32.size a ≤ S1x64x512x32.size a
  inb_S1x64x205x32_S1x64x1x32_0_0_186_0 : ∀ a, (![0, 0, 186, 0] : Fin 4 → Nat) a + S1x64x1x32.size a ≤ S1x64x205x32.size a
  inb_S1x64x512x32_S1x64x1x32_0_0_423_0 : ∀ a, (![0, 0, 423, 0] : Fin 4 → Nat) a + S1x64x1x32.size a ≤ S1x64x512x32.size a
  inb_S1x64x512x32_S1x64x1x32_0_0_424_0 : ∀ a, (![0, 0, 424, 0] : Fin 4 → Nat) a + S1x64x1x32.size a ≤ S1x64x512x32.size a
  inb_S1x64x512x32_S1x64x1x32_0_0_425_0 : ∀ a, (![0, 0, 425, 0] : Fin 4 → Nat) a + S1x64x1x32.size a ≤ S1x64x512x32.size a
  inb_S1x64x205x32_S1x64x1x32_0_0_187_0 : ∀ a, (![0, 0, 187, 0] : Fin 4 → Nat) a + S1x64x1x32.size a ≤ S1x64x205x32.size a
  inb_S1x64x512x32_S1x64x1x32_0_0_428_0 : ∀ a, (![0, 0, 428, 0] : Fin 4 → Nat) a + S1x64x1x32.size a ≤ S1x64x512x32.size a
  inb_S1x64x512x32_S1x64x1x32_0_0_429_0 : ∀ a, (![0, 0, 429, 0] : Fin 4 → Nat) a + S1x64x1x32.size a ≤ S1x64x512x32.size a
  inb_S1x64x512x32_S1x64x1x32_0_0_430_0 : ∀ a, (![0, 0, 430, 0] : Fin 4 → Nat) a + S1x64x1x32.size a ≤ S1x64x512x32.size a
  inb_S1x64x205x32_S1x64x1x32_0_0_188_0 : ∀ a, (![0, 0, 188, 0] : Fin 4 → Nat) a + S1x64x1x32.size a ≤ S1x64x205x32.size a
  inb_S1x64x512x32_S1x64x1x32_0_0_433_0 : ∀ a, (![0, 0, 433, 0] : Fin 4 → Nat) a + S1x64x1x32.size a ≤ S1x64x512x32.size a
  inb_S1x64x512x32_S1x64x1x32_0_0_434_0 : ∀ a, (![0, 0, 434, 0] : Fin 4 → Nat) a + S1x64x1x32.size a ≤ S1x64x512x32.size a
  inb_S1x64x512x32_S1x64x1x32_0_0_435_0 : ∀ a, (![0, 0, 435, 0] : Fin 4 → Nat) a + S1x64x1x32.size a ≤ S1x64x512x32.size a
  inb_S1x64x205x32_S1x64x1x32_0_0_189_0 : ∀ a, (![0, 0, 189, 0] : Fin 4 → Nat) a + S1x64x1x32.size a ≤ S1x64x205x32.size a
  inb_S1x64x512x32_S1x64x1x32_0_0_438_0 : ∀ a, (![0, 0, 438, 0] : Fin 4 → Nat) a + S1x64x1x32.size a ≤ S1x64x512x32.size a
  inb_S1x64x512x32_S1x64x1x32_0_0_439_0 : ∀ a, (![0, 0, 439, 0] : Fin 4 → Nat) a + S1x64x1x32.size a ≤ S1x64x512x32.size a
  inb_S1x64x512x32_S1x64x1x32_0_0_440_0 : ∀ a, (![0, 0, 440, 0] : Fin 4 → Nat) a + S1x64x1x32.size a ≤ S1x64x512x32.size a
  inb_S1x64x205x32_S1x64x1x32_0_0_190_0 : ∀ a, (![0, 0, 190, 0] : Fin 4 → Nat) a + S1x64x1x32.size a ≤ S1x64x205x32.size a
  inb_S1x64x512x32_S1x64x1x32_0_0_443_0 : ∀ a, (![0, 0, 443, 0] : Fin 4 → Nat) a + S1x64x1x32.size a ≤ S1x64x512x32.size a
  inb_S1x64x512x32_S1x64x1x32_0_0_444_0 : ∀ a, (![0, 0, 444, 0] : Fin 4 → Nat) a + S1x64x1x32.size a ≤ S1x64x512x32.size a
  inb_S1x64x512x32_S1x64x1x32_0_0_445_0 : ∀ a, (![0, 0, 445, 0] : Fin 4 → Nat) a + S1x64x1x32.size a ≤ S1x64x512x32.size a
  inb_S1x64x205x32_S1x64x1x32_0_0_191_0 : ∀ a, (![0, 0, 191, 0] : Fin 4 → Nat) a + S1x64x1x32.size a ≤ S1x64x205x32.size a
  inb_S1x64x512x32_S1x64x1x32_0_0_448_0 : ∀ a, (![0, 0, 448, 0] : Fin 4 → Nat) a + S1x64x1x32.size a ≤ S1x64x512x32.size a
  inb_S1x64x512x32_S1x64x1x32_0_0_449_0 : ∀ a, (![0, 0, 449, 0] : Fin 4 → Nat) a + S1x64x1x32.size a ≤ S1x64x512x32.size a
  inb_S1x64x512x32_S1x64x1x32_0_0_450_0 : ∀ a, (![0, 0, 450, 0] : Fin 4 → Nat) a + S1x64x1x32.size a ≤ S1x64x512x32.size a
  inb_S1x64x205x32_S1x64x1x32_0_0_192_0 : ∀ a, (![0, 0, 192, 0] : Fin 4 → Nat) a + S1x64x1x32.size a ≤ S1x64x205x32.size a
  inb_S1x64x512x32_S1x64x1x32_0_0_453_0 : ∀ a, (![0, 0, 453, 0] : Fin 4 → Nat) a + S1x64x1x32.size a ≤ S1x64x512x32.size a
  inb_S1x64x512x32_S1x64x1x32_0_0_454_0 : ∀ a, (![0, 0, 454, 0] : Fin 4 → Nat) a + S1x64x1x32.size a ≤ S1x64x512x32.size a
  inb_S1x64x512x32_S1x64x1x32_0_0_455_0 : ∀ a, (![0, 0, 455, 0] : Fin 4 → Nat) a + S1x64x1x32.size a ≤ S1x64x512x32.size a
  inb_S1x64x205x32_S1x64x1x32_0_0_193_0 : ∀ a, (![0, 0, 193, 0] : Fin 4 → Nat) a + S1x64x1x32.size a ≤ S1x64x205x32.size a
  inb_S1x64x512x32_S1x64x1x32_0_0_458_0 : ∀ a, (![0, 0, 458, 0] : Fin 4 → Nat) a + S1x64x1x32.size a ≤ S1x64x512x32.size a
  inb_S1x64x512x32_S1x64x1x32_0_0_459_0 : ∀ a, (![0, 0, 459, 0] : Fin 4 → Nat) a + S1x64x1x32.size a ≤ S1x64x512x32.size a
  inb_S1x64x512x32_S1x64x1x32_0_0_460_0 : ∀ a, (![0, 0, 460, 0] : Fin 4 → Nat) a + S1x64x1x32.size a ≤ S1x64x512x32.size a
  inb_S1x64x205x32_S1x64x1x32_0_0_194_0 : ∀ a, (![0, 0, 194, 0] : Fin 4 → Nat) a + S1x64x1x32.size a ≤ S1x64x205x32.size a
  inb_S1x64x512x32_S1x64x1x32_0_0_463_0 : ∀ a, (![0, 0, 463, 0] : Fin 4 → Nat) a + S1x64x1x32.size a ≤ S1x64x512x32.size a
  inb_S1x64x512x32_S1x64x1x32_0_0_464_0 : ∀ a, (![0, 0, 464, 0] : Fin 4 → Nat) a + S1x64x1x32.size a ≤ S1x64x512x32.size a
  inb_S1x64x512x32_S1x64x1x32_0_0_465_0 : ∀ a, (![0, 0, 465, 0] : Fin 4 → Nat) a + S1x64x1x32.size a ≤ S1x64x512x32.size a
  inb_S1x64x205x32_S1x64x1x32_0_0_195_0 : ∀ a, (![0, 0, 195, 0] : Fin 4 → Nat) a + S1x64x1x32.size a ≤ S1x64x205x32.size a
  inb_S1x64x512x32_S1x64x1x32_0_0_468_0 : ∀ a, (![0, 0, 468, 0] : Fin 4 → Nat) a + S1x64x1x32.size a ≤ S1x64x512x32.size a
  inb_S1x64x512x32_S1x64x1x32_0_0_469_0 : ∀ a, (![0, 0, 469, 0] : Fin 4 → Nat) a + S1x64x1x32.size a ≤ S1x64x512x32.size a
  inb_S1x64x512x32_S1x64x1x32_0_0_470_0 : ∀ a, (![0, 0, 470, 0] : Fin 4 → Nat) a + S1x64x1x32.size a ≤ S1x64x512x32.size a
  inb_S1x64x205x32_S1x64x1x32_0_0_196_0 : ∀ a, (![0, 0, 196, 0] : Fin 4 → Nat) a + S1x64x1x32.size a ≤ S1x64x205x32.size a
  inb_S1x64x512x32_S1x64x1x32_0_0_473_0 : ∀ a, (![0, 0, 473, 0] : Fin 4 → Nat) a + S1x64x1x32.size a ≤ S1x64x512x32.size a
  inb_S1x64x512x32_S1x64x1x32_0_0_474_0 : ∀ a, (![0, 0, 474, 0] : Fin 4 → Nat) a + S1x64x1x32.size a ≤ S1x64x512x32.size a
  inb_S1x64x512x32_S1x64x1x32_0_0_475_0 : ∀ a, (![0, 0, 475, 0] : Fin 4 → Nat) a + S1x64x1x32.size a ≤ S1x64x512x32.size a
  inb_S1x64x205x32_S1x64x1x32_0_0_197_0 : ∀ a, (![0, 0, 197, 0] : Fin 4 → Nat) a + S1x64x1x32.size a ≤ S1x64x205x32.size a
  inb_S1x64x512x32_S1x64x1x32_0_0_478_0 : ∀ a, (![0, 0, 478, 0] : Fin 4 → Nat) a + S1x64x1x32.size a ≤ S1x64x512x32.size a
  inb_S1x64x512x32_S1x64x1x32_0_0_479_0 : ∀ a, (![0, 0, 479, 0] : Fin 4 → Nat) a + S1x64x1x32.size a ≤ S1x64x512x32.size a
  inb_S1x64x512x32_S1x64x1x32_0_0_480_0 : ∀ a, (![0, 0, 480, 0] : Fin 4 → Nat) a + S1x64x1x32.size a ≤ S1x64x512x32.size a
  inb_S1x64x205x32_S1x64x1x32_0_0_198_0 : ∀ a, (![0, 0, 198, 0] : Fin 4 → Nat) a + S1x64x1x32.size a ≤ S1x64x205x32.size a
  inb_S1x64x512x32_S1x64x1x32_0_0_483_0 : ∀ a, (![0, 0, 483, 0] : Fin 4 → Nat) a + S1x64x1x32.size a ≤ S1x64x512x32.size a
  inb_S1x64x512x32_S1x64x1x32_0_0_484_0 : ∀ a, (![0, 0, 484, 0] : Fin 4 → Nat) a + S1x64x1x32.size a ≤ S1x64x512x32.size a
  inb_S1x64x512x32_S1x64x1x32_0_0_485_0 : ∀ a, (![0, 0, 485, 0] : Fin 4 → Nat) a + S1x64x1x32.size a ≤ S1x64x512x32.size a
  inb_S1x64x205x32_S1x64x1x32_0_0_199_0 : ∀ a, (![0, 0, 199, 0] : Fin 4 → Nat) a + S1x64x1x32.size a ≤ S1x64x205x32.size a
  inb_S1x64x512x32_S1x64x1x32_0_0_488_0 : ∀ a, (![0, 0, 488, 0] : Fin 4 → Nat) a + S1x64x1x32.size a ≤ S1x64x512x32.size a
  inb_S1x64x512x32_S1x64x1x32_0_0_489_0 : ∀ a, (![0, 0, 489, 0] : Fin 4 → Nat) a + S1x64x1x32.size a ≤ S1x64x512x32.size a
  inb_S1x64x512x32_S1x64x1x32_0_0_490_0 : ∀ a, (![0, 0, 490, 0] : Fin 4 → Nat) a + S1x64x1x32.size a ≤ S1x64x512x32.size a
  inb_S1x64x205x32_S1x64x1x32_0_0_200_0 : ∀ a, (![0, 0, 200, 0] : Fin 4 → Nat) a + S1x64x1x32.size a ≤ S1x64x205x32.size a
  inb_S1x64x512x32_S1x64x1x32_0_0_493_0 : ∀ a, (![0, 0, 493, 0] : Fin 4 → Nat) a + S1x64x1x32.size a ≤ S1x64x512x32.size a
  inb_S1x64x512x32_S1x64x1x32_0_0_494_0 : ∀ a, (![0, 0, 494, 0] : Fin 4 → Nat) a + S1x64x1x32.size a ≤ S1x64x512x32.size a
  inb_S1x64x512x32_S1x64x1x32_0_0_495_0 : ∀ a, (![0, 0, 495, 0] : Fin 4 → Nat) a + S1x64x1x32.size a ≤ S1x64x512x32.size a
  inb_S1x64x205x32_S1x64x1x32_0_0_201_0 : ∀ a, (![0, 0, 201, 0] : Fin 4 → Nat) a + S1x64x1x32.size a ≤ S1x64x205x32.size a
  inb_S1x64x512x32_S1x64x1x32_0_0_498_0 : ∀ a, (![0, 0, 498, 0] : Fin 4 → Nat) a + S1x64x1x32.size a ≤ S1x64x512x32.size a
  inb_S1x64x512x32_S1x64x1x32_0_0_499_0 : ∀ a, (![0, 0, 499, 0] : Fin 4 → Nat) a + S1x64x1x32.size a ≤ S1x64x512x32.size a
  inb_S1x64x512x32_S1x64x1x32_0_0_500_0 : ∀ a, (![0, 0, 500, 0] : Fin 4 → Nat) a + S1x64x1x32.size a ≤ S1x64x512x32.size a
  inb_S1x64x205x32_S1x64x1x32_0_0_202_0 : ∀ a, (![0, 0, 202, 0] : Fin 4 → Nat) a + S1x64x1x32.size a ≤ S1x64x205x32.size a
  inb_S1x64x512x32_S1x64x1x32_0_0_503_0 : ∀ a, (![0, 0, 503, 0] : Fin 4 → Nat) a + S1x64x1x32.size a ≤ S1x64x512x32.size a
  inb_S1x64x512x32_S1x64x1x32_0_0_504_0 : ∀ a, (![0, 0, 504, 0] : Fin 4 → Nat) a + S1x64x1x32.size a ≤ S1x64x512x32.size a
  inb_S1x64x512x32_S1x64x1x32_0_0_505_0 : ∀ a, (![0, 0, 505, 0] : Fin 4 → Nat) a + S1x64x1x32.size a ≤ S1x64x512x32.size a
  inb_S1x64x205x32_S1x64x1x32_0_0_203_0 : ∀ a, (![0, 0, 203, 0] : Fin 4 → Nat) a + S1x64x1x32.size a ≤ S1x64x205x32.size a
  inb_S1x64x512x32_S1x64x1x32_0_0_508_0 : ∀ a, (![0, 0, 508, 0] : Fin 4 → Nat) a + S1x64x1x32.size a ≤ S1x64x512x32.size a
  inb_S1x64x512x32_S1x64x1x32_0_0_509_0 : ∀ a, (![0, 0, 509, 0] : Fin 4 → Nat) a + S1x64x1x32.size a ≤ S1x64x512x32.size a
  inb_S1x64x512x32_S1x64x1x32_0_0_510_0 : ∀ a, (![0, 0, 510, 0] : Fin 4 → Nat) a + S1x64x1x32.size a ≤ S1x64x512x32.size a
  inb_S1x64x205x32_S1x64x1x32_0_0_204_0 : ∀ a, (![0, 0, 204, 0] : Fin 4 → Nat) a + S1x64x1x32.size a ≤ S1x64x205x32.size a

class Facts₀ : Prop where
  k0 : K0.Facts₀
  k1 : K1.Facts₀
  shapes1 : Shapes1.Facts₀
  shapes2 : Shapes2.Facts₀
attribute [instance] Facts₀.k0 Facts₀.k1 Facts₀.shapes1 Facts₀.shapes2

variable [Facts₀]

abbrev win0_0 : Pipeline.Window sig grid0 :=
  Pipeline.Window.ofSpec (Memref.whole main_arg0) S1x512x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x284x128x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpecClip (Memref.whole main_v0) S1x64x512x32.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v1) S1x64x205x32.size cc1_transform_1 reads1_1 true false 2 stage1_1 sem1_1
    hrank1 hreads1_1 hstart1_1 nbuf1_1 (Memref.isWhole_whole _) hwx1_1 hwxs1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S32x512x512x32 : Shape := ⟨4, ![32, 512, 512, 32]⟩
abbrev S3x3 : Shape := ⟨2, ![3, 3]⟩
abbrev S284 : Shape := ⟨1, ![284]⟩
abbrev S205 : Shape := ⟨1, ![205]⟩
abbrev S_ : Shape := ⟨0, ![]⟩
abbrev S32x284x205x32 : Shape := ⟨4, ![32, 284, 205, 32]⟩
abbrev S284x1 : Shape := ⟨2, ![284, 1]⟩
abbrev S32x284x512x32 : Shape := ⟨4, ![32, 284, 512, 32]⟩
abbrev S1x1 : Shape := ⟨2, ![1, 1]⟩
abbrev S205x1 : Shape := ⟨2, ![205, 1]⟩

abbrev nBuf : Space → Nat
  | .hbm => 145
  | .vmem => 0
  | .smem => 0
  | _ => 0

abbrev hbmTy0_0 (i : Nat) : BufTy := match i % 128 with
  | 0 => ⟨S32x512x512x32, .f32⟩
  | 1 => ⟨S3x3, .f32⟩
  | 2 => ⟨S284, .i32⟩
  | 3 => ⟨S284, .i1⟩
  | 4 => ⟨S205, .i32⟩
  | 5 => ⟨S205, .i1⟩
  | 6 => ⟨S205, .i32⟩
  | 7 => ⟨S205, .i1⟩
  | 8 => ⟨S205, .i32⟩
  | 9 => ⟨S205, .i1⟩
  | 10 => ⟨S284, .i32⟩
  | 11 => ⟨S284, .i1⟩
  | 12 => ⟨S205, .i32⟩
  | 13 => ⟨S205, .i1⟩
  | 14 => ⟨S205, .i32⟩
  | 15 => ⟨S205, .i1⟩
  | 16 => ⟨S205, .i32⟩
  | 17 => ⟨S205, .i1⟩
  | 18 => ⟨S284, .i32⟩
  | 19 => ⟨S284, .i1⟩
  | 20 => ⟨S205, .i32⟩
  | 21 => ⟨S205, .i1⟩
  | 22 => ⟨S205, .i32⟩
  | 23 => ⟨S205, .i1⟩
  | 24 => ⟨S205, .i32⟩
  | 25 => ⟨S205, .i1⟩
  | 26 => ⟨S_, .f32⟩
  | 27 => ⟨S32x284x205x32, .f32⟩
  | 28 => ⟨S_, .i32⟩
  | 29 => ⟨S284, .i32⟩
  | 30 => ⟨S284, .i32⟩
  | 31 => ⟨S284, .i32⟩
  | 32 => ⟨S284x1, .i32⟩
  | 33 => ⟨S32x284x512x32, .f32⟩
  | 34 => ⟨S1x1, .f32⟩
  | 35 => ⟨S_, .f32⟩
  | 36 => ⟨S_, .i32⟩
  | 37 => ⟨S205, .i32⟩
  | 38 => ⟨S205, .i32⟩
  | 39 => ⟨S205, .i32⟩
  | 40 => ⟨S205x1, .i32⟩
  | 41 => ⟨S32x284x205x32, .f32⟩
  | 42 => ⟨S32x284x205x32, .f32⟩
  | 43 => ⟨S32x284x205x32, .f32⟩
  | 44 => ⟨S32x284x205x32, .f32⟩
  | 45 => ⟨S1x1, .f32⟩
  | 46 => ⟨S_, .f32⟩
  | 47 => ⟨S_, .i32⟩
  | 48 => ⟨S205, .i32⟩
  | 49 => ⟨S205, .i32⟩
  | 50 => ⟨S205, .i32⟩
  | 51 => ⟨S205x1, .i32⟩
  | 52 => ⟨S32x284x205x32, .f32⟩
  | 53 => ⟨S32x284x205x32, .f32⟩
  | 54 => ⟨S32x284x205x32, .f32⟩
  | 55 => ⟨S32x284x205x32, .f32⟩
  | 56 => ⟨S1x1, .f32⟩
  | 57 => ⟨S_, .f32⟩
  | 58 => ⟨S_, .i32⟩
  | 59 => ⟨S205, .i32⟩
  | 60 => ⟨S205, .i32⟩
  | 61 => ⟨S205, .i32⟩
  | 62 => ⟨S205x1, .i32⟩
  | 63 => ⟨S32x284x205x32, .f32⟩
  | 64 => ⟨S32x284x205x32, .f32⟩
  | 65 => ⟨S32x284x205x32, .f32⟩
  | 66 => ⟨S32x284x205x32, .f32⟩
  | 67 => ⟨S_, .i32⟩
  | 68 => ⟨S284, .i32⟩
  | 69 => ⟨S284, .i32⟩
  | 70 => ⟨S284, .i32⟩
  | 71 => ⟨S284x1, .i32⟩
  | 72 => ⟨S32x284x512x32, .f32⟩
  | 73 => ⟨S1x1, .f32⟩
  | 74 => ⟨S_, .f32⟩
  | 75 => ⟨S_, .i32⟩
  | 76 => ⟨S205, .i32⟩
  | 77 => ⟨S205, .i32⟩
  | 78 => ⟨S205, .i32⟩
  | 79 => ⟨S205x1, .i32⟩
  | 80 => ⟨S32x284x205x32, .f32⟩
  | 81 => ⟨S32x284x205x32, .f32⟩
  | 82 => ⟨S32x284x205x32, .f32⟩
  | 83 => ⟨S32x284x205x32, .f32⟩
  | 84 => ⟨S1x1, .f32⟩
  | 85 => ⟨S_, .f32⟩
  | 86 => ⟨S_, .i32⟩
  | 87 => ⟨S205, .i32⟩
  | 88 => ⟨S205, .i32⟩
  | 89 => ⟨S205, .i32⟩
  | 90 => ⟨S205x1, .i32⟩
  | 91 => ⟨S32x284x205x32, .f32⟩
  | 92 => ⟨S32x284x205x32, .f32⟩
  | 93 => ⟨S32x284x205x32, .f32⟩
  | 94 => ⟨S32x284x205x32, .f32⟩
  | 95 => ⟨S1x1, .f32⟩
  | 96 => ⟨S_, .f32⟩
  | 97 => ⟨S_, .i32⟩
  | 98 => ⟨S205, .i32⟩
  | 99 => ⟨S205, .i32⟩
  | 100 => ⟨S205, .i32⟩
  | 101 => ⟨S205x1, .i32⟩
  | 102 => ⟨S32x284x205x32, .f32⟩
  | 103 => ⟨S32x284x205x32, .f32⟩
  | 104 => ⟨S32x284x205x32, .f32⟩
  | 105 => ⟨S32x284x205x32, .f32⟩
  | 106 => ⟨S_, .i32⟩
  | 107 => ⟨S284, .i32⟩
  | 108 => ⟨S284, .i32⟩
  | 109 => ⟨S284, .i32⟩
  | 110 => ⟨S284x1, .i32⟩
  | 111 => ⟨S32x284x512x32, .f32⟩
  | 112 => ⟨S1x1, .f32⟩
  | 113 => ⟨S_, .f32⟩
  | 114 => ⟨S_, .i32⟩
  | 115 => ⟨S205, .i32⟩
  | 116 => ⟨S205, .i32⟩
  | 117 => ⟨S205, .i32⟩
  | 118 => ⟨S205x1, .i32⟩
  | 119 => ⟨S32x284x205x32, .f32⟩
  | 120 => ⟨S32x284x205x32, .f32⟩
  | 121 => ⟨S32x284x205x32, .f32⟩
  | 122 => ⟨S32x284x205x32, .f32⟩
  | 123 => ⟨S1x1, .f32⟩
  | 124 => ⟨S_, .f32⟩
  | 125 => ⟨S_, .i32⟩
  | 126 => ⟨S205, .i32⟩
  | 127 => ⟨S205, .i32⟩
  | _ => ⟨S32x512x512x32, .f32⟩

abbrev hbmTy0_1 (i : Nat) : BufTy := match i % 128 with
  | 0 => ⟨S205, .i32⟩
  | 1 => ⟨S205x1, .i32⟩
  | 2 => ⟨S32x284x205x32, .f32⟩
  | 3 => ⟨S32x284x205x32, .f32⟩
  | 4 => ⟨S32x284x205x32, .f32⟩
  | 5 => ⟨S32x284x205x32, .f32⟩
  | 6 => ⟨S1x1, .f32⟩
  | 7 => ⟨S_, .f32⟩
  | 8 => ⟨S_, .i32⟩
  | 9 => ⟨S205, .i32⟩
  | 10 => ⟨S205, .i32⟩
  | 11 => ⟨S205, .i32⟩
  | 12 => ⟨S205x1, .i32⟩
  | 13 => ⟨S32x284x205x32, .f32⟩
  | 14 => ⟨S32x284x205x32, .f32⟩
  | 15 => ⟨S32x284x205x32, .f32⟩
  | 16 => ⟨S32x284x205x32, .f32⟩
  | _ => ⟨S32x512x512x32, .f32⟩

abbrev hbmTy (i : Nat) : BufTy := match i / 128 with
  | 0 => hbmTy0_0 i
  | 1 => hbmTy0_1 i
  | _ => ⟨S32x512x512x32, .f32⟩

abbrev bufTy : (tb : Table) → Fin (tcTables nBuf tb) → BufTy
  | .hbm, ⟨i, _⟩ => hbmTy i
  | _, _ => ⟨S32x512x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_c_12 : Ref sig .tc := ⟨.hbm, 15, rfl⟩
abbrev main_c_13 : Ref sig .tc := ⟨.hbm, 16, rfl⟩
abbrev main_c_14 : Ref sig .tc := ⟨.hbm, 17, rfl⟩
abbrev main_c_15 : Ref sig .tc := ⟨.hbm, 18, rfl⟩
abbrev main_c_16 : Ref sig .tc := ⟨.hbm, 19, rfl⟩
abbrev main_c_17 : Ref sig .tc := ⟨.hbm, 20, rfl⟩
abbrev main_c_18 : Ref sig .tc := ⟨.hbm, 21, rfl⟩
abbrev main_c_19 : Ref sig .tc := ⟨.hbm, 22, rfl⟩
abbrev main_c_20 : Ref sig .tc := ⟨.hbm, 23, rfl⟩
abbrev main_c_21 : Ref sig .tc := ⟨.hbm, 24, rfl⟩
abbrev main_c_22 : Ref sig .tc := ⟨.hbm, 25, rfl⟩
abbrev main_cst_23 : Ref sig .tc := ⟨.hbm, 26, rfl⟩
abbrev main_v0 : Ref sig .tc := ⟨.hbm, 27, rfl⟩
abbrev main_c_24 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c_25 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_26 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_28 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_29 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_30 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_31 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_32 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_33 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_34 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_35 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩

abbrev nD : Nat := 1
abbrev τ : Topo := Topo.v7x

variable {F : FTy → Type} [FloatOps F]

class Facts₀ : Prop where
  bcast_S_S32x284x205x32 : S_.BroadcastsInDim S32x284x205x32 (![] : Fin 0 → Fin S32x284x205x32.rank)
  bcast_S_S284 : S_.BroadcastsInDim S284 (![] : Fin 0 → Fin S284.rank)
  bcast_S284_S284x1_0 : S284.BroadcastsInDim S284x1 (![0] : Fin 1 → Fin S284x1.rank)
  slices_S3x3_S1x1_0_0 : S3x3.Slices ![0, 0] S1x1
  shapeCasts_S1x1_S_ : S1x1.ShapeCasts S_
  bcast_S_S205 : S_.BroadcastsInDim S205 (![] : Fin 0 → Fin S205.rank)
  bcast_S205_S205x1_0 : S205.BroadcastsInDim S205x1 (![0] : Fin 1 → Fin S205x1.rank)
  slices_S3x3_S1x1_0_1 : S3x3.Slices ![0, 1] S1x1
  slices_S3x3_S1x1_0_2 : S3x3.Slices ![0, 2] S1x1
  slices_S3x3_S1x1_1_0 : S3x3.Slices ![1, 0] S1x1
  slices_S3x3_S1x1_1_1 : S3x3.Slices ![1, 1] S1x1
  slices_S3x3_S1x1_1_2 : S3x3.Slices ![1, 2] S1x1
  slices_S3x3_S1x1_2_0 : S3x3.Slices ![2, 0] S1x1
  slices_S3x3_S1x1_2_1 : S3x3.Slices ![2, 1] S1x1
  slices_S3x3_S1x1_2_2 : S3x3.Slices ![2, 2] S1x1
  gather_S32x512x512x32_S284x1_S32x284x512x32_023_1_n_n_1_1_32151232_wf : GatherDims.WF S32x512x512x32 S284x1 S32x284x512x32 [0, 2, 3] [1] [] [1] [] 1 ![32, 1, 512, 32]
  gather_S32x284x512x32_S205x1_S32x284x205x32_013_2_n_n_2_1_32284132_wf : GatherDims.WF S32x284x512x32 S205x1 S32x284x205x32 [0, 1, 3] [2] [] [2] [] 1 ![32, 284, 1, 32]

variable [Facts₀]

def gather_S32x512x512x32_S284x1_S32x284x512x32_023_1_n_n_1_1_32151232 : GatherDims S32x512x512x32 S284x1 S32x284x512x32 where
  offsetDims := [0, 2, 3]
  collapsedSliceDims := [1]
  operandBatchingDims := []
  startIndicesBatchingDims := []
  startIndexMap := [1]
  indexVectorDim := 1
  sliceSizes := ![32, 1, 512, 32]
  wf := gather_S32x512x512x32_S284x1_S32x284x512x32_023_1_n_n_1_1_32151232_wf
def gather_S32x284x512x32_S205x1_S32x284x205x32_013_2_n_n_2_1_32284132 : GatherDims S32x284x512x32 S205x1 S32x284x205x32 where
  offsetDims := [0, 1, 3]
  collapsedSliceDims := [2]
  operandBatchingDims := []
  startIndicesBatchingDims := []
  startIndexMap := [2]
  indexVectorDim := 1
  sliceSizes := ![32, 284, 1, 32]
  wf := gather_S32x284x512x32_S205x1_S32x284x205x32_013_2_n_n_2_1_32284132_wf

class Facts : Prop extends Facts₀ where

variable [Facts]
-- ==== Proof.Spec.lean ====
/-
  The stencil both programs compute, as plain functions of an array's index.

  A rank-4 array is combined along ONE axis with the weights 1, 2, 1 at three consecutive positions
  `tab i`, `tab i + 1`, `tab i + 2`, where `tab` lists the sampled starting positions: along axis 1 with the
  row table (284 starts in 0..509: step 3 up to 171, then step 1 up to 341, then step 3), along axis 2 with
  the column table (205 starts in 0..508: step 1 up to 128, then step 5 from 133). The kernel is the row
  pass followed by the column pass; every other axis is carried pointwise.  Generic in the float
  instance: at the word-level instance these are the rounded operations in the kernel's order, at the ideal
  instance the exact ones.
-/
import Idealize.ShloMosaic.PureOps.Vector
import Idealize.ShloMosaic.Lib.ValueIdx

noncomputable section

namespace Cert.Sten

open Idealize.ShloMosaic Idealize.ShloMosaic.ValueIdx

variable {F : FTy → Type} [FloatOps F]

/-- The sampled row starts: `3 i` for `i < 58`, `i + 114` for `58 ≤ i < 228`, `3 i - 340` from there on. -/
def rowTab (i : Fin 284) : ℕ :=
  if i.val < 58 then 3 * i.val else if i.val < 228 then i.val + 114 else 3 * i.val - 340

/-- The sampled column starts: `j` for `j < 129`, `5 j - 512` from there on. -/
def colTab (j : Fin 205) : ℕ :=
  if j.val < 129 then j.val else 5 * j.val - 512

theorem rowTab_lt (i : Fin 284) (d : ℕ) (hd : d ≤ 2) : rowTab i + d < 512 := by
  unfold rowTab; have := i.isLt; split_ifs <;> omega

theorem colTab_lt (j : Fin 205) (d : ℕ) (hd : d ≤ 2) : colTab j + d < 512 := by
  unfold colTab; have := j.isLt; split_ifs <;> omega

/-- One output of the stencil from its three inputs: `1·a + 2·b + 1·c`, associated to the left, the weights the
    words of `1.0` and `2.0`. -/
def pay3 (a b c : F .f32) : F .f32 :=
  FloatOps.addf (FloatOps.addf (FloatOps.mulf (Scalar.ofBits .f32 0x3F800000#32) a) (FloatOps.mulf (Scalar.ofBits .f32 0x40000000#32) b))
    (FloatOps.mulf (Scalar.ofBits .f32 0x3F800000#32) c)

/-- The stencil along axis 1: entry `(a, i, y, z)` combines `X (a, tab i + d, y, z)`, `d = 0, 1, 2`. -/
def sten1 {n0 n1 m1 n2 n3 : ℕ} (tab : Fin m1 → ℕ) (htab : ∀ i d, d ≤ 2 → tab i + d < n1)
    (X : (⟨4, ![n0, n1, n2, n3]⟩ : Shape).Idx → F .f32) : (⟨4, ![n0, m1, n2, n3]⟩ : Shape).Idx → F .f32 :=
  fun j => pay3 (X (ix4 (j 0) ⟨tab (j 1) + 0, htab _ 0 (by omega)⟩ (j 2) (j 3)))
    (X (ix4 (j 0) ⟨tab (j 1) + 1, htab _ 1 (by omega)⟩ (j 2) (j 3)))
    (X (ix4 (j 0) ⟨tab (j 1) + 2, htab _ 2 (by omega)⟩ (j 2) (j 3)))

/-- The stencil along axis 2: entry `(a, r, j, z)` combines `X (a, r, tab j + d, z)`, `d = 0, 1, 2`. -/
def sten2 {n0 n1 n2 m2 n3 : ℕ} (tab : Fin m2 → ℕ) (htab : ∀ i d, d ≤ 2 → tab i + d < n2)
    (X : (⟨4, ![n0, n1, n2, n3]⟩ : Shape).Idx → F .f32) : (⟨4, ![n0, n1, m2, n3]⟩ : Shape).Idx → F .f32 :=
  fun j => pay3 (X (ix4 (j 0) (j 1) ⟨tab (j 2) + 0, htab _ 0 (by omega)⟩ (j 3)))
    (X (ix4 (j 0) (j 1) ⟨tab (j 2) + 1, htab _ 1 (by omega)⟩ (j 3)))
    (X (ix4 (j 0) (j 1) ⟨tab (j 2) + 2, htab _ 2 (by omega)⟩ (j 3)))

/-- The row pass on an array of any leading and trailing extents (the kernel's first call, block by block and whole). -/
abbrev rowSten {n0 n2 n3 : ℕ} (X : (⟨4, ![n0, 512, n2, n3]⟩ : Shape).Idx → F .f32) : (⟨4, ![n0, 284, n2, n3]⟩ : Shape).Idx → F .f32 :=
  sten1 rowTab rowTab_lt X

/-- The column pass on an array of any other extents (the kernel's second call, block by block and whole). -/
abbrev colSten {n0 n1 n3 : ℕ} (X : (⟨4, ![n0, n1, 512, n3]⟩ : Shape).Idx → F .f32) : (⟨4, ![n0, n1, 205, n3]⟩ : Shape).Idx → F .f32 :=
  sten2 colTab colTab_lt X

theorem sten1_apply {n0 n1 m1 n2 n3 : ℕ} (tab : Fin m1 → ℕ) (htab : ∀ i d, d ≤ 2 → tab i + d < n1)
    (X : (⟨4, ![n0, n1, n2, n3]⟩ : Shape).Idx → F .f32) (a : Fin n0) (i : Fin m1) (y : Fin n2) (z : Fin n3) :
    sten1 tab htab X (ix4 a i y z) = pay3 (X (ix4 a ⟨tab i + 0, htab _ 0 (by omega)⟩ y z))
      (X (ix4 a ⟨tab i + 1, htab _ 1 (by omega)⟩ y z)) (X (ix4 a ⟨tab i + 2, htab _ 2 (by omega)⟩ y z)) := rfl

theorem sten2_apply {n0 n1 n2 m2 n3 : ℕ} (tab : Fin m2 → ℕ) (htab : ∀ i d, d ≤ 2 → tab i + d < n2)
    (X : (⟨4, ![n0, n1, n2, n3]⟩ : Shape).Idx → F .f32) (a : Fin n0) (r : Fin n1) (j : Fin m2) (z : Fin n3) :
    sten2 tab htab X (ix4 a r j z) = pay3 (X (ix4 a r ⟨tab j + 0, htab _ 0 (by omega)⟩ z))
      (X (ix4 a r ⟨tab j + 1, htab _ 1 (by omega)⟩ z)) (X (ix4 a r ⟨tab j + 2, htab _ 2 (by omega)⟩ z)) := rfl

/-- One input of the 3×3 window at output position `j`: the array at row `rowTab (j 1) + di`, column `colTab (j 2) + dj`. -/
def tap (X : (⟨4, ![32, 512, 512, 32]⟩ : Shape).Idx → F .f32) (j : (⟨4, ![32, 284, 205, 32]⟩ : Shape).Idx)
    (di dj : ℕ) (hi : di ≤ 2) (hj : dj ≤ 2) : F .f32 :=
  X (ix4 (j 0) ⟨rowTab (j 1) + di, rowTab_lt _ _ hi⟩ ⟨colTab (j 2) + dj, colTab_lt _ _ hj⟩ (j 3))

/-- A weight, given by its word, times a value. -/
def wmul (b : BitVec 32) (v : F .f32) : F .f32 := FloatOps.mulf (FloatOps.ofBits .f32 b) v

/-- The reference's entry at `j`: zero plus the nine weighted inputs, rows outermost, added one by one from the left;
    the weights are the words of `1, 2, 1; 2, 4, 2; 1, 2, 1`. -/
def ref9 (X : (⟨4, ![32, 512, 512, 32]⟩ : Shape).Idx → F .f32) : (⟨4, ![32, 284, 205, 32]⟩ : Shape).Idx → F .f32 := fun j =>
  FloatOps.addf (FloatOps.addf (FloatOps.addf (FloatOps.addf (FloatOps.addf (FloatOps.addf (FloatOps.addf (FloatOps.addf (FloatOps.addf
    (FloatOps.ofBits .f32 0x00000000#32)
    (wmul 0x3F800000#32 (tap X j 0 0 (by omega) (by omega))))
    (wmul 0x40000000#32 (tap X j 0 1 (by omega) (by omega))))
    (wmul 0x3F800000#32 (tap X j 0 2 (by omega) (by omega))))
    (wmul 0x40000000#32 (tap X j 1 0 (by omega) (by omega))))
    (wmul 0x40800000#32 (tap X j 1 1 (by omega) (by omega))))
    (wmul 0x40000000#32 (tap X j 1 2 (by omega) (by omega))))
    (wmul 0x3F800000#32 (tap X j 2 0 (by omega) (by omega))))
    (wmul 0x40000000#32 (tap X j 2 1 (by omega) (by omega))))
    (wmul 0x3F800000#32 (tap X j 2 2 (by omega) (by omega)))

/-- The kernel's whole result: the column pass of the row pass. -/
abbrev kern9 (X : (⟨4, ![32, 512, 512, 32]⟩ : Shape).Idx → F .f32) : (⟨4, ![32, 284, 205, 32]⟩ : Shape).Idx → F .f32 :=
  colSten (rowSten X)

end Cert.Sten

end
-- ==== Proof.KDats.lean ====
/-
  The two pipelines' proof data, at a parameter `V`: the contents of the core's buffers when a call is entered.

  Call 0 reads block `(b, 0, t, 0)` of the input (all 512 rows, 128 columns) and leaves in its output block the row
  stencil of that block; its blocks tile both arrays.  Call 1 reads 64 rows of the intermediate array at a time; the
  array has 284 rows, so the fifth row-tile reaches 36 rows past the end: the fetch fills the rows inside the array
  and the rest of the staging buffer holds words nothing names.  The column stencil works row by row, so the rows
  inside the array of what the body leaves depend only on the rows inside the array of what it found; the proof data
  name the buffers with the rows past the end filled with the zero word, and the obligation is stated on the rows
  inside the array only.
-/
import proofs.«174384_j82789789597838_1_alg».proof.Proof.Gen.Kernel.Launch
import proofs.«174384_j82789789597838_1_alg».proof.Proof.Gen.Kernel.Points
import proofs.«174384_j82789789597838_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the two bodies do, as hypotheses the body modules discharge -/

/-- Call 0's body, on whole staging memrefs: the input buffer at `x0` is left as it was and the output buffer ends at
    the row stencil of `x0`. -/
def SoundK0 : Prop :=
  ∀ (c : Dev nD) (E : Set ℕ) (i : grid0.Coords) (arg0 : Memref sig .tc .vmem S1x512x128x32 .f32) (harg0 : arg0.IsWhole)
    (arg1 : Memref sig .tc .vmem S1x284x128x32 .f32) (harg1 : arg1.IsWhole)
    (x0 : Vec F S1x512x128x32 .f32) (K : PUnit → sProp 𝕄),
    iprop(owns (c : Thread nD τ) arg0 fullShare x0 ∗ (∃ d, owns (c : Thread nD τ) arg1 fullShare d)
        ∗ (iprop(owns (c : Thread nD τ) arg0 fullShare x0 ∗ owns (c : Thread nD τ) arg1 fullShare (Cert.Sten.rowSten x0)) -∗ K ⟨⟩))
      ⊢ wp frame (wpE (defs₀ (F := F)) Variants.none c none) E (cc0__row_reduce_kernel i arg0 harg0 arg1 harg1) K

/-- Call 1's body likewise, with the column stencil. -/
def SoundK1 : Prop :=
  ∀ (c : Dev nD) (E : Set ℕ) (i : grid1.Coords) (arg0 : Memref sig .tc .vmem S1x64x512x32 .f32) (harg0 : arg0.IsWhole)
    (arg1 : Memref sig .tc .vmem S1x64x205x32 .f32) (harg1 : arg1.IsWhole)
    (x0 : Vec F S1x64x512x32 .f32) (K : PUnit → sProp 𝕄),
    iprop(owns (c : Thread nD τ) arg0 fullShare x0 ∗ (∃ d, owns (c : Thread nD τ) arg1 fullShare d)
        ∗ (iprop(owns (c : Thread nD τ) arg0 fullShare x0 ∗ owns (c : Thread nD τ) arg1 fullShare (Cert.Sten.colSten x0)) -∗ K ⟨⟩))
      ⊢ wp frame (wpE (defs₀ (F := F)) Variants.none c none) E (cc1__col_reduce_kernel i arg0 harg0 arg1 harg1) K

variable (V : (c : Dev nD) → (b : Ref sig .tc) → Buf (Elt F) ((c : Thread nD τ).loc b))

/-! ## Call 0 -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block at point `t` at its literal shape. -/
abbrev xblk0 (c : Dev nD) (t : Fin cfg0.N) : Vec F S1x512x128x32 .f32 := iblk0 V c 0 t

/-- What the body leaves in the output buffer at point `t`: the row stencil of the input block. -/
abbrev oblk0 (c : Dev nD) (t : Fin cfg0.N) : Vec F S1x284x128x32 .f32 := Cert.Sten.rowSten (xblk0 V c t)

/-- The proof data of call 0: the arrays as the call finds them; after the body the input buffer at its block and
    the output buffer at the block's row stencil; the invariant is the scratch rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => oblk0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = oblk0 V c t := by dsimp only [dat0]

/-- The input's current staging buffer holds its block at every point (it is fetched at every point, uncut). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The library's body obligation for call 0, at every point: the input's memref holds its block, so the body's run
    applies; the invariant and the core's dues pass through unread. -/
theorem body_obligation0 (h0 : SoundK0 (F := F)) (c : Dev nD) :
    BodyObligation (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩⟩
  rw [before0_0 V c t d0]
  iapply (h0 c Set.univ (grid0.coords t) (win0_0.stage (cfg0.slots t 0)) (hstage0_0 ((cfg0.slots t 0).cast nbuf0_0))
    (win0_1.stage (cfg0.slots t 1)) (hstage0_1 ((cfg0.slots t 1).cast nbuf0_1)) (xblk0 V c t) _)
  isplitl [H0]; · iexact H0
  isplitl [H1]; · iexists _; iexact H1
  iintro ⟨H0, H1⟩
  isplitl [HΦ]; · iexact HΦ
  isplitl [Ho]; · iexact Ho
  rw [after0_0, after0_1]
  isplitl [H0]; · iexact H0
  iexact H1

/-! ## Call 1 -/

/-- Window `w`'s block at point `t`, read off its array as the call finds it: its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input staging buffer once the fetch at point `t` has landed in a buffer holding `d`: the block on the rows
    inside the array, `d` past the array's end. -/
abbrev xfill1 (c : Dev nD) (t : Fin cfg1.N) (d : Vec F S1x64x512x32 .f32) : Vec F S1x64x512x32 .f32 :=
  win1_0.fill (grid1.coords t) d (iblk1 V c 0 t)

/-- The same with the zero word past the array's end: what the proof data name. -/
abbrev xblk1 (c : Dev nD) (t : Fin cfg1.N) : Vec F S1x64x512x32 .f32 := xfill1 V c t (fun _ => FloatOps.ofBits .f32 0#32)

/-- What the proof data name for the output buffer at point `t`: the column stencil of that. -/
abbrev oblk1 (c : Dev nD) (t : Fin cfg1.N) : Vec F S1x64x205x32 .f32 := Cert.Sten.colSten (xblk1 V c t)

/-- The proof data of call 1. Both windows are cut at the array's end, so the body obligation speaks of the rows
    inside the array only. -/
def dat1 (c : Dev nD) : Dat τ (Elt F) Unit ℕ (UR sig nD τ) ℕ cfg1 c where
  A w := V c (Pipeline.arrRef spec1 w)
  after w t := match w with
    | ⟨0, _⟩ => xblk1 V c t
    | ⟨1, _⟩ => oblk1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = xblk1 V c t := by dsimp only [dat1]
theorem after1_1 (c : Dev nD) (t : Fin cfg1.N) : (dat1 V c).after 1 t = oblk1 V c t := by dsimp only [dat1]

/-- The output window is never fetched. -/
theorem fetch1_1 (t : Fin cfg1.N) : (cfg1.win 1).fetch t = false := rfl

/-- The input buffer when the body runs: just fetched. -/
theorem before1_0 (c : Dev nD) (t : Fin cfg1.N) (d) : (dat1 V c).before 0 t d = xfill1 V c t d := by
  unfold Dat.before; rw [if_pos (fetch1_0 t)]
  unfold Dat.fetched Dat.blockOf xfill1 iblk1; rw [A_eq1]

/-- The output buffer when the body runs: contents nothing names (it was written back at the point before). -/
theorem before1_1 (c : Dev nD) (t : Fin cfg1.N) (d) : (dat1 V c).before 1 t d = d := by
  by_cases ht : t.val = 0
  · unfold Dat.before; rw [fetch1_1 t, if_neg Bool.false_ne_true, if_pos ht]
  · rw [(dat1 V c).before_of_pos 1 t ht (fetch1_1 t) d, if_pos (flush1_1 _)]

/-- The two windows are cut alike along the row axis, and the input's other axes are never cut. -/
theorem xsize1 : ∀ t : Fin cfg1.N,
    win1_0.xsize (grid1.coords t) (0 : Fin 4) = 1 ∧ win1_0.xsize (grid1.coords t) (1 : Fin 4) = win1_1.xsize (grid1.coords t) (1 : Fin 4)
      ∧ win1_0.xsize (grid1.coords t) (2 : Fin 4) = 512 ∧ win1_0.xsize (grid1.coords t) (3 : Fin 4) = 32 :=
  (by decide +kernel : ∀ t : Fin grid1.N, _)

/-- On a row inside the array the column stencil of the fetched buffer does not see what lies past the array's end. -/
theorem colSten_fill_indep (c : Dev nD) (t : Fin cfg1.N) (d d' : Vec F S1x64x512x32 .f32) (j : S1x64x205x32.Idx)
    (hj : win1_1.moved (grid1.coords t) j = true) :
    (Cert.Sten.colSten (xfill1 V c t d) : Vec F S1x64x205x32 .f32) j = (Cert.Sten.colSten (xfill1 V c t d') : Vec F S1x64x205x32 .f32) j := by
  obtain ⟨h0, h1, h2, h3⟩ := xsize1 t
  have hr : (j (1 : Fin 4)).val < win1_0.xsize (grid1.coords t) (1 : Fin 4) := by
    rw [h1]; exact (win1_1.moved_iff (grid1.coords t) j).mp hj (1 : Fin 4)
  have key : ∀ (k : Fin 512), xfill1 V c t d (ValueIdx.ix4 (j 0) (j 1) k (j 3)) = xfill1 V c t d' (ValueIdx.ix4 (j 0) (j 1) k (j 3)) := by
    intro k
    have hm : win1_0.moved (grid1.coords t) (ValueIdx.ix4 (j 0) (j 1) k (j 3)) = true := by
      rw [win1_0.moved_iff]
      intro a
      match a with
      | ⟨0, _⟩ => exact Nat.lt_of_lt_of_eq (j 0).isLt h0.symm
      | ⟨1, _⟩ => exact hr
      | ⟨2, _⟩ => exact Nat.lt_of_lt_of_eq k.isLt h2.symm
      | ⟨3, _⟩ => exact Nat.lt_of_lt_of_eq (j 3).isLt h3.symm
    unfold xfill1 Window.fill; rw [dif_pos hm, dif_pos hm]
  show Cert.Sten.sten2 _ _ _ j = Cert.Sten.sten2 _ _ _ j
  unfold Cert.Sten.sten2
  rw [key, key, key]

/-- So the rows inside the array of the stencil of the fetched buffer are those the proof data name, whatever filled
    the buffer past the array's end. -/
theorem fill_cut_colSten (c : Dev nD) (t : Fin cfg1.N) (d : Vec F S1x64x512x32 .f32) :
    win1_1.fill (grid1.coords t) (Cert.Sten.colSten (xfill1 V c t d) : Vec F S1x64x205x32 .f32)
        (win1_1.cut (grid1.coords t) (oblk1 V c t))
      = (Cert.Sten.colSten (xfill1 V c t d) : Vec F S1x64x205x32 .f32) := by
  funext j
  unfold Window.fill
  split
  · rename_i hm
    show oblk1 V c t (win1_1.xinj (grid1.coords t) _) = _
    rw [show win1_1.xinj (grid1.coords t) (fun a => ⟨(j a).val, (win1_1.moved_iff (grid1.coords t) j).mp hm a⟩) = j from funext fun a => Fin.ext rfl]
    exact colSten_fill_indep V c t _ d j hm
  · rfl

/-- The library's body obligation for call 1, at every point, on the rows inside the array. -/
theorem body_obligation1 (h1 : SoundK1 (F := F)) (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩⟩
  rw [before1_0 V c t d0, before1_1 V c t d1]
  iapply (h1 c Set.univ (grid1.coords t) (win1_0.stage (cfg1.slots t 0)) (hstage1_0 ((cfg1.slots t 0).cast nbuf1_0))
    (win1_1.stage (cfg1.slots t 1)) (hstage1_1 ((cfg1.slots t 1).cast nbuf1_1)) (xfill1 V c t d0) _)
  isplitl [H0]; · iexact H0
  isplitl [H1]; · iexists _; iexact H1
  iintro ⟨H0, H1⟩
  isplitl [HΦ]; · iexact HΦ
  isplitl [Ho]; · iexact Ho
  isplitl [H0]
  · iexists d0
    rw [after1_0, show win1_0.cut (grid1.coords t) (xblk1 V c t) = iblk1 V c 0 t from win1_0.cut_fill _ _ _]
    iexact H0
  · iexists (Cert.Sten.colSten (xfill1 V c t d0) : Vec F S1x64x205x32 .f32)
    rw [after1_1, fill_cut_colSten V c t d0]
    iexact H1

end Cert.Kernel.Hand

end
-- ==== Proof.KRun.lean ====
/-
  The kernel program's run: the two calls in sequence, from the launch to the return.

  Between the calls the core holds every unscoped buffer whole: at launch as the memory has them; after call 0 the
  intermediate array at what call 0's write-backs leave; after call 1 the result array at what call 1's write-backs
  leave; the argument is read by call 0 only and never written.  Every weakly fair execution terminates and every
  final memory holds each unscoped buffer at the last of these contents.
-/
import proofs.«174384_j82789789597838_1_alg».proof.Proof.KDats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (h0 : SoundK0 (F := F)) (h1 : SoundK1 (F := F))
variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- The same read at the core's references: what call 0's proof data take. -/
abbrev VA : (c : Dev nD) → (b : Ref sig .tc) → Buf (Elt F) ((c : Thread nD τ).loc b) := fun c b => W0 m c b
/-- After call 0: its arrays at what the pipeline leaves, every other buffer as before. -/
def W2 (c : Dev nD) : Valuation τ sig (Elt F) :=
  Pipeline.withArrays spec0 c (W0 m c) fun w => (dat0 (VA m) c).arrAt w cfg0.N
theorem W2_arr (c : Dev nD) (w : Fin cfg0.W) :
    W2 m c (Proc.devRef .tc (Pipeline.arrRef spec0 w)) = (dat0 (VA m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the core's references: what call 1's proof data take. -/
abbrev VB : (c : Dev nD) → (b : Ref sig .tc) → Buf (Elt F) ((c : Thread nD τ).loc b) := fun c b => W2 m c b
theorem hF0 (c : Dev nD) (w : Fin cfg0.W) : (dat0 (VA m) c).arrAt w cfg0.N = VB m c (Pipeline.arrRef spec0 w) :=
  (W2_arr m c w).symm
theorem hrest0 (c : Dev nD) : ∀ b, b ∉ Finset.univ.image (Pipeline.arrRef spec0) → VB m c b = VA m c b :=
  fun b hb => W2_of_ne m c b fun w e => hb (Finset.mem_image.mpr ⟨w, Finset.mem_univ _, e⟩)

/-- After call 1: its arrays at what the pipeline leaves, every other buffer as before. -/
def W4 (c : Dev nD) : Valuation τ sig (Elt F) :=
  Pipeline.withArrays spec1 c (W2 m c) fun w => (dat1 (VB m) c).arrAt w cfg1.N
theorem W4_arr (c : Dev nD) (w : Fin cfg1.W) :
    W4 m c (Proc.devRef .tc (Pipeline.arrRef spec1 w)) = (dat1 (VB m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev VC : (c : Dev nD) → (b : Ref sig .tc) → Buf (Elt F) ((c : Thread nD τ).loc b) := fun c b => W4 m c b
theorem hF1 (c : Dev nD) (w : Fin cfg1.W) : (dat1 (VB m) c).arrAt w cfg1.N = VC m c (Pipeline.arrRef spec1 w) :=
  (W4_arr m c w).symm
theorem hrest1 (c : Dev nD) : ∀ b, b ∉ Finset.univ.image (Pipeline.arrRef spec1) → VC m c b = VB m c b :=
  fun b hb => W4_of_ne m c b fun w e => hb (Finset.mem_image.mpr ⟨w, Finset.mem_univ _, e⟩)

/-- The argument ends as launched: call 1 does not touch it, call 0 only reads it. -/
theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (VA m) c).arrAt_in 0 rfl _).trans (A_eq0 (VA m) c 0))
    _ = m ((c : Thread nD τ).loc main_arg0) := rfl

/-- The result array ends at what call 1's write-backs leave, -/
theorem W4_main_v1 (c : Dev nD) : W4 m c (Proc.devRef .tc main_v1) = (dat1 (VB m) c).arrAt 1 cfg1.N := W4_arr m c 1
/-- and call 1 finds the intermediate array at what call 0's write-backs left. -/
theorem VB_main_v0 (c : Dev nD) : VB m c main_v0 = (dat0 (VA m) c).arrAt 1 cfg0.N := W2_arr m c 1
/-- Call 0 finds the argument as launched. -/
theorem VA_main_arg0 (c : Dev nD) : VA m c main_arg0 = m ((c : Thread nD τ).loc main_arg0) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- Call 0 over the thread state: entered from every unscoped buffer at the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) h0 c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (VB m) h1 c
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 h0 m), .region (reg1 h1 m) ]

theorem main_run (c : Dev nD) : main (F := F) c = Pipeline.Seg.run (segs h0 h1 m) := (main_chain c).trans (by chain_rfl)

include h0 h1 in
set_option backward.isDefEq.respectTransparency.types false in
/-- THE RUN: from any memory with zero counters every weakly fair execution of @main terminates, nothing faulting,
    and every final memory holds each unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs h0 h1 m)
    (fun c Q => by rw [main_run h0 h1 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.KBody0.lean ====
/-
  The body of the first call (the row pass), run once at symbolic operands.

  The body reads a block of 512 rows and writes a block of 284 rows: output row `i` is `1·a + 2·b + 1·c` of the
  input rows `r`, `r + 1`, `r + 2`, where `r = rowTab i` is the sampled start of row `i`; each row is a [128, 32]
  slab, loaded and stored as a [1, 1, 128, 32] block. The 284 stores are unrolled, so after the run the output
  buffer is the list of its 284 row stores over whatever it held before. Two facts turn that list into the row
  stencil of the input block:
    * every store agrees with the stencil on its own row (`row_eq`, one lemma over the row numbers, instantiated at
      each store; the row numbers of the three loads are checked against `rowTab` by evaluation);
    * the 284 one-row blocks tile the output block, so every index lies under some store.
  Generic in the float instance: nothing here looks inside the product or the sum.
-/
import proofs.«174384_j82789789597838_1_alg».proof.Proof.Gen.Kernel.Launch
import proofs.«174384_j82789789597838_1_alg».proof.Proof.Gen.Kernel.Skeleton
import proofs.«174384_j82789789597838_1_alg».proof.Proof.Gen.Kernel.Points
import proofs.«174384_j82789789597838_1_alg».proof.Proof.Spec
import Idealize.ShloMosaic.Lib.Pipeline.FrameBody
import Idealize.ShloMosaic.Lib.Pipeline.Value
import Idealize.ShloMosaic.Lib.Ring
import Idealize.ShloMosaic.Lib.Tactic

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## One row's value at an index -/

/-- One row's stored value at an index: the two shape casts (dropping and restoring the two unit axes) cancel, and
    the broadcasts, products and sums act entry by entry, so the entry is the weighted sum `1·a + 2·b + 1·c` of the
    three loaded rows' entries at the same index. -/
theorem pay_apply (A B C : Vec F S1x1x128x32 .f32) (x : S1x1x128x32.Idx) :
    k0_pay2 A B C x = Cert.Sten.pay3 (A x) (B x) (C x) := by
  have hA := congrFun (shapeCast_shapeCast A shapeCasts_S1x1x128x32_S128x32 shapeCasts_S128x32_S1x1x128x32) x
  have hB := congrFun (shapeCast_shapeCast B shapeCasts_S1x1x128x32_S128x32 shapeCasts_S128x32_S1x1x128x32) x
  have hC := congrFun (shapeCast_shapeCast C shapeCasts_S1x1x128x32_S128x32 shapeCasts_S128x32_S1x1x128x32) x
  unfold shapeCast at hA hB hC
  unfold k0_pay2 Cert.Sten.pay3
  rw [← hA, ← hB, ← hC]
  rfl

/-- The one-row block at row `r < 512` lies inside the input block. -/
theorem inb_in (r : ℕ) (hr : r < 512) :
    ∀ a, (![0, r, 0, 0] : Fin 4 → ℕ) a + S1x1x128x32.size a ≤ S1x512x128x32.size a := fun a =>
  match a with
  | ⟨0, _⟩ => by show 0 + 1 ≤ 1; omega
  | ⟨1, _⟩ => by show r + 1 ≤ 512; omega
  | ⟨2, _⟩ => by show 0 + 128 ≤ 128; omega
  | ⟨3, _⟩ => by show 0 + 32 ≤ 32; omega

/-- The one-row block at row `i < 284` lies inside the output block. -/
theorem inb_out (i : ℕ) (hi : i < 284) :
    ∀ a, (![0, i, 0, 0] : Fin 4 → ℕ) a + S1x1x128x32.size a ≤ S1x284x128x32.size a := fun a =>
  match a with
  | ⟨0, _⟩ => by show 0 + 1 ≤ 1; omega
  | ⟨1, _⟩ => by show i + 1 ≤ 284; omega
  | ⟨2, _⟩ => by show 0 + 128 ≤ 128; omega
  | ⟨3, _⟩ => by show 0 + 32 ≤ 32; omega

/-- The three rows read for output row `i` are rows of the input block. -/
theorem in_lt {i r r' : ℕ} {hi : i < 284} (d : ℕ) (hd : d ≤ 2) (h0 : Cert.Sten.rowTab ⟨i, hi⟩ = r) (h : r' = r + d) :
    r' < 512 := by
  subst h0 h; exact Cert.Sten.rowTab_lt _ d hd

/-- A load of the one-row block at row `r` reads the buffer's contents in row `r`, at the block's last two
    coordinates. -/
theorem readAt_row {κ : Kind} {sp : Space} (v : View sig κ sp S1x512x128x32 .f32) (f : v.ty.Contents (Elt F)) (r : ℕ)
    (hr : r < 512) (x : S1x1x128x32.Idx) :
    View.readAt (Elt F) v (Rect.unit (s := S1x512x128x32) ![0, r, 0, 0] S1x1x128x32.size (inb_in r hr)).toLoadRect f x
      = View.read (Elt F) v f (ValueIdx.ix4 ⟨0, by omega⟩ ⟨r, hr⟩ (x 2) (x 3)) := by
  rw [View.readAt_apply]
  congr 1
  have h0 := (x 0).isLt
  have h1 := (x 1).isLt
  funext a
  match a with
  | ⟨0, _⟩ => exact Fin.ext (by show 0 + 1 * (x 0).val = 0; change (x 0).val < 1 at h0; omega)
  | ⟨1, _⟩ => exact Fin.ext (by show r + 1 * (x 1).val = r; change (x 1).val < 1 at h1; omega)
  | ⟨2, _⟩ => exact Fin.ext (by show 0 + 1 * (x 2).val = (x 2).val; omega)
  | ⟨3, _⟩ => exact Fin.ext (by show 0 + 1 * (x 3).val = (x 3).val; omega)

/-- Row `i` of the output: the weighted sum of the loads of rows `r`, `r + 1`, `r + 2`, `r` the sampled start of
    row `i`, is the row stencil of the buffer's contents at the index under the stored block. -/
theorem row_eq {κ : Kind} {sp : Space} (v : View sig κ sp S1x512x128x32 .f32) (f : v.ty.Contents (Elt F)) (i r0 r1 r2 : ℕ)
    (hi : i < 284) (h0 : Cert.Sten.rowTab ⟨i, hi⟩ = r0) (h1 : r1 = r0 + 1) (h2 : r2 = r0 + 2) (x : S1x1x128x32.Idx) :
    Cert.Sten.pay3
        (View.readAt (Elt F) v (Rect.unit (s := S1x512x128x32) ![0, r0, 0, 0] S1x1x128x32.size
          (inb_in r0 (in_lt 0 (by omega) h0 rfl))).toLoadRect f x)
        (View.readAt (Elt F) v (Rect.unit (s := S1x512x128x32) ![0, r1, 0, 0] S1x1x128x32.size
          (inb_in r1 (in_lt 1 (by omega) h0 h1))).toLoadRect f x)
        (View.readAt (Elt F) v (Rect.unit (s := S1x512x128x32) ![0, r2, 0, 0] S1x1x128x32.size
          (inb_in r2 (in_lt 2 (by omega) h0 h2))).toLoadRect f x)
      = Cert.Sten.rowSten (View.read (Elt F) v f)
          ((Rect.unit (s := S1x284x128x32) ![0, i, 0, 0] S1x1x128x32.size (inb_out i hi)).emb x) := by
  subst h1 h2 h0
  have hx0 := (x 0).isLt
  have hx1 := (x 1).isLt
  change (x 0).val < 1 at hx0
  change (x 1).val < 1 at hx1
  have e0 : (Rect.unit (s := S1x284x128x32) ![0, i, 0, 0] S1x1x128x32.size (inb_out i hi)).emb x 0 = ⟨0, by decide⟩ :=
    Fin.ext (by show 0 + 1 * (x 0).val = 0; omega)
  have e1 : (Rect.unit (s := S1x284x128x32) ![0, i, 0, 0] S1x1x128x32.size (inb_out i hi)).emb x 1 = ⟨i, hi⟩ :=
    Fin.ext (by show i + 1 * (x 1).val = i; omega)
  have e2 : (Rect.unit (s := S1x284x128x32) ![0, i, 0, 0] S1x1x128x32.size (inb_out i hi)).emb x 2 = x 2 :=
    Fin.ext (by show 0 + 1 * (x 2).val = (x 2).val; omega)
  have e3 : (Rect.unit (s := S1x284x128x32) ![0, i, 0, 0] S1x1x128x32.size (inb_out i hi)).emb x 3 = x 3 :=
    Fin.ext (by show 0 + 1 * (x 3).val = (x 3).val; omega)
  rw [readAt_row v f _ _, readAt_row v f _ _, readAt_row v f _ _]
  unfold Cert.Sten.rowSten Cert.Sten.sten1
  simp only [e0, e1, e2, e3]
  rfl

/-- A property of every entry of a list, from the property of its head and of every entry of its tail. -/
theorem forall_mem_cons_of {α : Type _} {P : α → Prop} {a : α} {l : List α} (h : P a) (t : ∀ p ∈ l, P p) :
    ∀ p ∈ a :: l, P p :=
  List.forall_mem_cons.2 ⟨h, t⟩

/-! ## The body -/

set_option maxHeartbeats 4000000 in
/-- The body of the row pass: from the input block `x0` in the first buffer and anything in the second, it ends with
    the first buffer unchanged and the second holding the row stencil of `x0`. After the run the second buffer is its
    284 row stores, last first, over its prior contents; each store is the stencil on its row (`row_eq`: the output
    row and the three input rows are read off the store, the start `rowTab i` evaluated), and the stores tile the
    block, so the buffer reads the stencil everywhere. -/
theorem sound_kernel0 (c : Dev nD) (E : Set ℕ) (i : grid0.Coords) (arg0 : Memref sig .tc .vmem S1x512x128x32 .f32) (harg0 : arg0.IsWhole)
    (arg1 : Memref sig .tc .vmem S1x284x128x32 .f32) (harg1 : arg1.IsWhole)
    (x0 : Vec F S1x512x128x32 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (Cert.Sten.rowSten x0)) -∗ K ⟨⟩))
      ⊢ wp frame (wpE (defs₀ (F := F)) Variants.none c none) E (cc0__row_reduce_kernel i arg0 harg0 arg1 harg1) K := by
  simp only [cc0__row_reduce_kernel_eq_skeleton]; unfold cc0__row_reduce_kernel_skel
  unfold owns
  iintro ⟨⟨%f0, %hf0, H0⟩, ⟨%d1, %f1, -, H1⟩, Hk⟩
  subst hf0
  sl_exec_parts
  sl_step
  iapply Hk
  isplitl [H0]
  · iexists f0; isplitr; · ipureintro; rfl
    iexact H0
  iexists _; isplitr
  swap; · iexact H1
  ipureintro
  sl_unfold_run_names
  funext y
  refine View.read_writes_apply_of_pieces arg1.view f1 (Cert.Sten.rowSten (View.read (Elt F) arg0.view f0)) _ ?_ y ?_
  · iterate 284
      refine forall_mem_cons_of
        (fun x => (pay_apply _ _ _ x).trans (row_eq arg0.view f0 _ _ _ _ (by decide) (by decide) rfl rfl x)) ?_
    exact List.forall_mem_nil _
  · exact View.cover_of_tiledL (s := S1x284x128x32) _ S1x1x128x32.size (by sl_kernel_rfl) y

end Cert.Kernel.Hand
end
-- ==== Proof.KBody1.lean ====
/-
  The column pass, one block: the second call's body run once on a block of 64 rows.

  The body stores 205 columns. Column `j` of the result block is `1·a + 2·b + 1·c`, where `a, b, c` are the
  columns `colTab j + 0, 1, 2` of the input block, each a [1,64,1,32] slab read whole, viewed as [64,32] for the
  arithmetic and viewed back as [1,64,1,32] for the store. The two views are inverse to one another, so at a local
  index `x` of the slab the stored value is `pay3 (a x) (b x) (c x)`; the slab of the input at column `k`, read at
  `x`, is the input at `(x 0, x 1, k, x 3)`; and the slab of the result at column `j` sits at `(x 0, x 1, j, x 3)`.
  Hence every store agrees, on its own slab, with the one function `colSten` of the input block, and the 205 slabs
  tile the result block: the block the body leaves is `colSten` of the block it read.  Generic in the float instance.
-/
import proofs.«174384_j82789789597838_1_alg».proof.Proof.Gen.Kernel.Launch
import proofs.«174384_j82789789597838_1_alg».proof.Proof.Gen.Kernel.Skeleton
import proofs.«174384_j82789789597838_1_alg».proof.Proof.Gen.Kernel.Points
import proofs.«174384_j82789789597838_1_alg».proof.Proof.Spec
import Idealize.ShloMosaic.Lib.Pipeline.FrameBody
import Idealize.ShloMosaic.Lib.Pipeline.Value
import Idealize.ShloMosaic.Lib.Writes
import Idealize.ShloMosaic.Lib.Ring
import Idealize.ShloMosaic.Lib.Tactic

set_option maxRecDepth 16384

noncomputable section
namespace Cert.Kernel.Hand
open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

open Lean Elab Tactic Meta in
/-- Replace, in the goal, every payload function `k1_pay…` of this call by its body. A stored column's value is spelt
    through several of them (a partial sum may be computed before the store that uses it); opened together they give,
    for every column, the same expression in the three slabs read. -/
elab "open_col_payloads" : tactic => do
  let g ← getMainGoal
  let isPay (n : Name) : Bool := match n with
    | .str _ last => last.startsWith "k1_pay"
    | _ => false
  let mut t ← instantiateMVars (← g.getType)
  for _ in [0:4] do
    let t' ← Meta.deltaExpand t isPay
    if t' == t then break
    t := t'
  replaceMainGoal [← g.replaceTargetDefEq t]

/-- One stored column at a local index: three [1,64,1,32] slabs, each viewed as [64,32], combined entrywise with the
    weights `1, 2, 1` (left-associated) and viewed back, read at `x`, is `pay3` of the three slabs at `x`: the
    arithmetic is entrywise and the view there and back is the identity. -/
theorem colPay_apply (a b c : Vec F S1x64x1x32 .f32) (x : S1x64x1x32.Idx) :
    shapeCast S1x64x1x32
      (addf (addf (mulf (broadcast S64x32 (Scalar.ofBits .f32 0x3F800000#32)) (shapeCast S64x32 a shapeCasts_S1x64x1x32_S64x32))
                  (mulf (broadcast S64x32 (Scalar.ofBits .f32 0x40000000#32)) (shapeCast S64x32 b shapeCasts_S1x64x1x32_S64x32)))
            (mulf (broadcast S64x32 (Scalar.ofBits .f32 0x3F800000#32)) (shapeCast S64x32 c shapeCasts_S1x64x1x32_S64x32)))
      shapeCasts_S64x32_S1x64x1x32 x = Cert.Sten.pay3 (a x) (b x) (c x) := by
  show Cert.Sten.pay3 (shapeCast S1x64x1x32 (shapeCast S64x32 a shapeCasts_S1x64x1x32_S64x32) shapeCasts_S64x32_S1x64x1x32 x)
    (shapeCast S1x64x1x32 (shapeCast S64x32 b shapeCasts_S1x64x1x32_S64x32) shapeCasts_S64x32_S1x64x1x32 x)
    (shapeCast S1x64x1x32 (shapeCast S64x32 c shapeCasts_S1x64x1x32_S64x32) shapeCasts_S64x32_S1x64x1x32 x) = _
  rw [shapeCast_shapeCast, shapeCast_shapeCast, shapeCast_shapeCast]

/-- The store of column `j` agrees with `colSten` of the input block on its slab. The three slabs it combines are the
    input's columns `c0, c1, c2`; when these are `colTab j + 0, 1, 2` the stored value at the slab's local index `x` is
    `colSten` of the input at the slab's element `(x 0, x 1, j, x 3)`: axis 2 of the slab has extent one, so its local
    coordinate is `0` and the element's column is `j` itself; on the other axes the offsets are `0`. -/
theorem piece_ok {κ : Kind} {sp : Space} (v : View sig κ sp S1x64x512x32 .f32) (f : v.ty.Contents (Elt F)) (j c0 c1 c2 : ℕ)
    (inbj) (inb0) (inb1) (inb2) (hj : j < 205)
    (h0 : c0 = Cert.Sten.colTab ⟨j, hj⟩ + 0) (h1 : c1 = Cert.Sten.colTab ⟨j, hj⟩ + 1) (h2 : c2 = Cert.Sten.colTab ⟨j, hj⟩ + 2)
    (x : S1x64x1x32.Idx) :
    shapeCast S1x64x1x32
      (addf (addf (mulf (broadcast S64x32 (Scalar.ofBits .f32 0x3F800000#32))
                    (shapeCast S64x32 (View.readAt (Elt F) v (Rect.unit (s := S1x64x512x32) ![0, 0, c0, 0] S1x64x1x32.size inb0).toLoadRect f) shapeCasts_S1x64x1x32_S64x32))
                  (mulf (broadcast S64x32 (Scalar.ofBits .f32 0x40000000#32))
                    (shapeCast S64x32 (View.readAt (Elt F) v (Rect.unit (s := S1x64x512x32) ![0, 0, c1, 0] S1x64x1x32.size inb1).toLoadRect f) shapeCasts_S1x64x1x32_S64x32)))
            (mulf (broadcast S64x32 (Scalar.ofBits .f32 0x3F800000#32))
              (shapeCast S64x32 (View.readAt (Elt F) v (Rect.unit (s := S1x64x512x32) ![0, 0, c2, 0] S1x64x1x32.size inb2).toLoadRect f) shapeCasts_S1x64x1x32_S64x32)))
      shapeCasts_S64x32_S1x64x1x32 x
      = Cert.Sten.colSten (View.read (Elt F) v f) ((Rect.unit (s := S1x64x205x32) ![0, 0, j, 0] S1x64x1x32.size inbj).emb x) := by
  subst h0 h1 h2
  rw [colPay_apply]
  -- the slab's local coordinate on axis 2 is 0, so the element under `x` lies in column `j`
  have hx2 : (x (2 : Fin 4)).val = 0 := by
    have := (x (2 : Fin 4)).isLt
    change _ < 1 at this; omega
  have hy2 : ((Rect.unit (s := S1x64x205x32) ![0, 0, j, 0] S1x64x1x32.size inbj).emb x (2 : Fin 4) : Fin 205) = (⟨j, hj⟩ : Fin 205) := by
    apply Fin.ext; rw [Rect.emb_apply]; show j + 1 * (x (2 : Fin 4)).val = j; omega
  -- both sides are `pay3` of the input at three indices: compare the indices axis by axis
  refine congr (congr (congrArg Cert.Sten.pay3 ?_) ?_) ?_ <;>
    refine congrArg (View.read (Elt F) v f) (funext fun a => Fin.ext ?_) <;>
    (match a with
     | ⟨0, _⟩ => rfl
     | ⟨1, _⟩ => rfl
     | ⟨2, _⟩ =>
        show _ + 1 * (x (2 : Fin 4)).val = Cert.Sten.colTab ((Rect.unit (s := S1x64x205x32) ![0, 0, j, 0] S1x64x1x32.size inbj).emb x (2 : Fin 4) : Fin 205) + _
        rw [hy2, hx2]; rfl
     | ⟨3, _⟩ => rfl)

set_option maxHeartbeats 4000000 in
/-- The body of the second call, run once: from the input block `x0` and any contents of the result block it leaves the
    input block as it was and the result block at `colSten x0`. -/
theorem sound_kernel1 (c : Dev nD) (E : Set ℕ) (i : grid1.Coords) (arg0 : Memref sig .tc .vmem S1x64x512x32 .f32) (harg0 : arg0.IsWhole)
    (arg1 : Memref sig .tc .vmem S1x64x205x32 .f32) (harg1 : arg1.IsWhole)
    (x0 : Vec F S1x64x512x32 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (Cert.Sten.colSten x0)) -∗ K ⟨⟩))
      ⊢ wp frame (wpE (defs₀ (F := F)) Variants.none c none) E (cc1__col_reduce_kernel i arg0 harg0 arg1 harg1) K := by
  simp only [cc1__col_reduce_kernel_eq_skeleton]; unfold cc1__col_reduce_kernel_skel
  unfold owns
  iintro ⟨⟨%f0, %hf0, H0⟩, ⟨%d1, %f1, -, H1⟩, Hk⟩
  subst hf0
  -- the run: the input buffer is only read; the result buffer ends as the list of the 205 stored columns, last first
  sl_exec_parts
  sl_step
  iapply Hk
  isplitl [H0]
  · iexists f0; isplitr; · ipureintro; rfl
    iexact H0
  iexists _; isplitr
  swap; · iexact H1
  ipureintro
  -- what the 205 stores leave reads `colSten` of the input block: every store agrees with it on its slab, and the
  -- slabs tile the block
  sl_unfold_run_names
  funext y
  refine View.read_writes_apply_of_pieces (Val := Elt F) (e := .f32) arg1.view f1 (Cert.Sten.colSten (View.read (Elt F) arg0.view f0)) _ ?_ y
    (View.cover_of_tiledL (s := S1x64x205x32) _ S1x64x1x32.size (by sl_kernel_rfl) y)
  -- column by column: the stored column `j` reads the columns `colTab j + 0, 1, 2` (checked on the literals)
  repeat
    refine List.forall_mem_cons.mpr ⟨fun x => ?_, ?_⟩
    · open_col_payloads
      dsimp only
      exact piece_ok _ _ _ _ _ _ _ _ _ _ (by decide) (by decide) (by decide) (by decide) x
  exact fun _ h => absurd h List.not_mem_nil

end Cert.Kernel.Hand
end
-- ==== Proof.KIDats.lean ====
/-
  The two pipelines' proof data, at a parameter `V`: the contents of the core's buffers when a call is entered.

  Call 0 reads block `(b, 0, t, 0)` of the input (all 512 rows, 128 columns) and leaves in its output block the row
  stencil of that block; its blocks tile both arrays.  Call 1 reads 64 rows of the intermediate array at a time; the
  array has 284 rows, so the fifth row-tile reaches 36 rows past the end: the fetch fills the rows inside the array
  and the rest of the staging buffer holds words nothing names.  The column stencil works row by row, so the rows
  inside the array of what the body leaves depend only on the rows inside the array of what it found; the proof data
  name the buffers with the rows past the end filled with the zero word, and the obligation is stated on the rows
  inside the array only.
-/
import proofs.«174384_j82789789597838_1_alg».proof.Proof.Gen.KernelIdeal.Launch
import proofs.«174384_j82789789597838_1_alg».proof.Proof.Gen.KernelIdeal.Points
import proofs.«174384_j82789789597838_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the two bodies do, as hypotheses the body modules discharge -/

/-- Call 0's body, on whole staging memrefs: the input buffer at `x0` is left as it was and the output buffer ends at
    the row stencil of `x0`. -/
def SoundK0 : Prop :=
  ∀ (c : Dev nD) (E : Set ℕ) (i : grid0.Coords) (arg0 : Memref sig .tc .vmem S1x512x128x32 .f32) (harg0 : arg0.IsWhole)
    (arg1 : Memref sig .tc .vmem S1x284x128x32 .f32) (harg1 : arg1.IsWhole)
    (x0 : Vec F S1x512x128x32 .f32) (K : PUnit → sProp 𝕄),
    iprop(owns (c : Thread nD τ) arg0 fullShare x0 ∗ (∃ d, owns (c : Thread nD τ) arg1 fullShare d)
        ∗ (iprop(owns (c : Thread nD τ) arg0 fullShare x0 ∗ owns (c : Thread nD τ) arg1 fullShare (Cert.Sten.rowSten x0)) -∗ K ⟨⟩))
      ⊢ wp frame (wpE (defs₀ (F := F)) Variants.none c none) E (cc0__row_reduce_kernel i arg0 harg0 arg1 harg1) K

/-- Call 1's body likewise, with the column stencil. -/
def SoundK1 : Prop :=
  ∀ (c : Dev nD) (E : Set ℕ) (i : grid1.Coords) (arg0 : Memref sig .tc .vmem S1x64x512x32 .f32) (harg0 : arg0.IsWhole)
    (arg1 : Memref sig .tc .vmem S1x64x205x32 .f32) (harg1 : arg1.IsWhole)
    (x0 : Vec F S1x64x512x32 .f32) (K : PUnit → sProp 𝕄),
    iprop(owns (c : Thread nD τ) arg0 fullShare x0 ∗ (∃ d, owns (c : Thread nD τ) arg1 fullShare d)
        ∗ (iprop(owns (c : Thread nD τ) arg0 fullShare x0 ∗ owns (c : Thread nD τ) arg1 fullShare (Cert.Sten.colSten x0)) -∗ K ⟨⟩))
      ⊢ wp frame (wpE (defs₀ (F := F)) Variants.none c none) E (cc1__col_reduce_kernel i arg0 harg0 arg1 harg1) K

variable (V : (c : Dev nD) → (b : Ref sig .tc) → Buf (Elt F) ((c : Thread nD τ).loc b))

/-! ## Call 0 -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block at point `t` at its literal shape. -/
abbrev xblk0 (c : Dev nD) (t : Fin cfg0.N) : Vec F S1x512x128x32 .f32 := iblk0 V c 0 t

/-- What the body leaves in the output buffer at point `t`: the row stencil of the input block. -/
abbrev oblk0 (c : Dev nD) (t : Fin cfg0.N) : Vec F S1x284x128x32 .f32 := Cert.Sten.rowSten (xblk0 V c t)

/-- The proof data of call 0: the arrays as the call finds them; after the body the input buffer at its block and
    the output buffer at the block's row stencil; the invariant is the scratch rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => oblk0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = oblk0 V c t := by dsimp only [dat0]

/-- The input's current staging buffer holds its block at every point (it is fetched at every point, uncut). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The library's body obligation for call 0, at every point: the input's memref holds its block, so the body's run
    applies; the invariant and the core's dues pass through unread. -/
theorem body_obligation0 (h0 : SoundK0 (F := F)) (c : Dev nD) :
    BodyObligation (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩⟩
  rw [before0_0 V c t d0]
  iapply (h0 c Set.univ (grid0.coords t) (win0_0.stage (cfg0.slots t 0)) (hstage0_0 ((cfg0.slots t 0).cast nbuf0_0))
    (win0_1.stage (cfg0.slots t 1)) (hstage0_1 ((cfg0.slots t 1).cast nbuf0_1)) (xblk0 V c t) _)
  isplitl [H0]; · iexact H0
  isplitl [H1]; · iexists _; iexact H1
  iintro ⟨H0, H1⟩
  isplitl [HΦ]; · iexact HΦ
  isplitl [Ho]; · iexact Ho
  rw [after0_0, after0_1]
  isplitl [H0]; · iexact H0
  iexact H1

/-! ## Call 1 -/

/-- Window `w`'s block at point `t`, read off its array as the call finds it: its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input staging buffer once the fetch at point `t` has landed in a buffer holding `d`: the block on the rows
    inside the array, `d` past the array's end. -/
abbrev xfill1 (c : Dev nD) (t : Fin cfg1.N) (d : Vec F S1x64x512x32 .f32) : Vec F S1x64x512x32 .f32 :=
  win1_0.fill (grid1.coords t) d (iblk1 V c 0 t)

/-- The same with the zero word past the array's end: what the proof data name. -/
abbrev xblk1 (c : Dev nD) (t : Fin cfg1.N) : Vec F S1x64x512x32 .f32 := xfill1 V c t (fun _ => FloatOps.ofBits .f32 0#32)

/-- What the proof data name for the output buffer at point `t`: the column stencil of that. -/
abbrev oblk1 (c : Dev nD) (t : Fin cfg1.N) : Vec F S1x64x205x32 .f32 := Cert.Sten.colSten (xblk1 V c t)

/-- The proof data of call 1. Both windows are cut at the array's end, so the body obligation speaks of the rows
    inside the array only. -/
def dat1 (c : Dev nD) : Dat τ (Elt F) Unit ℕ (UR sig nD τ) ℕ cfg1 c where
  A w := V c (Pipeline.arrRef spec1 w)
  after w t := match w with
    | ⟨0, _⟩ => xblk1 V c t
    | ⟨1, _⟩ => oblk1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = xblk1 V c t := by dsimp only [dat1]
theorem after1_1 (c : Dev nD) (t : Fin cfg1.N) : (dat1 V c).after 1 t = oblk1 V c t := by dsimp only [dat1]

/-- The output window is never fetched. -/
theorem fetch1_1 (t : Fin cfg1.N) : (cfg1.win 1).fetch t = false := rfl

/-- The input buffer when the body runs: just fetched. -/
theorem before1_0 (c : Dev nD) (t : Fin cfg1.N) (d) : (dat1 V c).before 0 t d = xfill1 V c t d := by
  unfold Dat.before; rw [if_pos (fetch1_0 t)]
  unfold Dat.fetched Dat.blockOf xfill1 iblk1; rw [A_eq1]

/-- The output buffer when the body runs: contents nothing names (it was written back at the point before). -/
theorem before1_1 (c : Dev nD) (t : Fin cfg1.N) (d) : (dat1 V c).before 1 t d = d := by
  by_cases ht : t.val = 0
  · unfold Dat.before; rw [fetch1_1 t, if_neg Bool.false_ne_true, if_pos ht]
  · rw [(dat1 V c).before_of_pos 1 t ht (fetch1_1 t) d, if_pos (flush1_1 _)]

/-- The two windows are cut alike along the row axis, and the input's other axes are never cut. -/
theorem xsize1 : ∀ t : Fin cfg1.N,
    win1_0.xsize (grid1.coords t) (0 : Fin 4) = 1 ∧ win1_0.xsize (grid1.coords t) (1 : Fin 4) = win1_1.xsize (grid1.coords t) (1 : Fin 4)
      ∧ win1_0.xsize (grid1.coords t) (2 : Fin 4) = 512 ∧ win1_0.xsize (grid1.coords t) (3 : Fin 4) = 32 :=
  (by decide +kernel : ∀ t : Fin grid1.N, _)

/-- On a row inside the array the column stencil of the fetched buffer does not see what lies past the array's end. -/
theorem colSten_fill_indep (c : Dev nD) (t : Fin cfg1.N) (d d' : Vec F S1x64x512x32 .f32) (j : S1x64x205x32.Idx)
    (hj : win1_1.moved (grid1.coords t) j = true) :
    (Cert.Sten.colSten (xfill1 V c t d) : Vec F S1x64x205x32 .f32) j = (Cert.Sten.colSten (xfill1 V c t d') : Vec F S1x64x205x32 .f32) j := by
  obtain ⟨h0, h1, h2, h3⟩ := xsize1 t
  have hr : (j (1 : Fin 4)).val < win1_0.xsize (grid1.coords t) (1 : Fin 4) := by
    rw [h1]; exact (win1_1.moved_iff (grid1.coords t) j).mp hj (1 : Fin 4)
  have key : ∀ (k : Fin 512), xfill1 V c t d (ValueIdx.ix4 (j 0) (j 1) k (j 3)) = xfill1 V c t d' (ValueIdx.ix4 (j 0) (j 1) k (j 3)) := by
    intro k
    have hm : win1_0.moved (grid1.coords t) (ValueIdx.ix4 (j 0) (j 1) k (j 3)) = true := by
      rw [win1_0.moved_iff]
      intro a
      match a with
      | ⟨0, _⟩ => exact Nat.lt_of_lt_of_eq (j 0).isLt h0.symm
      | ⟨1, _⟩ => exact hr
      | ⟨2, _⟩ => exact Nat.lt_of_lt_of_eq k.isLt h2.symm
      | ⟨3, _⟩ => exact Nat.lt_of_lt_of_eq (j 3).isLt h3.symm
    unfold xfill1 Window.fill; rw [dif_pos hm, dif_pos hm]
  show Cert.Sten.sten2 _ _ _ j = Cert.Sten.sten2 _ _ _ j
  unfold Cert.Sten.sten2
  rw [key, key, key]

/-- So the rows inside the array of the stencil of the fetched buffer are those the proof data name, whatever filled
    the buffer past the array's end. -/
theorem fill_cut_colSten (c : Dev nD) (t : Fin cfg1.N) (d : Vec F S1x64x512x32 .f32) :
    win1_1.fill (grid1.coords t) (Cert.Sten.colSten (xfill1 V c t d) : Vec F S1x64x205x32 .f32)
        (win1_1.cut (grid1.coords t) (oblk1 V c t))
      = (Cert.Sten.colSten (xfill1 V c t d) : Vec F S1x64x205x32 .f32) := by
  funext j
  unfold Window.fill
  split
  · rename_i hm
    show oblk1 V c t (win1_1.xinj (grid1.coords t) _) = _
    rw [show win1_1.xinj (grid1.coords t) (fun a => ⟨(j a).val, (win1_1.moved_iff (grid1.coords t) j).mp hm a⟩) = j from funext fun a => Fin.ext rfl]
    exact colSten_fill_indep V c t _ d j hm
  · rfl

/-- The library's body obligation for call 1, at every point, on the rows inside the array. -/
theorem body_obligation1 (h1 : SoundK1 (F := F)) (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩⟩
  rw [before1_0 V c t d0, before1_1 V c t d1]
  iapply (h1 c Set.univ (grid1.coords t) (win1_0.stage (cfg1.slots t 0)) (hstage1_0 ((cfg1.slots t 0).cast nbuf1_0))
    (win1_1.stage (cfg1.slots t 1)) (hstage1_1 ((cfg1.slots t 1).cast nbuf1_1)) (xfill1 V c t d0) _)
  isplitl [H0]; · iexact H0
  isplitl [H1]; · iexists _; iexact H1
  iintro ⟨H0, H1⟩
  isplitl [HΦ]; · iexact HΦ
  isplitl [Ho]; · iexact Ho
  isplitl [H0]
  · iexists d0
    rw [after1_0, show win1_0.cut (grid1.coords t) (xblk1 V c t) = iblk1 V c 0 t from win1_0.cut_fill _ _ _]
    iexact H0
  · iexists (Cert.Sten.colSten (xfill1 V c t d0) : Vec F S1x64x205x32 .f32)
    rw [after1_1, fill_cut_colSten V c t d0]
    iexact H1

end Cert.KernelIdeal.Hand

end
-- ==== Proof.KIRun.lean ====
/-
  The kernel program's run: the two calls in sequence, from the launch to the return.

  Between the calls the core holds every unscoped buffer whole: at launch as the memory has them; after call 0 the
  intermediate array at what call 0's write-backs leave; after call 1 the result array at what call 1's write-backs
  leave; the argument is read by call 0 only and never written.  Every weakly fair execution terminates and every
  final memory holds each unscoped buffer at the last of these contents.
-/
import proofs.«174384_j82789789597838_1_alg».proof.Proof.KIDats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (h0 : SoundK0 (F := F)) (h1 : SoundK1 (F := F))
variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- The same read at the core's references: what call 0's proof data take. -/
abbrev VA : (c : Dev nD) → (b : Ref sig .tc) → Buf (Elt F) ((c : Thread nD τ).loc b) := fun c b => W0 m c b
/-- After call 0: its arrays at what the pipeline leaves, every other buffer as before. -/
def W2 (c : Dev nD) : Valuation τ sig (Elt F) :=
  Pipeline.withArrays spec0 c (W0 m c) fun w => (dat0 (VA m) c).arrAt w cfg0.N
theorem W2_arr (c : Dev nD) (w : Fin cfg0.W) :
    W2 m c (Proc.devRef .tc (Pipeline.arrRef spec0 w)) = (dat0 (VA m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the core's references: what call 1's proof data take. -/
abbrev VB : (c : Dev nD) → (b : Ref sig .tc) → Buf (Elt F) ((c : Thread nD τ).loc b) := fun c b => W2 m c b
theorem hF0 (c : Dev nD) (w : Fin cfg0.W) : (dat0 (VA m) c).arrAt w cfg0.N = VB m c (Pipeline.arrRef spec0 w) :=
  (W2_arr m c w).symm
theorem hrest0 (c : Dev nD) : ∀ b, b ∉ Finset.univ.image (Pipeline.arrRef spec0) → VB m c b = VA m c b :=
  fun b hb => W2_of_ne m c b fun w e => hb (Finset.mem_image.mpr ⟨w, Finset.mem_univ _, e⟩)

/-- After call 1: its arrays at what the pipeline leaves, every other buffer as before. -/
def W4 (c : Dev nD) : Valuation τ sig (Elt F) :=
  Pipeline.withArrays spec1 c (W2 m c) fun w => (dat1 (VB m) c).arrAt w cfg1.N
theorem W4_arr (c : Dev nD) (w : Fin cfg1.W) :
    W4 m c (Proc.devRef .tc (Pipeline.arrRef spec1 w)) = (dat1 (VB m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev VC : (c : Dev nD) → (b : Ref sig .tc) → Buf (Elt F) ((c : Thread nD τ).loc b) := fun c b => W4 m c b
theorem hF1 (c : Dev nD) (w : Fin cfg1.W) : (dat1 (VB m) c).arrAt w cfg1.N = VC m c (Pipeline.arrRef spec1 w) :=
  (W4_arr m c w).symm
theorem hrest1 (c : Dev nD) : ∀ b, b ∉ Finset.univ.image (Pipeline.arrRef spec1) → VC m c b = VB m c b :=
  fun b hb => W4_of_ne m c b fun w e => hb (Finset.mem_image.mpr ⟨w, Finset.mem_univ _, e⟩)

/-- The argument ends as launched: call 1 does not touch it, call 0 only reads it. -/
theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (VA m) c).arrAt_in 0 rfl _).trans (A_eq0 (VA m) c 0))
    _ = m ((c : Thread nD τ).loc main_arg0) := rfl

/-- The result array ends at what call 1's write-backs leave, -/
theorem W4_main_v1 (c : Dev nD) : W4 m c (Proc.devRef .tc main_v1) = (dat1 (VB m) c).arrAt 1 cfg1.N := W4_arr m c 1
/-- and call 1 finds the intermediate array at what call 0's write-backs left. -/
theorem VB_main_v0 (c : Dev nD) : VB m c main_v0 = (dat0 (VA m) c).arrAt 1 cfg0.N := W2_arr m c 1
/-- Call 0 finds the argument as launched. -/
theorem VA_main_arg0 (c : Dev nD) : VA m c main_arg0 = m ((c : Thread nD τ).loc main_arg0) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- Call 0 over the thread state: entered from every unscoped buffer at the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) h0 c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (VB m) h1 c
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 h0 m), .region (reg1 h1 m) ]

theorem main_run (c : Dev nD) : main (F := F) c = Pipeline.Seg.run (segs h0 h1 m) := (main_chain c).trans (by chain_rfl)

include h0 h1 in
set_option backward.isDefEq.respectTransparency.types false in
/-- THE RUN: from any memory with zero counters every weakly fair execution of @main terminates, nothing faulting,
    and every final memory holds each unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs h0 h1 m)
    (fun c Q => by rw [main_run h0 h1 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KIBody0.lean ====
/-
  The body of the first call (the row pass), run once at symbolic operands.

  The body reads a block of 512 rows and writes a block of 284 rows: output row `i` is `1·a + 2·b + 1·c` of the
  input rows `r`, `r + 1`, `r + 2`, where `r = rowTab i` is the sampled start of row `i`; each row is a [128, 32]
  slab, loaded and stored as a [1, 1, 128, 32] block. The 284 stores are unrolled, so after the run the output
  buffer is the list of its 284 row stores over whatever it held before. Two facts turn that list into the row
  stencil of the input block:
    * every store agrees with the stencil on its own row (`row_eq`, one lemma over the row numbers, instantiated at
      each store; the row numbers of the three loads are checked against `rowTab` by evaluation);
    * the 284 one-row blocks tile the output block, so every index lies under some store.
  Generic in the float instance: nothing here looks inside the product or the sum.
-/
import proofs.«174384_j82789789597838_1_alg».proof.Proof.Gen.KernelIdeal.Launch
import proofs.«174384_j82789789597838_1_alg».proof.Proof.Gen.KernelIdeal.Skeleton
import proofs.«174384_j82789789597838_1_alg».proof.Proof.Gen.KernelIdeal.Points
import proofs.«174384_j82789789597838_1_alg».proof.Proof.Spec
import Idealize.ShloMosaic.Lib.Pipeline.FrameBody
import Idealize.ShloMosaic.Lib.Pipeline.Value
import Idealize.ShloMosaic.Lib.Ring
import Idealize.ShloMosaic.Lib.Tactic

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## One row's value at an index -/

/-- One row's stored value at an index: the two shape casts (dropping and restoring the two unit axes) cancel, and
    the broadcasts, products and sums act entry by entry, so the entry is the weighted sum `1·a + 2·b + 1·c` of the
    three loaded rows' entries at the same index. -/
theorem pay_apply (A B C : Vec F S1x1x128x32 .f32) (x : S1x1x128x32.Idx) :
    k0_pay2 A B C x = Cert.Sten.pay3 (A x) (B x) (C x) := by
  have hA := congrFun (shapeCast_shapeCast A shapeCasts_S1x1x128x32_S128x32 shapeCasts_S128x32_S1x1x128x32) x
  have hB := congrFun (shapeCast_shapeCast B shapeCasts_S1x1x128x32_S128x32 shapeCasts_S128x32_S1x1x128x32) x
  have hC := congrFun (shapeCast_shapeCast C shapeCasts_S1x1x128x32_S128x32 shapeCasts_S128x32_S1x1x128x32) x
  unfold shapeCast at hA hB hC
  unfold k0_pay2 Cert.Sten.pay3
  rw [← hA, ← hB, ← hC]
  rfl

/-- The one-row block at row `r < 512` lies inside the input block. -/
theorem inb_in (r : ℕ) (hr : r < 512) :
    ∀ a, (![0, r, 0, 0] : Fin 4 → ℕ) a + S1x1x128x32.size a ≤ S1x512x128x32.size a := fun a =>
  match a with
  | ⟨0, _⟩ => by show 0 + 1 ≤ 1; omega
  | ⟨1, _⟩ => by show r + 1 ≤ 512; omega
  | ⟨2, _⟩ => by show 0 + 128 ≤ 128; omega
  | ⟨3, _⟩ => by show 0 + 32 ≤ 32; omega

/-- The one-row block at row `i < 284` lies inside the output block. -/
theorem inb_out (i : ℕ) (hi : i < 284) :
    ∀ a, (![0, i, 0, 0] : Fin 4 → ℕ) a + S1x1x128x32.size a ≤ S1x284x128x32.size a := fun a =>
  match a with
  | ⟨0, _⟩ => by show 0 + 1 ≤ 1; omega
  | ⟨1, _⟩ => by show i + 1 ≤ 284; omega
  | ⟨2, _⟩ => by show 0 + 128 ≤ 128; omega
  | ⟨3, _⟩ => by show 0 + 32 ≤ 32; omega

/-- The three rows read for output row `i` are rows of the input block. -/
theorem in_lt {i r r' : ℕ} {hi : i < 284} (d : ℕ) (hd : d ≤ 2) (h0 : Cert.Sten.rowTab ⟨i, hi⟩ = r) (h : r' = r + d) :
    r' < 512 := by
  subst h0 h; exact Cert.Sten.rowTab_lt _ d hd

/-- A load of the one-row block at row `r` reads the buffer's contents in row `r`, at the block's last two
    coordinates. -/
theorem readAt_row {κ : Kind} {sp : Space} (v : View sig κ sp S1x512x128x32 .f32) (f : v.ty.Contents (Elt F)) (r : ℕ)
    (hr : r < 512) (x : S1x1x128x32.Idx) :
    View.readAt (Elt F) v (Rect.unit (s := S1x512x128x32) ![0, r, 0, 0] S1x1x128x32.size (inb_in r hr)).toLoadRect f x
      = View.read (Elt F) v f (ValueIdx.ix4 ⟨0, by omega⟩ ⟨r, hr⟩ (x 2) (x 3)) := by
  rw [View.readAt_apply]
  congr 1
  have h0 := (x 0).isLt
  have h1 := (x 1).isLt
  funext a
  match a with
  | ⟨0, _⟩ => exact Fin.ext (by show 0 + 1 * (x 0).val = 0; change (x 0).val < 1 at h0; omega)
  | ⟨1, _⟩ => exact Fin.ext (by show r + 1 * (x 1).val = r; change (x 1).val < 1 at h1; omega)
  | ⟨2, _⟩ => exact Fin.ext (by show 0 + 1 * (x 2).val = (x 2).val; omega)
  | ⟨3, _⟩ => exact Fin.ext (by show 0 + 1 * (x 3).val = (x 3).val; omega)

/-- Row `i` of the output: the weighted sum of the loads of rows `r`, `r + 1`, `r + 2`, `r` the sampled start of
    row `i`, is the row stencil of the buffer's contents at the index under the stored block. -/
theorem row_eq {κ : Kind} {sp : Space} (v : View sig κ sp S1x512x128x32 .f32) (f : v.ty.Contents (Elt F)) (i r0 r1 r2 : ℕ)
    (hi : i < 284) (h0 : Cert.Sten.rowTab ⟨i, hi⟩ = r0) (h1 : r1 = r0 + 1) (h2 : r2 = r0 + 2) (x : S1x1x128x32.Idx) :
    Cert.Sten.pay3
        (View.readAt (Elt F) v (Rect.unit (s := S1x512x128x32) ![0, r0, 0, 0] S1x1x128x32.size
          (inb_in r0 (in_lt 0 (by omega) h0 rfl))).toLoadRect f x)
        (View.readAt (Elt F) v (Rect.unit (s := S1x512x128x32) ![0, r1, 0, 0] S1x1x128x32.size
          (inb_in r1 (in_lt 1 (by omega) h0 h1))).toLoadRect f x)
        (View.readAt (Elt F) v (Rect.unit (s := S1x512x128x32) ![0, r2, 0, 0] S1x1x128x32.size
          (inb_in r2 (in_lt 2 (by omega) h0 h2))).toLoadRect f x)
      = Cert.Sten.rowSten (View.read (Elt F) v f)
          ((Rect.unit (s := S1x284x128x32) ![0, i, 0, 0] S1x1x128x32.size (inb_out i hi)).emb x) := by
  subst h1 h2 h0
  have hx0 := (x 0).isLt
  have hx1 := (x 1).isLt
  change (x 0).val < 1 at hx0
  change (x 1).val < 1 at hx1
  have e0 : (Rect.unit (s := S1x284x128x32) ![0, i, 0, 0] S1x1x128x32.size (inb_out i hi)).emb x 0 = ⟨0, by decide⟩ :=
    Fin.ext (by show 0 + 1 * (x 0).val = 0; omega)
  have e1 : (Rect.unit (s := S1x284x128x32) ![0, i, 0, 0] S1x1x128x32.size (inb_out i hi)).emb x 1 = ⟨i, hi⟩ :=
    Fin.ext (by show i + 1 * (x 1).val = i; omega)
  have e2 : (Rect.unit (s := S1x284x128x32) ![0, i, 0, 0] S1x1x128x32.size (inb_out i hi)).emb x 2 = x 2 :=
    Fin.ext (by show 0 + 1 * (x 2).val = (x 2).val; omega)
  have e3 : (Rect.unit (s := S1x284x128x32) ![0, i, 0, 0] S1x1x128x32.size (inb_out i hi)).emb x 3 = x 3 :=
    Fin.ext (by show 0 + 1 * (x 3).val = (x 3).val; omega)
  rw [readAt_row v f _ _, readAt_row v f _ _, readAt_row v f _ _]
  unfold Cert.Sten.rowSten Cert.Sten.sten1
  simp only [e0, e1, e2, e3]
  rfl

/-- A property of every entry of a list, from the property of its head and of every entry of its tail. -/
theorem forall_mem_cons_of {α : Type _} {P : α → Prop} {a : α} {l : List α} (h : P a) (t : ∀ p ∈ l, P p) :
    ∀ p ∈ a :: l, P p :=
  List.forall_mem_cons.2 ⟨h, t⟩

/-! ## The body -/

set_option maxHeartbeats 4000000 in
/-- The body of the row pass: from the input block `x0` in the first buffer and anything in the second, it ends with
    the first buffer unchanged and the second holding the row stencil of `x0`. After the run the second buffer is its
    284 row stores, last first, over its prior contents; each store is the stencil on its row (`row_eq`: the output
    row and the three input rows are read off the store, the start `rowTab i` evaluated), and the stores tile the
    block, so the buffer reads the stencil everywhere. -/
theorem sound_kernel0 (c : Dev nD) (E : Set ℕ) (i : grid0.Coords) (arg0 : Memref sig .tc .vmem S1x512x128x32 .f32) (harg0 : arg0.IsWhole)
    (arg1 : Memref sig .tc .vmem S1x284x128x32 .f32) (harg1 : arg1.IsWhole)
    (x0 : Vec F S1x512x128x32 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (Cert.Sten.rowSten x0)) -∗ K ⟨⟩))
      ⊢ wp frame (wpE (defs₀ (F := F)) Variants.none c none) E (cc0__row_reduce_kernel i arg0 harg0 arg1 harg1) K := by
  simp only [cc0__row_reduce_kernel_eq_skeleton]; unfold cc0__row_reduce_kernel_skel
  unfold owns
  iintro ⟨⟨%f0, %hf0, H0⟩, ⟨%d1, %f1, -, H1⟩, Hk⟩
  subst hf0
  sl_exec_parts
  sl_step
  iapply Hk
  isplitl [H0]
  · iexists f0; isplitr; · ipureintro; rfl
    iexact H0
  iexists _; isplitr
  swap; · iexact H1
  ipureintro
  sl_unfold_run_names
  funext y
  refine View.read_writes_apply_of_pieces arg1.view f1 (Cert.Sten.rowSten (View.read (Elt F) arg0.view f0)) _ ?_ y ?_
  · iterate 284
      refine forall_mem_cons_of
        (fun x => (pay_apply _ _ _ x).trans (row_eq arg0.view f0 _ _ _ _ (by decide) (by decide) rfl rfl x)) ?_
    exact List.forall_mem_nil _
  · exact View.cover_of_tiledL (s := S1x284x128x32) _ S1x1x128x32.size (by sl_kernel_rfl) y

end Cert.KernelIdeal.Hand
end
-- ==== Proof.KIBody1.lean ====
/-
  The column pass, one block: the second call's body run once on a block of 64 rows.

  The body stores 205 columns. Column `j` of the result block is `1·a + 2·b + 1·c`, where `a, b, c` are the
  columns `colTab j + 0, 1, 2` of the input block, each a [1,64,1,32] slab read whole, viewed as [64,32] for the
  arithmetic and viewed back as [1,64,1,32] for the store. The two views are inverse to one another, so at a local
  index `x` of the slab the stored value is `pay3 (a x) (b x) (c x)`; the slab of the input at column `k`, read at
  `x`, is the input at `(x 0, x 1, k, x 3)`; and the slab of the result at column `j` sits at `(x 0, x 1, j, x 3)`.
  Hence every store agrees, on its own slab, with the one function `colSten` of the input block, and the 205 slabs
  tile the result block: the block the body leaves is `colSten` of the block it read.  Generic in the float instance.
-/
import proofs.«174384_j82789789597838_1_alg».proof.Proof.Gen.KernelIdeal.Launch
import proofs.«174384_j82789789597838_1_alg».proof.Proof.Gen.KernelIdeal.Skeleton
import proofs.«174384_j82789789597838_1_alg».proof.Proof.Gen.KernelIdeal.Points
import proofs.«174384_j82789789597838_1_alg».proof.Proof.Spec
import Idealize.ShloMosaic.Lib.Pipeline.FrameBody
import Idealize.ShloMosaic.Lib.Pipeline.Value
import Idealize.ShloMosaic.Lib.Writes
import Idealize.ShloMosaic.Lib.Ring
import Idealize.ShloMosaic.Lib.Tactic

set_option maxRecDepth 16384

noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

open Lean Elab Tactic Meta in
/-- Replace, in the goal, every payload function `k1_pay…` of this call by its body. A stored column's value is spelt
    through several of them (a partial sum may be computed before the store that uses it); opened together they give,
    for every column, the same expression in the three slabs read. -/
elab "open_col_payloads" : tactic => do
  let g ← getMainGoal
  let isPay (n : Name) : Bool := match n with
    | .str _ last => last.startsWith "k1_pay"
    | _ => false
  let mut t ← instantiateMVars (← g.getType)
  for _ in [0:4] do
    let t' ← Meta.deltaExpand t isPay
    if t' == t then break
    t := t'
  replaceMainGoal [← g.replaceTargetDefEq t]

/-- One stored column at a local index: three [1,64,1,32] slabs, each viewed as [64,32], combined entrywise with the
    weights `1, 2, 1` (left-associated) and viewed back, read at `x`, is `pay3` of the three slabs at `x`: the
    arithmetic is entrywise and the view there and back is the identity. -/
theorem colPay_apply (a b c : Vec F S1x64x1x32 .f32) (x : S1x64x1x32.Idx) :
    shapeCast S1x64x1x32
      (addf (addf (mulf (broadcast S64x32 (Scalar.ofBits .f32 0x3F800000#32)) (shapeCast S64x32 a shapeCasts_S1x64x1x32_S64x32))
                  (mulf (broadcast S64x32 (Scalar.ofBits .f32 0x40000000#32)) (shapeCast S64x32 b shapeCasts_S1x64x1x32_S64x32)))
            (mulf (broadcast S64x32 (Scalar.ofBits .f32 0x3F800000#32)) (shapeCast S64x32 c shapeCasts_S1x64x1x32_S64x32)))
      shapeCasts_S64x32_S1x64x1x32 x = Cert.Sten.pay3 (a x) (b x) (c x) := by
  show Cert.Sten.pay3 (shapeCast S1x64x1x32 (shapeCast S64x32 a shapeCasts_S1x64x1x32_S64x32) shapeCasts_S64x32_S1x64x1x32 x)
    (shapeCast S1x64x1x32 (shapeCast S64x32 b shapeCasts_S1x64x1x32_S64x32) shapeCasts_S64x32_S1x64x1x32 x)
    (shapeCast S1x64x1x32 (shapeCast S64x32 c shapeCasts_S1x64x1x32_S64x32) shapeCasts_S64x32_S1x64x1x32 x) = _
  rw [shapeCast_shapeCast, shapeCast_shapeCast, shapeCast_shapeCast]

/-- The store of column `j` agrees with `colSten` of the input block on its slab. The three slabs it combines are the
    input's columns `c0, c1, c2`; when these are `colTab j + 0, 1, 2` the stored value at the slab's local index `x` is
    `colSten` of the input at the slab's element `(x 0, x 1, j, x 3)`: axis 2 of the slab has extent one, so its local
    coordinate is `0` and the element's column is `j` itself; on the other axes the offsets are `0`. -/
theorem piece_ok {κ : Kind} {sp : Space} (v : View sig κ sp S1x64x512x32 .f32) (f : v.ty.Contents (Elt F)) (j c0 c1 c2 : ℕ)
    (inbj) (inb0) (inb1) (inb2) (hj : j < 205)
    (h0 : c0 = Cert.Sten.colTab ⟨j, hj⟩ + 0) (h1 : c1 = Cert.Sten.colTab ⟨j, hj⟩ + 1) (h2 : c2 = Cert.Sten.colTab ⟨j, hj⟩ + 2)
    (x : S1x64x1x32.Idx) :
    shapeCast S1x64x1x32
      (addf (addf (mulf (broadcast S64x32 (Scalar.ofBits .f32 0x3F800000#32))
                    (shapeCast S64x32 (View.readAt (Elt F) v (Rect.unit (s := S1x64x512x32) ![0, 0, c0, 0] S1x64x1x32.size inb0).toLoadRect f) shapeCasts_S1x64x1x32_S64x32))
                  (mulf (broadcast S64x32 (Scalar.ofBits .f32 0x40000000#32))
                    (shapeCast S64x32 (View.readAt (Elt F) v (Rect.unit (s := S1x64x512x32) ![0, 0, c1, 0] S1x64x1x32.size inb1).toLoadRect f) shapeCasts_S1x64x1x32_S64x32)))
            (mulf (broadcast S64x32 (Scalar.ofBits .f32 0x3F800000#32))
              (shapeCast S64x32 (View.readAt (Elt F) v (Rect.unit (s := S1x64x512x32) ![0, 0, c2, 0] S1x64x1x32.size inb2).toLoadRect f) shapeCasts_S1x64x1x32_S64x32)))
      shapeCasts_S64x32_S1x64x1x32 x
      = Cert.Sten.colSten (View.read (Elt F) v f) ((Rect.unit (s := S1x64x205x32) ![0, 0, j, 0] S1x64x1x32.size inbj).emb x) := by
  subst h0 h1 h2
  rw [colPay_apply]
  -- the slab's local coordinate on axis 2 is 0, so the element under `x` lies in column `j`
  have hx2 : (x (2 : Fin 4)).val = 0 := by
    have := (x (2 : Fin 4)).isLt
    change _ < 1 at this; omega
  have hy2 : ((Rect.unit (s := S1x64x205x32) ![0, 0, j, 0] S1x64x1x32.size inbj).emb x (2 : Fin 4) : Fin 205) = (⟨j, hj⟩ : Fin 205) := by
    apply Fin.ext; rw [Rect.emb_apply]; show j + 1 * (x (2 : Fin 4)).val = j; omega
  -- both sides are `pay3` of the input at three indices: compare the indices axis by axis
  refine congr (congr (congrArg Cert.Sten.pay3 ?_) ?_) ?_ <;>
    refine congrArg (View.read (Elt F) v f) (funext fun a => Fin.ext ?_) <;>
    (match a with
     | ⟨0, _⟩ => rfl
     | ⟨1, _⟩ => rfl
     | ⟨2, _⟩ =>
        show _ + 1 * (x (2 : Fin 4)).val = Cert.Sten.colTab ((Rect.unit (s := S1x64x205x32) ![0, 0, j, 0] S1x64x1x32.size inbj).emb x (2 : Fin 4) : Fin 205) + _
        rw [hy2, hx2]; rfl
     | ⟨3, _⟩ => rfl)

set_option maxHeartbeats 4000000 in
/-- The body of the second call, run once: from the input block `x0` and any contents of the result block it leaves the
    input block as it was and the result block at `colSten x0`. -/
theorem sound_kernel1 (c : Dev nD) (E : Set ℕ) (i : grid1.Coords) (arg0 : Memref sig .tc .vmem S1x64x512x32 .f32) (harg0 : arg0.IsWhole)
    (arg1 : Memref sig .tc .vmem S1x64x205x32 .f32) (harg1 : arg1.IsWhole)
    (x0 : Vec F S1x64x512x32 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (Cert.Sten.colSten x0)) -∗ K ⟨⟩))
      ⊢ wp frame (wpE (defs₀ (F := F)) Variants.none c none) E (cc1__col_reduce_kernel i arg0 harg0 arg1 harg1) K := by
  simp only [cc1__col_reduce_kernel_eq_skeleton]; unfold cc1__col_reduce_kernel_skel
  unfold owns
  iintro ⟨⟨%f0, %hf0, H0⟩, ⟨%d1, %f1, -, H1⟩, Hk⟩
  subst hf0
  -- the run: the input buffer is only read; the result buffer ends as the list of the 205 stored columns, last first
  sl_exec_parts
  sl_step
  iapply Hk
  isplitl [H0]
  · iexists f0; isplitr; · ipureintro; rfl
    iexact H0
  iexists _; isplitr
  swap; · iexact H1
  ipureintro
  -- what the 205 stores leave reads `colSten` of the input block: every store agrees with it on its slab, and the
  -- slabs tile the block
  sl_unfold_run_names
  funext y
  refine View.read_writes_apply_of_pieces (Val := Elt F) (e := .f32) arg1.view f1 (Cert.Sten.colSten (View.read (Elt F) arg0.view f0)) _ ?_ y
    (View.cover_of_tiledL (s := S1x64x205x32) _ S1x64x1x32.size (by sl_kernel_rfl) y)
  -- column by column: the stored column `j` reads the columns `colTab j + 0, 1, 2` (checked on the literals)
  repeat
    refine List.forall_mem_cons.mpr ⟨fun x => ?_, ?_⟩
    · open_col_payloads
      dsimp only
      exact piece_ok _ _ _ _ _ _ _ _ _ _ (by decide) (by decide) (by decide) (by decide) x
  exact fun _ h => absurd h List.not_mem_nil

end Cert.KernelIdeal.Hand
end
-- ==== Proof.KIValue0.lean ====
/-
  What the first call leaves in its output array, as one function of the input array.

  The first call walks a 32 × 4 grid. At point `(b, q)` it reads the block of the input made of batch entry `b`, all
  512 rows, columns `128 q … 128 q + 127` and all 32 channels, and writes the block of the output made of batch entry
  `b`, all 284 rows, the same columns and all channels. What it writes is the row stencil of what it read. The row
  stencil combines three entries that differ in the row coordinate only, so the row stencil of a block of columns is
  the same block of columns of the row stencil of the whole array. The 128 output blocks tile the output array, so
  after the call the output array is the row stencil of the input array.
-/
import proofs.«174384_j82789789597838_1_alg».proof.Proof.KIDats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

/-! ## The stencil of a block of columns -/

/-- If the block `x` holds batch entry `b`, columns `128 q … 128 q + 127` of the array `X` (every row, every channel),
    then the row stencil of `x` holds the same batch entry and columns of the row stencil of `X`: entry `(a, i, k, z)` of
    either side is `1·X(b, r, 128 q + k, z) + 2·X(b, r + 1, 128 q + k, z) + 1·X(b, r + 2, 128 q + k, z)` with `r` the
    `i`-th sampled row start; only the row coordinate moves. -/
theorem rowSten_of_block (X : Vec F S32x512x512x32 .f32) (x : Vec F S1x512x128x32 .f32) (b q : ℕ) (hb : b < 32) (hq : q < 4)
    (hx : ∀ (a : Fin 1) (r : Fin 512) (k : Fin 128) (z : Fin 32),
      x (ix4 a r k z) = X (ix4 (⟨b, hb⟩ : Fin 32) r (⟨q * 128 + k.val, by omega⟩ : Fin 512) z))
    (a : Fin 1) (i : Fin 284) (k : Fin 128) (z : Fin 32) :
    (Cert.Sten.rowSten x : Vec F S1x284x128x32 .f32) (ix4 a i k z)
      = (Cert.Sten.rowSten X : Vec F S32x284x512x32 .f32) (ix4 (⟨b, hb⟩ : Fin 32) i (⟨q * 128 + k.val, by omega⟩ : Fin 512) z) := by
  show Cert.Sten.sten1 _ _ x _ = Cert.Sten.sten1 _ _ X _
  rw [Cert.Sten.sten1_apply, Cert.Sten.sten1_apply, hx, hx, hx]

/-! ## The two block index maps over the grid -/

/-- At every grid point the input block and the output block have the same batch index and the same column-block
    index, both have row-block and channel-block index zero, and the output's batch index is below 32 and its
    column-block index below 4. -/
theorem block_indices0 : ∀ t : Fin cfg0.N,
    win0_0.index t (0 : Fin 4) = win0_1.index t (0 : Fin 4) ∧ win0_0.index t (1 : Fin 4) = 0
    ∧ win0_0.index t (2 : Fin 4) = win0_1.index t (2 : Fin 4) ∧ win0_0.index t (3 : Fin 4) = 0
    ∧ win0_1.index t (1 : Fin 4) = 0 ∧ win0_1.index t (3 : Fin 4) = 0
    ∧ win0_1.index t (0 : Fin 4) < 32 ∧ win0_1.index t (2 : Fin 4) < 4 :=
  (by decide +kernel : ∀ t : Fin grid0.N, _)

/-- Every pair of a batch index below 32 and a column-block index below 4 is the output block index of some grid
    point. -/
theorem every_block_visited0 : ∀ (q0 : Fin 32) (q2 : Fin 4), ∃ t : Fin cfg0.N, win0_1.index t = ![q0.val, 0, q2.val, 0] :=
  (by decide +kernel : ∀ (q0 : Fin 32) (q2 : Fin 4), ∃ t : Fin grid0.N, win0_1.index t = ![q0.val, 0, q2.val, 0])

variable (V : (c : Dev nD) → (b : Ref sig .tc) → Buf (Elt F) ((c : Thread nD τ).loc b))

/-! ## What one grid point writes back -/

/-- What grid point `t` writes back is its output block of the row stencil of the whole input array. An entry
    `(a, r, k, z)` of a block with block index `(b, 0, q, 0)` sits in its array at `(b·1 + a, 0·rows + r, q·128 + k, 0·32 + z)`;
    the input block and the output block share `b` and `q`, so the input block holds batch entry `b`, columns
    `128 q … 128 q + 127` of the input array, and the stencil of a block of columns applies. -/
theorem writeback0_eq (c : Dev nD) (t : Fin cfg0.N) :
    (dat0 V c).flushed 1 t
      = ((cfg0.win 1).blk t).view.read (Elt F) (Cert.Sten.rowSten (F := F) (V c main_arg0) : Vec F S32x284x512x32 .f32) := by
  show (cfg0.win 1).cut (grid0.coords t) ((dat0 V c).after 1 t) = _
  rw [after0_1]
  obtain ⟨e0, e1, e2, e3, e4, e5, b0, b2⟩ := block_indices0 t
  funext y
  show (Cert.Sten.rowSten (xblk0 V c t) : Vec F S1x284x128x32 .f32) y
    = (Cert.Sten.rowSten (F := F) (V c main_arg0) : Vec F S32x284x512x32 .f32) (((cfg0.win 1).blk t).view.emb y)
  -- the input block, entry by entry, as entries of the input array
  have hx : ∀ (a : Fin 1) (r : Fin 512) (k : Fin 128) (z : Fin 32),
      xblk0 V c t (ix4 a r k z)
        = (V c main_arg0 : Vec F S32x512x512x32 .f32) (ix4 (⟨win0_1.index t (0 : Fin 4), b0⟩ : Fin 32) r (⟨win0_1.index t (2 : Fin 4) * 128 + k.val, by omega⟩ : Fin 512) z) := by
    intro a r k z
    show V c main_arg0 (((cfg0.win 0).blk t).view.emb (ix4 a r k z)) = _
    refine congrArg (V c main_arg0) (funext fun a' => Fin.ext ?_)
    have ha : a.val < 1 := a.isLt
    match a' with
    | ⟨0, _⟩ => show win0_0.index t (0 : Fin 4) * 1 + 1 * a.val = win0_1.index t (0 : Fin 4); omega
    | ⟨1, _⟩ => show win0_0.index t (1 : Fin 4) * 512 + 1 * r.val = r.val; omega
    | ⟨2, _⟩ => show win0_0.index t (2 : Fin 4) * 128 + 1 * k.val = win0_1.index t (2 : Fin 4) * 128 + k.val; omega
    | ⟨3, _⟩ => show win0_0.index t (3 : Fin 4) * 32 + 1 * z.val = z.val; omega
  -- the output entry at its four coordinates, then the stencil of a block of columns
  refine (congrArg (Cert.Sten.rowSten (xblk0 V c t) : Vec F S1x284x128x32 .f32) (eq_ix4 y)).trans ?_
  refine (rowSten_of_block (V c main_arg0) (xblk0 V c t) (win0_1.index t (0 : Fin 4)) (win0_1.index t (2 : Fin 4)) b0 b2 hx (y 0) (y 1) (y 2) (y 3)).trans ?_
  -- the place of the output entry in the output array
  refine congrArg (Cert.Sten.rowSten (F := F) (V c main_arg0) : Vec F S32x284x512x32 .f32) (funext fun a' => Fin.ext ?_)
  have hy0 : (y 0).val < 1 := (y 0).isLt
  match a' with
  | ⟨0, _⟩ => show win0_1.index t (0 : Fin 4) = win0_1.index t (0 : Fin 4) * 1 + 1 * (y 0).val; omega
  | ⟨1, _⟩ => show (y 1).val = win0_1.index t (1 : Fin 4) * 284 + 1 * (y 1).val; omega
  | ⟨2, _⟩ => show win0_1.index t (2 : Fin 4) * 128 + (y 2).val = win0_1.index t (2 : Fin 4) * 128 + 1 * (y 2).val; omega
  | ⟨3, _⟩ => show (y 3).val = win0_1.index t (3 : Fin 4) * 32 + 1 * (y 3).val; omega

/-! ## The output blocks tile the output array -/

/-- An index of the output array lies in grid point `t`'s output block iff on each axis its coordinate lies in the
    block's range: from block index × block extent, for one block extent. -/
theorem mem_outblock0 (t : Fin cfg0.N) (i : S32x284x512x32.Idx) :
    i ∈ ((cfg0.win 1).blk t).view.set ↔ ∀ a : Fin 4, win0_1.index t a * S1x284x128x32.size a ≤ (i a).val ∧ (i a).val < win0_1.index t a * S1x284x128x32.size a + S1x284x128x32.size a := by
  show i ∈ ((View.whole main_v0).slice (win0_1.rect t)).set ↔ _
  rw [View.set_slice_whole, Rect.mem_set_unit]
  exact Iff.rfl

/-- Every index `(i₀, i₁, i₂, i₃)` of the output array lies in the output block of a grid point that writes back: the one
    with block index `(i₀, 0, i₂ / 128, 0)`. -/
theorem outblocks_cover0 (i : S32x284x512x32.Idx) :
    ∃ t : Fin cfg0.N, (cfg0.win 1).flush t = true ∧ i ∈ ((cfg0.win 1).blk t).view.set := by
  have hi0 : (i 0).val < 32 := (i 0).isLt
  have hi1 : (i 1).val < 284 := (i 1).isLt
  have hi2 : (i 2).val < 512 := (i 2).isLt
  have hi3 : (i 3).val < 32 := (i 3).isLt
  obtain ⟨t, ht⟩ := every_block_visited0 ⟨(i 0).val, hi0⟩ ⟨(i 2).val / 128, by omega⟩
  have q0 : win0_1.index t (0 : Fin 4) = (i 0).val := congrFun ht 0
  have q1 : win0_1.index t (1 : Fin 4) = 0 := congrFun ht 1
  have q2 : win0_1.index t (2 : Fin 4) = (i 2).val / 128 := congrFun ht 2
  have q3 : win0_1.index t (3 : Fin 4) = 0 := congrFun ht 3
  refine ⟨t, flush0_1 t, ?_⟩
  rw [mem_outblock0]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 284 ≤ (i 1).val ∧ (i 1).val < win0_1.index t (1 : Fin 4) * 284 + 284; omega
  | ⟨2, _⟩ => show win0_1.index t (2 : Fin 4) * 128 ≤ (i 2).val ∧ (i 2).val < win0_1.index t (2 : Fin 4) * 128 + 128; omega
  | ⟨3, _⟩ => show win0_1.index t (3 : Fin 4) * 32 ≤ (i 3).val ∧ (i 3).val < win0_1.index t (3 : Fin 4) * 32 + 32; omega

/-! ## The output array after the call -/

/-- After the first call the output array is the row stencil of the input array as the call found it: every grid point
    writes back its block of that one function, and the blocks cover the array. -/
theorem final0 (c : Dev nD) :
    (dat0 V c).arrAt 1 cfg0.N = (Cert.Sten.rowSten (F := F) (V c main_arg0) : Vec F S32x284x512x32 .f32) :=
  (dat0 V c).arrAt_eq_of_cover 1 _ (fun t _ => writeback0_eq V c t) outblocks_cover0

end Cert.KernelIdeal.Hand

end
-- ==== Proof.KIValue1.lean ====
/-
  What the second call's write-backs leave in its output array, as one function of the array it reads.

  The second call walks the 284 rows of the intermediate array in tiles of 64 rows: point (b, rt) reads rows
  64 rt .. 64 rt + 63 of batch entry b, all 512 columns, and writes the same rows of the output, all 205 columns.
  The fifth tile reaches past row 283, so both of its blocks are cut to their first 28 rows.  The column stencil
  combines entries of ONE row, so on a row inside the array the stencil of the staged tile is the stencil of the
  whole array read at that row: each point writes back its tile of the column stencil of the whole array
  (writeBack1_eq).  Every index (b, r, j, z) of the output lies in the tile of the point (b, r / 64)
  (rowTiles_cover), so after the last point the output array IS the column stencil of the array the call read
  (final1).
-/
import proofs.«174384_j82789789597838_1_alg».proof.Proof.KIDats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The column stencil works row by row: if the row (j 0, j 1) of B is the row (y 0, y 1) of X, with the same
    trailing coordinate, then the stencil of B at j is the stencil of X at y in the same column. -/
theorem colSten_rows {n0 n1 m0 m1 : ℕ} (X : (⟨4, ![n0, n1, 512, 32]⟩ : Shape).Idx → F .f32)
    (B : (⟨4, ![m0, m1, 512, 32]⟩ : Shape).Idx → F .f32)
    (j : (⟨4, ![m0, m1, 205, 32]⟩ : Shape).Idx) (y : (⟨4, ![n0, n1, 205, 32]⟩ : Shape).Idx)
    (h2 : (y 2).val = (j 2).val)
    (hB : ∀ k : Fin 512, B (ValueIdx.ix4 (j 0) (j 1) k (j 3)) = X (ValueIdx.ix4 (y 0) (y 1) k (y 3))) :
    (Cert.Sten.colSten B) j = (Cert.Sten.colSten X) y := by
  have e2 : y 2 = j 2 := Fin.ext h2
  have ey : y = ValueIdx.ix4 (y 0) (y 1) (j 2) (y 3) := by rw [← e2]; exact ValueIdx.eq_ix4 y
  rw [ey]
  show Cert.Sten.sten2 _ _ _ j = Cert.Sten.sten2 _ _ _ (ValueIdx.ix4 (y 0) (y 1) (j 2) (y 3))
  unfold Cert.Sten.sten2
  -- the three inputs are entries of that one row, at columns colTab (j 2) + 0, 1, 2
  rw [hB, hB, hB]
  rfl

variable (V : (c : Dev nD) → (b : Ref sig .tc) → Buf (Elt F) ((c : Thread nD τ).loc b))

/-- The two windows' block indices over the grid: the same batch entry and the same row tile, block index zero on
    the column axis and on the last axis; the batch entry is below 32 and the row tile below 5. -/
theorem tileIndex_facts : ∀ t : Fin cfg1.N,
    win1_0.index t (0 : Fin 4) = win1_1.index t (0 : Fin 4)
    ∧ win1_0.index t (1 : Fin 4) = win1_1.index t (1 : Fin 4)
    ∧ win1_0.index t (2 : Fin 4) = 0 ∧ win1_0.index t (3 : Fin 4) = 0
    ∧ win1_1.index t (2 : Fin 4) = 0 ∧ win1_1.index t (3 : Fin 4) = 0
    ∧ win1_1.index t (0 : Fin 4) ≤ 31 ∧ win1_1.index t (1 : Fin 4) ≤ 4 :=
  (by decide +kernel : ∀ t : Fin grid1.N, _)

/-- The sizes of the output's block as it is written back: one batch entry, all 205 columns, all 32 trailing
    entries, and the rows from 64 rt up to 64 (rt + 1) or to the array's end at 284, whichever comes first. -/
theorem outTile_sizes : ∀ t : Fin cfg1.N,
    win1_1.xsize (grid1.coords t) (0 : Fin 4) = 1
    ∧ win1_1.index t (1 : Fin 4) * 64 + win1_1.xsize (grid1.coords t) (1 : Fin 4) = min ((win1_1.index t (1 : Fin 4) + 1) * 64) 284
    ∧ win1_1.xsize (grid1.coords t) (2 : Fin 4) = 205 ∧ win1_1.xsize (grid1.coords t) (3 : Fin 4) = 32 :=
  (by decide +kernel : ∀ t : Fin grid1.N, _)

/-- Every pair (batch entry, row tile) is some point's. -/
theorem tileIndex_onto : ∀ (q0 : Fin 32) (q1 : Fin 5), ∃ t : Fin cfg1.N, win1_1.index t (0 : Fin 4) = q0.val ∧ win1_1.index t (1 : Fin 4) = q1.val :=
  (by decide +kernel : ∀ (q0 : Fin 32) (q1 : Fin 5), ∃ t : Fin grid1.N, _)

/-- What point t writes back is its tile of the column stencil of the whole array the call read.  At block
    coordinate j (a row inside the array) the left side is the stencil of the staged tile at row j 1, whose entries
    are the array's entries at row 64 rt + j 1 (that row is inside the array, so the fetch moved it); the right
    side is the stencil of the array at (b, 64 rt + j 1, j 2, j 3). -/
theorem writeBack1_eq (c : Dev nD) (t : Fin cfg1.N) :
    (dat1 V c).flushed 1 t = ((cfg1.win 1).blk t).view.read (Elt F) (Cert.Sten.colSten (F := F) (V c main_v0) : Vec F S32x284x205x32 .f32) := by
  show win1_1.cut (grid1.coords t) ((dat1 V c).after 1 t) = _
  rw [after1_1]
  obtain ⟨e0, e1, e2, e3, f2, f3, -, -⟩ := tileIndex_facts t
  obtain ⟨s0, s1, s2, s3⟩ := xsize1 t
  obtain ⟨o0, o1, o2, o3⟩ := outTile_sizes t
  funext j
  rw [View.read_apply]
  show (Cert.Sten.colSten (xblk1 V c t) : Vec F S1x64x205x32 .f32) (win1_1.xinj (grid1.coords t) j)
    = (Cert.Sten.colSten (V c main_v0 : Vec F S32x284x512x32 .f32) : Vec F S32x284x205x32 .f32) (((cfg1.win 1).blk t).view.emb j)
  refine colSten_rows (V c main_v0 : Vec F S32x284x512x32 .f32) (xblk1 V c t) (win1_1.xinj (grid1.coords t) j) (((cfg1.win 1).blk t).view.emb j) ?_ ?_
  · -- the column: block index zero, so the block's column is the array's
    show win1_1.index t (2 : Fin 4) * 205 + 1 * (j 2).val = (j 2).val
    rw [f2]; omega
  · intro k
    -- the staged tile at (j 0, j 1, k, j 3): a row inside the array, so the entry the fetch moved there
    have hm : win1_0.moved (grid1.coords t) (ValueIdx.ix4 (win1_1.xinj (grid1.coords t) j 0) (win1_1.xinj (grid1.coords t) j 1) k (win1_1.xinj (grid1.coords t) j 3)) = true := by
      rw [win1_0.moved_iff]
      intro a
      match a with
      | ⟨0, _⟩ => exact Nat.lt_of_lt_of_eq (j 0).isLt (o0.trans s0.symm)
      | ⟨1, _⟩ => exact Nat.lt_of_lt_of_eq (j 1).isLt s1.symm
      | ⟨2, _⟩ => exact Nat.lt_of_lt_of_eq k.isLt s2.symm
      | ⟨3, _⟩ => exact Nat.lt_of_lt_of_eq (j 3).isLt (o3.trans s3.symm)
    unfold xblk1 xfill1 Window.fill
    rw [dif_pos hm]
    unfold iblk1
    rw [View.read_apply]
    show V c main_v0 (((cfg1.win 0).blk t).view.emb _) = _
    refine congrArg (V c main_v0 : Vec F S32x284x512x32 .f32) ?_
    -- a block's coordinate in its array is block index × block size + the coordinate inside the block, axis by axis
    funext a; apply Fin.ext
    match a with
    | ⟨0, _⟩ => show win1_0.index t (0 : Fin 4) * 1 + 1 * (j 0).val = win1_1.index t (0 : Fin 4) * 1 + 1 * (j 0).val; rw [e0]
    | ⟨1, _⟩ => show win1_0.index t (1 : Fin 4) * 64 + 1 * (j 1).val = win1_1.index t (1 : Fin 4) * 64 + 1 * (j 1).val; rw [e1]
    | ⟨2, _⟩ => show win1_0.index t (2 : Fin 4) * 512 + 1 * k.val = k.val; rw [e2]; omega
    | ⟨3, _⟩ => show win1_0.index t (3 : Fin 4) * 32 + 1 * (j 3).val = win1_1.index t (3 : Fin 4) * 32 + 1 * (j 3).val; rw [e3, f3]

/-- An index of the output array is in point t's block iff on each axis its coordinate is in the block's range:
    from block index × block size, for as many coordinates as the write-back moves. -/
theorem mem_outTile (t : Fin cfg1.N) (i : S32x284x205x32.Idx) :
    i ∈ ((cfg1.win 1).blk t).view.set ↔ ∀ a : Fin 4, win1_1.index t a * S1x64x205x32.size a ≤ (i a).val ∧ (i a).val < win1_1.index t a * S1x64x205x32.size a + win1_1.xsize (grid1.coords t) a := by
  show i ∈ ((View.whole main_v1).slice (win1_1.rect t)).set ↔ _
  rw [View.set_slice_whole, Rect.mem_set_unit]
  exact Iff.rfl

/-- The tiles cover the output array: index (b, r, j, z) lies in the tile of the point (b, r / 64), whose rows are
    64 (r / 64) up to 64 (r / 64 + 1) or 284. -/
theorem rowTiles_cover (i : S32x284x205x32.Idx) :
    ∃ t : Fin cfg1.N, (cfg1.win 1).flush t = true ∧ i ∈ ((cfg1.win 1).blk t).view.set := by
  have hi0 : (i 0).val < 32 := (i 0).isLt
  have hi1 : (i 1).val < 284 := (i 1).isLt
  have hi2 : (i 2).val < 205 := (i 2).isLt
  have hi3 : (i 3).val < 32 := (i 3).isLt
  obtain ⟨t, q0', q1'⟩ := tileIndex_onto ⟨(i 0).val, hi0⟩ ⟨(i 1).val / 64, by omega⟩
  have q0 : win1_1.index t (0 : Fin 4) = (i 0).val := q0'
  have q1 : win1_1.index t (1 : Fin 4) = (i 1).val / 64 := q1'
  obtain ⟨-, -, -, -, f2, f3, -, -⟩ := tileIndex_facts t
  obtain ⟨o0, o1, o2, o3⟩ := outTile_sizes t
  refine ⟨t, flush1_1 t, ?_⟩
  rw [mem_outTile]
  intro a
  match a with
  | ⟨0, _⟩ => show win1_1.index t (0 : Fin 4) * 1 ≤ (i 0).val ∧ (i 0).val < win1_1.index t (0 : Fin 4) * 1 + win1_1.xsize (grid1.coords t) (0 : Fin 4); rw [o0, q0]; omega
  | ⟨1, _⟩ => show win1_1.index t (1 : Fin 4) * 64 ≤ (i 1).val ∧ (i 1).val < win1_1.index t (1 : Fin 4) * 64 + win1_1.xsize (grid1.coords t) (1 : Fin 4); rw [o1, q1]; omega
  | ⟨2, _⟩ => show win1_1.index t (2 : Fin 4) * 205 ≤ (i 2).val ∧ (i 2).val < win1_1.index t (2 : Fin 4) * 205 + win1_1.xsize (grid1.coords t) (2 : Fin 4); rw [o2, f2]; omega
  | ⟨3, _⟩ => show win1_1.index t (3 : Fin 4) * 32 ≤ (i 3).val ∧ (i 3).val < win1_1.index t (3 : Fin 4) * 32 + win1_1.xsize (grid1.coords t) (3 : Fin 4); rw [o3, f3]; omega

/-- The output array after the last point: the column stencil of the array the call read. -/
theorem final1 (c : Dev nD) : (dat1 V c).arrAt 1 cfg1.N = (Cert.Sten.colSten (F := F) (V c main_v0) : Vec F S32x284x205x32 .f32) :=
  (dat1 V c).arrAt_eq_of_cover 1 _ (fun t _ => writeBack1_eq V c t) rowTiles_cover

end Cert.KernelIdeal.Hand

end
-- ==== Proof.RefStages.lean ====
/-
  The reference program's values, stage by stage, as functions of its argument.

  The program gathers three bands of rows of the argument (start rows listed by three tables of 284 entries),
  from each band three bands of columns (start columns listed by nine tables of 205 entries), scales each of the
  nine arrays by one entry of a constant 3×3 table and adds the nine products, one by one from the left, to an
  array of zeros.  Every definition below applies the same pure operations as the program's lines, in the same
  order, so that what a buffer holds after the run is one of these terms by unfolding alone.
-/
import proofs.«174384_j82789789597838_1_alg».proof.Proof.Gen.ReferenceIdeal

noncomputable section

namespace Cert.ReferenceIdeal.Hand

open Cert.ReferenceIdeal Cert.ReferenceIdeal.Gen Idealize.ShloMosaic

variable {F : FTy → Type} [FloatOps F]

/-! ## The start-index arrays -/

/-- A table of 284 row starts as the gather's [284,1] start-index array: the table plus 512 where the
    (constantly false) mask is set, else the table itself, then a trailing axis of extent one. -/
def rowStart (tab : Fin 284 → BitVec 32) : IVec S284x1 32 :=
  broadcastInDim S284x1 ![0] bcast_S284_S284x1_0
    (select (constantI S284 1 0#1)
      (addi (fun i => tab (S284.rowMajor i)) (broadcastInDim S284 ![] bcast_S_S284 (constantI S_ 32 512#32)))
      (fun i => tab (S284.rowMajor i)))

/-- A table of 205 column starts as the gather's [205,1] start-index array, made the same way. -/
def colStart (tab : Fin 205 → BitVec 32) : IVec S205x1 32 :=
  broadcastInDim S205x1 ![0] bcast_S205_S205x1_0
    (select (constantI S205 1 0#1)
      (addi (fun i => tab (S205.rowMajor i)) (broadcastInDim S205 ![] bcast_S_S205 (constantI S_ 32 512#32)))
      (fun i => tab (S205.rowMajor i)))

/-- The three row start arrays: window rows 0, 1, 2. -/
def rowIdx0 : IVec S284x1 32 := rowStart lit1
def rowIdx1 : IVec S284x1 32 := rowStart lit5
def rowIdx2 : IVec S284x1 32 := rowStart lit9

/-- The nine column start arrays, `colIdxIJ` for window row I and window column J. -/
def colIdx00 : IVec S205x1 32 := colStart lit2
def colIdx01 : IVec S205x1 32 := colStart lit3
def colIdx02 : IVec S205x1 32 := colStart lit4
def colIdx10 : IVec S205x1 32 := colStart lit6
def colIdx11 : IVec S205x1 32 := colStart lit7
def colIdx12 : IVec S205x1 32 := colStart lit8
def colIdx20 : IVec S205x1 32 := colStart lit10
def colIdx21 : IVec S205x1 32 := colStart lit11
def colIdx22 : IVec S205x1 32 := colStart lit12

/-- The row start array of window row `di`. -/
def rowIdx (di : Fin 3) : IVec S284x1 32 := ![rowIdx0, rowIdx1, rowIdx2] di

/-- The column start array of window entry `(di, dj)`. -/
def colIdx (di dj : Fin 3) : IVec S205x1 32 :=
  ![![colIdx00, colIdx01, colIdx02], ![colIdx10, colIdx11, colIdx12], ![colIdx20, colIdx21, colIdx22]] di dj

/-! ## The weights -/

/-- The constant 3×3 table of weights, from its words. -/
def kcst : (⟨S3x3, .f32⟩ : BufTy).Contents (Elt F) := fun i => FloatOps.ofBits .f32 (lit0 (S3x3.rowMajor i))

/-- One entry of the weight table as a rank-0 array: the 1×1 block at `off`, recast to rank 0. -/
def wgtAt (off : Fin 2 → Nat) (h : S3x3.Slices off S1x1) : (⟨S_, .f32⟩ : BufTy).Contents (Elt F) :=
  fun i => shapeCast S_ (extractStridedSlice S1x1 off (kcst (F := F)) h) shapeCasts_S1x1_S_ i

def wgt00 : (⟨S_, .f32⟩ : BufTy).Contents (Elt F) := wgtAt ![0, 0] slices_S3x3_S1x1_0_0
def wgt01 : (⟨S_, .f32⟩ : BufTy).Contents (Elt F) := wgtAt ![0, 1] slices_S3x3_S1x1_0_1
def wgt02 : (⟨S_, .f32⟩ : BufTy).Contents (Elt F) := wgtAt ![0, 2] slices_S3x3_S1x1_0_2
def wgt10 : (⟨S_, .f32⟩ : BufTy).Contents (Elt F) := wgtAt ![1, 0] slices_S3x3_S1x1_1_0
def wgt11 : (⟨S_, .f32⟩ : BufTy).Contents (Elt F) := wgtAt ![1, 1] slices_S3x3_S1x1_1_1
def wgt12 : (⟨S_, .f32⟩ : BufTy).Contents (Elt F) := wgtAt ![1, 2] slices_S3x3_S1x1_1_2
def wgt20 : (⟨S_, .f32⟩ : BufTy).Contents (Elt F) := wgtAt ![2, 0] slices_S3x3_S1x1_2_0
def wgt21 : (⟨S_, .f32⟩ : BufTy).Contents (Elt F) := wgtAt ![2, 1] slices_S3x3_S1x1_2_1
def wgt22 : (⟨S_, .f32⟩ : BufTy).Contents (Elt F) := wgtAt ![2, 2] slices_S3x3_S1x1_2_2

/-- The weight of window entry `(di, dj)`. -/
def wgt (di dj : Fin 3) : (⟨S_, .f32⟩ : BufTy).Contents (Elt F) :=
  ![![wgt00 (F := F), wgt01, wgt02], ![wgt10, wgt11, wgt12], ![wgt20, wgt21, wgt22]] di dj

/-! ## The gathers, the products, the sum -/

/-- A band of rows: the gather along axis 1 of the argument at a row start array. -/
def rowsAt (idx : IVec S284x1 32) (x : (⟨S32x512x512x32, .f32⟩ : BufTy).Contents (Elt F)) :
    (⟨S32x284x512x32, .f32⟩ : BufTy).Contents (Elt F) :=
  Host.gather gather_S32x512x512x32_S284x1_S32x284x512x32_023_1_n_n_1_1_32151232 x idx

/-- A band of columns of a band of rows: the gather along axis 2 at a column start array. -/
def colsAt (idx : IVec S205x1 32) (r : (⟨S32x284x512x32, .f32⟩ : BufTy).Contents (Elt F)) :
    (⟨S32x284x205x32, .f32⟩ : BufTy).Contents (Elt F) :=
  Host.gather gather_S32x284x512x32_S205x1_S32x284x205x32_013_2_n_n_2_1_32284132 r idx

/-- A rank-0 weight spread over the result's shape, times an array of that shape. -/
def scaled (w : (⟨S_, .f32⟩ : BufTy).Contents (Elt F)) (g : (⟨S32x284x205x32, .f32⟩ : BufTy).Contents (Elt F)) :
    (⟨S32x284x205x32, .f32⟩ : BufTy).Contents (Elt F) :=
  mulf (broadcastInDim S32x284x205x32 ![] bcast_S_S32x284x205x32 w) g

/-- The band of rows of window row `di`. -/
def rows (di : Fin 3) (x : (⟨S32x512x512x32, .f32⟩ : BufTy).Contents (Elt F)) :
    (⟨S32x284x512x32, .f32⟩ : BufTy).Contents (Elt F) := rowsAt (rowIdx di) x

/-- The weighted term of window entry `(di, dj)`. -/
def term (di dj : Fin 3) (x : (⟨S32x512x512x32, .f32⟩ : BufTy).Contents (Elt F)) :
    (⟨S32x284x205x32, .f32⟩ : BufTy).Contents (Elt F) :=
  scaled (wgt di dj) (colsAt (colIdx di dj) (rows di x))

/-- The array of zeros the sum starts from. -/
def zeros : (⟨S32x284x205x32, .f32⟩ : BufTy).Contents (Elt F) :=
  broadcastInDim S32x284x205x32 ![] bcast_S_S32x284x205x32 (constant (F := F) S_ .f32 0x00000000#32)

/-- The program's result: zeros plus the nine terms, window rows outermost, added one by one from the left. -/
def refVal (x : (⟨S32x512x512x32, .f32⟩ : BufTy).Contents (Elt F)) : (⟨S32x284x205x32, .f32⟩ : BufTy).Contents (Elt F) :=
  addf (addf (addf (addf (addf (addf (addf (addf (addf (zeros (F := F))
    (term 0 0 x)) (term 0 1 x)) (term 0 2 x)) (term 1 0 x)) (term 1 1 x)) (term 1 2 x)) (term 2 0 x)) (term 2 1 x)) (term 2 2 x)

end Cert.ReferenceIdeal.Hand

end
-- ==== Proof.RefRun.lean ====
/-
  The reference program's run.

  The program is a straight line of 144 array operations: thirty-eight constants (the 3×3 weight table, three tables
  of 284 row starts and nine of 205 column starts, each with its all-false mask, the scalar 0.0, and the scalar 512
  once per table), and for each of the nine window entries the start-index array (add 512, select under the false
  mask, add a unit axis), the column gather of the band of rows, the weight cut out of the table and spread over the
  result's shape, the product and the running sum; each of the three window rows first gathers its band of rows
  from the argument.
  Listed in order, the operations' results compose to `refVal` of the argument at the last buffer, and no operation
  writes the argument.
-/
import proofs.«174384_j82789789597838_1_alg».proof.Proof.RefStages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 144 operations, in order. -/
abbrev ops : List (HloOp τ sig (Elt F)) :=
  [ nullary main_cst (fun i => FloatOps.ofBits .f32 (lit0 (S3x3.rowMajor i))),
    nullary main_c (fun i => lit1 (S284.rowMajor i)),
    nullary main_c_0 (constantI S284 1 0#1),
    nullary main_c_1 (fun i => lit2 (S205.rowMajor i)),
    nullary main_c_2 (constantI S205 1 0#1),
    nullary main_c_3 (fun i => lit3 (S205.rowMajor i)),
    nullary main_c_4 (constantI S205 1 0#1),
    nullary main_c_5 (fun i => lit4 (S205.rowMajor i)),
    nullary main_c_6 (constantI S205 1 0#1),
    nullary main_c_7 (fun i => lit5 (S284.rowMajor i)),
    nullary main_c_8 (constantI S284 1 0#1),
    nullary main_c_9 (fun i => lit6 (S205.rowMajor i)),
    nullary main_c_10 (constantI S205 1 0#1),
    nullary main_c_11 (fun i => lit7 (S205.rowMajor i)),
    nullary main_c_12 (constantI S205 1 0#1),
    nullary main_c_13 (fun i => lit8 (S205.rowMajor i)),
    nullary main_c_14 (constantI S205 1 0#1),
    nullary main_c_15 (fun i => lit9 (S284.rowMajor i)),
    nullary main_c_16 (constantI S284 1 0#1),
    nullary main_c_17 (fun i => lit10 (S205.rowMajor i)),
    nullary main_c_18 (constantI S205 1 0#1),
    nullary main_c_19 (fun i => lit11 (S205.rowMajor i)),
    nullary main_c_20 (constantI S205 1 0#1),
    nullary main_c_21 (fun i => lit12 (S205.rowMajor i)),
    nullary main_c_22 (constantI S205 1 0#1),
    nullary main_cst_23 (constant S_ .f32 0x00000000#32),
    unary main_cst_23 main_v0 (broadcastInDim S32x284x205x32 ![] bcast_S_S32x284x205x32 : (⟨S_, .f32⟩ : BufTy).Contents (Elt F) → (⟨S32x284x205x32, .f32⟩ : BufTy).Contents (Elt F)),
    nullary main_c_24 (constantI S_ 32 512#32),
    unary main_c_24 main_v1 (broadcastInDim S284 ![] bcast_S_S284 : (⟨S_, .i32⟩ : BufTy).Contents (Elt F) → (⟨S284, .i32⟩ : BufTy).Contents (Elt F)),
    binary main_c main_v1 main_v2 (addi : (⟨S284, .i32⟩ : BufTy).Contents (Elt F) → (⟨S284, .i32⟩ : BufTy).Contents (Elt F) → (⟨S284, .i32⟩ : BufTy).Contents (Elt F)),
    ternary main_c_0 main_v2 main_c main_v3 (select : (⟨S284, .i1⟩ : BufTy).Contents (Elt F) → (⟨S284, .i32⟩ : BufTy).Contents (Elt F) → (⟨S284, .i32⟩ : BufTy).Contents (Elt F) → (⟨S284, .i32⟩ : BufTy).Contents (Elt F)),
    unary main_v3 main_v4 (broadcastInDim S284x1 ![0] bcast_S284_S284x1_0 : (⟨S284, .i32⟩ : BufTy).Contents (Elt F) → (⟨S284x1, .i32⟩ : BufTy).Contents (Elt F)),
    binary main_arg0 main_v4 main_v5 ((fun x i => Host.gather gather_S32x512x512x32_S284x1_S32x284x512x32_023_1_n_n_1_1_32151232 x i) : (⟨S32x512x512x32, .f32⟩ : BufTy).Contents (Elt F) → (⟨S284x1, .i32⟩ : BufTy).Contents (Elt F) → (⟨S32x284x512x32, .f32⟩ : BufTy).Contents (Elt F)),
    unary main_cst main_v6 ((extractStridedSlice S1x1 ![0, 0] · slices_S3x3_S1x1_0_0) : (⟨S3x3, .f32⟩ : BufTy).Contents (Elt F) → (⟨S1x1, .f32⟩ : BufTy).Contents (Elt F)),
    reshape main_v6 main_v7 rfl shapeCasts_S1x1_S_,
    nullary main_c_25 (constantI S_ 32 512#32),
    unary main_c_25 main_v8 (broadcastInDim S205 ![] bcast_S_S205 : (⟨S_, .i32⟩ : BufTy).Contents (Elt F) → (⟨S205, .i32⟩ : BufTy).Contents (Elt F)),
    binary main_c_1 main_v8 main_v9 (addi : (⟨S205, .i32⟩ : BufTy).Contents (Elt F) → (⟨S205, .i32⟩ : BufTy).Contents (Elt F) → (⟨S205, .i32⟩ : BufTy).Contents (Elt F)),
    ternary main_c_2 main_v9 main_c_1 main_v10 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v10 main_v11 (broadcastInDim S205x1 ![0] bcast_S205_S205x1_0 : (⟨S205, .i32⟩ : BufTy).Contents (Elt F) → (⟨S205x1, .i32⟩ : BufTy).Contents (Elt F)),
    binary main_v5 main_v11 main_v12 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v7 main_v13 (broadcastInDim S32x284x205x32 ![] bcast_S_S32x284x205x32 : (⟨S_, .f32⟩ : BufTy).Contents (Elt F) → (⟨S32x284x205x32, .f32⟩ : BufTy).Contents (Elt F)),
    binary main_v13 main_v12 main_v14 (mulf : (⟨S32x284x205x32, .f32⟩ : BufTy).Contents (Elt F) → (⟨S32x284x205x32, .f32⟩ : BufTy).Contents (Elt F) → (⟨S32x284x205x32, .f32⟩ : BufTy).Contents (Elt F)),
    binary main_v0 main_v14 main_v15 (addf : (⟨S32x284x205x32, .f32⟩ : BufTy).Contents (Elt F) → (⟨S32x284x205x32, .f32⟩ : BufTy).Contents (Elt F) → (⟨S32x284x205x32, .f32⟩ : BufTy).Contents (Elt F)),
    unary main_cst main_v16 ((extractStridedSlice S1x1 ![0, 1] · slices_S3x3_S1x1_0_1) : (⟨S3x3, .f32⟩ : BufTy).Contents (Elt F) → (⟨S1x1, .f32⟩ : BufTy).Contents (Elt F)),
    reshape main_v16 main_v17 rfl shapeCasts_S1x1_S_,
    nullary main_c_26 (constantI S_ 32 512#32),
    unary main_c_26 main_v18 (broadcastInDim S205 ![] bcast_S_S205 : (⟨S_, .i32⟩ : BufTy).Contents (Elt F) → (⟨S205, .i32⟩ : BufTy).Contents (Elt F)),
    binary main_c_3 main_v18 main_v19 (addi : (⟨S205, .i32⟩ : BufTy).Contents (Elt F) → (⟨S205, .i32⟩ : BufTy).Contents (Elt F) → (⟨S205, .i32⟩ : BufTy).Contents (Elt F)),
    ternary main_c_4 main_v19 main_c_3 main_v20 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v20 main_v21 (broadcastInDim S205x1 ![0] bcast_S205_S205x1_0 : (⟨S205, .i32⟩ : BufTy).Contents (Elt F) → (⟨S205x1, .i32⟩ : BufTy).Contents (Elt F)),
    binary main_v5 main_v21 main_v22 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v17 main_v23 (broadcastInDim S32x284x205x32 ![] bcast_S_S32x284x205x32 : (⟨S_, .f32⟩ : BufTy).Contents (Elt F) → (⟨S32x284x205x32, .f32⟩ : BufTy).Contents (Elt F)),
    binary main_v23 main_v22 main_v24 (mulf : (⟨S32x284x205x32, .f32⟩ : BufTy).Contents (Elt F) → (⟨S32x284x205x32, .f32⟩ : BufTy).Contents (Elt F) → (⟨S32x284x205x32, .f32⟩ : BufTy).Contents (Elt F)),
    binary main_v15 main_v24 main_v25 (addf : (⟨S32x284x205x32, .f32⟩ : BufTy).Contents (Elt F) → (⟨S32x284x205x32, .f32⟩ : BufTy).Contents (Elt F) → (⟨S32x284x205x32, .f32⟩ : BufTy).Contents (Elt F)),
    unary main_cst main_v26 ((extractStridedSlice S1x1 ![0, 2] · slices_S3x3_S1x1_0_2) : (⟨S3x3, .f32⟩ : BufTy).Contents (Elt F) → (⟨S1x1, .f32⟩ : BufTy).Contents (Elt F)),
    reshape main_v26 main_v27 rfl shapeCasts_S1x1_S_,
    nullary main_c_27 (constantI S_ 32 512#32),
    unary main_c_27 main_v28 (broadcastInDim S205 ![] bcast_S_S205 : (⟨S_, .i32⟩ : BufTy).Contents (Elt F) → (⟨S205, .i32⟩ : BufTy).Contents (Elt F)),
    binary main_c_5 main_v28 main_v29 (addi : (⟨S205, .i32⟩ : BufTy).Contents (Elt F) → (⟨S205, .i32⟩ : BufTy).Contents (Elt F) → (⟨S205, .i32⟩ : BufTy).Contents (Elt F)),
    ternary main_c_6 main_v29 main_c_5 main_v30 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v30 main_v31 (broadcastInDim S205x1 ![0] bcast_S205_S205x1_0 : (⟨S205, .i32⟩ : BufTy).Contents (Elt F) → (⟨S205x1, .i32⟩ : BufTy).Contents (Elt F)),
    binary main_v5 main_v31 main_v32 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v27 main_v33 (broadcastInDim S32x284x205x32 ![] bcast_S_S32x284x205x32 : (⟨S_, .f32⟩ : BufTy).Contents (Elt F) → (⟨S32x284x205x32, .f32⟩ : BufTy).Contents (Elt F)),
    binary main_v33 main_v32 main_v34 (mulf : (⟨S32x284x205x32, .f32⟩ : BufTy).Contents (Elt F) → (⟨S32x284x205x32, .f32⟩ : BufTy).Contents (Elt F) → (⟨S32x284x205x32, .f32⟩ : BufTy).Contents (Elt F)),
    binary main_v25 main_v34 main_v35 (addf : (⟨S32x284x205x32, .f32⟩ : BufTy).Contents (Elt F) → (⟨S32x284x205x32, .f32⟩ : BufTy).Contents (Elt F) → (⟨S32x284x205x32, .f32⟩ : BufTy).Contents (Elt F)),
    nullary main_c_28 (constantI S_ 32 512#32),
    unary main_c_28 main_v36 (broadcastInDim S284 ![] bcast_S_S284 : (⟨S_, .i32⟩ : BufTy).Contents (Elt F) → (⟨S284, .i32⟩ : BufTy).Contents (Elt F)),
    binary main_c_7 main_v36 main_v37 (addi : (⟨S284, .i32⟩ : BufTy).Contents (Elt F) → (⟨S284, .i32⟩ : BufTy).Contents (Elt F) → (⟨S284, .i32⟩ : BufTy).Contents (Elt F)),
    ternary main_c_8 main_v37 main_c_7 main_v38 (select : (⟨S284, .i1⟩ : BufTy).Contents (Elt F) → (⟨S284, .i32⟩ : BufTy).Contents (Elt F) → (⟨S284, .i32⟩ : BufTy).Contents (Elt F) → (⟨S284, .i32⟩ : BufTy).Contents (Elt F)),
    unary main_v38 main_v39 (broadcastInDim S284x1 ![0] bcast_S284_S284x1_0 : (⟨S284, .i32⟩ : BufTy).Contents (Elt F) → (⟨S284x1, .i32⟩ : BufTy).Contents (Elt F)),
    binary main_arg0 main_v39 main_v40 ((fun x i => Host.gather gather_S32x512x512x32_S284x1_S32x284x512x32_023_1_n_n_1_1_32151232 x i) : (⟨S32x512x512x32, .f32⟩ : BufTy).Contents (Elt F) → (⟨S284x1, .i32⟩ : BufTy).Contents (Elt F) → (⟨S32x284x512x32, .f32⟩ : BufTy).Contents (Elt F)),
    unary main_cst main_v41 ((extractStridedSlice S1x1 ![1, 0] · slices_S3x3_S1x1_1_0) : (⟨S3x3, .f32⟩ : BufTy).Contents (Elt F) → (⟨S1x1, .f32⟩ : BufTy).Contents (Elt F)),
    reshape main_v41 main_v42 rfl shapeCasts_S1x1_S_,
    nullary main_c_29 (constantI S_ 32 512#32),
    unary main_c_29 main_v43 (broadcastInDim S205 ![] bcast_S_S205 : (⟨S_, .i32⟩ : BufTy).Contents (Elt F) → (⟨S205, .i32⟩ : BufTy).Contents (Elt F)),
    binary main_c_9 main_v43 main_v44 (addi : (⟨S205, .i32⟩ : BufTy).Contents (Elt F) → (⟨S205, .i32⟩ : BufTy).Contents (Elt F) → (⟨S205, .i32⟩ : BufTy).Contents (Elt F)),
    ternary main_c_10 main_v44 main_c_9 main_v45 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v45 main_v46 (broadcastInDim S205x1 ![0] bcast_S205_S205x1_0 : (⟨S205, .i32⟩ : BufTy).Contents (Elt F) → (⟨S205x1, .i32⟩ : BufTy).Contents (Elt F)),
    binary main_v40 main_v46 main_v47 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v42 main_v48 (broadcastInDim S32x284x205x32 ![] bcast_S_S32x284x205x32 : (⟨S_, .f32⟩ : BufTy).Contents (Elt F) → (⟨S32x284x205x32, .f32⟩ : BufTy).Contents (Elt F)),
    binary main_v48 main_v47 main_v49 (mulf : (⟨S32x284x205x32, .f32⟩ : BufTy).Contents (Elt F) → (⟨S32x284x205x32, .f32⟩ : BufTy).Contents (Elt F) → (⟨S32x284x205x32, .f32⟩ : BufTy).Contents (Elt F)),
    binary main_v35 main_v49 main_v50 (addf : (⟨S32x284x205x32, .f32⟩ : BufTy).Contents (Elt F) → (⟨S32x284x205x32, .f32⟩ : BufTy).Contents (Elt F) → (⟨S32x284x205x32, .f32⟩ : BufTy).Contents (Elt F)),
    unary main_cst main_v51 ((extractStridedSlice S1x1 ![1, 1] · slices_S3x3_S1x1_1_1) : (⟨S3x3, .f32⟩ : BufTy).Contents (Elt F) → (⟨S1x1, .f32⟩ : BufTy).Contents (Elt F)),
    reshape main_v51 main_v52 rfl shapeCasts_S1x1_S_,
    nullary main_c_30 (constantI S_ 32 512#32),
    unary main_c_30 main_v53 (broadcastInDim S205 ![] bcast_S_S205 : (⟨S_, .i32⟩ : BufTy).Contents (Elt F) → (⟨S205, .i32⟩ : BufTy).Contents (Elt F)),
    binary main_c_11 main_v53 main_v54 (addi : (⟨S205, .i32⟩ : BufTy).Contents (Elt F) → (⟨S205, .i32⟩ : BufTy).Contents (Elt F) → (⟨S205, .i32⟩ : BufTy).Contents (Elt F)),
    ternary main_c_12 main_v54 main_c_11 main_v55 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v55 main_v56 (broadcastInDim S205x1 ![0] bcast_S205_S205x1_0 : (⟨S205, .i32⟩ : BufTy).Contents (Elt F) → (⟨S205x1, .i32⟩ : BufTy).Contents (Elt F)),
    binary main_v40 main_v56 main_v57 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v52 main_v58 (broadcastInDim S32x284x205x32 ![] bcast_S_S32x284x205x32 : (⟨S_, .f32⟩ : BufTy).Contents (Elt F) → (⟨S32x284x205x32, .f32⟩ : BufTy).Contents (Elt F)),
    binary main_v58 main_v57 main_v59 (mulf : (⟨S32x284x205x32, .f32⟩ : BufTy).Contents (Elt F) → (⟨S32x284x205x32, .f32⟩ : BufTy).Contents (Elt F) → (⟨S32x284x205x32, .f32⟩ : BufTy).Contents (Elt F)),
    binary main_v50 main_v59 main_v60 (addf : (⟨S32x284x205x32, .f32⟩ : BufTy).Contents (Elt F) → (⟨S32x284x205x32, .f32⟩ : BufTy).Contents (Elt F) → (⟨S32x284x205x32, .f32⟩ : BufTy).Contents (Elt F)),
    unary main_cst main_v61 ((extractStridedSlice S1x1 ![1, 2] · slices_S3x3_S1x1_1_2) : (⟨S3x3, .f32⟩ : BufTy).Contents (Elt F) → (⟨S1x1, .f32⟩ : BufTy).Contents (Elt F)),
    reshape main_v61 main_v62 rfl shapeCasts_S1x1_S_,
    nullary main_c_31 (constantI S_ 32 512#32),
    unary main_c_31 main_v63 (broadcastInDim S205 ![] bcast_S_S205 : (⟨S_, .i32⟩ : BufTy).Contents (Elt F) → (⟨S205, .i32⟩ : BufTy).Contents (Elt F)),
    binary main_c_13 main_v63 main_v64 (addi : (⟨S205, .i32⟩ : BufTy).Contents (Elt F) → (⟨S205, .i32⟩ : BufTy).Contents (Elt F) → (⟨S205, .i32⟩ : BufTy).Contents (Elt F)),
    ternary main_c_14 main_v64 main_c_13 main_v65 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v65 main_v66 (broadcastInDim S205x1 ![0] bcast_S205_S205x1_0 : (⟨S205, .i32⟩ : BufTy).Contents (Elt F) → (⟨S205x1, .i32⟩ : BufTy).Contents (Elt F)),
    binary main_v40 main_v66 main_v67 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v62 main_v68 (broadcastInDim S32x284x205x32 ![] bcast_S_S32x284x205x32 : (⟨S_, .f32⟩ : BufTy).Contents (Elt F) → (⟨S32x284x205x32, .f32⟩ : BufTy).Contents (Elt F)),
    binary main_v68 main_v67 main_v69 (mulf : (⟨S32x284x205x32, .f32⟩ : BufTy).Contents (Elt F) → (⟨S32x284x205x32, .f32⟩ : BufTy).Contents (Elt F) → (⟨S32x284x205x32, .f32⟩ : BufTy).Contents (Elt F)),
    binary main_v60 main_v69 main_v70 (addf : (⟨S32x284x205x32, .f32⟩ : BufTy).Contents (Elt F) → (⟨S32x284x205x32, .f32⟩ : BufTy).Contents (Elt F) → (⟨S32x284x205x32, .f32⟩ : BufTy).Contents (Elt F)),
    nullary main_c_32 (constantI S_ 32 512#32),
    unary main_c_32 main_v71 (broadcastInDim S284 ![] bcast_S_S284 : (⟨S_, .i32⟩ : BufTy).Contents (Elt F) → (⟨S284, .i32⟩ : BufTy).Contents (Elt F)),
    binary main_c_15 main_v71 main_v72 (addi : (⟨S284, .i32⟩ : BufTy).Contents (Elt F) → (⟨S284, .i32⟩ : BufTy).Contents (Elt F) → (⟨S284, .i32⟩ : BufTy).Contents (Elt F)),
    ternary main_c_16 main_v72 main_c_15 main_v73 (select : (⟨S284, .i1⟩ : BufTy).Contents (Elt F) → (⟨S284, .i32⟩ : BufTy).Contents (Elt F) → (⟨S284, .i32⟩ : BufTy).Contents (Elt F) → (⟨S284, .i32⟩ : BufTy).Contents (Elt F)),
    unary main_v73 main_v74 (broadcastInDim S284x1 ![0] bcast_S284_S284x1_0 : (⟨S284, .i32⟩ : BufTy).Contents (Elt F) → (⟨S284x1, .i32⟩ : BufTy).Contents (Elt F)),
    binary main_arg0 main_v74 main_v75 ((fun x i => Host.gather gather_S32x512x512x32_S284x1_S32x284x512x32_023_1_n_n_1_1_32151232 x i) : (⟨S32x512x512x32, .f32⟩ : BufTy).Contents (Elt F) → (⟨S284x1, .i32⟩ : BufTy).Contents (Elt F) → (⟨S32x284x512x32, .f32⟩ : BufTy).Contents (Elt F)),
    unary main_cst main_v76 ((extractStridedSlice S1x1 ![2, 0] · slices_S3x3_S1x1_2_0) : (⟨S3x3, .f32⟩ : BufTy).Contents (Elt F) → (⟨S1x1, .f32⟩ : BufTy).Contents (Elt F)),
    reshape main_v76 main_v77 rfl shapeCasts_S1x1_S_,
    nullary main_c_33 (constantI S_ 32 512#32),
    unary main_c_33 main_v78 (broadcastInDim S205 ![] bcast_S_S205 : (⟨S_, .i32⟩ : BufTy).Contents (Elt F) → (⟨S205, .i32⟩ : BufTy).Contents (Elt F)),
    binary main_c_17 main_v78 main_v79 (addi : (⟨S205, .i32⟩ : BufTy).Contents (Elt F) → (⟨S205, .i32⟩ : BufTy).Contents (Elt F) → (⟨S205, .i32⟩ : BufTy).Contents (Elt F)),
    ternary main_c_18 main_v79 main_c_17 main_v80 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v80 main_v81 (broadcastInDim S205x1 ![0] bcast_S205_S205x1_0 : (⟨S205, .i32⟩ : BufTy).Contents (Elt F) → (⟨S205x1, .i32⟩ : BufTy).Contents (Elt F)),
    binary main_v75 main_v81 main_v82 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v77 main_v83 (broadcastInDim S32x284x205x32 ![] bcast_S_S32x284x205x32 : (⟨S_, .f32⟩ : BufTy).Contents (Elt F) → (⟨S32x284x205x32, .f32⟩ : BufTy).Contents (Elt F)),
    binary main_v83 main_v82 main_v84 (mulf : (⟨S32x284x205x32, .f32⟩ : BufTy).Contents (Elt F) → (⟨S32x284x205x32, .f32⟩ : BufTy).Contents (Elt F) → (⟨S32x284x205x32, .f32⟩ : BufTy).Contents (Elt F)),
    binary main_v70 main_v84 main_v85 (addf : (⟨S32x284x205x32, .f32⟩ : BufTy).Contents (Elt F) → (⟨S32x284x205x32, .f32⟩ : BufTy).Contents (Elt F) → (⟨S32x284x205x32, .f32⟩ : BufTy).Contents (Elt F)),
    unary main_cst main_v86 ((extractStridedSlice S1x1 ![2, 1] · slices_S3x3_S1x1_2_1) : (⟨S3x3, .f32⟩ : BufTy).Contents (Elt F) → (⟨S1x1, .f32⟩ : BufTy).Contents (Elt F)),
    reshape main_v86 main_v87 rfl shapeCasts_S1x1_S_,
    nullary main_c_34 (constantI S_ 32 512#32),
    unary main_c_34 main_v88 (broadcastInDim S205 ![] bcast_S_S205 : (⟨S_, .i32⟩ : BufTy).Contents (Elt F) → (⟨S205, .i32⟩ : BufTy).Contents (Elt F)),
    binary main_c_19 main_v88 main_v89 (addi : (⟨S205, .i32⟩ : BufTy).Contents (Elt F) → (⟨S205, .i32⟩ : BufTy).Contents (Elt F) → (⟨S205, .i32⟩ : BufTy).Contents (Elt F)),
    ternary main_c_20 main_v89 main_c_19 main_v90 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v90 main_v91 (broadcastInDim S205x1 ![0] bcast_S205_S205x1_0 : (⟨S205, .i32⟩ : BufTy).Contents (Elt F) → (⟨S205x1, .i32⟩ : BufTy).Contents (Elt F)),
    binary main_v75 main_v91 main_v92 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v87 main_v93 (broadcastInDim S32x284x205x32 ![] bcast_S_S32x284x205x32 : (⟨S_, .f32⟩ : BufTy).Contents (Elt F) → (⟨S32x284x205x32, .f32⟩ : BufTy).Contents (Elt F)),
    binary main_v93 main_v92 main_v94 (mulf : (⟨S32x284x205x32, .f32⟩ : BufTy).Contents (Elt F) → (⟨S32x284x205x32, .f32⟩ : BufTy).Contents (Elt F) → (⟨S32x284x205x32, .f32⟩ : BufTy).Contents (Elt F)),
    binary main_v85 main_v94 main_v95 (addf : (⟨S32x284x205x32, .f32⟩ : BufTy).Contents (Elt F) → (⟨S32x284x205x32, .f32⟩ : BufTy).Contents (Elt F) → (⟨S32x284x205x32, .f32⟩ : BufTy).Contents (Elt F)),
    unary main_cst main_v96 ((extractStridedSlice S1x1 ![2, 2] · slices_S3x3_S1x1_2_2) : (⟨S3x3, .f32⟩ : BufTy).Contents (Elt F) → (⟨S1x1, .f32⟩ : BufTy).Contents (Elt F)),
    reshape main_v96 main_v97 rfl shapeCasts_S1x1_S_,
    nullary main_c_35 (constantI S_ 32 512#32),
    unary main_c_35 main_v98 (broadcastInDim S205 ![] bcast_S_S205 : (⟨S_, .i32⟩ : BufTy).Contents (Elt F) → (⟨S205, .i32⟩ : BufTy).Contents (Elt F)),
    binary main_c_21 main_v98 main_v99 (addi : (⟨S205, .i32⟩ : BufTy).Contents (Elt F) → (⟨S205, .i32⟩ : BufTy).Contents (Elt F) → (⟨S205, .i32⟩ : BufTy).Contents (Elt F)),
    ternary main_c_22 main_v99 main_c_21 main_v100 (select : (⟨S205, .i1⟩ : BufTy).Contents (Elt F) → (⟨S205, .i32⟩ : BufTy).Contents (Elt F) → (⟨S205, .i32⟩ : BufTy).Contents (Elt F) → (⟨S205, .i32⟩ : BufTy).Contents (Elt F)),
    unary main_v100 main_v101 (broadcastInDim S205x1 ![0] bcast_S205_S205x1_0 : (⟨S205, .i32⟩ : BufTy).Contents (Elt F) → (⟨S205x1, .i32⟩ : BufTy).Contents (Elt F)),
    binary main_v75 main_v101 main_v102 ((fun x i => Host.gather gather_S32x284x512x32_S205x1_S32x284x205x32_013_2_n_n_2_1_32284132 x i) : (⟨S32x284x512x32, .f32⟩ : BufTy).Contents (Elt F) → (⟨S205x1, .i32⟩ : BufTy).Contents (Elt F) → (⟨S32x284x205x32, .f32⟩ : BufTy).Contents (Elt F)),
    unary main_v97 main_v103 (broadcastInDim S32x284x205x32 ![] bcast_S_S32x284x205x32 : (⟨S_, .f32⟩ : BufTy).Contents (Elt F) → (⟨S32x284x205x32, .f32⟩ : BufTy).Contents (Elt F)),
    binary main_v103 main_v102 main_v104 (mulf : (⟨S32x284x205x32, .f32⟩ : BufTy).Contents (Elt F) → (⟨S32x284x205x32, .f32⟩ : BufTy).Contents (Elt F) → (⟨S32x284x205x32, .f32⟩ : BufTy).Contents (Elt F)),
    binary main_v95 main_v104 main_v105 (addf : (⟨S32x284x205x32, .f32⟩ : BufTy).Contents (Elt F) → (⟨S32x284x205x32, .f32⟩ : BufTy).Contents (Elt F) → (⟨S32x284x205x32, .f32⟩ : BufTy).Contents (Elt F)) ]

set_option maxRecDepth 100000 in
set_option maxHeartbeats 4000000 in
/-- The program is that list run in order: its three windows, one after the other, are one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub .., unary_bufs_sub .., reshape_bufs_sub .., nullary_bufs_sub .., unary_bufs_sub .., binary_bufs_sub .., ternary_bufs_sub .., unary_bufs_sub .., binary_bufs_sub .., unary_bufs_sub .., binary_bufs_sub .., binary_bufs_sub ..⟩

set_option maxRecDepth 100000 in
set_option maxHeartbeats 4000000 in
/-- The last buffer after the line: each operation's result at its own buffer is its function of its operands'
    contents, every other buffer keeps what it held; composed from the last sum back to the argument this is the
    nine-term sum `refVal`, stage for stage. -/
theorem out_eq (V : Valuation τ sig (Elt F)) :
    after ops V (Proc.devRef (τ := τ) .tc main_v105) = refVal (V (Proc.devRef (τ := τ) .tc main_arg0)) := by
  after_results_simp
  rfl

set_option maxRecDepth 100000 in
set_option maxHeartbeats 4000000 in
/-- The argument's buffer is the result buffer of no operation: it holds after the line what it held before. -/
theorem arg_eq (V : Valuation τ sig (Elt F)) :
    after ops V (Proc.devRef (τ := τ) .tc main_arg0) = V (Proc.devRef (τ := τ) .tc main_arg0) := by
  after_results_simp

set_option maxRecDepth 100000 in
set_option maxHeartbeats 4000000 in
/-- On every device, for any float values, from any memory with zero counters: every weakly fair execution of the
    program terminates with the last buffer at `refVal` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) = refVal (m ((c.tc : Thread nD τ).loc main_arg0))
      ∧ r.2.mem ((c.tc : Thread nD τ).loc main_arg0) = m ((c.tc : Thread nD τ).loc main_arg0) :=
  (θ_run defs _ _).mono (fun _ h c => ⟨(h c main_v105).trans (out_eq _), (h c main_arg0).trans (arg_eq _)⟩)
    (run_seq scopedRefs_eq scopedSems_eq defs main (fun _ => ops) main_eq (fun _ => ops_sub) m ρ)

end Cert.ReferenceIdeal.Hand

end
-- ==== Proof.RefLemmas.lean ====
/-
  General facts for reading the reference's value at an index.

  The reference gathers rows and then columns of its argument at start indices listed in dense tables, scales by
  entries of a constant 3×3 array and adds.  Here, independent of how the stages are named: a select under a mask that
  is nowhere set; the word of a small natural read signed and clamped; each of the program's two gathers read at an
  index (the collapsed axis takes the clamped start index, every other axis keeps its coordinate); a table given a
  trailing unit axis read at an index; a 1×1 block of the 3×3 array, recast to rank 0 and spread over a shape, read at
  an index; and the twelve dense tables in closed form, the sampled starts of the row and column tables plus the
  window offset.  Nothing here depends on the float instance.
-/
import proofs.«174384_j82789789597838_1_alg».proof.ReferenceIdeal
import proofs.«174384_j82789789597838_1_alg».proof.Proof.Spec
import Idealize.ShloMosaic.Lib.ValueLayout

noncomputable section

namespace Cert.ReferenceIdeal.Hand

open Cert.ReferenceIdeal Idealize.ShloMosaic Idealize.ShloMosaic.ValueIdx

/-! ## A select under a mask that is nowhere set -/

/-- Under the all-zero mask a select is its third operand. -/
theorem select_false {s : Shape} {α : Type} (a b : s.Idx → α) : select (constantI s 1 0#1) a b = b := by
  funext i; exact select_zero (a i) (b i)

/-! ## Words of small naturals -/

/-- The word of a natural below 2^31, read as a signed integer, is that natural. -/
theorem word_signed_small (n : ℕ) (h : n < 2 ^ 31) : (BitVec.ofNat 32 n).toInt.toNat = n := by
  rw [BitVec.toInt_eq_toNat_cond, BitVec.toNat_ofNat]
  have h2 : n % 2 ^ 32 = n := Nat.mod_eq_of_lt (by omega)
  rw [h2, if_pos (by omega)]
  exact Int.toNat_natCast n

/-- Clamping into [0, 511] does nothing to the word of a natural below 512. -/
theorem clamp_small (n : ℕ) (h : n < 512) : min (BitVec.ofNat 32 n).toInt.toNat 511 = n := by
  rw [word_signed_small n (by omega)]; omega

/-! ## The two gathers read at an index

Both gathers collapse one operand axis, the one the start index addresses; the other three axes are offset axes in
order.  So on the collapsed axis the operand coordinate is the clamped start index (no offset, no batching), on every
other axis it is the result's own coordinate (start zero, no batching). -/

section Gathers
variable [Facts₀]

local notation "gRow" => gather_S32x512x512x32_S284x1_S32x284x512x32_023_1_n_n_1_1_32151232
local notation "gCol" => gather_S32x284x512x32_S205x1_S32x284x205x32_013_2_n_n_2_1_32284132

/-- The row gather reads its start index for result row `i` at `(i, 0)`. -/
theorem gRow_siIdx (j : S32x284x512x32.Idx) (c : Fin (gRow).startIndexMap.length) :
    (gRow).siIdx j c = ix2 (j 1) 0 := by
  funext b; refine Fin.ext ?_
  match b with
  | ⟨0, _⟩ => rfl
  | ⟨1, _⟩ =>
    show c.val = 0
    have := c.isLt
    have h1 : (gRow).startIndexMap.length = 1 := rfl
    omega

/-- Off the collapsed axis the row gather's slice starts at zero. -/
theorem gRow_start_off (j : S32x284x512x32.Idx) (idx : IVec S284x1 32) (ax : Fin 4) (h : ax ≠ 1) :
    (gRow).start j idx ax = 0 := by
  unfold GatherDims.start
  exact dif_neg (fun hm => h (List.mem_singleton.mp hm))

/-- THE ROW GATHER AT AN INDEX: entry `(a, i, y, z)` is the operand's at row `idx (i, 0)`, read signed and clamped
    into [0, 511], the other coordinates kept. -/
theorem gatherRow_apply {α : Type} (x : S32x512x512x32.Idx → α) (idx : IVec S284x1 32)
    (a : Fin 32) (i : Fin 284) (y : Fin 512) (z : Fin 32) :
    Host.gather gRow x idx (ix4 a i y z)
      = x (ix4 a ⟨min (idx (ix2 i 0)).toInt.toNat 511, by omega⟩ y z) := by
  unfold Host.gather
  refine congrArg x (funext fun ax => Fin.ext ?_)
  have hb : ∀ ax, (gRow).batchCoord (ix4 a i y z) ax = 0 :=
    fun ax => (gRow).batchCoord_eq_zero _ ax List.not_mem_nil
  show (gRow).start (ix4 a i y z) idx ax + (gRow).batchCoord (ix4 a i y z) ax + (gRow).offCoord (ix4 a i y z) ax = _
  rw [hb, Nat.add_zero]
  match ax with
  | ⟨0, _⟩ =>
    show (gRow).start (ix4 a i y z) idx 0 + (gRow).offCoord (ix4 a i y z) 0 = a.val
    rw [gRow_start_off _ _ 0 (by decide), Nat.zero_add]; rfl
  | ⟨1, _⟩ =>
    show (gRow).start (ix4 a i y z) idx 1 + (gRow).offCoord (ix4 a i y z) 1 = min (idx (ix2 i 0)).toInt.toNat 511
    rw [(gRow).offCoord_eq_zero _ 1 (fun h => (((gRow).mem_sKept _).mp h).1 (List.mem_singleton.mpr rfl)), Nat.add_zero]
    unfold GatherDims.start
    rw [dif_pos (show (1 : Fin 4) ∈ (gRow).startIndexMap from List.mem_singleton.mpr rfl), gRow_siIdx]
    rfl
  | ⟨2, _⟩ =>
    show (gRow).start (ix4 a i y z) idx 2 + (gRow).offCoord (ix4 a i y z) 2 = y.val
    rw [gRow_start_off _ _ 2 (by decide), Nat.zero_add]; rfl
  | ⟨3, _⟩ =>
    show (gRow).start (ix4 a i y z) idx 3 + (gRow).offCoord (ix4 a i y z) 3 = z.val
    rw [gRow_start_off _ _ 3 (by decide), Nat.zero_add]; rfl

/-- The column gather reads its start index for result column `j` at `(j, 0)`. -/
theorem gCol_siIdx (j : S32x284x205x32.Idx) (c : Fin (gCol).startIndexMap.length) :
    (gCol).siIdx j c = ix2 (j 2) 0 := by
  funext b; refine Fin.ext ?_
  match b with
  | ⟨0, _⟩ => rfl
  | ⟨1, _⟩ =>
    show c.val = 0
    have := c.isLt
    have h1 : (gCol).startIndexMap.length = 1 := rfl
    omega

/-- Off the collapsed axis the column gather's slice starts at zero. -/
theorem gCol_start_off (j : S32x284x205x32.Idx) (idx : IVec S205x1 32) (ax : Fin 4) (h : ax ≠ 2) :
    (gCol).start j idx ax = 0 := by
  unfold GatherDims.start
  exact dif_neg (fun hm => h (List.mem_singleton.mp hm))

/-- THE COLUMN GATHER AT AN INDEX: entry `(a, r, j, z)` is the operand's at column `idx (j, 0)`, read signed and
    clamped into [0, 511], the other coordinates kept. -/
theorem gatherCol_apply {α : Type} (t : S32x284x512x32.Idx → α) (idx : IVec S205x1 32)
    (a : Fin 32) (r : Fin 284) (j : Fin 205) (z : Fin 32) :
    Host.gather gCol t idx (ix4 a r j z)
      = t (ix4 a r ⟨min (idx (ix2 j 0)).toInt.toNat 511, by omega⟩ z) := by
  unfold Host.gather
  refine congrArg t (funext fun ax => Fin.ext ?_)
  have hb : ∀ ax, (gCol).batchCoord (ix4 a r j z) ax = 0 :=
    fun ax => (gCol).batchCoord_eq_zero _ ax List.not_mem_nil
  show (gCol).start (ix4 a r j z) idx ax + (gCol).batchCoord (ix4 a r j z) ax + (gCol).offCoord (ix4 a r j z) ax = _
  rw [hb, Nat.add_zero]
  match ax with
  | ⟨0, _⟩ =>
    show (gCol).start (ix4 a r j z) idx 0 + (gCol).offCoord (ix4 a r j z) 0 = a.val
    rw [gCol_start_off _ _ 0 (by decide), Nat.zero_add]; rfl
  | ⟨1, _⟩ =>
    show (gCol).start (ix4 a r j z) idx 1 + (gCol).offCoord (ix4 a r j z) 1 = r.val
    rw [gCol_start_off _ _ 1 (by decide), Nat.zero_add]; rfl
  | ⟨2, _⟩ =>
    show (gCol).start (ix4 a r j z) idx 2 + (gCol).offCoord (ix4 a r j z) 2 = min (idx (ix2 j 0)).toInt.toNat 511
    rw [(gCol).offCoord_eq_zero _ 2 (fun h => (((gCol).mem_sKept _).mp h).1 (List.mem_singleton.mpr rfl)), Nat.add_zero]
    unfold GatherDims.start
    rw [dif_pos (show (2 : Fin 4) ∈ (gCol).startIndexMap from List.mem_singleton.mpr rfl), gCol_siIdx]
    rfl
  | ⟨3, _⟩ =>
    show (gCol).start (ix4 a r j z) idx 3 + (gCol).offCoord (ix4 a r j z) 3 = z.val
    rw [gCol_start_off _ _ 3 (by decide), Nat.zero_add]; rfl

end Gathers

/-! ## A start-index array read at an index

A table `tab` of `n` words, selected against itself plus 512 under the mask that is nowhere set and given a trailing
axis of extent one, holds `tab i` at `(i, 0)`.  The table stays a variable. -/

/-- A rank-1 array given a trailing unit axis reads its entry `i` at `(i, 0)`. -/
theorem trailUnit_apply {n : ℕ} {α : Type} (h : (⟨1, ![n]⟩ : Shape).BroadcastsInDim ⟨2, ![n, 1]⟩ (![0] : Fin 1 → Fin 2))
    (v : (⟨1, ![n]⟩ : Shape).Idx → α) (i : Fin n) (hn : n ≠ 1) :
    broadcastInDim (⟨2, ![n, 1]⟩ : Shape) ![0] h v (ix2 i 0) = v (ix1 i) :=
  broadcastInDim_apply _ h v (ix2 i 0) (ix1 i) (fun a => by
    match a with
    | ⟨0, _⟩ =>
      show i.val = if n = 1 then 0 else i.val
      rw [if_neg hn])

/-- The row-major position of a rank-1 index is its coordinate. -/
theorem rowMajor_ix1 {n : ℕ} (i : Fin n) : ((⟨1, ![n]⟩ : Shape).rowMajor (ix1 i)).val = i.val :=
  Shape.rowMajor_val_one _

/-! ## The weight: a 1×1 block of a 3×3 array, recast to rank 0 and spread over a shape -/

/-- A rank-0 array spread over any shape reads its one entry everywhere. -/
theorem bcastScalar_apply {t : Shape} {α : Type} (h : S_.BroadcastsInDim t (![] : Fin 0 → Fin t.rank)) (v : S_.Idx → α) (j : t.Idx) :
    broadcastInDim t ![] h v j = v ix0 :=
  broadcastInDim_apply _ h v j ix0 (fun a => a.elim0)

/-- The one-entry array recast to rank 0 reads its one entry. -/
theorem cast11_apply {α : Type} (h : S1x1.ShapeCasts S_) (w : S1x1.Idx → α) :
    shapeCast S_ w h ix0 = w (ix2 0 0) :=
  shapeCast_apply w h ix0 (ix2 0 0) (by decide)

/-- The 1×1 block of a 3×3 array at offsets `(p, q)` reads entry `(p, q)`. -/
theorem slice11_apply {α : Type} (p q : ℕ) (hp : p < 3) (hq : q < 3) (h : S3x3.Slices ![p, q] S1x1) (c : S3x3.Idx → α) :
    extractStridedSlice S1x1 ![p, q] c h (ix2 0 0) = c (ix2 ⟨p, hp⟩ ⟨q, hq⟩) :=
  extractStridedSlice_apply _ c h (ix2 0 0) (ix2 ⟨p, hp⟩ ⟨q, hq⟩) (fun a => by
    match a with
    | ⟨0, _⟩ => rfl
    | ⟨1, _⟩ => rfl)

/-! ## The dense tables in closed form

Each table of row starts lists `rowTab i + d`, each table of column starts `colTab j + d`, for the window offset
`d = 0, 1, 2`: checked entry by entry over the finite index. -/

theorem lit1_eq : ∀ i : Fin 284, lit1 i = BitVec.ofNat 32 (Cert.Sten.rowTab i + 0) := by decide
theorem lit5_eq : ∀ i : Fin 284, lit5 i = BitVec.ofNat 32 (Cert.Sten.rowTab i + 1) := by decide
theorem lit9_eq : ∀ i : Fin 284, lit9 i = BitVec.ofNat 32 (Cert.Sten.rowTab i + 2) := by decide
theorem lit2_eq : ∀ j : Fin 205, lit2 j = BitVec.ofNat 32 (Cert.Sten.colTab j + 0) := by decide
theorem lit3_eq : ∀ j : Fin 205, lit3 j = BitVec.ofNat 32 (Cert.Sten.colTab j + 1) := by decide
theorem lit4_eq : ∀ j : Fin 205, lit4 j = BitVec.ofNat 32 (Cert.Sten.colTab j + 2) := by decide
theorem lit6_eq : ∀ j : Fin 205, lit6 j = BitVec.ofNat 32 (Cert.Sten.colTab j + 0) := by decide
theorem lit7_eq : ∀ j : Fin 205, lit7 j = BitVec.ofNat 32 (Cert.Sten.colTab j + 1) := by decide
theorem lit8_eq : ∀ j : Fin 205, lit8 j = BitVec.ofNat 32 (Cert.Sten.colTab j + 2) := by decide
theorem lit10_eq : ∀ j : Fin 205, lit10 j = BitVec.ofNat 32 (Cert.Sten.colTab j + 0) := by decide
theorem lit11_eq : ∀ j : Fin 205, lit11 j = BitVec.ofNat 32 (Cert.Sten.colTab j + 1) := by decide
theorem lit12_eq : ∀ j : Fin 205, lit12 j = BitVec.ofNat 32 (Cert.Sten.colTab j + 2) := by decide

end Cert.ReferenceIdeal.Hand

end
-- ==== Proof.RefRead.lean ====
/-
  The reference's value read at an index.

  With the stages of the reference named (its start-index arrays, weights, gathers, products and sum), each is read at
  an index `(a, i, j, z)`: a start-index array holds its table's word; the table's word is that of `rowTab i + di`
  (rows) or `colTab j + dj` (columns), below 512, so the signed read and the clamp into [0, 511] leave it unchanged;
  the column gather of the row gather therefore reads the argument at row `rowTab i + di`, column `colTab j + dj`;
  the weight spread over the result is the value of the 3×3 table's word at `(di, dj)`; and the elementwise sum adds
  the nine products to zero one by one from the left.  That is the 3×3 window sum `Cert.Sten.ref9`.  Generic in the
  float instance: only the order of the operations is used, no law of arithmetic.
-/
import proofs.«174384_j82789789597838_1_alg».proof.Proof.RefStages
import proofs.«174384_j82789789597838_1_alg».proof.Proof.RefLemmas

noncomputable section

namespace Cert.ReferenceIdeal.Hand

open Cert.ReferenceIdeal Cert.ReferenceIdeal.Gen Idealize.ShloMosaic Idealize.ShloMosaic.ValueIdx

variable {F : FTy → Type} [FloatOps F]

/-! ## The elementwise sum at an index, at any instance -/

/-- A sum of two arrays at an index is the sum of the entries. -/
theorem addf_at {s : Shape} {φ : FTy} (a b : FVec F s φ) (i : s.Idx) : addf a b i = FloatOps.addf (a i) (b i) := rfl

/-! ## The start-index arrays at an index -/

/-- The row start array made from a table holds the table's word `i` at `(i, 0)`. -/
theorem rowStart_apply (tab : Fin 284 → BitVec 32) (i : Fin 284) : rowStart tab (ix2 i 0) = tab i := by
  unfold rowStart
  refine (trailUnit_apply _ _ i (by decide)).trans ?_
  rw [select_false]
  exact congrArg tab (Fin.ext (rowMajor_ix1 i))

/-- The column start array made from a table holds the table's word `j` at `(j, 0)`. -/
theorem colStart_apply (tab : Fin 205 → BitVec 32) (j : Fin 205) : colStart tab (ix2 j 0) = tab j := by
  unfold colStart
  refine (trailUnit_apply _ _ j (by decide)).trans ?_
  rw [select_false]
  exact congrArg tab (Fin.ext (rowMajor_ix1 j))

/-- When the table lists words of naturals below 512, the clamped signed start at `(i, 0)` is that natural. -/
theorem rowStart_clamp (tab : Fin 284 → BitVec 32) (T : Fin 284 → ℕ) (htab : ∀ i, tab i = BitVec.ofNat 32 (T i))
    (hT : ∀ i, T i < 512) (i : Fin 284) : min (rowStart tab (ix2 i 0)).toInt.toNat 511 = T i := by
  rw [rowStart_apply, htab, clamp_small _ (hT i)]

/-- The same for a column table. -/
theorem colStart_clamp (tab : Fin 205 → BitVec 32) (T : Fin 205 → ℕ) (htab : ∀ j, tab j = BitVec.ofNat 32 (T j))
    (hT : ∀ j, T j < 512) (j : Fin 205) : min (colStart tab (ix2 j 0)).toInt.toNat 511 = T j := by
  rw [colStart_apply, htab, clamp_small _ (hT j)]

/-- Window row `di`: the clamped start row of result row `i` is `rowTab i + di`. -/
theorem rowIdx_clamp (di : Fin 3) (i : Fin 284) :
    min (rowIdx di (ix2 i 0)).toInt.toNat 511 = Cert.Sten.rowTab i + di.val := by
  match di with
  | ⟨0, _⟩ =>
    show min (rowStart lit1 (ix2 i 0)).toInt.toNat 511 = Cert.Sten.rowTab i + 0
    exact rowStart_clamp lit1 (fun i => Cert.Sten.rowTab i + 0) lit1_eq (fun i => Cert.Sten.rowTab_lt i 0 (by omega)) i
  | ⟨1, _⟩ =>
    show min (rowStart lit5 (ix2 i 0)).toInt.toNat 511 = Cert.Sten.rowTab i + 1
    exact rowStart_clamp lit5 (fun i => Cert.Sten.rowTab i + 1) lit5_eq (fun i => Cert.Sten.rowTab_lt i 1 (by omega)) i
  | ⟨2, _⟩ =>
    show min (rowStart lit9 (ix2 i 0)).toInt.toNat 511 = Cert.Sten.rowTab i + 2
    exact rowStart_clamp lit9 (fun i => Cert.Sten.rowTab i + 2) lit9_eq (fun i => Cert.Sten.rowTab_lt i 2 (by omega)) i

/-- Window entry `(di, dj)`: the clamped start column of result column `j` is `colTab j + dj`, whatever `di`. -/
theorem colIdx_clamp (di dj : Fin 3) (j : Fin 205) :
    min (colIdx di dj (ix2 j 0)).toInt.toNat 511 = Cert.Sten.colTab j + dj.val := by
  match di, dj with
  | ⟨0, _⟩, ⟨0, _⟩ =>
    show min (colStart lit2 (ix2 j 0)).toInt.toNat 511 = Cert.Sten.colTab j + 0
    exact colStart_clamp lit2 (fun j => Cert.Sten.colTab j + 0) lit2_eq (fun j => Cert.Sten.colTab_lt j 0 (by omega)) j
  | ⟨0, _⟩, ⟨1, _⟩ =>
    show min (colStart lit3 (ix2 j 0)).toInt.toNat 511 = Cert.Sten.colTab j + 1
    exact colStart_clamp lit3 (fun j => Cert.Sten.colTab j + 1) lit3_eq (fun j => Cert.Sten.colTab_lt j 1 (by omega)) j
  | ⟨0, _⟩, ⟨2, _⟩ =>
    show min (colStart lit4 (ix2 j 0)).toInt.toNat 511 = Cert.Sten.colTab j + 2
    exact colStart_clamp lit4 (fun j => Cert.Sten.colTab j + 2) lit4_eq (fun j => Cert.Sten.colTab_lt j 2 (by omega)) j
  | ⟨1, _⟩, ⟨0, _⟩ =>
    show min (colStart lit6 (ix2 j 0)).toInt.toNat 511 = Cert.Sten.colTab j + 0
    exact colStart_clamp lit6 (fun j => Cert.Sten.colTab j + 0) lit6_eq (fun j => Cert.Sten.colTab_lt j 0 (by omega)) j
  | ⟨1, _⟩, ⟨1, _⟩ =>
    show min (colStart lit7 (ix2 j 0)).toInt.toNat 511 = Cert.Sten.colTab j + 1
    exact colStart_clamp lit7 (fun j => Cert.Sten.colTab j + 1) lit7_eq (fun j => Cert.Sten.colTab_lt j 1 (by omega)) j
  | ⟨1, _⟩, ⟨2, _⟩ =>
    show min (colStart lit8 (ix2 j 0)).toInt.toNat 511 = Cert.Sten.colTab j + 2
    exact colStart_clamp lit8 (fun j => Cert.Sten.colTab j + 2) lit8_eq (fun j => Cert.Sten.colTab_lt j 2 (by omega)) j
  | ⟨2, _⟩, ⟨0, _⟩ =>
    show min (colStart lit10 (ix2 j 0)).toInt.toNat 511 = Cert.Sten.colTab j + 0
    exact colStart_clamp lit10 (fun j => Cert.Sten.colTab j + 0) lit10_eq (fun j => Cert.Sten.colTab_lt j 0 (by omega)) j
  | ⟨2, _⟩, ⟨1, _⟩ =>
    show min (colStart lit11 (ix2 j 0)).toInt.toNat 511 = Cert.Sten.colTab j + 1
    exact colStart_clamp lit11 (fun j => Cert.Sten.colTab j + 1) lit11_eq (fun j => Cert.Sten.colTab_lt j 1 (by omega)) j
  | ⟨2, _⟩, ⟨2, _⟩ =>
    show min (colStart lit12 (ix2 j 0)).toInt.toNat 511 = Cert.Sten.colTab j + 2
    exact colStart_clamp lit12 (fun j => Cert.Sten.colTab j + 2) lit12_eq (fun j => Cert.Sten.colTab_lt j 2 (by omega)) j

/-! ## The weights -/

/-- The words of the 3×3 weight table, by window entry: 1, 2, 1; 2, 4, 2; 1, 2, 1. -/
def wword (di dj : Fin 3) : BitVec 32 :=
  ![![0x3F800000#32, 0x40000000#32, 0x3F800000#32], ![0x40000000#32, 0x40800000#32, 0x40000000#32],
    ![0x3F800000#32, 0x40000000#32, 0x3F800000#32]] di dj

/-- The weight table's entry `(p, q)` is the value of its word at row-major position `3 p + q`. -/
theorem kcst_apply (p q : Fin 3) :
    kcst (F := F) (ix2 p q) = FloatOps.ofBits .f32 (lit0 ⟨p.val * 3 + q.val, by omega⟩) :=
  congrArg (fun k => FloatOps.ofBits (F := F) .f32 (lit0 k)) (Fin.ext (Shape.rowMajor_val_two (ix2 p q)))

/-- The 1×1 block at `(p, q)` recast to rank 0 reads the table's entry `(p, q)`. -/
theorem wgtAt_apply (p q : ℕ) (hp : p < 3) (hq : q < 3) (h : S3x3.Slices ![p, q] S1x1) :
    wgtAt (F := F) ![p, q] h ix0 = FloatOps.ofBits .f32 (lit0 ⟨p * 3 + q, by omega⟩) := by
  unfold wgtAt
  refine (cast11_apply _ _).trans ?_
  refine (slice11_apply p q hp hq h _).trans ?_
  exact kcst_apply ⟨p, hp⟩ ⟨q, hq⟩

/-- The weight of window entry `(di, dj)` is the value of its word. -/
theorem wgt_apply (di dj : Fin 3) : wgt (F := F) di dj ix0 = FloatOps.ofBits .f32 (wword di dj) := by
  match di, dj with
  | ⟨0, _⟩, ⟨0, _⟩ => exact wgtAt_apply (F := F) 0 0 (by omega) (by omega) slices_S3x3_S1x1_0_0
  | ⟨0, _⟩, ⟨1, _⟩ => exact wgtAt_apply (F := F) 0 1 (by omega) (by omega) slices_S3x3_S1x1_0_1
  | ⟨0, _⟩, ⟨2, _⟩ => exact wgtAt_apply (F := F) 0 2 (by omega) (by omega) slices_S3x3_S1x1_0_2
  | ⟨1, _⟩, ⟨0, _⟩ => exact wgtAt_apply (F := F) 1 0 (by omega) (by omega) slices_S3x3_S1x1_1_0
  | ⟨1, _⟩, ⟨1, _⟩ => exact wgtAt_apply (F := F) 1 1 (by omega) (by omega) slices_S3x3_S1x1_1_1
  | ⟨1, _⟩, ⟨2, _⟩ => exact wgtAt_apply (F := F) 1 2 (by omega) (by omega) slices_S3x3_S1x1_1_2
  | ⟨2, _⟩, ⟨0, _⟩ => exact wgtAt_apply (F := F) 2 0 (by omega) (by omega) slices_S3x3_S1x1_2_0
  | ⟨2, _⟩, ⟨1, _⟩ => exact wgtAt_apply (F := F) 2 1 (by omega) (by omega) slices_S3x3_S1x1_2_1
  | ⟨2, _⟩, ⟨2, _⟩ => exact wgtAt_apply (F := F) 2 2 (by omega) (by omega) slices_S3x3_S1x1_2_2

/-! ## The nine terms and the sum -/

/-- The array of zeros reads the value of the zero word everywhere. -/
theorem zeros_apply (j : S32x284x205x32.Idx) : zeros (F := F) j = FloatOps.ofBits .f32 0x00000000#32 := by
  unfold zeros
  exact bcastScalar_apply _ _ j

/-- The term of window entry `(di, dj)` at `(a, i, j, z)`: the weight's value times the argument at row
    `rowTab i + di`, column `colTab j + dj`. -/
theorem term_apply (di dj : Fin 3) (x : Vec F S32x512x512x32 .f32) (a : Fin 32) (i : Fin 284) (j : Fin 205) (z : Fin 32) :
    term di dj x (ix4 a i j z) = Cert.Sten.wmul (wword di dj)
      (x (ix4 a ⟨Cert.Sten.rowTab i + di.val, Cert.Sten.rowTab_lt i _ (by omega)⟩
        ⟨Cert.Sten.colTab j + dj.val, Cert.Sten.colTab_lt j _ (by omega)⟩ z)) := by
  have e1 : (⟨min (rowIdx di (ix2 i 0)).toInt.toNat 511, by omega⟩ : Fin 512)
      = ⟨Cert.Sten.rowTab i + di.val, Cert.Sten.rowTab_lt i _ (by omega)⟩ := Fin.ext (rowIdx_clamp di i)
  have e2 : (⟨min (colIdx di dj (ix2 j 0)).toInt.toNat 511, by omega⟩ : Fin 512)
      = ⟨Cert.Sten.colTab j + dj.val, Cert.Sten.colTab_lt j _ (by omega)⟩ := Fin.ext (colIdx_clamp di dj j)
  show FloatOps.mulf (broadcastInDim S32x284x205x32 ![] bcast_S_S32x284x205x32 (wgt di dj) (ix4 a i j z))
      (colsAt (colIdx di dj) (rowsAt (rowIdx di) x) (ix4 a i j z)) = _
  rw [bcastScalar_apply, wgt_apply]
  unfold colsAt
  rw [gatherCol_apply]
  unfold rowsAt
  rw [gatherRow_apply, e1, e2]
  rfl

/-- THE REFERENCE'S VALUE: zero plus the nine weighted inputs of the 3×3 window, rows outermost, added from the left. -/
theorem refVal_eq (x : Vec F S32x512x512x32 .f32) : refVal x = Cert.Sten.ref9 x := by
  funext j
  obtain ⟨a, i, jj, z, rfl⟩ : ∃ a i jj z, j = ix4 a i jj z := ⟨_, _, _, _, eq_ix4 j⟩
  unfold refVal
  simp only [addf_at]
  rw [zeros_apply, term_apply, term_apply, term_apply, term_apply, term_apply, term_apply, term_apply, term_apply, term_apply]
  rfl

end Cert.ReferenceIdeal.Hand

end
-- ==== Proof.Algebra.lean ====
/-
  The two-pass stencil against the nine-tap sum, at the exact instance.

  Over the extended reals the kernel's entry at an output position is the 1, 2, 1 combination (along the
  columns) of three 1, 2, 1 combinations (along the rows) of the 3×3 window of inputs at that position;
  the reference's entry is zero plus the same nine inputs weighted by the outer product
  1, 2, 1; 2, 4, 2; 1, 2, 1, added row by row.  When the nine inputs are real numbers both are the same
  real: addition and multiplication of reals inside the extended reals are the real ones, and there the
  identity is distributivity, associativity and commutativity.  (With an infinite input the two
  orders of summation may differ, so finiteness is a hypothesis.)
-/
import proofs.«174384_j82789789597838_1_alg».proof.Proof.Spec
import Idealize.ShloMosaic.PureOps.Ideal
import Mathlib.Data.EReal.Basic
import Mathlib.Tactic.Ring
import Mathlib.Tactic.NormNum

noncomputable section

namespace Cert.Sten

open Idealize.ShloMosaic Idealize.ShloMosaic.ValueIdx

/-! ### The four weights as extended reals -/

/-- The word of `0.0` denotes the real zero. -/
theorem word_zero : Ideal.ofBits .f32 0x00000000#32 = ((0 : ℝ) : EReal) := by
  simp [Ideal.ofBits, Ideal.ieee]

/-- The word of `1.0` (exponent field 127, significand zero) denotes the real one. -/
theorem word_one : Ideal.ofBits .f32 0x3F800000#32 = ((1 : ℝ) : EReal) := by
  simp [Ideal.ofBits, Ideal.ieee, -EReal.coe_mul]; norm_num

/-- The word of `2.0` (exponent field 128, significand zero) denotes the real two. -/
theorem word_two : Ideal.ofBits .f32 0x40000000#32 = ((2 : ℝ) : EReal) := by
  simp [Ideal.ofBits, Ideal.ieee, -EReal.coe_mul]; norm_num

/-- The word of `4.0` (exponent field 129, significand zero) denotes the real four. -/
theorem word_four : Ideal.ofBits .f32 0x40800000#32 = ((4 : ℝ) : EReal) := by
  simp [Ideal.ofBits, Ideal.ieee, -EReal.coe_mul]; norm_num

/-! ### The scalar identities -/

/-- One stencil output of three real inputs is the real `1·a + 2·b + 1·c`. -/
theorem pay3_real (a b c : ℝ) :
    pay3 (F := Ideal) ((a : ℝ) : EReal) ((b : ℝ) : EReal) ((c : ℝ) : EReal) = ((1 * a + 2 * b + 1 * c : ℝ) : EReal) := by
  show Ideal.ofBits .f32 0x3F800000#32 * (a : EReal) + Ideal.ofBits .f32 0x40000000#32 * (b : EReal)
      + Ideal.ofBits .f32 0x3F800000#32 * (c : EReal) = _
  rw [word_one, word_two, ← EReal.coe_mul, ← EReal.coe_mul, ← EReal.coe_mul, ← EReal.coe_add, ← EReal.coe_add]

/-- The reference's sum of nine real inputs `x d e` (row offset `d`, column offset `e`), as it is written: zero, then
    the weighted inputs added from the left, rows outermost. -/
def refSum (x00 x01 x02 x10 x11 x12 x20 x21 x22 : EReal) : EReal :=
  FloatOps.addf (F := Ideal) (φ := .f32) (FloatOps.addf (F := Ideal) (φ := .f32) (FloatOps.addf (F := Ideal) (φ := .f32) (FloatOps.addf (F := Ideal) (φ := .f32) (FloatOps.addf (F := Ideal) (φ := .f32) (FloatOps.addf (F := Ideal) (φ := .f32) (FloatOps.addf (F := Ideal) (φ := .f32) (FloatOps.addf (F := Ideal) (φ := .f32) (FloatOps.addf (F := Ideal) (φ := .f32)
    (FloatOps.ofBits .f32 0x00000000#32)
    (wmul 0x3F800000#32 x00)) (wmul 0x40000000#32 x01)) (wmul 0x3F800000#32 x02))
    (wmul 0x40000000#32 x10)) (wmul 0x40800000#32 x11)) (wmul 0x40000000#32 x12))
    (wmul 0x3F800000#32 x20)) (wmul 0x40000000#32 x21)) (wmul 0x3F800000#32 x22)

/-- The reference's sum of nine reals is the real `0 + 1·x00 + 2·x01 + 1·x02 + 2·x10 + 4·x11 + 2·x12 + 1·x20 + 2·x21 + 1·x22`. -/
theorem refSum_real (x00 x01 x02 x10 x11 x12 x20 x21 x22 : ℝ) :
    refSum (x00 : EReal) (x01 : EReal) (x02 : EReal) (x10 : EReal) (x11 : EReal) (x12 : EReal) (x20 : EReal) (x21 : EReal) (x22 : EReal)
      = ((0 + 1 * x00 + 2 * x01 + 1 * x02 + 2 * x10 + 4 * x11 + 2 * x12 + 1 * x20 + 2 * x21 + 1 * x22 : ℝ) : EReal) := by
  show Ideal.ofBits .f32 0x00000000#32 + Ideal.ofBits .f32 0x3F800000#32 * (x00 : EReal) + Ideal.ofBits .f32 0x40000000#32 * (x01 : EReal)
      + Ideal.ofBits .f32 0x3F800000#32 * (x02 : EReal) + Ideal.ofBits .f32 0x40000000#32 * (x10 : EReal)
      + Ideal.ofBits .f32 0x40800000#32 * (x11 : EReal) + Ideal.ofBits .f32 0x40000000#32 * (x12 : EReal)
      + Ideal.ofBits .f32 0x3F800000#32 * (x20 : EReal) + Ideal.ofBits .f32 0x40000000#32 * (x21 : EReal)
      + Ideal.ofBits .f32 0x3F800000#32 * (x22 : EReal) = _
  rw [word_zero, word_one, word_two, word_four]
  simp only [← EReal.coe_mul, ← EReal.coe_add]

/-- Nine reals: the columns' combination of the rows' combinations is the reference's weighted sum. -/
theorem two_pass_real (x00 x01 x02 x10 x11 x12 x20 x21 x22 : ℝ) :
    pay3 (F := Ideal) (pay3 (F := Ideal) (x00 : EReal) (x10 : EReal) (x20 : EReal))
        (pay3 (F := Ideal) (x01 : EReal) (x11 : EReal) (x21 : EReal))
        (pay3 (F := Ideal) (x02 : EReal) (x12 : EReal) (x22 : EReal))
      = refSum (x00 : EReal) (x01 : EReal) (x02 : EReal) (x10 : EReal) (x11 : EReal) (x12 : EReal) (x20 : EReal) (x21 : EReal) (x22 : EReal) := by
  rw [pay3_real, pay3_real, pay3_real, pay3_real, refSum_real]
  congr 1
  ring

/-! ### The arrays -/

/-- The kernel's entry at `j` in terms of the window's nine inputs: the outer combination runs over the column
    offset, each inner one over the row offset at that column. -/
theorem kern9_apply {F : FTy → Type} [FloatOps F] (X : (⟨4, ![32, 512, 512, 32]⟩ : Shape).Idx → F .f32)
    (j : (⟨4, ![32, 284, 205, 32]⟩ : Shape).Idx) :
    kern9 X j = pay3
      (pay3 (tap X j 0 0 (by omega) (by omega)) (tap X j 1 0 (by omega) (by omega)) (tap X j 2 0 (by omega) (by omega)))
      (pay3 (tap X j 0 1 (by omega) (by omega)) (tap X j 1 1 (by omega) (by omega)) (tap X j 2 1 (by omega) (by omega)))
      (pay3 (tap X j 0 2 (by omega) (by omega)) (tap X j 1 2 (by omega) (by omega)) (tap X j 2 2 (by omega) (by omega))) := rfl

/-- The reference's entry at `j` is the written sum of the window's nine inputs. -/
theorem ref9_apply (X : (⟨4, ![32, 512, 512, 32]⟩ : Shape).Idx → Ideal .f32) (j : (⟨4, ![32, 284, 205, 32]⟩ : Shape).Idx) :
    ref9 (F := Ideal) X j = refSum
      (tap X j 0 0 (by omega) (by omega)) (tap X j 0 1 (by omega) (by omega)) (tap X j 0 2 (by omega) (by omega))
      (tap X j 1 0 (by omega) (by omega)) (tap X j 1 1 (by omega) (by omega)) (tap X j 1 2 (by omega) (by omega))
      (tap X j 2 0 (by omega) (by omega)) (tap X j 2 1 (by omega) (by omega)) (tap X j 2 2 (by omega) (by omega)) := rfl

/-- On an array of real entries the two-pass stencil is the nine-tap weighted sum. -/
theorem kern9_eq_ref9 (X : (⟨4, ![32, 512, 512, 32]⟩ : Shape).Idx → Ideal .f32) (hfin : ∀ i, ∃ r : ℝ, X i = ((r : ℝ) : EReal)) :
    Cert.Sten.kern9 (F := Ideal) X = Cert.Sten.ref9 (F := Ideal) X := by
  funext j
  -- every input of the window is one entry of the array, hence a real
  have htap : ∀ (d e : ℕ) (hd : d ≤ 2) (he : e ≤ 2), ∃ r : ℝ, tap X j d e hd he = ((r : ℝ) : EReal) :=
    fun d e hd he => hfin _
  obtain ⟨x00, h00⟩ := htap 0 0 (by omega) (by omega)
  obtain ⟨x01, h01⟩ := htap 0 1 (by omega) (by omega)
  obtain ⟨x02, h02⟩ := htap 0 2 (by omega) (by omega)
  obtain ⟨x10, h10⟩ := htap 1 0 (by omega) (by omega)
  obtain ⟨x11, h11⟩ := htap 1 1 (by omega) (by omega)
  obtain ⟨x12, h12⟩ := htap 1 2 (by omega) (by omega)
  obtain ⟨x20, h20⟩ := htap 2 0 (by omega) (by omega)
  obtain ⟨x21, h21⟩ := htap 2 1 (by omega) (by omega)
  obtain ⟨x22, h22⟩ := htap 2 2 (by omega) (by omega)
  rw [kern9_apply, ref9_apply, h00, h01, h02, h10, h11, h12, h20, h21, h22]
  exact two_pass_real x00 x01 x02 x10 x11 x12 x20 x21 x22

end Cert.Sten

end
-- ==== Proof.Finite.lean ====
/-
  Finiteness of the input from the precondition, at the exact instance.

  The precondition is the conjunction over all entries of `|x| < +∞`, written as a reduction by `and` over all
  four axes into a rank-0 result.  If the result is 1, every entry's comparison is 1.  Over the extended
  reals `|x| = max x (-x)` and the word of `+∞` denotes `⊤`: `max x (-x) < ⊤` fails at `⊤` and at `⊥`
  (whose negation is `⊤`), so the entry is a real.
-/
import proofs.«174384_j82789789597838_1_alg».proof.Pre_finite_inputs
import Idealize.ShloMosaic.Lib.ReduceAll
import Idealize.ShloMosaic.PureOps.Ideal
import Idealize.ShloMosaic.Lib.ValueIdx

noncomputable section

namespace Cert.Sten

open Idealize.ShloMosaic

/-- The word with exponent field all ones and significand zero denotes `+∞`. -/
theorem word_inf : Ideal.ofBits .f32 0x7F800000#32 = (⊤ : EReal) := by
  simp [Ideal.ofBits, Ideal.ieee]

/-- An extended real whose absolute value `max x (-x)` is below `⊤` is a real. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The rank-0 shape has one index. -/
instance : Subsingleton Cert.Pre_finite_inputs.S_.Idx := ⟨fun a b => funext fun d => d.elim0⟩

variable [Cert.Pre_finite_inputs.Facts]

/-- If the precondition holds of an array over the extended reals, every entry is a real. -/
theorem finite_of_pre (x : FVec Ideal Cert.Pre_finite_inputs.S32x512x512x32 .f32)
    (h : Cert.Pre_finite_inputs.fn (F := Ideal) x = fun _ => 1#1) : ∀ i, ∃ r : ℝ, x i = ((r : ℝ) : EReal) := by
  intro i
  have h0 := congrFun h ValueIdx.ix0
  dsimp only [Cert.Pre_finite_inputs.fn] at h0
  -- the entry's comparison is 1
  have hi := Host.reduce_andi_all _ _ _ _ _ h0 i
  -- which, read at the entry, is the strict order between the absolute value and the top element
  have hc : Ideal.cmp .olt (max (x i) (-(x i))) (Ideal.ofBits .f32 0x7F800000#32) = 1#1 := hi
  rw [word_inf] at hc
  have hlt : max (x i) (-(x i)) < (⊤ : EReal) := by
    by_contra hn
    -- were the order to fail, the comparison's word would be 0
    have hz : Ideal.cmp .olt (max (x i) (-(x i))) (⊤ : EReal) = 0#1 := by
      show BitVec.ofBool (decide (max (x i) (-(x i)) < (⊤ : EReal))) = 0#1
      rw [decide_eq_false hn]; rfl
    rw [hz] at hc
    exact absurd hc (by decide)
  exact real_of_abs_lt_top _ hlt

end Cert.Sten

end
-- ==== Proof.lean ====
/-
  The certificate of a separable 3×3 weighted downsample against its nine-gather reference.

  The input is x : f32[32, 512, 512, 32].  With the sampled row starts r_i (284 of them) and column starts c_j (205), the
  reference computes  out[b, i, j, z] = 0 + Σ_{di, dj ∈ {0,1,2}} k[di][dj] · x[b, r_i + di, c_j + dj, z]  with
  k = (1, 2, 1; 2, 4, 2; 1, 2, 1), the nine terms added one by one.  The kernel uses k = v vᵀ, v = (1, 2, 1): a first call
  computes t[b, i, y, z] = 1·x[b, r_i, y, z] + 2·x[b, r_i + 1, y, z] + 1·x[b, r_i + 2, y, z] for all 512 columns y, a second
  out[b, i, j, z] = 1·t[b, i, c_j, z] + 2·t[b, i, c_j + 1, z] + 1·t[b, i, c_j + 2, z].

  * Frames.  Each kernel call is a pipeline over a grid; its body is run once at symbolic operands (284, resp. 205, stores of
    one row, resp. column, each from three loads), and leaves in the output buffer the row, resp. column, stencil of the
    input buffer.  The second call's 64-row tiles reach past the 284 rows of the intermediate array: the fetch fills the rows
    inside the array, the stencil acts row by row, and the write-back writes the rows inside the array only, so nothing
    depends on what lies past the end.  The two calls are chained from the launch to the return; the argument is only read.
    The reference is a straight line of host operations.
  * Values at the ideal instance.  The first call's write-backs tile the intermediate array with blocks of the row stencil of
    x, the second's tile the result with blocks of the column stencil of that: the kernel's result is the column stencil of
    the row stencil of x.  The reference's gathers read x at the tabulated rows and columns (the tables are the closed forms
    r_i + di, c_j + dj; they stay below 512, so no index is clamped), and its result is the nine-term sum.
  * The law.  For finite inputs (the precondition: every entry is a real) both are the same real number:
    1·(1a + 2d + 1g) + 2·(1b + 2e + 1h) + 1·(1c + 2f + 1i) = 0 + 1a + 2b + 1c + 2d + 4e + 2f + 1g + 2h + 1i, by
    distributivity, which on the extended reals needs the finiteness.
  No operation of the kernel is rewritten by the idealization, so that conjunct is trivial.
-/
import proofs.«174384_j82789789597838_1_alg».proof.Defs
import proofs.«174384_j82789789597838_1_alg».proof.Proof.Gen.Kernel
import proofs.«174384_j82789789597838_1_alg».proof.Proof.Gen.KernelIdeal
import proofs.«174384_j82789789597838_1_alg».proof.Proof.Gen.ReferenceIdeal
import proofs.«174384_j82789789597838_1_alg».proof.Proof.Gen.Pre_finite_inputs
import proofs.«174384_j82789789597838_1_alg».proof.Proof.KRun
import proofs.«174384_j82789789597838_1_alg».proof.Proof.KBody0
import proofs.«174384_j82789789597838_1_alg».proof.Proof.KBody1
import proofs.«174384_j82789789597838_1_alg».proof.Proof.KIRun
import proofs.«174384_j82789789597838_1_alg».proof.Proof.KIBody0
import proofs.«174384_j82789789597838_1_alg».proof.Proof.KIBody1
import proofs.«174384_j82789789597838_1_alg».proof.Proof.KIValue0
import proofs.«174384_j82789789597838_1_alg».proof.Proof.KIValue1
import proofs.«174384_j82789789597838_1_alg».proof.Proof.RefRun
import proofs.«174384_j82789789597838_1_alg».proof.Proof.RefRead
import proofs.«174384_j82789789597838_1_alg».proof.Proof.Algebra
import proofs.«174384_j82789789597838_1_alg».proof.Proof.Finite

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel runs and leaves its argument as launched. -/
theorem frame_K : Cert.frame_Kernel := fun m ρ _ =>
  (θ_run Cert.Kernel.defs _ _).mono
    (fun r h c => (h c _ (Cert.Kernel.Hand.mem_uc Cert.Kernel.main_arg0 (by decide))).trans (Cert.Kernel.Hand.W4_main_arg0 m c))
    (Cert.Kernel.Hand.run_main (F := Bits) Cert.Kernel.Hand.sound_kernel0 Cert.Kernel.Hand.sound_kernel1 m ρ)

/-- The idealized kernel likewise. -/
theorem frame_KI : Cert.frame_KernelIdeal := fun m ρ _ =>
  (θ_run Cert.KernelIdeal.defs _ _).mono
    (fun r h c => (h c _ (Cert.KernelIdeal.Hand.mem_uc Cert.KernelIdeal.main_arg0 (by decide))).trans (Cert.KernelIdeal.Hand.W4_main_arg0 m c))
    (Cert.KernelIdeal.Hand.run_main (F := Ideal) Cert.KernelIdeal.Hand.sound_kernel0 Cert.KernelIdeal.Hand.sound_kernel1 m ρ)

/-- The reference's frame is its run with the result dropped. -/
theorem frame_RI : Cert.frame_ReferenceIdeal := fun m ρ _ =>
  (θ_run Cert.ReferenceIdeal.defs _ _).mono (fun _ h c => (h c).2) (Cert.ReferenceIdeal.Hand.run (F := Ideal) m ρ)

/-- At the ideal instance the kernel's result array is the column stencil of the row stencil of its argument. -/
theorem kernel_value (m : (ℓ : Loc Cert.KernelIdeal.nD Cert.KernelIdeal.τ Cert.KernelIdeal.sig) → Buf (Elt Ideal) ℓ) (c : Dev Cert.KernelIdeal.nD) :
    Cert.KernelIdeal.Hand.W4 m c (Proc.devRef .tc Cert.KernelIdeal.main_v1)
      = (Cert.Sten.kern9 (F := Ideal) (m ((c.tc : Thread Cert.KernelIdeal.nD Cert.KernelIdeal.τ).loc Cert.KernelIdeal.main_arg0)) : Vec Ideal Cert.KernelIdeal.S32x284x205x32 .f32) := by
  rw [Cert.KernelIdeal.Hand.W4_main_v1, Cert.KernelIdeal.Hand.final1, Cert.KernelIdeal.Hand.VB_main_v0, Cert.KernelIdeal.Hand.final0]

/-- Both idealized programs end with the nine-term sum of the argument: the kernel by the two stencils and the law (the
    inputs are real by the precondition), the reference by reading its gathers. -/
theorem algebraic : Cert.algebraic_KernelIdeal_ReferenceIdeal := by
  intro m ρ m' ρ' hpre hagree
  refine ⟨fun c => (Cert.Sten.ref9 (F := Ideal) (m ((c.tc : Thread Cert.KernelIdeal.nD Cert.KernelIdeal.τ).loc Cert.KernelIdeal.main_arg0)) : Vec Ideal Cert.KernelIdeal.S32x284x205x32 .f32), ?_, ?_⟩
  · refine (θ_run Cert.KernelIdeal.defs _ _).mono (fun r h c => ⟨?_, ?_⟩)
      (Cert.KernelIdeal.Hand.run_main (F := Ideal) Cert.KernelIdeal.Hand.sound_kernel0 Cert.KernelIdeal.Hand.sound_kernel1 m ρ)
    · refine (h c _ (Cert.KernelIdeal.Hand.mem_uc Cert.KernelIdeal.main_v1 (by decide))).trans ?_
      rw [kernel_value m c]
      exact Cert.Sten.kern9_eq_ref9 _ (Cert.Sten.finite_of_pre _ (hpre c))
    · exact (h c _ (Cert.KernelIdeal.Hand.mem_uc Cert.KernelIdeal.main_arg0 (by decide))).trans (Cert.KernelIdeal.Hand.W4_main_arg0 m c)
  · refine (θ_run Cert.ReferenceIdeal.defs _ _).mono (fun r h c => ⟨?_, (h c).2⟩) (Cert.ReferenceIdeal.Hand.run (F := Ideal) m' ρ')
    rw [(h c).1, Cert.ReferenceIdeal.Hand.refVal_eq, hagree c]

theorem claim : Cert.Claim :=
  ⟨Cert.Kernel.Gen.facts, Cert.KernelIdeal.Gen.facts, Cert.ReferenceIdeal.Gen.facts, Cert.Pre_finite_inputs.Gen.facts,
    frame_K, frame_KI, frame_RI, trivial, algebraic⟩

end Cert.Proof

end
